-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S1x64 : Shape := ⟨2, ![1, 64]⟩
abbrev S1x10 : Shape := ⟨2, ![1, 10]⟩
abbrev S512 : Shape := ⟨1, ![512]⟩
abbrev S512x1 : Shape := ⟨2, ![512, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S10000x1 : Shape := ⟨2, ![10000, 1]⟩
abbrev S512x10 : Shape := ⟨2, ![512, 10]⟩
abbrev S5000x64 : Shape := ⟨2, ![5000, 64]⟩
abbrev S5000x1 : Shape := ⟨2, ![5000, 1]⟩
abbrev S512x64 : Shape := ⟨2, ![512, 64]⟩
abbrev S1x512 : Shape := ⟨2, ![1, 512]⟩
abbrev S5000x512 : Shape := ⟨2, ![5000, 512]⟩

abbrev nBuf : Space → Nat
  | .hbm => 116
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S100000, .f32⟩
  | .hbm, ⟨45, _⟩ => ⟨S100000x1, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x10, .f32⟩
  | .hbm, ⟨50, _⟩ => ⟨S100000x1, .i32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S512, .f32⟩
  | .hbm, ⟨55, _⟩ => ⟨S100000x1, .i32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512x1, .f32⟩
  | .hbm, ⟨61, _⟩ => ⟨S100000x64, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x64, .f32⟩
  | .hbm, ⟨71, _⟩ => ⟨S3200000x1, .f32⟩
  | .hbm, ⟨72, _⟩ => ⟨S3200000x64, .f32⟩
  | .hbm, ⟨73, _⟩ => ⟨S3200000x64, .f32⟩
  | .hbm, ⟨74, _⟩ => ⟨S_, .f32⟩
  | .hbm, ⟨75, _⟩ => ⟨S100000x64, .f32⟩
  | .hbm, ⟨76, _⟩ => ⟨S3200000x1, .i32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .i32⟩
  | .hbm, ⟨81, _⟩ => ⟨S3200000, .i32⟩
  | .hbm, ⟨82, _⟩ => ⟨S3200000, .i1⟩
  | .hbm, ⟨83, _⟩ => ⟨S_, .i32⟩
  | .hbm, ⟨84, _⟩ => ⟨S3200000, .i32⟩
  | .hbm, ⟨85, _⟩ => ⟨S3200000, .i32⟩
  | .hbm, ⟨86, _⟩ => ⟨S3200000, .i32⟩
  | .hbm, ⟨87, _⟩ => ⟨S3200000x1, .i32⟩
  | .hbm, ⟨88, _⟩ => ⟨S3200000x64, .f32⟩
  | .hbm, ⟨89, _⟩ => ⟨S3200000x1, .f32⟩
  | .hbm, ⟨90, _⟩ => ⟨S3200000x64, .f32⟩
  | .hbm, ⟨91, _⟩ => ⟨S3200000x64, .f32⟩
  | .hbm, ⟨92, _⟩ => ⟨S_, .f32⟩
  | .hbm, ⟨93, _⟩ => ⟨S100000x64, .f32⟩
  | .hbm, ⟨94, _⟩ => ⟨S3200000x1, .i32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S3200000, .i32⟩
  | .hbm, ⟨100, _⟩ => ⟨S3200000, .i1⟩
  | .hbm, ⟨101, _⟩ => ⟨S_, .i32⟩
  | .hbm, ⟨102, _⟩ => ⟨S3200000, .i32⟩
  | .hbm, ⟨103, _⟩ => ⟨S3200000, .i32⟩
  | .hbm, ⟨104, _⟩ => ⟨S3200000, .i32⟩
  | .hbm, ⟨105, _⟩ => ⟨S3200000x1, .i32⟩
  | .hbm, ⟨106, _⟩ => ⟨S3200000x64, .f32⟩
  | .hbm, ⟨107, _⟩ => ⟨S3200000x1, .f32⟩
  | .hbm, ⟨108, _⟩ => ⟨S3200000x64, .f32⟩
  | .hbm, ⟨109, _⟩ => ⟨S3200000x64, .f32⟩
  | .hbm, ⟨110, _⟩ => ⟨S_, .f32⟩
  | .hbm, ⟨111, _⟩ => ⟨S100000x64, .f32⟩
  | .hbm, ⟨112, _⟩ => ⟨S3200000x1, .i32⟩
  | .hbm, ⟨113, _⟩ => ⟨S100000x64, .f32⟩
  | .hbm, ⟨114, _⟩ => ⟨S100000x64, .f32⟩
  | .hbm, ⟨115, _⟩ => ⟨S512x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .i32⟩
  | .local _ .vmem, ⟨45, _⟩ => ⟨S5000x1, .i32⟩
  | .local _ .vmem, ⟨46, _⟩ => ⟨S512x1, .f32⟩
  | .local _ .vmem, ⟨47, _⟩ => ⟨S64x10, .f32⟩
  | .local _ .vmem, ⟨48, _⟩ => ⟨S1x10, .f32⟩
  | .local _ .vmem, ⟨49, _⟩ => ⟨S512x10, .f32⟩
  | .local _ .vmem, ⟨50, _⟩ => ⟨S512x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_scratch0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_8 : BitVec 32 := 0#32
  let v23 : BitVec 1 := Scalar.cmpi .ne v22 c0_i32_8
  v23

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S64_S1x64 : S64.ShapeCasts S1x64
  shapeCasts_S10_S1x10 : S10.ShapeCasts S1x10
  bcast_S_S512 : S_.BroadcastsInDim S512 (![] : Fin 0 → Fin S512.rank)
  bcast_S100000_S100000x1_0 : S100000.BroadcastsInDim S100000x1 (![0] : Fin 1 → Fin S100000x1.rank)
  shapeCasts_S512_S512x1 : S512.ShapeCasts S512x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x64 : S512x1.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  scatter_S512_S100000x1_S100000_n_0_0_1_wf : ScatterDims.WF S512 S100000x1 S100000 [] [0] [0] 1
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S5000x512_S5000x64_S512x64_0_0_1_1_n_n_wf : DotDims.WF S5000x512 S5000x64 S512x64 [0] [0] [1] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x1.size a ≤ S512x1.size a
  hwx6_2 : ∀ i : grid6.Coords, EltTy.bits .f32 = 32 ∨ (Rect.block (s := S512x1) S512x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x10.size a ≤ S64x10.size a
  hwx6_3 : ∀ i : grid6.Coords, EltTy.bits .f32 = 32 ∨ (Rect.block (s := S64x10) S64x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x10.size a ≤ S512x10.size a
  hwx6_5 : ∀ i : grid6.Coords, EltTy.bits .f32 = 32 ∨ (Rect.block (s := S512x10) S512x10.size (cc6_transform_5 i) (hinb6_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v69) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v30) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v84) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v32) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v39) S512x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S64x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v31) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v85) S512x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S1x3200000, .i32⟩
  | 12 => ⟨S3200000, .i32⟩
  | 13 => ⟨S1x3200000, .i32⟩
  | 14 => ⟨S3200000, .i32⟩
  | 15 => ⟨S1x3200000, .i32⟩
  | 16 => ⟨S3200000, .i32⟩
  | 17 => ⟨S1x3200000, .i32⟩
  | 18 => ⟨S3200000, .i32⟩
  | 19 => ⟨S_, .f32⟩
  | 20 => ⟨S3200000, .f32⟩
  | 21 => ⟨S_, .f32⟩
  | 22 => ⟨S100000, .f32⟩
  | 23 => ⟨S3200000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S3200000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S3200000, .f32⟩
  | 48 => ⟨S100000, .f32⟩
  | 49 => ⟨S100000x64, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x64, .f32⟩
  | 59 => ⟨S3200000x1, .f32⟩
  | 60 => ⟨S3200000x64, .f32⟩
  | 61 => ⟨S3200000x64, .f32⟩
  | 62 => ⟨S_, .f32⟩
  | 63 => ⟨S100000x64, .f32⟩
  | 64 => ⟨S3200000x1, .i32⟩
  | 65 => ⟨S100000x64, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x64, .f32⟩
  | 86 => ⟨S3200000x1, .f32⟩
  | 87 => ⟨S3200000x64, .f32⟩
  | 88 => ⟨S3200000x64, .f32⟩
  | 89 => ⟨S_, .f32⟩
  | 90 => ⟨S100000x64, .f32⟩
  | 91 => ⟨S3200000x1, .i32⟩
  | 92 => ⟨S100000x64, .f32⟩
  | 93 => ⟨S100000x1, .f32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x64, .f32⟩
  | 113 => ⟨S3200000x1, .f32⟩
  | 114 => ⟨S3200000x64, .f32⟩
  | 115 => ⟨S3200000x64, .f32⟩
  | 116 => ⟨S_, .f32⟩
  | 117 => ⟨S100000x64, .f32⟩
  | 118 => ⟨S3200000x1, .i32⟩
  | 119 => ⟨S100000x64, .f32⟩
  | 120 => ⟨S100000x1, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S512x64, .f32⟩
  | 1 => ⟨S100000x1, .i32⟩
  | 2 => ⟨S512x64, .f32⟩
  | 3 => ⟨S_, .f32⟩
  | 4 => ⟨S100000, .f32⟩
  | 5 => ⟨S_, .f32⟩
  | 6 => ⟨S512, .f32⟩
  | 7 => ⟨S100000x1, .i32⟩
  | 8 => ⟨S512, .f32⟩
  | 9 => ⟨S_, .f32⟩
  | 10 => ⟨S512, .f32⟩
  | 11 => ⟨S512, .f32⟩
  | 12 => ⟨S512x1, .f32⟩
  | 13 => ⟨S512x64, .f32⟩
  | 14 => ⟨S512x64, .f32⟩
  | 15 => ⟨S512x10, .f32⟩
  | 16 => ⟨S1x10, .f32⟩
  | 17 => ⟨S512x10, .f32⟩
  | 18 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call0_cst : Ref sig .tc := ⟨.hbm, 73, rfl⟩
abbrev main_call0_v0 : Ref sig .tc := ⟨.hbm, 74, rfl⟩
abbrev main_v52 : Ref sig .tc := ⟨.hbm, 75, rfl⟩
abbrev main_v53 : Ref sig .tc := ⟨.hbm, 76, rfl⟩
abbrev main_c_8 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call1_cst : Ref sig .tc := ⟨.hbm, 100, rfl⟩
abbrev main_call1_v0 : Ref sig .tc := ⟨.hbm, 101, rfl⟩
abbrev main_v74 : Ref sig .tc := ⟨.hbm, 102, rfl⟩
abbrev main_v75 : Ref sig .tc := ⟨.hbm, 103, rfl⟩
abbrev main_c_11 : Ref sig .tc := ⟨.hbm, 104, rfl⟩
abbrev main_v76 : Ref sig .tc := ⟨.hbm, 105, rfl⟩
abbrev main_v77 : Ref sig .tc := ⟨.hbm, 106, rfl⟩
abbrev main_c_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_14 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_15 : Ref sig .tc := ⟨.hbm, 131, rfl⟩
abbrev main_v99 : Ref sig .tc := ⟨.hbm, 132, rfl⟩
abbrev main_cst_16 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_17 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KB.Lin0.lean ====
/- Region 0 of @main (custom_call 0, the dense transform of the first layer): the frame half.
   The body reads two whole staging buffers (the row block and the weight), multiplies them, and
   overwrites the whole output staging buffer with the product; nothing is carried from one grid
   point to the next.  Everything here is stated at an arbitrary valuation `V` of the core's
   buffers at the moment the region is entered, and at an arbitrary float family. -/
import proofs.«422502_j47175920779584_2_alg».proof.Proof.Gen.Kernel.Launch
import proofs.«422502_j47175920779584_2_alg».proof.Proof.Gen.Kernel.Skeleton
import proofs.«422502_j47175920779584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`, read off the array as the region finds it. -/
def lin0Blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two access rectangles: each is the whole buffer, offset zero -/

theorem lin0_zeros : (![0, 0] : Fin 2 → Nat) = fun _ => 0 := funext fun a => by fin_cases a <;> rfl

/-- the whole buffer of the row block -/
abbrev lin0RectIn : Rect S10000x128 := Rect.unit (s := S10000x128) ![0, 0] S10000x128.size inb_S10000x128_S10000x128_0_0

/-- the whole buffer of the weight -/
abbrev lin0RectW : Rect S128x64 := Rect.unit (s := S128x64) ![0, 0] S128x64.size inb_S128x64_S128x64_0_0

/-- the whole buffer of the product -/
abbrev lin0RectOut : Rect S10000x64 := Rect.unit (s := S10000x64) ![0, 0] S10000x64.size inb_S10000x64_S10000x64_0_0

/-- a load through the whole row-block buffer reads it -/
theorem lin0_ldIn (x0 : Vec F S10000x128 .f32) : View.ld x0 lin0RectIn = x0 :=
  View.ld_unit_zero (S := S10000x128) lin0_zeros inb_S10000x128_S10000x128_0_0 x0

/-- a load through the whole weight buffer reads it -/
theorem lin0_ldW (x1 : Vec F S128x64 .f32) : View.ld x1 lin0RectW = x1 :=
  View.ld_unit_zero (S := S128x64) lin0_zeros inb_S128x64_S128x64_0_0 x1

/-! ## What the body leaves in the output buffer -/

/-- The output staging buffer after the body, as a function of what the two input buffers read:
    one store over the whole buffer, whose payload is the product of the two whole-buffer loads. -/
def lin0Out (x0 : Vec F S10000x128 .f32) (x1 : Vec F S128x64 .f32) : Vec F S10000x64 .f32 :=
  View.canon [⟨lin0RectOut, k0_pay1 (View.ld x0 lin0RectIn) (View.ld x1 lin0RectW)⟩]

/-- A whole-buffer load reads the buffer, and a single whole-buffer store leaves its payload:
    the output buffer holds exactly the payload of the two input buffers. -/
theorem lin0Out_eq (x0 : Vec F S10000x128 .f32) (x1 : Vec F S128x64 .f32) : lin0Out x0 x1 = k0_pay1 x0 x1 := by
  unfold lin0Out
  rw [View.canon_unit_zero (S := S10000x64) lin0_zeros inb_S10000x64_S10000x64_0_0, lin0_ldIn, lin0_ldW]

/-- The single store reaches every index of the output buffer. -/
theorem lin0_cover (p : Vec F S10000x64 .f32) (y : S10000x64.Idx) :
    ∃ pc ∈ ([⟨lin0RectOut, p⟩] : List (View.Piece (Elt F) S10000x64 .f32)), y ∈ pc.1.set :=
  ⟨_, List.mem_singleton_self _, View.mem_set_unit_zero (S := S10000x64) lin0_zeros inb_S10000x64_S10000x64_0_0 y⟩

/-! ## The body on three whole staging buffers -/

set_option maxHeartbeats 1000000 in
/-- Run on whole buffers, the two inputs reading `x0` and `x1` and the output holding anything, the body ends with
    the inputs untouched and the output reading `lin0Out x0 x1`. -/
theorem lin0_kernel (c : Dev nD) (E : Set ℕ) (i : grid0.Coords)
    (a0 : Memref sig .tc .vmem S10000x128 .f32) (h0 : a0.IsWhole)
    (a1 : Memref sig .tc .vmem S128x64 .f32) (h1 : a1.IsWhole)
    (a2 : Memref sig .tc .vmem S10000x64 .f32) (h2 : a2.IsWhole)
    (x0 : Vec F S10000x128 .f32) (x1 : Vec F S128x64 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (lin0Out x0 x1)) -∗ K ⟨⟩))
      ⊢ wp frame (wpE (defs₀ (F := F)) Variants.none c none) E (cc0__matmul_kernel i a0 h0 a1 h1 a2 h2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (lin0_cover _)

/-! ## The proof data of the pipeline -/

/-- Arrays as the region finds them; after the body at point `t` the inputs' buffers still hold their blocks and
    the output's holds `lin0Out` of those blocks; the invariant is the one of a body that touches nothing but its
    windows; full shares; nothing owed. -/
def lin0Dat (c : Dev nD) : Dat τ (Elt F) Unit ℕ (UR sig nD τ) ℕ cfg0 c where
  A w := V c (Pipeline.arrRef spec0 w)
  after w t := match w with
    | ⟨0, _⟩ => lin0Blk V c 0 t
    | ⟨1, _⟩ => lin0Blk V c 1 t
    | ⟨2, _⟩ => lin0Out (lin0Blk V c 0 t) (lin0Blk V c 1 t)
  Φ _ := Pipeline.ΦA spec0 c
  q _ := fullShare
  owed _ := 0

theorem lin0Dat_A (c : Dev nD) (w : Fin cfg0.W) : (lin0Dat V c).A w = V c (Pipeline.arrRef spec0 w) := by
  dsimp only [lin0Dat]

theorem lin0Dat_after0 (c : Dev nD) (t : Fin cfg0.N) : (lin0Dat V c).after 0 t = lin0Blk V c 0 t := by dsimp only [lin0Dat]
theorem lin0Dat_after1 (c : Dev nD) (t : Fin cfg0.N) : (lin0Dat V c).after 1 t = lin0Blk V c 1 t := by dsimp only [lin0Dat]
theorem lin0Dat_after2 (c : Dev nD) (t : Fin cfg0.N) :
    (lin0Dat V c).after 2 t = lin0Out (lin0Blk V c 0 t) (lin0Blk V c 1 t) := by dsimp only [lin0Dat]

/-! ## What the body finds in the input buffers -/

/-- The row block's current staging buffer holds that block (it is fetched at every point; the general lemma covers it). -/
theorem lin0_before0 (c : Dev nD) (t : Fin cfg0.N) (d) : (lin0Dat V c).before 0 t d = lin0Blk V c 0 t :=
  ((lin0Dat V c).before_in_eq_fetched 0 rfl (fun _ => rfl) (fun _ _ _ => rfl)
      (fun t => by rw [lin0Dat_after0]; unfold Dat.blockOf lin0Blk; rw [lin0Dat_A]; try rfl) t d).trans
    (by unfold Dat.fetched Dat.blockOf lin0Blk; rw [lin0Dat_A]; try rfl)

/-- The weight is fetched at the first point only; its block index never moves, so its buffer holds the block at
    every point all the same. -/
theorem lin0_before1 (c : Dev nD) (t : Fin cfg0.N) (d) : (lin0Dat V c).before 1 t d = lin0Blk V c 1 t :=
  ((lin0Dat V c).before_in_eq_fetched 1 rfl (fun _ => rfl) (fun _ _ _ => rfl)
      (fun t => by rw [lin0Dat_after1]; unfold Dat.blockOf lin0Blk; rw [lin0Dat_A]; try rfl) t d).trans
    (by unfold Dat.fetched Dat.blockOf lin0Blk; rw [lin0Dat_A]; try rfl)

/-! ## The body obligation -/

/-- what the pipeline hands the body at point `t`, window by window -/
def lin0Pre (c : Dev nD) (t : Fin cfg0.N) : sProp 𝕄 :=
  iprop((lin0Dat V c).Φ t.castSucc ∗ (lin0Dat V c).owesAt () t.castSucc
    ∗ (∃ d, owns (c : Thread nD τ) (st0_0 t) fullShare ((lin0Dat V c).before 0 t d))
    ∗ (∃ d, owns (c : Thread nD τ) (st0_1 t) fullShare ((lin0Dat V c).before 1 t d))
    ∗ (∃ d, owns (c : Thread nD τ) (st0_2 t) fullShare ((lin0Dat V c).before 2 t d)))

/-- what the body hands back -/
def lin0Post (c : Dev nD) (t : Fin cfg0.N) : sProp 𝕄 :=
  iprop((lin0Dat V c).Φ t.succ ∗ (lin0Dat V c).owesAt () t.succ
    ∗ owns (c : Thread nD τ) (st0_0 t) fullShare ((lin0Dat V c).after 0 t)
    ∗ owns (c : Thread nD τ) (st0_1 t) fullShare ((lin0Dat V c).after 1 t)
    ∗ owns (c : Thread nD τ) (st0_2 t) fullShare ((lin0Dat V c).after 2 t))

/-- The body at any point: the invariant and the debt pass through untouched, the three windows go through
    `lin0_kernel`. -/
theorem lin0_sound (c : Dev nD) (t : Fin cfg0.N) :
    lin0Pre V c t ⊢ wp frame (wpE (defs₀ (F := F)) Variants.none c none) Set.univ (bodyAt0 t) (fun _ => lin0Post V c t) := by
  unfold lin0Pre lin0Post bodyAt0
  simp only [lin0_before0, lin0_before1]
  rw [show (lin0Dat V c).Φ t.succ = (lin0Dat V c).Φ t.castSucc from rfl,
    show (lin0Dat V c).owesAt () t.succ = (lin0Dat V c).owesAt () t.castSucc from rfl,
    lin0Dat_after0, lin0Dat_after1, lin0Dat_after2]
  iintro ⟨HΦ, Ho, ⟨%d0, H0⟩, ⟨%d1, H1⟩, ⟨%d2, H2⟩⟩
  iapply (lin0_kernel c Set.univ _ _ _ _ _ _ _ (lin0Blk V c 0 t) (lin0Blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation at every point. -/
theorem lin0_body (c : Dev nD) : BodyObligation (lin0Dat (F := F) V c) (defs₀ (F := F)) Variants.none () Set.univ := fun t => by
  rw [bigSep_W0, bigSep_W0]
  exact lin0_sound V c t

end Cert.Kernel.Hand

end
-- ==== Proof.KB.Comb1.lean ====
import proofs.«422502_j47175920779584_2_alg».proof.Proof.Gen.Kernel.Launch
import proofs.«422502_j47175920779584_2_alg».proof.Proof.Gen.Kernel.Skeleton
import proofs.«422502_j47175920779584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The first combine layer (custom_call 1) as a pipeline: what every window's staging buffer holds

The body of this call reads four whole staging buffers — the aggregated rows, the linear rows, the
self-normalisation column and the bias row — and overwrites a fifth with
`max (agg + lin * sn + bias, 0)`.  Nothing is carried from one grid point to the next, so the
pipeline's proof data are read straight off the arrays as the call finds them: an input buffer
holds its array's block of the point, the output buffer holds the payload of those four blocks.
Everything is stated at an arbitrary float model `F` and at arbitrary entry contents `V`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-! ## Blocks and the output's contents -/

/-- The block of window `w` that grid point `t` works on, cut out of the window's array at its entry contents. -/
def comb1Blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- What the body writes: the layer's payload `max (x0 + x1 * x2 + x3, 0)` of the four input blocks
    (`x2` a column, `x3` a row, both broadcast). -/
def comb1Out (x0 x1 : Vec F S10000x64 .f32) (x2 : Vec F S10000x1 .f32) (x3 : Vec F S1x64 .f32) :
    Vec F S10000x64 .f32 :=
  k1_pay1 x0 x1 x2 x3

theorem comb1Out_eq (x0 x1 : Vec F S10000x64 .f32) (x2 : Vec F S10000x1 .f32) (x3 : Vec F S1x64 .f32) :
    comb1Out x0 x1 x2 x3 = k1_pay1 x0 x1 x2 x3 := rfl

/-! ## The body on whole staging buffers -/

/-- The zero offsets, as the function the whole-buffer lemmas ask for. -/
theorem comb1_off0 : (![0, 0] : Fin 2 → Nat) = fun _ => 0 := funext fun a => by fin_cases a <;> rfl

set_option maxHeartbeats 1000000 in
/-- Run on five whole buffers, the four inputs at `x0 … x3` and the output at anything, the body returns the
    inputs untouched and the output at `comb1Out x0 x1 x2 x3`: four whole-buffer loads, a fifth of the output
    whose value is not used, and one store that covers the output buffer. -/
theorem comb1_triple (c : Dev nD) (E : Set ℕ) (i : grid1.Coords)
    (a0 : Memref sig .tc .vmem S10000x64 .f32) (h0 : a0.IsWhole)
    (a1 : Memref sig .tc .vmem S10000x64 .f32) (h1 : a1.IsWhole)
    (a2 : Memref sig .tc .vmem S10000x1 .f32) (h2 : a2.IsWhole)
    (a3 : Memref sig .tc .vmem S1x64 .f32) (h3 : a3.IsWhole)
    (a4 : Memref sig .tc .vmem S10000x64 .f32) (h4 : a4.IsWhole)
    (x0 x1 : Vec F S10000x64 .f32) (x2 : Vec F S10000x1 .f32) (x3 : Vec F S1x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (comb1Out x0 x1 x2 x3)) -∗ K ⟨⟩))
      ⊢ wp frame (wpE (defs₀ (F := F)) Variants.none c none) E
          (cc1__combine_kernel i a0 h0 a1 h1 a2 h2 a3 h3 a4 h4) K := by
  simp only [cc1__combine_kernel_eq_skeleton]; unfold cc1__combine_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the single store covers the buffer, so the buffer reads back as the stored payload;
  -- each whole-buffer load reads its buffer's contents
  rw [View.read_writes_eq_canon _ _ _
        (fun y => ⟨_, List.mem_singleton_self _, View.mem_set_unit_zero comb1_off0 inb_S10000x64_S10000x64_0_0 y⟩),
      View.canon_unit_zero comb1_off0]
  simp only [View.readAt_eq_ld, View.ld_unit_zero (S := S10000x64) comb1_off0,
    View.ld_unit_zero (S := S10000x1) comb1_off0, View.ld_unit_zero (S := S1x64) comb1_off0]
  unfold comb1Out
  rfl

/-! ## The pipeline's proof data -/

/-- The proof data on core `c`.  The windows' arrays are at their entry contents.  After the body at point
    `t` an input's buffer still holds its block and the output's holds the payload of the four input blocks.
    The body needs nothing but its five buffers: the invariant is the untouched rest, shares are full,
    nothing is owed. -/
def comb1Dat (c : Dev nD) : Dat τ (Elt F) Unit ℕ (UR sig nD τ) ℕ cfg1 c where
  A w := V c (Pipeline.arrRef spec1 w)
  after w t := match w with
    | ⟨0, _⟩ => comb1Blk V c 0 t
    | ⟨1, _⟩ => comb1Blk V c 1 t
    | ⟨2, _⟩ => comb1Blk V c 2 t
    | ⟨3, _⟩ => comb1Blk V c 3 t
    | ⟨4, _⟩ => comb1Out (comb1Blk V c 0 t) (comb1Blk V c 1 t) (comb1Blk V c 2 t) (comb1Blk V c 3 t)
  Φ _ := Pipeline.ΦA spec1 c
  q _ := fullShare
  owed _ := 0

theorem comb1Dat_A (c : Dev nD) (w : Fin cfg1.W) : (comb1Dat V c).A w = V c (Pipeline.arrRef spec1 w) := by
  dsimp only [comb1Dat]

theorem comb1Dat_after0 (c : Dev nD) (t : Fin cfg1.N) : (comb1Dat V c).after 0 t = comb1Blk V c 0 t := by
  dsimp only [comb1Dat]
theorem comb1Dat_after1 (c : Dev nD) (t : Fin cfg1.N) : (comb1Dat V c).after 1 t = comb1Blk V c 1 t := by
  dsimp only [comb1Dat]
theorem comb1Dat_after2 (c : Dev nD) (t : Fin cfg1.N) : (comb1Dat V c).after 2 t = comb1Blk V c 2 t := by
  dsimp only [comb1Dat]
theorem comb1Dat_after3 (c : Dev nD) (t : Fin cfg1.N) : (comb1Dat V c).after 3 t = comb1Blk V c 3 t := by
  dsimp only [comb1Dat]
theorem comb1Dat_after4 (c : Dev nD) (t : Fin cfg1.N) :
    (comb1Dat V c).after 4 t
      = comb1Out (comb1Blk V c 0 t) (comb1Blk V c 1 t) (comb1Blk V c 2 t) (comb1Blk V c 3 t) := by
  dsimp only [comb1Dat]

/-! ## What the body finds in the input buffers

An input's current buffer holds the block of the point whether or not the pipeline fetched it there: where it
did not, the block index has not moved since the last fetch and the body left the block in place.  This is what
covers the bias row, fetched at the first point only. -/

theorem comb1_finds0 (c : Dev nD) (t : Fin cfg1.N) (d) : (comb1Dat V c).before 0 t d = comb1Blk V c 0 t := by
  refine ((comb1Dat V c).before_in_eq_fetched 0 rfl (fun _ => rfl) (fun _ _ _ => rfl) (fun t => ?_) t d).trans ?_
  · rw [comb1Dat_after0]; unfold Dat.blockOf comb1Blk; rw [comb1Dat_A]; try rfl
  · unfold Dat.fetched Dat.blockOf comb1Blk; rw [comb1Dat_A]; try rfl

theorem comb1_finds1 (c : Dev nD) (t : Fin cfg1.N) (d) : (comb1Dat V c).before 1 t d = comb1Blk V c 1 t := by
  refine ((comb1Dat V c).before_in_eq_fetched 1 rfl (fun _ => rfl) (fun _ _ _ => rfl) (fun t => ?_) t d).trans ?_
  · rw [comb1Dat_after1]; unfold Dat.blockOf comb1Blk; rw [comb1Dat_A]; try rfl
  · unfold Dat.fetched Dat.blockOf comb1Blk; rw [comb1Dat_A]; try rfl

theorem comb1_finds2 (c : Dev nD) (t : Fin cfg1.N) (d) : (comb1Dat V c).before 2 t d = comb1Blk V c 2 t := by
  refine ((comb1Dat V c).before_in_eq_fetched 2 rfl (fun _ => rfl) (fun _ _ _ => rfl) (fun t => ?_) t d).trans ?_
  · rw [comb1Dat_after2]; unfold Dat.blockOf comb1Blk; rw [comb1Dat_A]; try rfl
  · unfold Dat.fetched Dat.blockOf comb1Blk; rw [comb1Dat_A]; try rfl

theorem comb1_finds3 (c : Dev nD) (t : Fin cfg1.N) (d) : (comb1Dat V c).before 3 t d = comb1Blk V c 3 t := by
  refine ((comb1Dat V c).before_in_eq_fetched 3 rfl (fun _ => rfl) (fun _ _ _ => rfl) (fun t => ?_) t d).trans ?_
  · rw [comb1Dat_after3]; unfold Dat.blockOf comb1Blk; rw [comb1Dat_A]; try rfl
  · unfold Dat.fetched Dat.blockOf comb1Blk; rw [comb1Dat_A]; try rfl

/-! ## The body obligation -/

/-- At any grid point: the four input buffers hold their blocks, so the triple applies with the output buffer at
    whatever it held; the invariant and the core's debts pass through unread. -/
theorem comb1_at (c : Dev nD) (t : Fin cfg1.N) :
    iprop((comb1Dat V c).Φ t.castSucc ∗ (comb1Dat V c).owesAt () t.castSucc
        ∗ (∃ d, owns (c : Thread nD τ) (st1_0 t) fullShare ((comb1Dat V c).before 0 t d))
        ∗ (∃ d, owns (c : Thread nD τ) (st1_1 t) fullShare ((comb1Dat V c).before 1 t d))
        ∗ (∃ d, owns (c : Thread nD τ) (st1_2 t) fullShare ((comb1Dat V c).before 2 t d))
        ∗ (∃ d, owns (c : Thread nD τ) (st1_3 t) fullShare ((comb1Dat V c).before 3 t d))
        ∗ (∃ d, owns (c : Thread nD τ) (st1_4 t) fullShare ((comb1Dat V c).before 4 t d)))
      ⊢ wp frame (wpE (defs₀ (F := F)) Variants.none c none) Set.univ (bodyAt1 t) (fun _ =>
          iprop((comb1Dat V c).Φ t.succ ∗ (comb1Dat V c).owesAt () t.succ
            ∗ owns (c : Thread nD τ) (st1_0 t) fullShare ((comb1Dat V c).after 0 t)
            ∗ owns (c : Thread nD τ) (st1_1 t) fullShare ((comb1Dat V c).after 1 t)
            ∗ owns (c : Thread nD τ) (st1_2 t) fullShare ((comb1Dat V c).after 2 t)
            ∗ owns (c : Thread nD τ) (st1_3 t) fullShare ((comb1Dat V c).after 3 t)
            ∗ owns (c : Thread nD τ) (st1_4 t) fullShare ((comb1Dat V c).after 4 t))) := by
  unfold bodyAt1
  simp only [comb1_finds0, comb1_finds1, comb1_finds2, comb1_finds3]
  rw [show (comb1Dat V c).Φ t.succ = (comb1Dat V c).Φ t.castSucc from rfl,
    show (comb1Dat V c).owesAt () t.succ = (comb1Dat V c).owesAt () t.castSucc from rfl,
    comb1Dat_after0, comb1Dat_after1, comb1Dat_after2, comb1Dat_after3, comb1Dat_after4]
  iintro ⟨HΦ, Ho, ⟨%d0, H0⟩, ⟨%d1, H1⟩, ⟨%d2, H2⟩, ⟨%d3, H3⟩, ⟨%d4, H4⟩⟩
  iapply (comb1_triple c Set.univ _ _ _ _ _ _ _ _ _ _ _
    (comb1Blk V c 0 t) (comb1Blk V c 1 t) (comb1Blk V c 2 t) (comb1Blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem comb1_body (c : Dev nD) :
    BodyObligation (comb1Dat (F := F) V c) (defs₀ (F := F)) Variants.none () Set.univ := fun t => by
  rw [bigSep_W1, bigSep_W1]
  exact comb1_at V c t

end Cert.Kernel.Hand
-- ==== Proof.KB.Lin2.lean ====
/- Region 2 of @main (custom_call 2, the dense transform of the second layer): the frame half.
   The body reads two whole staging buffers (the row block and the weight), multiplies them, and
   overwrites the whole output staging buffer with the product; nothing is carried from one grid
   point to the next.  Everything here is stated at an arbitrary valuation `V` of the core's
   buffers at the moment the region is entered, and at an arbitrary float family. -/
import proofs.«422502_j47175920779584_2_alg».proof.Proof.Gen.Kernel.Launch
import proofs.«422502_j47175920779584_2_alg».proof.Proof.Gen.Kernel.Skeleton
import proofs.«422502_j47175920779584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`, read off the array as the region finds it. -/
def lin2Blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two access rectangles: each is the whole buffer, offset zero -/

theorem lin2_zeros : (![0, 0] : Fin 2 → Nat) = fun _ => 0 := funext fun a => by fin_cases a <;> rfl

/-- the whole buffer of the row block -/
abbrev lin2RectIn : Rect S10000x64 := Rect.unit (s := S10000x64) ![0, 0] S10000x64.size inb_S10000x64_S10000x64_0_0

/-- the whole buffer of the weight -/
abbrev lin2RectW : Rect S64x64 := Rect.unit (s := S64x64) ![0, 0] S64x64.size inb_S64x64_S64x64_0_0

/-- the whole buffer of the product -/
abbrev lin2RectOut : Rect S10000x64 := Rect.unit (s := S10000x64) ![0, 0] S10000x64.size inb_S10000x64_S10000x64_0_0

/-- a load through the whole row-block buffer reads it -/
theorem lin2_ldIn (x0 : Vec F S10000x64 .f32) : View.ld x0 lin2RectIn = x0 :=
  View.ld_unit_zero (S := S10000x64) lin2_zeros inb_S10000x64_S10000x64_0_0 x0

/-- a load through the whole weight buffer reads it -/
theorem lin2_ldW (x1 : Vec F S64x64 .f32) : View.ld x1 lin2RectW = x1 :=
  View.ld_unit_zero (S := S64x64) lin2_zeros inb_S64x64_S64x64_0_0 x1

/-! ## What the body leaves in the output buffer -/

/-- The output staging buffer after the body, as a function of what the two input buffers read:
    one store over the whole buffer, whose payload is the product of the two whole-buffer loads. -/
def lin2Out (x0 : Vec F S10000x64 .f32) (x1 : Vec F S64x64 .f32) : Vec F S10000x64 .f32 :=
  View.canon [⟨lin2RectOut, k2_pay1 (View.ld x0 lin2RectIn) (View.ld x1 lin2RectW)⟩]

/-- A whole-buffer load reads the buffer, and a single whole-buffer store leaves its payload:
    the output buffer holds exactly the payload of the two input buffers. -/
theorem lin2Out_eq (x0 : Vec F S10000x64 .f32) (x1 : Vec F S64x64 .f32) : lin2Out x0 x1 = k2_pay1 x0 x1 := by
  unfold lin2Out
  rw [View.canon_unit_zero (S := S10000x64) lin2_zeros inb_S10000x64_S10000x64_0_0, lin2_ldIn, lin2_ldW]

/-- The single store reaches every index of the output buffer. -/
theorem lin2_cover (p : Vec F S10000x64 .f32) (y : S10000x64.Idx) :
    ∃ pc ∈ ([⟨lin2RectOut, p⟩] : List (View.Piece (Elt F) S10000x64 .f32)), y ∈ pc.1.set :=
  ⟨_, List.mem_singleton_self _, View.mem_set_unit_zero (S := S10000x64) lin2_zeros inb_S10000x64_S10000x64_0_0 y⟩

/-! ## The body on three whole staging buffers -/

set_option maxHeartbeats 1000000 in
/-- Run on whole buffers, the two inputs reading `x0` and `x1` and the output holding anything, the body ends with
    the inputs untouched and the output reading `lin2Out x0 x1`. -/
theorem lin2_kernel (c : Dev nD) (E : Set ℕ) (i : grid2.Coords)
    (a0 : Memref sig .tc .vmem S10000x64 .f32) (h0 : a0.IsWhole)
    (a1 : Memref sig .tc .vmem S64x64 .f32) (h1 : a1.IsWhole)
    (a2 : Memref sig .tc .vmem S10000x64 .f32) (h2 : a2.IsWhole)
    (x0 : Vec F S10000x64 .f32) (x1 : Vec F S64x64 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (lin2Out x0 x1)) -∗ K ⟨⟩))
      ⊢ wp frame (wpE (defs₀ (F := F)) Variants.none c none) E (cc2__matmul_kernel i a0 h0 a1 h1 a2 h2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (lin2_cover _)

/-! ## The proof data of the pipeline -/

/-- Arrays as the region finds them; after the body at point `t` the inputs' buffers still hold their blocks and
    the output's holds `lin2Out` of those blocks; the invariant is the one of a body that touches nothing but its
    windows; full shares; nothing owed. -/
def lin2Dat (c : Dev nD) : Dat τ (Elt F) Unit ℕ (UR sig nD τ) ℕ cfg2 c where
  A w := V c (Pipeline.arrRef spec2 w)
  after w t := match w with
    | ⟨0, _⟩ => lin2Blk V c 0 t
    | ⟨1, _⟩ => lin2Blk V c 1 t
    | ⟨2, _⟩ => lin2Out (lin2Blk V c 0 t) (lin2Blk V c 1 t)
  Φ _ := Pipeline.ΦA spec2 c
  q _ := fullShare
  owed _ := 0

theorem lin2Dat_A (c : Dev nD) (w : Fin cfg2.W) : (lin2Dat V c).A w = V c (Pipeline.arrRef spec2 w) := by
  dsimp only [lin2Dat]

theorem lin2Dat_after0 (c : Dev nD) (t : Fin cfg2.N) : (lin2Dat V c).after 0 t = lin2Blk V c 0 t := by dsimp only [lin2Dat]
theorem lin2Dat_after1 (c : Dev nD) (t : Fin cfg2.N) : (lin2Dat V c).after 1 t = lin2Blk V c 1 t := by dsimp only [lin2Dat]
theorem lin2Dat_after2 (c : Dev nD) (t : Fin cfg2.N) :
    (lin2Dat V c).after 2 t = lin2Out (lin2Blk V c 0 t) (lin2Blk V c 1 t) := by dsimp only [lin2Dat]

/-! ## What the body finds in the input buffers -/

/-- The row block's current staging buffer holds that block (it is fetched at every point; the general lemma covers it). -/
theorem lin2_before0 (c : Dev nD) (t : Fin cfg2.N) (d) : (lin2Dat V c).before 0 t d = lin2Blk V c 0 t :=
  ((lin2Dat V c).before_in_eq_fetched 0 rfl (fun _ => rfl) (fun _ _ _ => rfl)
      (fun t => by rw [lin2Dat_after0]; unfold Dat.blockOf lin2Blk; rw [lin2Dat_A]; try rfl) t d).trans
    (by unfold Dat.fetched Dat.blockOf lin2Blk; rw [lin2Dat_A]; try rfl)

/-- The weight is fetched at the first point only; its block index never moves, so its buffer holds the block at
    every point all the same. -/
theorem lin2_before1 (c : Dev nD) (t : Fin cfg2.N) (d) : (lin2Dat V c).before 1 t d = lin2Blk V c 1 t :=
  ((lin2Dat V c).before_in_eq_fetched 1 rfl (fun _ => rfl) (fun _ _ _ => rfl)
      (fun t => by rw [lin2Dat_after1]; unfold Dat.blockOf lin2Blk; rw [lin2Dat_A]; try rfl) t d).trans
    (by unfold Dat.fetched Dat.blockOf lin2Blk; rw [lin2Dat_A]; try rfl)

/-! ## The body obligation -/

/-- what the pipeline hands the body at point `t`, window by window -/
def lin2Pre (c : Dev nD) (t : Fin cfg2.N) : sProp 𝕄 :=
  iprop((lin2Dat V c).Φ t.castSucc ∗ (lin2Dat V c).owesAt () t.castSucc
    ∗ (∃ d, owns (c : Thread nD τ) (st2_0 t) fullShare ((lin2Dat V c).before 0 t d))
    ∗ (∃ d, owns (c : Thread nD τ) (st2_1 t) fullShare ((lin2Dat V c).before 1 t d))
    ∗ (∃ d, owns (c : Thread nD τ) (st2_2 t) fullShare ((lin2Dat V c).before 2 t d)))

/-- what the body hands back -/
def lin2Post (c : Dev nD) (t : Fin cfg2.N) : sProp 𝕄 :=
  iprop((lin2Dat V c).Φ t.succ ∗ (lin2Dat V c).owesAt () t.succ
    ∗ owns (c : Thread nD τ) (st2_0 t) fullShare ((lin2Dat V c).after 0 t)
    ∗ owns (c : Thread nD τ) (st2_1 t) fullShare ((lin2Dat V c).after 1 t)
    ∗ owns (c : Thread nD τ) (st2_2 t) fullShare ((lin2Dat V c).after 2 t))

/-- The body at any point: the invariant and the debt pass through untouched, the three windows go through
    `lin2_kernel`. -/
theorem lin2_sound (c : Dev nD) (t : Fin cfg2.N) :
    lin2Pre V c t ⊢ wp frame (wpE (defs₀ (F := F)) Variants.none c none) Set.univ (bodyAt2 t) (fun _ => lin2Post V c t) := by
  unfold lin2Pre lin2Post bodyAt2
  simp only [lin2_before0, lin2_before1]
  rw [show (lin2Dat V c).Φ t.succ = (lin2Dat V c).Φ t.castSucc from rfl,
    show (lin2Dat V c).owesAt () t.succ = (lin2Dat V c).owesAt () t.castSucc from rfl,
    lin2Dat_after0, lin2Dat_after1, lin2Dat_after2]
  iintro ⟨HΦ, Ho, ⟨%d0, H0⟩, ⟨%d1, H1⟩, ⟨%d2, H2⟩⟩
  iapply (lin2_kernel c Set.univ _ _ _ _ _ _ _ (lin2Blk V c 0 t) (lin2Blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation at every point. -/
theorem lin2_body (c : Dev nD) : BodyObligation (lin2Dat (F := F) V c) (defs₀ (F := F)) Variants.none () Set.univ := fun t => by
  rw [bigSep_W2, bigSep_W2]
  exact lin2_sound V c t

end Cert.Kernel.Hand

end
-- ==== Proof.KB.Comb3.lean ====
import proofs.«422502_j47175920779584_2_alg».proof.Proof.Gen.Kernel.Launch
import proofs.«422502_j47175920779584_2_alg».proof.Proof.Gen.Kernel.Skeleton
import proofs.«422502_j47175920779584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The second combine layer (custom_call 3) as a pipeline: what every window's staging buffer holds

The body of this call reads four whole staging buffers — the aggregated rows, the linear rows, the
self-normalisation column and the bias row — and overwrites a fifth with
`max (agg + lin * sn + bias, 0)`.  Nothing is carried from one grid point to the next, so the
pipeline's proof data are read straight off the arrays as the call finds them: an input buffer
holds its array's block of the point, the output buffer holds the payload of those four blocks.
Everything is stated at an arbitrary float model `F` and at arbitrary entry contents `V`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-! ## Blocks and the output's contents -/

/-- The block of window `w` that grid point `t` works on, cut out of the window's array at its entry contents. -/
def comb3Blk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- What the body writes: the layer's payload `max (x0 + x1 * x2 + x3, 0)` of the four input blocks
    (`x2` a column, `x3` a row, both broadcast). -/
def comb3Out (x0 x1 : Vec F S10000x64 .f32) (x2 : Vec F S10000x1 .f32) (x3 : Vec F S1x64 .f32) :
    Vec F S10000x64 .f32 :=
  k3_pay1 x0 x1 x2 x3

theorem comb3Out_eq (x0 x1 : Vec F S10000x64 .f32) (x2 : Vec F S10000x1 .f32) (x3 : Vec F S1x64 .f32) :
    comb3Out x0 x1 x2 x3 = k3_pay1 x0 x1 x2 x3 := rfl

/-! ## The body on whole staging buffers -/

/-- The zero offsets, as the function the whole-buffer lemmas ask for. -/
theorem comb3_off0 : (![0, 0] : Fin 2 → Nat) = fun _ => 0 := funext fun a => by fin_cases a <;> rfl

set_option maxHeartbeats 1000000 in
/-- Run on five whole buffers, the four inputs at `x0 … x3` and the output at anything, the body returns the
    inputs untouched and the output at `comb3Out x0 x1 x2 x3`: four whole-buffer loads, a fifth of the output
    whose value is not used, and one store that covers the output buffer. -/
theorem comb3_triple (c : Dev nD) (E : Set ℕ) (i : grid3.Coords)
    (a0 : Memref sig .tc .vmem S10000x64 .f32) (h0 : a0.IsWhole)
    (a1 : Memref sig .tc .vmem S10000x64 .f32) (h1 : a1.IsWhole)
    (a2 : Memref sig .tc .vmem S10000x1 .f32) (h2 : a2.IsWhole)
    (a3 : Memref sig .tc .vmem S1x64 .f32) (h3 : a3.IsWhole)
    (a4 : Memref sig .tc .vmem S10000x64 .f32) (h4 : a4.IsWhole)
    (x0 x1 : Vec F S10000x64 .f32) (x2 : Vec F S10000x1 .f32) (x3 : Vec F S1x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (comb3Out x0 x1 x2 x3)) -∗ K ⟨⟩))
      ⊢ wp frame (wpE (defs₀ (F := F)) Variants.none c none) E
          (cc3__combine_kernel i a0 h0 a1 h1 a2 h2 a3 h3 a4 h4) K := by
  simp only [cc3__combine_kernel_eq_skeleton]; unfold cc3__combine_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the single store covers the buffer, so the buffer reads back as the stored payload;
  -- each whole-buffer load reads its buffer's contents
  rw [View.read_writes_eq_canon _ _ _
        (fun y => ⟨_, List.mem_singleton_self _, View.mem_set_unit_zero comb3_off0 inb_S10000x64_S10000x64_0_0 y⟩),
      View.canon_unit_zero comb3_off0]
  simp only [View.readAt_eq_ld, View.ld_unit_zero (S := S10000x64) comb3_off0,
    View.ld_unit_zero (S := S10000x1) comb3_off0, View.ld_unit_zero (S := S1x64) comb3_off0]
  unfold comb3Out
  rfl

/-! ## The pipeline's proof data -/

/-- The proof data on core `c`.  The windows' arrays are at their entry contents.  After the body at point
    `t` an input's buffer still holds its block and the output's holds the payload of the four input blocks.
    The body needs nothing but its five buffers: the invariant is the untouched rest, shares are full,
    nothing is owed. -/
def comb3Dat (c : Dev nD) : Dat τ (Elt F) Unit ℕ (UR sig nD τ) ℕ cfg3 c where
  A w := V c (Pipeline.arrRef spec3 w)
  after w t := match w with
    | ⟨0, _⟩ => comb3Blk V c 0 t
    | ⟨1, _⟩ => comb3Blk V c 1 t
    | ⟨2, _⟩ => comb3Blk V c 2 t
    | ⟨3, _⟩ => comb3Blk V c 3 t
    | ⟨4, _⟩ => comb3Out (comb3Blk V c 0 t) (comb3Blk V c 1 t) (comb3Blk V c 2 t) (comb3Blk V c 3 t)
  Φ _ := Pipeline.ΦA spec3 c
  q _ := fullShare
  owed _ := 0

theorem comb3Dat_A (c : Dev nD) (w : Fin cfg3.W) : (comb3Dat V c).A w = V c (Pipeline.arrRef spec3 w) := by
  dsimp only [comb3Dat]

theorem comb3Dat_after0 (c : Dev nD) (t : Fin cfg3.N) : (comb3Dat V c).after 0 t = comb3Blk V c 0 t := by
  dsimp only [comb3Dat]
theorem comb3Dat_after1 (c : Dev nD) (t : Fin cfg3.N) : (comb3Dat V c).after 1 t = comb3Blk V c 1 t := by
  dsimp only [comb3Dat]
theorem comb3Dat_after2 (c : Dev nD) (t : Fin cfg3.N) : (comb3Dat V c).after 2 t = comb3Blk V c 2 t := by
  dsimp only [comb3Dat]
theorem comb3Dat_after3 (c : Dev nD) (t : Fin cfg3.N) : (comb3Dat V c).after 3 t = comb3Blk V c 3 t := by
  dsimp only [comb3Dat]
theorem comb3Dat_after4 (c : Dev nD) (t : Fin cfg3.N) :
    (comb3Dat V c).after 4 t
      = comb3Out (comb3Blk V c 0 t) (comb3Blk V c 1 t) (comb3Blk V c 2 t) (comb3Blk V c 3 t) := by
  dsimp only [comb3Dat]

/-! ## What the body finds in the input buffers

An input's current buffer holds the block of the point whether or not the pipeline fetched it there: where it
did not, the block index has not moved since the last fetch and the body left the block in place.  This is what
covers the bias row, fetched at the first point only. -/

theorem comb3_finds0 (c : Dev nD) (t : Fin cfg3.N) (d) : (comb3Dat V c).before 0 t d = comb3Blk V c 0 t := by
  refine ((comb3Dat V c).before_in_eq_fetched 0 rfl (fun _ => rfl) (fun _ _ _ => rfl) (fun t => ?_) t d).trans ?_
  · rw [comb3Dat_after0]; unfold Dat.blockOf comb3Blk; rw [comb3Dat_A]; try rfl
  · unfold Dat.fetched Dat.blockOf comb3Blk; rw [comb3Dat_A]; try rfl

theorem comb3_finds1 (c : Dev nD) (t : Fin cfg3.N) (d) : (comb3Dat V c).before 1 t d = comb3Blk V c 1 t := by
  refine ((comb3Dat V c).before_in_eq_fetched 1 rfl (fun _ => rfl) (fun _ _ _ => rfl) (fun t => ?_) t d).trans ?_
  · rw [comb3Dat_after1]; unfold Dat.blockOf comb3Blk; rw [comb3Dat_A]; try rfl
  · unfold Dat.fetched Dat.blockOf comb3Blk; rw [comb3Dat_A]; try rfl

theorem comb3_finds2 (c : Dev nD) (t : Fin cfg3.N) (d) : (comb3Dat V c).before 2 t d = comb3Blk V c 2 t := by
  refine ((comb3Dat V c).before_in_eq_fetched 2 rfl (fun _ => rfl) (fun _ _ _ => rfl) (fun t => ?_) t d).trans ?_
  · rw [comb3Dat_after2]; unfold Dat.blockOf comb3Blk; rw [comb3Dat_A]; try rfl
  · unfold Dat.fetched Dat.blockOf comb3Blk; rw [comb3Dat_A]; try rfl

theorem comb3_finds3 (c : Dev nD) (t : Fin cfg3.N) (d) : (comb3Dat V c).before 3 t d = comb3Blk V c 3 t := by
  refine ((comb3Dat V c).before_in_eq_fetched 3 rfl (fun _ => rfl) (fun _ _ _ => rfl) (fun t => ?_) t d).trans ?_
  · rw [comb3Dat_after3]; unfold Dat.blockOf comb3Blk; rw [comb3Dat_A]; try rfl
  · unfold Dat.fetched Dat.blockOf comb3Blk; rw [comb3Dat_A]; try rfl

/-! ## The body obligation -/

/-- At any grid point: the four input buffers hold their blocks, so the triple applies with the output buffer at
    whatever it held; the invariant and the core's debts pass through unread. -/
theorem comb3_at (c : Dev nD) (t : Fin cfg3.N) :
    iprop((comb3Dat V c).Φ t.castSucc ∗ (comb3Dat V c).owesAt () t.castSucc
        ∗ (∃ d, owns (c : Thread nD τ) (st3_0 t) fullShare ((comb3Dat V c).before 0 t d))
        ∗ (∃ d, owns (c : Thread nD τ) (st3_1 t) fullShare ((comb3Dat V c).before 1 t d))
        ∗ (∃ d, owns (c : Thread nD τ) (st3_2 t) fullShare ((comb3Dat V c).before 2 t d))
        ∗ (∃ d, owns (c : Thread nD τ) (st3_3 t) fullShare ((comb3Dat V c).before 3 t d))
        ∗ (∃ d, owns (c : Thread nD τ) (st3_4 t) fullShare ((comb3Dat V c).before 4 t d)))
      ⊢ wp frame (wpE (defs₀ (F := F)) Variants.none c none) Set.univ (bodyAt3 t) (fun _ =>
          iprop((comb3Dat V c).Φ t.succ ∗ (comb3Dat V c).owesAt () t.succ
            ∗ owns (c : Thread nD τ) (st3_0 t) fullShare ((comb3Dat V c).after 0 t)
            ∗ owns (c : Thread nD τ) (st3_1 t) fullShare ((comb3Dat V c).after 1 t)
            ∗ owns (c : Thread nD τ) (st3_2 t) fullShare ((comb3Dat V c).after 2 t)
            ∗ owns (c : Thread nD τ) (st3_3 t) fullShare ((comb3Dat V c).after 3 t)
            ∗ owns (c : Thread nD τ) (st3_4 t) fullShare ((comb3Dat V c).after 4 t))) := by
  unfold bodyAt3
  simp only [comb3_finds0, comb3_finds1, comb3_finds2, comb3_finds3]
  rw [show (comb3Dat V c).Φ t.succ = (comb3Dat V c).Φ t.castSucc from rfl,
    show (comb3Dat V c).owesAt () t.succ = (comb3Dat V c).owesAt () t.castSucc from rfl,
    comb3Dat_after0, comb3Dat_after1, comb3Dat_after2, comb3Dat_after3, comb3Dat_after4]
  iintro ⟨HΦ, Ho, ⟨%d0, H0⟩, ⟨%d1, H1⟩, ⟨%d2, H2⟩, ⟨%d3, H3⟩, ⟨%d4, H4⟩⟩
  iapply (comb3_triple c Set.univ _ _ _ _ _ _ _ _ _ _ _
    (comb3Blk V c 0 t) (comb3Blk V c 1 t) (comb3Blk V c 2 t) (comb3Blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem comb3_body (c : Dev nD) :
    BodyObligation (comb3Dat (F := F) V c) (defs₀ (F := F)) Variants.none () Set.univ := fun t => by
  rw [bigSep_W3, bigSep_W3]
  exact comb3_at V c t

end Cert.Kernel.Hand
-- ==== Proof.KB.Lin4.lean ====
/- Region 4 of @main (custom_call 4, the dense transform of the third layer): the frame half.
   The body reads two whole staging buffers (the row block and the weight), multiplies them, and
   overwrites the whole output staging buffer with the product; nothing is carried from one grid
   point to the next.  Everything here is stated at an arbitrary valuation `V` of the core's
   buffers at the moment the region is entered, and at an arbitrary float family. -/
import proofs.«422502_j47175920779584_2_alg».proof.Proof.Gen.Kernel.Launch
import proofs.«422502_j47175920779584_2_alg».proof.Proof.Gen.Kernel.Skeleton
import proofs.«422502_j47175920779584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`, read off the array as the region finds it. -/
def lin4Blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The two access rectangles: each is the whole buffer, offset zero -/

theorem lin4_zeros : (![0, 0] : Fin 2 → Nat) = fun _ => 0 := funext fun a => by fin_cases a <;> rfl

/-- the whole buffer of the row block -/
abbrev lin4RectIn : Rect S10000x64 := Rect.unit (s := S10000x64) ![0, 0] S10000x64.size inb_S10000x64_S10000x64_0_0

/-- the whole buffer of the weight -/
abbrev lin4RectW : Rect S64x64 := Rect.unit (s := S64x64) ![0, 0] S64x64.size inb_S64x64_S64x64_0_0

/-- the whole buffer of the product -/
abbrev lin4RectOut : Rect S10000x64 := Rect.unit (s := S10000x64) ![0, 0] S10000x64.size inb_S10000x64_S10000x64_0_0

/-- a load through the whole row-block buffer reads it -/
theorem lin4_ldIn (x0 : Vec F S10000x64 .f32) : View.ld x0 lin4RectIn = x0 :=
  View.ld_unit_zero (S := S10000x64) lin4_zeros inb_S10000x64_S10000x64_0_0 x0

/-- a load through the whole weight buffer reads it -/
theorem lin4_ldW (x1 : Vec F S64x64 .f32) : View.ld x1 lin4RectW = x1 :=
  View.ld_unit_zero (S := S64x64) lin4_zeros inb_S64x64_S64x64_0_0 x1

/-! ## What the body leaves in the output buffer -/

/-- The output staging buffer after the body, as a function of what the two input buffers read:
    one store over the whole buffer, whose payload is the product of the two whole-buffer loads. -/
def lin4Out (x0 : Vec F S10000x64 .f32) (x1 : Vec F S64x64 .f32) : Vec F S10000x64 .f32 :=
  View.canon [⟨lin4RectOut, k4_pay1 (View.ld x0 lin4RectIn) (View.ld x1 lin4RectW)⟩]

/-- A whole-buffer load reads the buffer, and a single whole-buffer store leaves its payload:
    the output buffer holds exactly the payload of the two input buffers. -/
theorem lin4Out_eq (x0 : Vec F S10000x64 .f32) (x1 : Vec F S64x64 .f32) : lin4Out x0 x1 = k4_pay1 x0 x1 := by
  unfold lin4Out
  rw [View.canon_unit_zero (S := S10000x64) lin4_zeros inb_S10000x64_S10000x64_0_0, lin4_ldIn, lin4_ldW]

/-- The single store reaches every index of the output buffer. -/
theorem lin4_cover (p : Vec F S10000x64 .f32) (y : S10000x64.Idx) :
    ∃ pc ∈ ([⟨lin4RectOut, p⟩] : List (View.Piece (Elt F) S10000x64 .f32)), y ∈ pc.1.set :=
  ⟨_, List.mem_singleton_self _, View.mem_set_unit_zero (S := S10000x64) lin4_zeros inb_S10000x64_S10000x64_0_0 y⟩

/-! ## The body on three whole staging buffers -/

set_option maxHeartbeats 1000000 in
/-- Run on whole buffers, the two inputs reading `x0` and `x1` and the output holding anything, the body ends with
    the inputs untouched and the output reading `lin4Out x0 x1`. -/
theorem lin4_kernel (c : Dev nD) (E : Set ℕ) (i : grid4.Coords)
    (a0 : Memref sig .tc .vmem S10000x64 .f32) (h0 : a0.IsWhole)
    (a1 : Memref sig .tc .vmem S64x64 .f32) (h1 : a1.IsWhole)
    (a2 : Memref sig .tc .vmem S10000x64 .f32) (h2 : a2.IsWhole)
    (x0 : Vec F S10000x64 .f32) (x1 : Vec F S64x64 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (lin4Out x0 x1)) -∗ K ⟨⟩))
      ⊢ wp frame (wpE (defs₀ (F := F)) Variants.none c none) E (cc4__matmul_kernel i a0 h0 a1 h1 a2 h2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (lin4_cover _)

/-! ## The proof data of the pipeline -/

/-- Arrays as the region finds them; after the body at point `t` the inputs' buffers still hold their blocks and
    the output's holds `lin4Out` of those blocks; the invariant is the one of a body that touches nothing but its
    windows; full shares; nothing owed. -/
def lin4Dat (c : Dev nD) : Dat τ (Elt F) Unit ℕ (UR sig nD τ) ℕ cfg4 c where
  A w := V c (Pipeline.arrRef spec4 w)
  after w t := match w with
    | ⟨0, _⟩ => lin4Blk V c 0 t
    | ⟨1, _⟩ => lin4Blk V c 1 t
    | ⟨2, _⟩ => lin4Out (lin4Blk V c 0 t) (lin4Blk V c 1 t)
  Φ _ := Pipeline.ΦA spec4 c
  q _ := fullShare
  owed _ := 0

theorem lin4Dat_A (c : Dev nD) (w : Fin cfg4.W) : (lin4Dat V c).A w = V c (Pipeline.arrRef spec4 w) := by
  dsimp only [lin4Dat]

theorem lin4Dat_after0 (c : Dev nD) (t : Fin cfg4.N) : (lin4Dat V c).after 0 t = lin4Blk V c 0 t := by dsimp only [lin4Dat]
theorem lin4Dat_after1 (c : Dev nD) (t : Fin cfg4.N) : (lin4Dat V c).after 1 t = lin4Blk V c 1 t := by dsimp only [lin4Dat]
theorem lin4Dat_after2 (c : Dev nD) (t : Fin cfg4.N) :
    (lin4Dat V c).after 2 t = lin4Out (lin4Blk V c 0 t) (lin4Blk V c 1 t) := by dsimp only [lin4Dat]

/-! ## What the body finds in the input buffers -/

/-- The row block's current staging buffer holds that block (it is fetched at every point; the general lemma covers it). -/
theorem lin4_before0 (c : Dev nD) (t : Fin cfg4.N) (d) : (lin4Dat V c).before 0 t d = lin4Blk V c 0 t :=
  ((lin4Dat V c).before_in_eq_fetched 0 rfl (fun _ => rfl) (fun _ _ _ => rfl)
      (fun t => by rw [lin4Dat_after0]; unfold Dat.blockOf lin4Blk; rw [lin4Dat_A]; try rfl) t d).trans
    (by unfold Dat.fetched Dat.blockOf lin4Blk; rw [lin4Dat_A]; try rfl)

/-- The weight is fetched at the first point only; its block index never moves, so its buffer holds the block at
    every point all the same. -/
theorem lin4_before1 (c : Dev nD) (t : Fin cfg4.N) (d) : (lin4Dat V c).before 1 t d = lin4Blk V c 1 t :=
  ((lin4Dat V c).before_in_eq_fetched 1 rfl (fun _ => rfl) (fun _ _ _ => rfl)
      (fun t => by rw [lin4Dat_after1]; unfold Dat.blockOf lin4Blk; rw [lin4Dat_A]; try rfl) t d).trans
    (by unfold Dat.fetched Dat.blockOf lin4Blk; rw [lin4Dat_A]; try rfl)

/-! ## The body obligation -/

/-- what the pipeline hands the body at point `t`, window by window -/
def lin4Pre (c : Dev nD) (t : Fin cfg4.N) : sProp 𝕄 :=
  iprop((lin4Dat V c).Φ t.castSucc ∗ (lin4Dat V c).owesAt () t.castSucc
    ∗ (∃ d, owns (c : Thread nD τ) (st4_0 t) fullShare ((lin4Dat V c).before 0 t d))
    ∗ (∃ d, owns (c : Thread nD τ) (st4_1 t) fullShare ((lin4Dat V c).before 1 t d))
    ∗ (∃ d, owns (c : Thread nD τ) (st4_2 t) fullShare ((lin4Dat V c).before 2 t d)))

/-- what the body hands back -/
def lin4Post (c : Dev nD) (t : Fin cfg4.N) : sProp 𝕄 :=
  iprop((lin4Dat V c).Φ t.succ ∗ (lin4Dat V c).owesAt () t.succ
    ∗ owns (c : Thread nD τ) (st4_0 t) fullShare ((lin4Dat V c).after 0 t)
    ∗ owns (c : Thread nD τ) (st4_1 t) fullShare ((lin4Dat V c).after 1 t)
    ∗ owns (c : Thread nD τ) (st4_2 t) fullShare ((lin4Dat V c).after 2 t))

/-- The body at any point: the invariant and the debt pass through untouched, the three windows go through
    `lin4_kernel`. -/
theorem lin4_sound (c : Dev nD) (t : Fin cfg4.N) :
    lin4Pre V c t ⊢ wp frame (wpE (defs₀ (F := F)) Variants.none c none) Set.univ (bodyAt4 t) (fun _ => lin4Post V c t) := by
  unfold lin4Pre lin4Post bodyAt4
  simp only [lin4_before0, lin4_before1]
  rw [show (lin4Dat V c).Φ t.succ = (lin4Dat V c).Φ t.castSucc from rfl,
    show (lin4Dat V c).owesAt () t.succ = (lin4Dat V c).owesAt () t.castSucc from rfl,
    lin4Dat_after0, lin4Dat_after1, lin4Dat_after2]
  iintro ⟨HΦ, Ho, ⟨%d0, H0⟩, ⟨%d1, H1⟩, ⟨%d2, H2⟩⟩
  iapply (lin4_kernel c Set.univ _ _ _ _ _ _ _ (lin4Blk V c 0 t) (lin4Blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation at every point. -/
theorem lin4_body (c : Dev nD) : BodyObligation (lin4Dat (F := F) V c) (defs₀ (F := F)) Variants.none () Set.univ := fun t => by
  rw [bigSep_W4, bigSep_W4]
  exact lin4_sound V c t

end Cert.Kernel.Hand

end
-- ==== Proof.KB.Comb5.lean ====
import proofs.«422502_j47175920779584_2_alg».proof.Proof.Gen.Kernel.Launch
import proofs.«422502_j47175920779584_2_alg».proof.Proof.Gen.Kernel.Skeleton
import proofs.«422502_j47175920779584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The third combine layer (custom_call 5) as a pipeline: what every window's staging buffer holds

The body of this call reads four whole staging buffers — the aggregated rows, the linear rows, the
self-normalisation column and the bias row — and overwrites a fifth with
`agg + lin * sn + bias`.  Nothing is carried from one grid point to the next, so the
pipeline's proof data are read straight off the arrays as the call finds them: an input buffer
holds its array's block of the point, the output buffer holds the payload of those four blocks.
Everything is stated at an arbitrary float model `F` and at arbitrary entry contents `V`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-! ## Blocks and the output's contents -/

/-- The block of window `w` that grid point `t` works on, cut out of the window's array at its entry contents. -/
def comb5Blk (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- What the body writes: the layer's payload `x0 + x1 * x2 + x3` of the four input blocks
    (`x2` a column, `x3` a row, both broadcast). -/
def comb5Out (x0 x1 : Vec F S10000x64 .f32) (x2 : Vec F S10000x1 .f32) (x3 : Vec F S1x64 .f32) :
    Vec F S10000x64 .f32 :=
  k5_pay1 x0 x1 x2 x3

theorem comb5Out_eq (x0 x1 : Vec F S10000x64 .f32) (x2 : Vec F S10000x1 .f32) (x3 : Vec F S1x64 .f32) :
    comb5Out x0 x1 x2 x3 = k5_pay1 x0 x1 x2 x3 := rfl

/-! ## The body on whole staging buffers -/

/-- The zero offsets, as the function the whole-buffer lemmas ask for. -/
theorem comb5_off0 : (![0, 0] : Fin 2 → Nat) = fun _ => 0 := funext fun a => by fin_cases a <;> rfl

set_option maxHeartbeats 1000000 in
/-- Run on five whole buffers, the four inputs at `x0 … x3` and the output at anything, the body returns the
    inputs untouched and the output at `comb5Out x0 x1 x2 x3`: four whole-buffer loads, a fifth of the output
    whose value is not used, and one store that covers the output buffer. -/
theorem comb5_triple (c : Dev nD) (E : Set ℕ) (i : grid5.Coords)
    (a0 : Memref sig .tc .vmem S10000x64 .f32) (h0 : a0.IsWhole)
    (a1 : Memref sig .tc .vmem S10000x64 .f32) (h1 : a1.IsWhole)
    (a2 : Memref sig .tc .vmem S10000x1 .f32) (h2 : a2.IsWhole)
    (a3 : Memref sig .tc .vmem S1x64 .f32) (h3 : a3.IsWhole)
    (a4 : Memref sig .tc .vmem S10000x64 .f32) (h4 : a4.IsWhole)
    (x0 x1 : Vec F S10000x64 .f32) (x2 : Vec F S10000x1 .f32) (x3 : Vec F S1x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (comb5Out x0 x1 x2 x3)) -∗ K ⟨⟩))
      ⊢ wp frame (wpE (defs₀ (F := F)) Variants.none c none) E
          (cc5__combine_kernel i a0 h0 a1 h1 a2 h2 a3 h3 a4 h4) K := by
  simp only [cc5__combine_kernel_eq_skeleton]; unfold cc5__combine_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the single store covers the buffer, so the buffer reads back as the stored payload;
  -- each whole-buffer load reads its buffer's contents
  rw [View.read_writes_eq_canon _ _ _
        (fun y => ⟨_, List.mem_singleton_self _, View.mem_set_unit_zero comb5_off0 inb_S10000x64_S10000x64_0_0 y⟩),
      View.canon_unit_zero comb5_off0]
  simp only [View.readAt_eq_ld, View.ld_unit_zero (S := S10000x64) comb5_off0,
    View.ld_unit_zero (S := S10000x1) comb5_off0, View.ld_unit_zero (S := S1x64) comb5_off0]
  unfold comb5Out
  rfl

/-! ## The pipeline's proof data -/

/-- The proof data on core `c`.  The windows' arrays are at their entry contents.  After the body at point
    `t` an input's buffer still holds its block and the output's holds the payload of the four input blocks.
    The body needs nothing but its five buffers: the invariant is the untouched rest, shares are full,
    nothing is owed. -/
def comb5Dat (c : Dev nD) : Dat τ (Elt F) Unit ℕ (UR sig nD τ) ℕ cfg5 c where
  A w := V c (Pipeline.arrRef spec5 w)
  after w t := match w with
    | ⟨0, _⟩ => comb5Blk V c 0 t
    | ⟨1, _⟩ => comb5Blk V c 1 t
    | ⟨2, _⟩ => comb5Blk V c 2 t
    | ⟨3, _⟩ => comb5Blk V c 3 t
    | ⟨4, _⟩ => comb5Out (comb5Blk V c 0 t) (comb5Blk V c 1 t) (comb5Blk V c 2 t) (comb5Blk V c 3 t)
  Φ _ := Pipeline.ΦA spec5 c
  q _ := fullShare
  owed _ := 0

theorem comb5Dat_A (c : Dev nD) (w : Fin cfg5.W) : (comb5Dat V c).A w = V c (Pipeline.arrRef spec5 w) := by
  dsimp only [comb5Dat]

theorem comb5Dat_after0 (c : Dev nD) (t : Fin cfg5.N) : (comb5Dat V c).after 0 t = comb5Blk V c 0 t := by
  dsimp only [comb5Dat]
theorem comb5Dat_after1 (c : Dev nD) (t : Fin cfg5.N) : (comb5Dat V c).after 1 t = comb5Blk V c 1 t := by
  dsimp only [comb5Dat]
theorem comb5Dat_after2 (c : Dev nD) (t : Fin cfg5.N) : (comb5Dat V c).after 2 t = comb5Blk V c 2 t := by
  dsimp only [comb5Dat]
theorem comb5Dat_after3 (c : Dev nD) (t : Fin cfg5.N) : (comb5Dat V c).after 3 t = comb5Blk V c 3 t := by
  dsimp only [comb5Dat]
theorem comb5Dat_after4 (c : Dev nD) (t : Fin cfg5.N) :
    (comb5Dat V c).after 4 t
      = comb5Out (comb5Blk V c 0 t) (comb5Blk V c 1 t) (comb5Blk V c 2 t) (comb5Blk V c 3 t) := by
  dsimp only [comb5Dat]

/-! ## What the body finds in the input buffers

An input's current buffer holds the block of the point whether or not the pipeline fetched it there: where it
did not, the block index has not moved since the last fetch and the body left the block in place.  This is what
covers the bias row, fetched at the first point only. -/

theorem comb5_finds0 (c : Dev nD) (t : Fin cfg5.N) (d) : (comb5Dat V c).before 0 t d = comb5Blk V c 0 t := by
  refine ((comb5Dat V c).before_in_eq_fetched 0 rfl (fun _ => rfl) (fun _ _ _ => rfl) (fun t => ?_) t d).trans ?_
  · rw [comb5Dat_after0]; unfold Dat.blockOf comb5Blk; rw [comb5Dat_A]; try rfl
  · unfold Dat.fetched Dat.blockOf comb5Blk; rw [comb5Dat_A]; try rfl

theorem comb5_finds1 (c : Dev nD) (t : Fin cfg5.N) (d) : (comb5Dat V c).before 1 t d = comb5Blk V c 1 t := by
  refine ((comb5Dat V c).before_in_eq_fetched 1 rfl (fun _ => rfl) (fun _ _ _ => rfl) (fun t => ?_) t d).trans ?_
  · rw [comb5Dat_after1]; unfold Dat.blockOf comb5Blk; rw [comb5Dat_A]; try rfl
  · unfold Dat.fetched Dat.blockOf comb5Blk; rw [comb5Dat_A]; try rfl

theorem comb5_finds2 (c : Dev nD) (t : Fin cfg5.N) (d) : (comb5Dat V c).before 2 t d = comb5Blk V c 2 t := by
  refine ((comb5Dat V c).before_in_eq_fetched 2 rfl (fun _ => rfl) (fun _ _ _ => rfl) (fun t => ?_) t d).trans ?_
  · rw [comb5Dat_after2]; unfold Dat.blockOf comb5Blk; rw [comb5Dat_A]; try rfl
  · unfold Dat.fetched Dat.blockOf comb5Blk; rw [comb5Dat_A]; try rfl

theorem comb5_finds3 (c : Dev nD) (t : Fin cfg5.N) (d) : (comb5Dat V c).before 3 t d = comb5Blk V c 3 t := by
  refine ((comb5Dat V c).before_in_eq_fetched 3 rfl (fun _ => rfl) (fun _ _ _ => rfl) (fun t => ?_) t d).trans ?_
  · rw [comb5Dat_after3]; unfold Dat.blockOf comb5Blk; rw [comb5Dat_A]; try rfl
  · unfold Dat.fetched Dat.blockOf comb5Blk; rw [comb5Dat_A]; try rfl

/-! ## The body obligation -/

/-- At any grid point: the four input buffers hold their blocks, so the triple applies with the output buffer at
    whatever it held; the invariant and the core's debts pass through unread. -/
theorem comb5_at (c : Dev nD) (t : Fin cfg5.N) :
    iprop((comb5Dat V c).Φ t.castSucc ∗ (comb5Dat V c).owesAt () t.castSucc
        ∗ (∃ d, owns (c : Thread nD τ) (st5_0 t) fullShare ((comb5Dat V c).before 0 t d))
        ∗ (∃ d, owns (c : Thread nD τ) (st5_1 t) fullShare ((comb5Dat V c).before 1 t d))
        ∗ (∃ d, owns (c : Thread nD τ) (st5_2 t) fullShare ((comb5Dat V c).before 2 t d))
        ∗ (∃ d, owns (c : Thread nD τ) (st5_3 t) fullShare ((comb5Dat V c).before 3 t d))
        ∗ (∃ d, owns (c : Thread nD τ) (st5_4 t) fullShare ((comb5Dat V c).before 4 t d)))
      ⊢ wp frame (wpE (defs₀ (F := F)) Variants.none c none) Set.univ (bodyAt5 t) (fun _ =>
          iprop((comb5Dat V c).Φ t.succ ∗ (comb5Dat V c).owesAt () t.succ
            ∗ owns (c : Thread nD τ) (st5_0 t) fullShare ((comb5Dat V c).after 0 t)
            ∗ owns (c : Thread nD τ) (st5_1 t) fullShare ((comb5Dat V c).after 1 t)
            ∗ owns (c : Thread nD τ) (st5_2 t) fullShare ((comb5Dat V c).after 2 t)
            ∗ owns (c : Thread nD τ) (st5_3 t) fullShare ((comb5Dat V c).after 3 t)
            ∗ owns (c : Thread nD τ) (st5_4 t) fullShare ((comb5Dat V c).after 4 t))) := by
  unfold bodyAt5
  simp only [comb5_finds0, comb5_finds1, comb5_finds2, comb5_finds3]
  rw [show (comb5Dat V c).Φ t.succ = (comb5Dat V c).Φ t.castSucc from rfl,
    show (comb5Dat V c).owesAt () t.succ = (comb5Dat V c).owesAt () t.castSucc from rfl,
    comb5Dat_after0, comb5Dat_after1, comb5Dat_after2, comb5Dat_after3, comb5Dat_after4]
  iintro ⟨HΦ, Ho, ⟨%d0, H0⟩, ⟨%d1, H1⟩, ⟨%d2, H2⟩, ⟨%d3, H3⟩, ⟨%d4, H4⟩⟩
  iapply (comb5_triple c Set.univ _ _ _ _ _ _ _ _ _ _ _
    (comb5Blk V c 0 t) (comb5Blk V c 1 t) (comb5Blk V c 2 t) (comb5Blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem comb5_body (c : Dev nD) :
    BodyObligation (comb5Dat (F := F) V c) (defs₀ (F := F)) Variants.none () Set.univ := fun t => by
  rw [bigSep_W5, bigSep_W5]
  exact comb5_at V c t

end Cert.Kernel.Hand
-- ==== Proof.KB.Pool6.lean ====
import proofs.«422502_j47175920779584_2_alg».proof.Proof.Gen.Kernel.Launch
import proofs.«422502_j47175920779584_2_alg».proof.Proof.Gen.Kernel.Skeleton
import proofs.«422502_j47175920779584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call (custom_call 6): mean over graphs, then the final linear layer

The grid walks the 20 row blocks of the node features. A 512x64 accumulator lives in a scratch buffer that
is carried from one grid point to the next: it is cleared at the first point, every point adds
(one-hot of the batch ids)^T . (feature block) to it, and the last point divides by the node counts, multiplies by
the weight and adds the bias into the output block, which no other point touches. -/

section Conds

/-- "This is the first grid point", as the body computes it from the grid coordinate. -/
abbrev isFirst6 (i : grid6.Coords) : Prop :=
  Scalar.cmpi .ne (Scalar.extui (Scalar.cmpi .eq (BitVec.ofNat 32 (i 0).val) 0#32)) 0#32 = 1#1

/-- "This is the last grid point", as the body computes it. -/
abbrev isLast6 (i : grid6.Coords) : Prop := k6_cond2 i = 1#1

theorem isFirst6_iff : ∀ t : Fin cfg6.N, isFirst6 (grid6.coords t) ↔ t.val % 20 = 0 :=
  (by decide +kernel : ∀ t : Fin grid6.N, isFirst6 (grid6.coords t) ↔ t.val % 20 = 0)

theorem isLast6_iff : ∀ t : Fin cfg6.N, isLast6 (grid6.coords t) ↔ t.val % 20 = 19 :=
  (by decide +kernel : ∀ t : Fin grid6.N, isLast6 (grid6.coords t) ↔ t.val % 20 = 19)

end Conds

section Triples

/-- A two-axis offset written ![0, 0] is the zero offset. -/
theorem off2_zero : (![0, 0] : Fin 2 → Nat) = fun _ => 0 := by
  funext a; fin_cases a <;> rfl

/-- A load through the rectangle that spans a whole buffer reads the buffer's contents. -/
theorem readAt_span {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After any stores, the last of which spans the whole buffer, the buffer reads as that last store's value. -/
theorem read_after_span {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- FIRST POINT. The accumulator, whatever it held, is cleared and then receives this block's contribution;
    the two streamed inputs are only read; nothing else is touched. -/
theorem pool6_first (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S512x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S512x10 .f32) (harg6 : arg6.IsWhole)
    (arg7 : Memref sig .tc .vmem S512x64 .f32) (harg7 : arg7.IsWhole)
    (h1 : isFirst6 i) (h2 : ¬ isLast6 i)
    (xh : Vec F S5000x64 .f32) (xb : Vec F S5000x1 .i32) (K : PUnit → sProp 𝕄) :
    iprop(owns (c : Thread nD τ) arg1 fullShare xh ∗ owns (c : Thread nD τ) arg2 fullShare xb
        ∗ (∃ s, owns (c : Thread nD τ) arg7 fullShare s)
        ∗ (iprop(owns (c : Thread nD τ) arg1 fullShare xh ∗ owns (c : Thread nD τ) arg2 fullShare xb
            ∗ owns (c : Thread nD τ) arg7 fullShare (k6_pay2 xb xh (k6_pay1 (F := F)))) -∗ K ⟨⟩))
      ⊢ wp frame (wpE (defs₀ (F := F)) Variants.none c none) E
          (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f1, %hf1, H1⟩, ⟨%f2, %hf2, H2⟩, ⟨%s, %fs, -, HS⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  refine (read_after_span _ _ off2_zero _ _ _).trans ?_
  rw [View.readCov_unit_zero _ off2_zero, readAt_span _ _ off2_zero, readAt_span _ _ off2_zero]

set_option maxHeartbeats 1000000 in
/-- A MIDDLE POINT. The accumulator at `s` receives this block's contribution; nothing else is touched. -/
theorem pool6_mid (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S512x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S512x10 .f32) (harg6 : arg6.IsWhole)
    (arg7 : Memref sig .tc .vmem S512x64 .f32) (harg7 : arg7.IsWhole)
    (h1 : ¬ isFirst6 i) (h2 : ¬ isLast6 i)
    (xh : Vec F S5000x64 .f32) (xb : Vec F S5000x1 .i32) (s : Vec F S512x64 .f32) (K : PUnit → sProp 𝕄) :
    iprop(owns (c : Thread nD τ) arg1 fullShare xh ∗ owns (c : Thread nD τ) arg2 fullShare xb
        ∗ owns (c : Thread nD τ) arg7 fullShare s
        ∗ (iprop(owns (c : Thread nD τ) arg1 fullShare xh ∗ owns (c : Thread nD τ) arg2 fullShare xb
            ∗ owns (c : Thread nD τ) arg7 fullShare (k6_pay2 xb xh s)) -∗ K ⟨⟩))
      ⊢ wp frame (wpE (defs₀ (F := F)) Variants.none c none) E
          (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f1, %hf1, H1⟩, ⟨%f2, %hf2, H2⟩, ⟨%fs, %hfs, HS⟩, Hk⟩
  subst hf1; subst hf2; subst hfs
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  refine (read_after_span _ _ off2_zero _ _ _).trans ?_
  rw [readAt_span _ _ off2_zero, readAt_span _ _ off2_zero, readAt_span _ _ off2_zero]

set_option maxHeartbeats 1000000 in
/-- LAST POINT. The accumulator at `s` receives this block's contribution, giving `s'`; the output block, whatever
    it held, is then overwritten with (s' / counts) . weight + bias. The three resident inputs are only read. -/
theorem pool6_last (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S512x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S512x10 .f32) (harg6 : arg6.IsWhole)
    (arg7 : Memref sig .tc .vmem S512x64 .f32) (harg7 : arg7.IsWhole)
    (h1 : ¬ isFirst6 i) (h2 : isLast6 i)
    (xh : Vec F S5000x64 .f32) (xb : Vec F S5000x1 .i32) (xc : Vec F S512x1 .f32) (xw : Vec F S64x10 .f32) (xo : Vec F S1x10 .f32)
    (s : Vec F S512x64 .f32) (K : PUnit → sProp 𝕄) :
    iprop(owns (c : Thread nD τ) arg1 fullShare xh ∗ owns (c : Thread nD τ) arg2 fullShare xb
        ∗ owns (c : Thread nD τ) arg3 fullShare xc ∗ owns (c : Thread nD τ) arg4 fullShare xw
        ∗ owns (c : Thread nD τ) arg5 fullShare xo ∗ (∃ d, owns (c : Thread nD τ) arg6 fullShare d)
        ∗ owns (c : Thread nD τ) arg7 fullShare s
        ∗ (iprop(owns (c : Thread nD τ) arg1 fullShare xh ∗ owns (c : Thread nD τ) arg2 fullShare xb
            ∗ owns (c : Thread nD τ) arg3 fullShare xc ∗ owns (c : Thread nD τ) arg4 fullShare xw
            ∗ owns (c : Thread nD τ) arg5 fullShare xo
            ∗ owns (c : Thread nD τ) arg6 fullShare (k6_pay3 (k6_pay2 xb xh s) xc xw xo)
            ∗ owns (c : Thread nD τ) arg7 fullShare (k6_pay2 xb xh s)) -∗ K ⟨⟩))
      ⊢ wp frame (wpE (defs₀ (F := F)) Variants.none c none) E
          (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf1; subst hf2; subst hf3; subst hf4; subst hf5; subst hfs
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    refine (read_after_span _ _ off2_zero _ _ _).trans ?_
    rw [View.readCov_unit_zero _ off2_zero, readAt_span _ _ off2_zero, readAt_span _ _ off2_zero, readAt_span _ _ off2_zero,
      readAt_span _ _ off2_zero, readAt_span _ _ off2_zero, readAt_span _ _ off2_zero]
  iexists _; isplitr
  swap; · iexact HS
  ipureintro
  sl_unfold_run_names
  refine (read_after_span _ _ off2_zero _ _ _).trans ?_
  rw [readAt_span _ _ off2_zero, readAt_span _ _ off2_zero, readAt_span _ _ off2_zero]

end Triples

section Region

-- the TensorCore's buffer contents when the pooling call is entered
variable (V : (c : Dev nD) → (b : Ref sig .tc) → Buf (Elt F) ((c : Thread nD τ).loc b))

/-! ## The blocks the call reads, the accumulator, the output -/

/-- Block `t` of window `w`, read off the window's array as the call finds it. -/
def pool6Blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The accumulator after the body at point `n`: the first point starts from the cleared value, each later point
    from what the point before left; every point adds its block's contribution. -/
def poolAcc (c : Dev nD) : (n : ℕ) → n < cfg6.N → Vec F S512x64 .f32
  | 0, h => k6_pay2 (pool6Blk V c 1 ⟨0, h⟩) (pool6Blk V c 0 ⟨0, h⟩) (k6_pay1 (F := F))
  | n + 1, h => k6_pay2 (pool6Blk V c 1 ⟨n + 1, h⟩) (pool6Blk V c 0 ⟨n + 1, h⟩) (poolAcc c n (Nat.lt_of_succ_lt h))

theorem poolAcc_zero (c : Dev nD) (h : 0 < cfg6.N) :
    poolAcc V c 0 h = k6_pay2 (pool6Blk V c 1 ⟨0, h⟩) (pool6Blk V c 0 ⟨0, h⟩) (k6_pay1 (F := F)) := by
  rw [poolAcc]

theorem poolAcc_succ (c : Dev nD) (n : ℕ) (h : n + 1 < cfg6.N) :
    poolAcc V c (n + 1) h
      = k6_pay2 (pool6Blk V c 1 ⟨n + 1, h⟩) (pool6Blk V c 0 ⟨n + 1, h⟩) (poolAcc V c n (Nat.lt_of_succ_lt h)) := by
  rw [poolAcc]

/-- The accumulator after the first point, stated at the point. -/
theorem poolAcc_at_first (c : Dev nD) (t : Fin cfg6.N) (h : t.val = 0) :
    poolAcc V c t.val t.isLt = k6_pay2 (pool6Blk V c 1 t) (pool6Blk V c 0 t) (k6_pay1 (F := F)) := by
  obtain ⟨n, hn⟩ := t
  cases n with
  | zero => exact poolAcc_zero V c hn
  | succ n => exact absurd h (Nat.succ_ne_zero n)

/-- The accumulator after a later point, stated at the point, over what the point before left. -/
theorem poolAcc_at_later (c : Dev nD) (t : Fin cfg6.N) (h : t.val ≠ 0) :
    poolAcc V c t.val t.isLt
      = k6_pay2 (pool6Blk V c 1 t) (pool6Blk V c 0 t)
          (poolAcc V c (t.val - 1) (Nat.lt_of_le_of_lt (Nat.sub_le _ _) t.isLt)) := by
  obtain ⟨n, hn⟩ := t
  cases n with
  | zero => exact absurd rfl h
  | succ n => exact poolAcc_succ V c n hn

/-- What the last point stores into the output block: the mean (accumulator over counts) through the final layer. -/
def pool6Out (c : Dev nD) (t : Fin cfg6.N) : Vec F S512x10 .f32 :=
  k6_pay3 (poolAcc V c t.val t.isLt) (pool6Blk V c 2 t) (pool6Blk V c 3 t) (pool6Blk V c 4 t)

/-! ## The invariant between grid points -/

/-- Before the first point: the call's scoped buffers at anything, and the generator register. After point `n`: the
    accumulator at `poolAcc … n`, every other scoped buffer at anything, and the generator register. -/
def pool6Phi (c : Dev nD) : (n : ℕ) → n ≤ cfg6.N → sProp 𝕄
  | 0, _ => Pipeline.ΦA spec6 c
  | n + 1, hn =>
    iprop(owns (c : Thread nD τ) (Memref.whole cc6_scratch0) fullShare (poolAcc V c n hn)
      ∗ Pipeline.scopedRestBut (Ix := Unit) (Name := ℕ) (U := UR sig nD τ) (Lvl := ℕ) (Val := Elt F) spec6 c [cc6_scratch0]
      ∗ (∃ r, prngReg c r))

theorem pool6Phi_zero (c : Dev nD) (n : ℕ) (h : n ≤ cfg6.N) (hz : n = 0) : pool6Phi V c n h = Pipeline.ΦA spec6 c := by
  subst hz; rfl

theorem pool6Phi_succ (c : Dev nD) (n : ℕ) (hn : n < cfg6.N) :
    pool6Phi V c (n + 1) hn
      = iprop(owns (c : Thread nD τ) (Memref.whole cc6_scratch0) fullShare (poolAcc V c n hn)
          ∗ Pipeline.scopedRestBut (Ix := Unit) (Name := ℕ) (U := UR sig nD τ) (Lvl := ℕ) (Val := Elt F) spec6 c [cc6_scratch0]
          ∗ (∃ r, prngReg c r)) := rfl

theorem pool6Phi_pos (c : Dev nD) (n : ℕ) (h : n ≤ cfg6.N) (hz : n ≠ 0) :
    pool6Phi V c n h
      = iprop(owns (c : Thread nD τ) (Memref.whole cc6_scratch0) fullShare (poolAcc V c (n - 1) (by omega))
          ∗ Pipeline.scopedRestBut (Ix := Unit) (Name := ℕ) (U := UR sig nD τ) (Lvl := ℕ) (Val := Elt F) spec6 c [cc6_scratch0]
          ∗ (∃ r, prngReg c r)) := by
  cases n with
  | zero => exact absurd rfl hz
  | succ n => rfl

/-- The entry invariant with the accumulator's buffer taken out of the scoped rest. -/
theorem PhiA6_open (c : Dev nD) :
    (Pipeline.ΦA spec6 c : sProp 𝕄)
      = iprop(iprop((∃ s, owns (c : Thread nD τ) (Memref.whole cc6_scratch0) fullShare s)
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [owns_whole]

/-! ## The proof data -/

/-- The call's proof data on core `c`: the arrays as the call finds them; after the body at point `t` every input's
    buffer at its block and the output's at `pool6Out` (consulted at the last point only: elsewhere the window is idle);
    the invariant `pool6Phi`; full shares; nothing owed. -/
def pool6Dat (c : Dev nD) : Dat τ (Elt F) Unit ℕ (UR sig nD τ) ℕ cfg6 c where
  A w := V c (Pipeline.arrRef spec6 w)
  after w t := match w with
    | ⟨0, _⟩ => pool6Blk V c 0 t
    | ⟨1, _⟩ => pool6Blk V c 1 t
    | ⟨2, _⟩ => pool6Blk V c 2 t
    | ⟨3, _⟩ => pool6Blk V c 3 t
    | ⟨4, _⟩ => pool6Blk V c 4 t
    | ⟨5, _⟩ => pool6Out V c t
  Φ t := pool6Phi V c t.val (Nat.le_of_lt_succ t.isLt)
  q _ := fullShare
  owed _ := 0

theorem pool6Dat_A (c : Dev nD) (w : Fin cfg6.W) : (pool6Dat V c).A w = V c (Pipeline.arrRef spec6 w) := by
  dsimp only [pool6Dat]

theorem pool6Dat_after0 (c : Dev nD) (t : Fin cfg6.N) : (pool6Dat V c).after 0 t = pool6Blk V c 0 t := by dsimp only [pool6Dat]
theorem pool6Dat_after1 (c : Dev nD) (t : Fin cfg6.N) : (pool6Dat V c).after 1 t = pool6Blk V c 1 t := by dsimp only [pool6Dat]
theorem pool6Dat_after2 (c : Dev nD) (t : Fin cfg6.N) : (pool6Dat V c).after 2 t = pool6Blk V c 2 t := by dsimp only [pool6Dat]
theorem pool6Dat_after3 (c : Dev nD) (t : Fin cfg6.N) : (pool6Dat V c).after 3 t = pool6Blk V c 3 t := by dsimp only [pool6Dat]
theorem pool6Dat_after4 (c : Dev nD) (t : Fin cfg6.N) : (pool6Dat V c).after 4 t = pool6Blk V c 4 t := by dsimp only [pool6Dat]
theorem pool6Dat_after5 (c : Dev nD) (t : Fin cfg6.N) : (pool6Dat V c).after 5 t = pool6Out V c t := by dsimp only [pool6Dat]

theorem pool6Dat_Phi_start (c : Dev nD) (t : Fin cfg6.N) :
    (pool6Dat V c).Φ t.castSucc = pool6Phi V c t.val (Nat.le_of_lt t.isLt) := by
  dsimp only [pool6Dat]; simp only [Fin.coe_castSucc]

/-! ## What each input's staging buffer holds when the body runs

An input that the body leaves in place holds its block at every point, whether the pipeline fetched it there or not
(unfetched, the block index has not moved): this covers the three resident inputs fetched at the first point only. -/

theorem pool6_before0 (c : Dev nD) (t : Fin cfg6.N) (d) : (pool6Dat V c).before 0 t d = pool6Blk V c 0 t :=
  ((pool6Dat V c).before_in_eq_fetched 0 rfl (fun _ => rfl) (fun _ _ _ => rfl)
    (fun t => by rw [pool6Dat_after0]; unfold Dat.blockOf pool6Blk; rw [pool6Dat_A]; try rfl) t d).trans
    (by unfold Dat.fetched Dat.blockOf pool6Blk; rw [pool6Dat_A]; try rfl)

theorem pool6_before1 (c : Dev nD) (t : Fin cfg6.N) (d) : (pool6Dat V c).before 1 t d = pool6Blk V c 1 t :=
  ((pool6Dat V c).before_in_eq_fetched 1 rfl (fun _ => rfl) (fun _ _ _ => rfl)
    (fun t => by rw [pool6Dat_after1]; unfold Dat.blockOf pool6Blk; rw [pool6Dat_A]; try rfl) t d).trans
    (by unfold Dat.fetched Dat.blockOf pool6Blk; rw [pool6Dat_A]; try rfl)

theorem pool6_before2 (c : Dev nD) (t : Fin cfg6.N) (d) : (pool6Dat V c).before 2 t d = pool6Blk V c 2 t :=
  ((pool6Dat V c).before_in_eq_fetched 2 rfl (fun _ => rfl) (fun _ _ _ => rfl)
    (fun t => by rw [pool6Dat_after2]; unfold Dat.blockOf pool6Blk; rw [pool6Dat_A]; try rfl) t d).trans
    (by unfold Dat.fetched Dat.blockOf pool6Blk; rw [pool6Dat_A]; try rfl)

theorem pool6_before3 (c : Dev nD) (t : Fin cfg6.N) (d) : (pool6Dat V c).before 3 t d = pool6Blk V c 3 t :=
  ((pool6Dat V c).before_in_eq_fetched 3 rfl (fun _ => rfl) (fun _ _ _ => rfl)
    (fun t => by rw [pool6Dat_after3]; unfold Dat.blockOf pool6Blk; rw [pool6Dat_A]; try rfl) t d).trans
    (by unfold Dat.fetched Dat.blockOf pool6Blk; rw [pool6Dat_A]; try rfl)

theorem pool6_before4 (c : Dev nD) (t : Fin cfg6.N) (d) : (pool6Dat V c).before 4 t d = pool6Blk V c 4 t :=
  ((pool6Dat V c).before_in_eq_fetched 4 rfl (fun _ => rfl) (fun _ _ _ => rfl)
    (fun t => by rw [pool6Dat_after4]; unfold Dat.blockOf pool6Blk; rw [pool6Dat_A]; try rfl) t d).trans
    (by unfold Dat.fetched Dat.blockOf pool6Blk; rw [pool6Dat_A]; try rfl)

/-! ## Where the output window is idle -/

/-- Away from the last point the configuration calls the output idle, -/
theorem pool6_idle5 : ∀ t : Fin cfg6.N, ¬ isLast6 (grid6.coords t) → cfg6.idle 5 (grid6.coords t) = true := by decide +kernel
/-- and at the last point live. -/
theorem pool6_live5 : ∀ t : Fin cfg6.N, isLast6 (grid6.coords t) → cfg6.idle 5 (grid6.coords t) = false := by decide +kernel

/-- A window live at a point is handed back at what the body leaves. -/
theorem pool6_leaves_live (c : Dev nD) (w : Fin cfg6.W) (t : Fin cfg6.N) (h : cfg6.idle w (cfg6.grid.coords t) = false) :
    (pool6Dat V c).leavesExact w t
      = owns (c : Thread nD τ) ((cfg6.win w).stage (cfg6.slots t w)) fullShare ((pool6Dat V c).after w t) := by
  unfold Dat.leavesExact; rw [h]

/-! ## The body obligation -/

/-- What the body is called with at point `t`, window by window, -/
def pool6Pre (c : Dev nD) (t : Fin cfg6.N) : sProp 𝕄 :=
  iprop((pool6Dat V c).Φ t.castSucc ∗ (pool6Dat V c).owesAt () t.castSucc
    ∗ (∃ d, owns (c : Thread nD τ) (st6_0 t) fullShare ((pool6Dat V c).before 0 t d))
    ∗ (∃ d, owns (c : Thread nD τ) (st6_1 t) fullShare ((pool6Dat V c).before 1 t d))
    ∗ (∃ d, owns (c : Thread nD τ) (st6_2 t) fullShare ((pool6Dat V c).before 2 t d))
    ∗ (∃ d, owns (c : Thread nD τ) (st6_3 t) fullShare ((pool6Dat V c).before 3 t d))
    ∗ (∃ d, owns (c : Thread nD τ) (st6_4 t) fullShare ((pool6Dat V c).before 4 t d))
    ∗ (∃ d, owns (c : Thread nD τ) (st6_5 t) fullShare ((pool6Dat V c).before 5 t d)))

/-- and what it hands back. -/
def pool6Post (c : Dev nD) (t : Fin cfg6.N) : sProp 𝕄 :=
  iprop((pool6Dat V c).Φ t.succ ∗ (pool6Dat V c).owesAt () t.succ
    ∗ (pool6Dat V c).leavesExact 0 t
    ∗ (pool6Dat V c).leavesExact 1 t
    ∗ (pool6Dat V c).leavesExact 2 t
    ∗ (pool6Dat V c).leavesExact 3 t
    ∗ (pool6Dat V c).leavesExact 4 t
    ∗ (pool6Dat V c).leavesExact 5 t)

/-- Away from the last point the pipeline does not write the output block back. -/
theorem pool6_noflush5 (t : Fin cfg6.N) (h : ¬ isLast6 (grid6.coords t)) : (cfg6.win 5).flush t = false :=
  Bool.eq_false_iff.mpr fun hf => h ((isLast6_iff t).mpr ((flush6_5 t).mp hf))

set_option maxHeartbeats 4000000 in
/-- The body at any point. The inputs' buffers hold their blocks; the point's position decides which of the three
    runs applies; the invariant hands the body the accumulator (at anything before the first point, afterwards at what
    the point before left) and takes it back at this point's value; the output's buffer passes through untouched
    except at the last point, where it is overwritten; what the core owes passes through. -/
theorem pool6_sound (c : Dev nD) (t : Fin cfg6.N) :
    pool6Pre V c t ⊢ wp frame (wpE (defs₀ (F := F)) Variants.none c none) Set.univ (bodyAt6 t) (fun _ => pool6Post V c t) := by
  unfold pool6Pre pool6Post bodyAt6
  simp only [pool6_before0, pool6_before1, pool6_before2, pool6_before3, pool6_before4]
  rw [show (pool6Dat V c).owesAt () t.succ = (pool6Dat V c).owesAt () t.castSucc from rfl]
  rw [show (pool6Dat V c).Φ t.succ = pool6Phi V c (t.val + 1) t.isLt from rfl, pool6Phi_succ]
  rw [pool6_leaves_live V c 0 t rfl, pool6_leaves_live V c 1 t rfl, pool6_leaves_live V c 2 t rfl,
    pool6_leaves_live V c 3 t rfl, pool6_leaves_live V c 4 t rfl,
    pool6Dat_after0, pool6Dat_after1, pool6Dat_after2, pool6Dat_after3, pool6Dat_after4]
  have hN : t.val < 20 := lt_of_lt_of_eq t.isLt (show cfg6.N = 20 from N_6)
  by_cases hz : t.val = 0
  · -- the first point
    have hf : isFirst6 (grid6.coords t) := (isFirst6_iff t).mpr (by omega)
    have hl : ¬ isLast6 (grid6.coords t) := fun h => by have := (isLast6_iff t).mp h; omega
    rw [Dat.leavesExact_idle (pool6Dat V c) 5 t (pool6_idle5 t hl) (pool6_noflush5 t hl)]
    rw [poolAcc_at_first V c t hz]
    rw [pool6Dat_Phi_start V c t, pool6Phi_zero V c _ _ hz, PhiA6_open]
    iintro ⟨⟨⟨HS, HR⟩, Hg⟩, Ho, ⟨%d0, H0⟩, ⟨%d1, H1⟩, ⟨%d2, H2⟩, ⟨%d3, H3⟩, ⟨%d4, H4⟩, H5⟩
    iapply (pool6_first c Set.univ (grid6.coords t) _ _ _ _ _ _ _ _ _ _ _ _ _ _ hf hl (pool6Blk V c 0 t) (pool6Blk V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h19 : t.val = 19
    · -- the last point
      have hf : ¬ isFirst6 (grid6.coords t) := fun h => by have := (isFirst6_iff t).mp h; omega
      have hl : isLast6 (grid6.coords t) := (isLast6_iff t).mpr (by omega)
      rw [pool6_leaves_live V c 5 t (pool6_live5 t hl), pool6Dat_after5]
      unfold pool6Out
      rw [poolAcc_at_later V c t hz]
      rw [pool6Dat_Phi_start V c t, pool6Phi_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (pool6_last c Set.univ (grid6.coords t) _ _ _ _ _ _ _ _ _ _ _ _ _ _ hf hl (pool6Blk V c 0 t) (pool6Blk V c 1 t)
        (pool6Blk V c 2 t) (pool6Blk V c 3 t) (pool6Blk V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      have hf : ¬ isFirst6 (grid6.coords t) := fun h => by have := (isFirst6_iff t).mp h; omega
      have hl : ¬ isLast6 (grid6.coords t) := fun h => by have := (isLast6_iff t).mp h; omega
      rw [Dat.leavesExact_idle (pool6Dat V c) 5 t (pool6_idle5 t hl) (pool6_noflush5 t hl)]
      rw [poolAcc_at_later V c t hz]
      rw [pool6Dat_Phi_start V c t, pool6Phi_pos V c _ _ hz]
      iintro ⟨⟨HS, HR, Hg⟩, Ho, ⟨%d0, H0⟩, ⟨%d1, H1⟩, ⟨%d2, H2⟩, ⟨%d3, H3⟩, ⟨%d4, H4⟩, H5⟩
      iapply (pool6_mid c Set.univ (grid6.coords t) _ _ _ _ _ _ _ _ _ _ _ _ _ _ hf hl (pool6Blk V c 0 t) (pool6Blk V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation for the pooling call, at every point. -/
theorem pool6_body (c : Dev nD) : BodyObligation (pool6Dat (F := F) V c) (defs₀ (F := F)) Variants.none () Set.univ := fun t => by
  rw [bigSep_W6, bigSep_W6]
  exact pool6_sound V c t

/-! ## Entering and leaving the call -/

theorem pool6_hin (c : Dev nD) : Pipeline.ΦA spec6 c ⊢ (pool6Dat V c).Φ 0 := by
  rw [show (pool6Dat V c).Φ 0 = pool6Phi V c 0 (Nat.zero_le _) from rfl, pool6Phi_zero V c 0 _ rfl]

theorem pool6_hout (c : Dev nD) : (pool6Dat V c).Φ (Fin.last cfg6.N) ⊢ Pipeline.ΦA spec6 c := by
  have hlast : (Fin.last cfg6.N).val ≠ 0 := by rw [Fin.val_last]; have : cfg6.N = 20 := N_6; omega
  rw [show (pool6Dat V c).Φ (Fin.last cfg6.N) = pool6Phi V c (Fin.last cfg6.N).val (Nat.le_of_lt_succ (Fin.last cfg6.N).isLt) from rfl,
    pool6Phi_pos V c _ _ hlast, PhiA6_open]
  iintro ⟨HS, HR, Hg⟩
  isplitl [HS HR]
  · isplitl [HS]
    · iexists _; iexact HS
    iexact HR
  iexact Hg

end Region

end Cert.Kernel.Hand

end
-- ==== Proof.KB.Chain.lean ====
/- The contents of a core's unscoped buffers between the items of @main, each step named.
   The launch contents, carried through the first host stretch, are `U1`.  A kernel region replaces the one array
   its output window writes by what the write-backs of all its grid points leave there (the region's proof data,
   taken at the contents the region is entered with, read at the end of the grid); a host stretch replaces the
   arrays its operations write.  `outs` collects what the regions leave, in the form the conditional frame's
   valuations are written over, and `VJ_eq` identifies those valuations, at `outs`, with the named steps. -/
import proofs.«422502_j47175920779584_2_alg».proof.Proof.Gen.Kernel.Regions
import proofs.«422502_j47175920779584_2_alg».proof.Proof.KB.Lin0
import proofs.«422502_j47175920779584_2_alg».proof.Proof.KB.Comb1
import proofs.«422502_j47175920779584_2_alg».proof.Proof.KB.Lin2
import proofs.«422502_j47175920779584_2_alg».proof.Proof.KB.Comb3
import proofs.«422502_j47175920779584_2_alg».proof.Proof.KB.Lin4
import proofs.«422502_j47175920779584_2_alg».proof.Proof.KB.Comb5
import proofs.«422502_j47175920779584_2_alg».proof.Proof.KB.Pool6

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## The steps -/

/-- after the first host stretch -/
def U1 (c : Dev nD) : Valuation τ sig (Elt F) := Gen.V1 m c

/-- after region 0 (the first dense transform): `main_v40` holds what the write-backs of every grid point leave -/
def U2 (c : Dev nD) : Valuation τ sig (Elt F) :=
  Function.update (U1 m c) main_v40 ((lin0Dat (fun c b => U1 m c b) c).arrAt 2 cfg0.N)

/-- after the host stretch `hostOps1` -/
def U3 (c : Dev nD) : Valuation τ sig (Elt F) := StableHlo.after hostOps1 (U2 m c)

/-- after region 1 (the first combine): `main_v54` holds what the write-backs of every grid point leave -/
def U4 (c : Dev nD) : Valuation τ sig (Elt F) :=
  Function.update (U3 m c) main_v54 ((comb1Dat (fun c b => U3 m c b) c).arrAt 4 cfg1.N)

/-- after region 2 (the second dense transform): `main_v55` holds what the write-backs of every grid point leave -/
def U5 (c : Dev nD) : Valuation τ sig (Elt F) :=
  Function.update (U4 m c) main_v55 ((lin2Dat (fun c b => U4 m c b) c).arrAt 2 cfg2.N)

/-- after the host stretch `hostOps3` -/
def U6 (c : Dev nD) : Valuation τ sig (Elt F) := StableHlo.after hostOps3 (U5 m c)

/-- after region 3 (the second combine): `main_v69` holds what the write-backs of every grid point leave -/
def U7 (c : Dev nD) : Valuation τ sig (Elt F) :=
  Function.update (U6 m c) main_v69 ((comb3Dat (fun c b => U6 m c b) c).arrAt 4 cfg3.N)

/-- after region 4 (the third dense transform): `main_v70` holds what the write-backs of every grid point leave -/
def U8 (c : Dev nD) : Valuation τ sig (Elt F) :=
  Function.update (U7 m c) main_v70 ((lin4Dat (fun c b => U7 m c b) c).arrAt 2 cfg4.N)

/-- after the host stretch `hostOps5` -/
def U9 (c : Dev nD) : Valuation τ sig (Elt F) := StableHlo.after hostOps5 (U8 m c)

/-- after region 5 (the third combine): `main_v84` holds what the write-backs of every grid point leave -/
def U10 (c : Dev nD) : Valuation τ sig (Elt F) :=
  Function.update (U9 m c) main_v84 ((comb5Dat (fun c b => U9 m c b) c).arrAt 4 cfg5.N)

/-- after region 6 (pooling and the final layer): `main_v85` holds what the write-backs of every grid point leave -/
def U11 (c : Dev nD) : Valuation τ sig (Elt F) :=
  Function.update (U10 m c) main_v85 ((pool6Dat (fun c b => U10 m c b) c).arrAt 5 cfg6.N)

/-! ## What a region's array holds after the region -/

theorem U2_self (c : Dev nD) : U2 m c main_v40 = (lin0Dat (fun c b => U1 m c b) c).arrAt 2 cfg0.N := by
  unfold U2; exact Function.update_self _ _ _

theorem U4_self (c : Dev nD) : U4 m c main_v54 = (comb1Dat (fun c b => U3 m c b) c).arrAt 4 cfg1.N := by
  unfold U4; exact Function.update_self _ _ _

theorem U5_self (c : Dev nD) : U5 m c main_v55 = (lin2Dat (fun c b => U4 m c b) c).arrAt 2 cfg2.N := by
  unfold U5; exact Function.update_self _ _ _

theorem U7_self (c : Dev nD) : U7 m c main_v69 = (comb3Dat (fun c b => U6 m c b) c).arrAt 4 cfg3.N := by
  unfold U7; exact Function.update_self _ _ _

theorem U8_self (c : Dev nD) : U8 m c main_v70 = (lin4Dat (fun c b => U7 m c b) c).arrAt 2 cfg4.N := by
  unfold U8; exact Function.update_self _ _ _

theorem U10_self (c : Dev nD) : U10 m c main_v84 = (comb5Dat (fun c b => U9 m c b) c).arrAt 4 cfg5.N := by
  unfold U10; exact Function.update_self _ _ _

theorem U11_self (c : Dev nD) : U11 m c main_v85 = (pool6Dat (fun c b => U10 m c b) c).arrAt 5 cfg6.N := by
  unfold U11; exact Function.update_self _ _ _

/-! ## What a step leaves alone -/

theorem U2_of (c : Dev nD) (r : Ref sig .tc) (h : r ≠ main_v40) : U2 m c r = U1 m c r := by
  unfold U2; exact Function.update_of_ne (StableHlo.devRef_ne_of_ne h) _ _

theorem U3_of (c : Dev nD) (r : Ref sig .tc) (h : r ∉ hostOps1_W) : U3 m c r = U2 m c r := by
  unfold U3; exact StableHlo.after_of_writes_sub hostOps1 _ hostOps1_writes h

theorem U4_of (c : Dev nD) (r : Ref sig .tc) (h : r ≠ main_v54) : U4 m c r = U3 m c r := by
  unfold U4; exact Function.update_of_ne (StableHlo.devRef_ne_of_ne h) _ _

theorem U5_of (c : Dev nD) (r : Ref sig .tc) (h : r ≠ main_v55) : U5 m c r = U4 m c r := by
  unfold U5; exact Function.update_of_ne (StableHlo.devRef_ne_of_ne h) _ _

theorem U6_of (c : Dev nD) (r : Ref sig .tc) (h : r ∉ hostOps3_W) : U6 m c r = U5 m c r := by
  unfold U6; exact StableHlo.after_of_writes_sub hostOps3 _ hostOps3_writes h

theorem U7_of (c : Dev nD) (r : Ref sig .tc) (h : r ≠ main_v69) : U7 m c r = U6 m c r := by
  unfold U7; exact Function.update_of_ne (StableHlo.devRef_ne_of_ne h) _ _

theorem U8_of (c : Dev nD) (r : Ref sig .tc) (h : r ≠ main_v70) : U8 m c r = U7 m c r := by
  unfold U8; exact Function.update_of_ne (StableHlo.devRef_ne_of_ne h) _ _

theorem U9_of (c : Dev nD) (r : Ref sig .tc) (h : r ∉ hostOps5_W) : U9 m c r = U8 m c r := by
  unfold U9; exact StableHlo.after_of_writes_sub hostOps5 _ hostOps5_writes h

theorem U10_of (c : Dev nD) (r : Ref sig .tc) (h : r ≠ main_v84) : U10 m c r = U9 m c r := by
  unfold U10; exact Function.update_of_ne (StableHlo.devRef_ne_of_ne h) _ _

theorem U11_of (c : Dev nD) (r : Ref sig .tc) (h : r ≠ main_v85) : U11 m c r = U10 m c r := by
  unfold U11; exact Function.update_of_ne (StableHlo.devRef_ne_of_ne h) _ _

/-! ## What is kept since the first host stretch

`wrJ` lists every array written by an item between the first host stretch and step `J`; an array outside the
list still holds at step `J` what it held after the first stretch. -/

abbrev wr2 : List (Ref sig .tc) := [main_v40]
abbrev wr3 : List (Ref sig .tc) := wr2 ++ hostOps1_W
abbrev wr4 : List (Ref sig .tc) := wr3 ++ [main_v54]
abbrev wr5 : List (Ref sig .tc) := wr4 ++ [main_v55]
abbrev wr6 : List (Ref sig .tc) := wr5 ++ hostOps3_W
abbrev wr7 : List (Ref sig .tc) := wr6 ++ [main_v69]
abbrev wr8 : List (Ref sig .tc) := wr7 ++ [main_v70]
abbrev wr9 : List (Ref sig .tc) := wr8 ++ hostOps5_W
abbrev wr10 : List (Ref sig .tc) := wr9 ++ [main_v84]
abbrev wr11 : List (Ref sig .tc) := wr10 ++ [main_v85]

theorem keep2 (c : Dev nD) (r : Ref sig .tc) (h : r ∉ wr2) : U2 m c r = U1 m c r :=
  U2_of m c r (fun e => h (List.mem_singleton.mpr e))

theorem keep3 (c : Dev nD) (r : Ref sig .tc) (h : r ∉ wr3) : U3 m c r = U1 m c r :=
  (U3_of m c r (fun h' => h (List.mem_append_right _ h'))).trans
    (keep2 m c r (fun h' => h (List.mem_append_left _ h')))

theorem keep4 (c : Dev nD) (r : Ref sig .tc) (h : r ∉ wr4) : U4 m c r = U1 m c r :=
  (U4_of m c r (fun e => h (List.mem_append_right _ (List.mem_singleton.mpr e)))).trans
    (keep3 m c r (fun h' => h (List.mem_append_left _ h')))

theorem keep5 (c : Dev nD) (r : Ref sig .tc) (h : r ∉ wr5) : U5 m c r = U1 m c r :=
  (U5_of m c r (fun e => h (List.mem_append_right _ (List.mem_singleton.mpr e)))).trans
    (keep4 m c r (fun h' => h (List.mem_append_left _ h')))

theorem keep6 (c : Dev nD) (r : Ref sig .tc) (h : r ∉ wr6) : U6 m c r = U1 m c r :=
  (U6_of m c r (fun h' => h (List.mem_append_right _ h'))).trans
    (keep5 m c r (fun h' => h (List.mem_append_left _ h')))

theorem keep7 (c : Dev nD) (r : Ref sig .tc) (h : r ∉ wr7) : U7 m c r = U1 m c r :=
  (U7_of m c r (fun e => h (List.mem_append_right _ (List.mem_singleton.mpr e)))).trans
    (keep6 m c r (fun h' => h (List.mem_append_left _ h')))

theorem keep8 (c : Dev nD) (r : Ref sig .tc) (h : r ∉ wr8) : U8 m c r = U1 m c r :=
  (U8_of m c r (fun e => h (List.mem_append_right _ (List.mem_singleton.mpr e)))).trans
    (keep7 m c r (fun h' => h (List.mem_append_left _ h')))

theorem keep9 (c : Dev nD) (r : Ref sig .tc) (h : r ∉ wr9) : U9 m c r = U1 m c r :=
  (U9_of m c r (fun h' => h (List.mem_append_right _ h'))).trans
    (keep8 m c r (fun h' => h (List.mem_append_left _ h')))

theorem keep10 (c : Dev nD) (r : Ref sig .tc) (h : r ∉ wr10) : U10 m c r = U1 m c r :=
  (U10_of m c r (fun e => h (List.mem_append_right _ (List.mem_singleton.mpr e)))).trans
    (keep9 m c r (fun h' => h (List.mem_append_left _ h')))

theorem keep11 (c : Dev nD) (r : Ref sig .tc) (h : r ∉ wr11) : U11 m c r = U1 m c r :=
  (U11_of m c r (fun e => h (List.mem_append_right _ (List.mem_singleton.mpr e)))).trans
    (keep10 m c r (fun h' => h (List.mem_append_left _ h')))

/-! ## The regions' results, as the conditional frame wants them -/

/-- What each region leaves, indexed by the item after which it is read (only the region's own array is ever read
    at its index; elsewhere any contents of the right type do). -/
def outs : Gen.Outs (F := F) := fun J r c =>
  match J with
  | 2 => U2 m c r
  | 4 => U4 m c r
  | 5 => U5 m c r
  | 7 => U7 m c r
  | 8 => U8 m c r
  | 10 => U10 m c r
  | 11 => U11 m c r
  | _ => U1 m c r

theorem outs_2 (c : Dev nD) : outs m 2 main_v40 c = (lin0Dat (fun c b => U1 m c b) c).arrAt 2 cfg0.N := by
  show U2 m c main_v40 = _
  exact U2_self m c

theorem outs_4 (c : Dev nD) : outs m 4 main_v54 c = (comb1Dat (fun c b => U3 m c b) c).arrAt 4 cfg1.N := by
  show U4 m c main_v54 = _
  exact U4_self m c

theorem outs_5 (c : Dev nD) : outs m 5 main_v55 c = (lin2Dat (fun c b => U4 m c b) c).arrAt 2 cfg2.N := by
  show U5 m c main_v55 = _
  exact U5_self m c

theorem outs_7 (c : Dev nD) : outs m 7 main_v69 c = (comb3Dat (fun c b => U6 m c b) c).arrAt 4 cfg3.N := by
  show U7 m c main_v69 = _
  exact U7_self m c

theorem outs_8 (c : Dev nD) : outs m 8 main_v70 c = (lin4Dat (fun c b => U7 m c b) c).arrAt 2 cfg4.N := by
  show U8 m c main_v70 = _
  exact U8_self m c

theorem outs_10 (c : Dev nD) : outs m 10 main_v84 c = (comb5Dat (fun c b => U9 m c b) c).arrAt 4 cfg5.N := by
  show U10 m c main_v84 = _
  exact U10_self m c

theorem outs_11 (c : Dev nD) : outs m 11 main_v85 c = (pool6Dat (fun c b => U10 m c b) c).arrAt 5 cfg6.N := by
  show U11 m c main_v85 = _
  exact U11_self m c

/-! ## The conditional frame's valuations at `outs` are the named steps -/

theorem V1_eq (c : Dev nD) : Gen.V1 m c = U1 m c := rfl

theorem V2_eq (c : Dev nD) : Gen.V2 m (outs m) c = U2 m c := by
  unfold Gen.V2 U2
  rw [outs_2 m c, V1_eq m c]

theorem V3_eq (c : Dev nD) : Gen.V3 m (outs m) c = U3 m c := by
  unfold Gen.V3 U3
  rw [V2_eq m c]

theorem V4_eq (c : Dev nD) : Gen.V4 m (outs m) c = U4 m c := by
  unfold Gen.V4 U4
  rw [outs_4 m c, V3_eq m c]

theorem V5_eq (c : Dev nD) : Gen.V5 m (outs m) c = U5 m c := by
  unfold Gen.V5 U5
  rw [outs_5 m c, V4_eq m c]

theorem V6_eq (c : Dev nD) : Gen.V6 m (outs m) c = U6 m c := by
  unfold Gen.V6 U6
  rw [V5_eq m c]

theorem V7_eq (c : Dev nD) : Gen.V7 m (outs m) c = U7 m c := by
  unfold Gen.V7 U7
  rw [outs_7 m c, V6_eq m c]

theorem V8_eq (c : Dev nD) : Gen.V8 m (outs m) c = U8 m c := by
  unfold Gen.V8 U8
  rw [outs_8 m c, V7_eq m c]

theorem V9_eq (c : Dev nD) : Gen.V9 m (outs m) c = U9 m c := by
  unfold Gen.V9 U9
  rw [V8_eq m c]

theorem V10_eq (c : Dev nD) : Gen.V10 m (outs m) c = U10 m c := by
  unfold Gen.V10 U10
  rw [outs_10 m c, V9_eq m c]

theorem V11_eq (c : Dev nD) : Gen.V11 m (outs m) c = U11 m c := by
  unfold Gen.V11 U11
  rw [outs_11 m c, V10_eq m c]

end Cert.Kernel.Hand

end
-- ==== Proof.KB.Run.lean ====
/- The run of the program of seven kernel regions: each region as a segment between two values of the contents
   chain, the launch data, and the two statements of the whole run — termination with the result array at the
   chain's last value and every argument array as launched (`run`), and the same with only the arguments (`frame`). -/
import proofs.«422502_j47175920779584_2_alg».proof.Proof.KB.Chain
import proofs.«422502_j47175920779584_2_alg».proof.Proof.KB.RunCond
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

/-! # The run of the seven-region program

The contents chain `U1 … U11` names what a core holds in its unscoped buffers between two items of the program:
the launch contents, each host stretch applied, each region's result array replaced by what that region's
write-backs leave.  Here every kernel region becomes a segment record, entered from the chain's value before it and
left at the value after it, with the generator register and the statement "nothing owed" travelling alongside; the
conditional run then gives termination, the result array at the chain's last value and the eleven argument arrays at
their launch contents. -/

variable (m : (ℓ : Loc nD τ sig) → Buf (Elt F) ℓ)

/-! ## The proof data of the seven pipelines, each at its region's entry contents -/

/-- A literal table, so that the data of pipeline `p` at a numeral reduces to that region's own record. -/
def pdats : (p : Fin 7) → (c : Dev nD) → Dat τ (Elt F) Unit ℕ (UR sig nD τ) ℕ (cfgs p) c
  | ⟨0, _⟩ => fun c => lin0Dat (fun c b => U1 m c b) c
  | ⟨1, _⟩ => fun c => comb1Dat (fun c b => U3 m c b) c
  | ⟨2, _⟩ => fun c => lin2Dat (fun c b => U4 m c b) c
  | ⟨3, _⟩ => fun c => comb3Dat (fun c b => U6 m c b) c
  | ⟨4, _⟩ => fun c => lin4Dat (fun c b => U7 m c b) c
  | ⟨5, _⟩ => fun c => comb5Dat (fun c b => U9 m c b) c
  | ⟨6, _⟩ => fun c => pool6Dat (fun c b => U10 m c b) c

/-- No core waits for another: no pair of a semaphore and an index carries a level. -/
abbrev noPairs : GSem nD τ sig → Finset Unit := fun _ => ∅
abbrev noLevel : GSem nD τ sig → Unit → ℕ := fun _ _ => 0

/-- What travels beside the buffers through every item: the core's generator register at some state and the
    statement that the core owes nothing. -/
abbrev rides (c : Dev nD) : sProp 𝕄 :=
  iprop((∃ r, prngReg c r) ∗ ∃ W, owes (c : Thread nD τ) (0 : CellTallies nD τ sig Unit) W)

-- the chain's values are compared by name only: nothing below opens one
attribute [local irreducible] U1 U2 U3 U4 U5 U6 U7 U8 U9 U10 U11
/-! ## The steps every region shares

A region of this program has no semaphore of its own and prefetches no table.  It is entered from "every unscoped
buffer at `Vin`, the generator register, nothing owed" and left at "every unscoped buffer at `Vout`, the generator
register, nothing owed", where `Vout` has the region's arrays at what the pipeline leaves in them and agrees with
`Vin` elsewhere. -/

section Shared

variable (p : Fin 7) (c : Dev nD) (Vin Vout : Valuation τ sig (Elt F))

set_option backward.isDefEq.respectTransparency.types false in
/-- Entry: the arrays are split out of the unscoped buffers, the register goes to the invariant, the rest bypasses. -/
theorem region_entry
    (hw : Pipeline.WinFacts (Pipeline.pin (pcfgs (F := F)) adm p).spec)
    (harr : ∀ w, ((Pipeline.pin (pcfgs (F := F)) adm p).spec w).arr.IsWhole)
    (hq : ∀ w, (pdats m p c).q w = fullShare)
    (hA : ∀ w, (pdats m p c).A w = Vin (Pipeline.arrRef (Pipeline.pin (pcfgs (F := F)) adm p).spec w))
    (ho : (pdats m p c).owed 0 = 0) (hr : (pdats m p c).recorded 0 = Set.univ) :
    iprop(iprop(StableHlo.held (c : Thread nD τ) (Pipeline.ucRefs τ sig) Vin ∗ rides c)
        ∗ Pipeline.ownSems0 (fun k : PEmpty => k.elim) c ∗ levAts noPairs noLevel)
      ⊢ |={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ) (Pipeline.pin (pcfgs (F := F)) adm p).spec c (fun b => Vin b)) := by
  have hsplit := Pipeline.arrays_of_unscopedBufs (p := p) (pcfgs (F := F)) adm (pdats m) hw harr c
    ((pdats m p c).share_full hq) (fun b => Vin b) hA
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin (pcfgs (F := F) p).pre.K)) = ∅ from rfl, BI.bigSep_empty]; iempintro
  isplitl [HO]
  · unfold Pipeline.Dat.owesAt Pipeline.owesWithin Pipeline.Dat.bound
    rw [ho, hr]
    icases HO with ⟨%W, HO⟩; iexists W; isplitr; · ipureintro; exact fun _ _ => Or.inl trivial
    iexact HO
  isplitl [Hp]; · iexact Hp
  iexact Hrest

set_option backward.isDefEq.respectTransparency.types false in
/-- Exit: the arrays at their final contents and the bypassing rest are the unscoped buffers at `Vout`. -/
theorem region_exit
    (hw : Pipeline.WinFacts (Pipeline.pin (pcfgs (F := F)) adm p).spec)
    (harr : ∀ w, ((Pipeline.pin (pcfgs (F := F)) adm p).spec w).arr.IsWhole)
    (hq : ∀ w, (pdats m p c).q w = fullShare)
    (ho : (pdats m p c).owed (Fin.last _) = 0)
    (hF : ∀ w, (pdats m p c).arrAt w (Pipeline.pin (pcfgs (F := F)) adm p).N
      = (fun b : Ref sig .tc => Vout b) (Pipeline.arrRef (Pipeline.pin (pcfgs (F := F)) adm p).spec w))
    (hrest : ∀ b : Ref sig .tc, b ∉ Finset.univ.image (Pipeline.arrRef (Pipeline.pin (pcfgs (F := F)) adm p).spec) → Vout b = Vin b) :
    iprop((pdats m p c).arrays ((pdats m p c).arrAt · (Pipeline.pin (pcfgs (F := F)) adm p).N)
        ∗ (pdats m p c).owesAt () (Fin.last (Pipeline.pin (pcfgs (F := F)) adm p).N) ∗ (∃ r, prngReg c r)
        ∗ Pipeline.unscopedRest (Ix := Unit) (Name := ℕ) (U := UR sig nD τ) (Lvl := ℕ) (Pipeline.pin (pcfgs (F := F)) adm p).spec c (fun b => Vin b))
      ⊢ |={Set.univ}=> iprop(StableHlo.held (c : Thread nD τ) (Pipeline.ucRefs τ sig) Vout ∗ rides c) := by
  have hjoin := Pipeline.unscopedBufs_of_arrays (p := p) (pcfgs (F := F)) adm (Ix := Unit) (Name := ℕ) (U := UR sig nD τ) (Lvl := ℕ)
    hw harr c (pdats m) ((pdats m p c).share_full hq)
    (fun b => Vin b) (fun b => Vout b) ((pdats m p c).arrAt · (Pipeline.pin (pcfgs (F := F)) adm p).N) hF hrest
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  rw [ho]
  icases HO with ⟨%W, -, HO⟩; iexists W; iexact HO

end Shared

/-- The generator register and the kernel's scratch make the invariant of a body that touches only its windows. -/
theorem plain_in {gr W : Nat} (win : Fin W → Pipeline.WinSpec sig gr) (T : sProp 𝕄) (c : Dev nD) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

/-- and that invariant gives both back. -/
theorem plain_out {gr W : Nat} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]; unfold Pipeline.ΦA
  iintro ⟨Hr, Hp⟩
  isplitl [Hp]; · iexact Hp
  isplitr; · iempintro
  iexact Hr

section Record

variable (p : Fin 7) (Vin Vout : Dev nD → Valuation τ sig (Elt F))

/-- What the exit value must hold at the region's arrays: the one result window `o` is the value's own entry,
    every other window is an input, never written back, and the value keeps it. -/
theorem exit_arrays (c : Dev nD)
    (hw : Pipeline.WinFacts (cfgs p).spec) (o : Fin (cfgs p).W)
    (hin : ∀ w, w ≠ o → ((cfgs p).win w).isOut = false)
    (hA : ∀ w, (pdats m p c).A w = Vin c (Pipeline.arrRef (cfgs p).spec w))
    (hkeep : ∀ r : Ref sig .tc, r ≠ Pipeline.arrRef (cfgs p).spec o → Vout c r = Vin c r)
    (hself : Vout c (Pipeline.arrRef (cfgs p).spec o) = (pdats m p c).arrAt o (cfgs p).N)
    (w : Fin (cfgs p).W) :
    (pdats m p c).arrAt w (cfgs p).N = (fun b : Ref sig .tc => Vout c b) (Pipeline.arrRef (cfgs p).spec w) := by
  by_cases h : w = o
  · subst h; exact hself.symm
  · exact ((pdats m p c).arrAt_in w (hin w h) _).trans ((hA w).trans (hkeep _ fun e => h (hw.arr_inj e)).symm)

/-- Off the region's arrays the exit value is the entry value. -/
theorem exit_rest (c : Dev nD) (o : Fin (cfgs p).W)
    (hkeep : ∀ r : Ref sig .tc, r ≠ Pipeline.arrRef (cfgs p).spec o → Vout c r = Vin c r)
    (b : Ref sig .tc) (hb : b ∉ Finset.univ.image (Pipeline.arrRef (cfgs p).spec)) : Vout c b = Vin c b :=
  hkeep b fun e => hb (by subst e; exact Finset.mem_image.mpr ⟨o, Finset.mem_univ _, rfl⟩)

set_option backward.isDefEq.respectTransparency.types false in
/-- A region of this program as a segment, from what is its own: the launch facts of its pipeline, its body
    obligation, its invariant opening from and closing to the plain one, its result window `o`, and the two facts
    relating the exit value `Vout` to the entry value `Vin` (kept off the result array, the pipeline's write-backs
    at it).  Entered from every unscoped buffer at `Vin` beside `rides`, left at `Vout` beside `rides`. -/
def regionOf
    (kit : Pipeline.LaunchFacts (nD := nD) (τ := τ) cfgs p)
    (hbody : ∀ c, BodyObligation (pdats m p c) (defs₀ (F := F)) Variants.none () Set.univ)
    (hq : ∀ c w, (pdats m p c).q w = fullShare)
    (hA : ∀ c w, (pdats m p c).A w = Vin c (Pipeline.arrRef (cfgs p).spec w))
    (ho : ∀ c t, (pdats m p c).owed t = 0)
    (hr : ∀ c, (pdats m p c).recorded 0 = Set.univ)
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄))
    (o : Fin (cfgs p).W)
    (hin : ∀ w, w ≠ o → ((cfgs p).win w).isOut = false)
    (hkeep : ∀ c (r : Ref sig .tc), r ≠ Pipeline.arrRef (cfgs p).spec o → Vout c r = Vin c r)
    (hself : ∀ c, Vout c (Pipeline.arrRef (cfgs p).spec o) = (pdats m p c).arrAt o (cfgs p).N) :
    RegionSeg (pcfgs (F := F)) adm (pdats m) () defs₀ Variants.none noPairs noLevel p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noPairs noLevel p ho
  pre c := iprop(StableHlo.held (c : Thread nD τ) (Pipeline.ucRefs τ sig) (Vin c) ∗ rides c)
  post c := iprop(StableHlo.held (c : Thread nD τ) (Pipeline.ucRefs τ sig) (Vout c) ∗ rides c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := region_entry m p c (Vin c) kit.win kit.arr_whole (hq c) (hA c) (ho c 0) (hr c)
  hin c := (plain_in (cfgs p).spec _ c).trans (hΦin c)
  hout c := (hΦout c).trans (plain_out (cfgs p).spec c)
  hexit c := region_exit m p c (Vin c) (Vout c) kit.win kit.arr_whole (hq c) (ho c (Fin.last _))
    (exit_arrays m p Vin Vout c kit.win o hin (hA c) (hkeep c) (hself c)) (exit_rest p Vin Vout c o (hkeep c))

end Record

/-! ## The seven regions -/

/-- Region 0, the first dense transform `main_arg0 · main_arg3 → main_v40`: from `U1` to `U2`. -/
def reg0 : RegionSeg (pcfgs (F := F)) adm (pdats m) () defs₀ Variants.none noPairs noLevel 0 :=
  regionOf m 0 (U1 m) (U2 m) launch0 (lin0_body (fun c b => U1 m c b)) (fun _ _ => rfl)
    (lin0Dat_A (fun c b => U1 m c b)) (fun _ _ => rfl) (fun _ => rfl)
    (fun _ => .rfl) (fun _ => .rfl)
    2 (by decide) (U2_of m) (U2_self m)

/-- Region 1, the first combine `max (main_v53 + main_v40 · main_v27 + main_v28) 0 → main_v54`: from `U3` to `U4`. -/
def reg1 : RegionSeg (pcfgs (F := F)) adm (pdats m) () defs₀ Variants.none noPairs noLevel 1 :=
  regionOf m 1 (U3 m) (U4 m) launch1 (comb1_body (fun c b => U3 m c b)) (fun _ _ => rfl)
    (comb1Dat_A (fun c b => U3 m c b)) (fun _ _ => rfl) (fun _ => rfl)
    (fun _ => .rfl) (fun _ => .rfl)
    4 (by decide) (U4_of m) (U4_self m)

/-- Region 2, the second dense transform `main_v54 · main_arg5 → main_v55`: from `U4` to `U5`. -/
def reg2 : RegionSeg (pcfgs (F := F)) adm (pdats m) () defs₀ Variants.none noPairs noLevel 2 :=
  regionOf m 2 (U4 m) (U5 m) launch2 (lin2_body (fun c b => U4 m c b)) (fun _ _ => rfl)
    (lin2Dat_A (fun c b => U4 m c b)) (fun _ _ => rfl) (fun _ => rfl)
    (fun _ => .rfl) (fun _ => .rfl)
    2 (by decide) (U5_of m) (U5_self m)

/-- Region 3, the second combine `max (main_v68 + main_v55 · main_v27 + main_v29) 0 → main_v69`: from `U6` to `U7`. -/
def reg3 : RegionSeg (pcfgs (F := F)) adm (pdats m) () defs₀ Variants.none noPairs noLevel 3 :=
  regionOf m 3 (U6 m) (U7 m) launch3 (comb3_body (fun c b => U6 m c b)) (fun _ _ => rfl)
    (comb3Dat_A (fun c b => U6 m c b)) (fun _ _ => rfl) (fun _ => rfl)
    (fun _ => .rfl) (fun _ => .rfl)
    4 (by decide) (U7_of m) (U7_self m)

/-- Region 4, the third dense transform `main_v69 · main_arg7 → main_v70`: from `U7` to `U8`. -/
def reg4 : RegionSeg (pcfgs (F := F)) adm (pdats m) () defs₀ Variants.none noPairs noLevel 4 :=
  regionOf m 4 (U7 m) (U8 m) launch4 (lin4_body (fun c b => U7 m c b)) (fun _ _ => rfl)
    (lin4Dat_A (fun c b => U7 m c b)) (fun _ _ => rfl) (fun _ => rfl)
    (fun _ => .rfl) (fun _ => .rfl)
    2 (by decide) (U8_of m) (U8_self m)

/-- Region 5, the third combine, without the clamp, `main_v83 + main_v70 · main_v27 + main_v30 → main_v84`: from `U9` to `U10`. -/
def reg5 : RegionSeg (pcfgs (F := F)) adm (pdats m) () defs₀ Variants.none noPairs noLevel 5 :=
  regionOf m 5 (U9 m) (U10 m) launch5 (comb5_body (fun c b => U9 m c b)) (fun _ _ => rfl)
    (comb5Dat_A (fun c b => U9 m c b)) (fun _ _ => rfl) (fun _ => rfl)
    (fun _ => .rfl) (fun _ => .rfl)
    4 (by decide) (U10_of m) (U10_self m)

/-- Region 6, mean pooling and the final layer, whose invariant tracks the accumulator carried between grid points: from `U10` to `U11`. -/
def reg6 : RegionSeg (pcfgs (F := F)) adm (pdats m) () defs₀ Variants.none noPairs noLevel 6 :=
  regionOf m 6 (U10 m) (U11 m) launch6 (pool6_body (fun c b => U10 m c b)) (fun _ _ => rfl)
    (pool6Dat_A (fun c b => U10 m c b)) (fun _ _ => rfl) (fun _ => rfl)
    (pool6_hin (fun c b => U10 m c b)) (pool6_hout (fun c b => U10 m c b))
    5 (by decide) (U11_of m) (U11_self m)

/-! ## The launch -/

/-- Two names of one valuation give the same thread state. -/
theorem held_rides_congr (c : Dev nD) {W W' : Valuation τ sig (Elt F)} (h : W = W') :
    iprop(StableHlo.held (c : Thread nD τ) (Pipeline.ucRefs τ sig) W ∗ rides c)
      ⊢ (iprop(StableHlo.held (c : Thread nD τ) (Pipeline.ucRefs τ sig) W' ∗ rides c) : sProp 𝕄) := by
  subst h; exact .rfl

/-- The launch's ghost element is the pipelines' own; no further ghost resource is dealt to the cores. -/
theorem launch_ghost :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE RUN.  From any memory with zero counters every weakly fair execution of the program terminates, and in every
    final memory the result array holds the chain's last value at it and each argument array its launch contents. -/
theorem run (ρ : Dev nD → PrngReg) :
    θ_run defs (onTc (τ := τ) (main (F := F))) ⟨m, fun _ => 0, ρ⟩ (fun r => ∀ c : Dev nD,
      r.2.mem ((c.tc : Thread nD τ).loc main_v85) = U11 m c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have h := run_cond m (Ix := Unit) (U := UR sig nD τ) (Lvl := ℕ) emb₁ () Variants.none noPairs noLevel (fun _ _ => rfl) ρ (outs m) (pdats m)
    0 (fun _ => (BI.emp : sProp 𝕄)) (initOf (Pipeline.cells cfgs cellOf_inj) (Pipeline.launchToks cfgs cellOf_inj)) launch_ghost
    (fun _ => rides)
    (Pipeline.initEach noPairs noLevel fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => held_rides_congr c (V1_eq m c)) (fun c => held_rides_congr c (V2_eq m c).symm)
    (reg1 m) (fun c => held_rides_congr c (V3_eq m c)) (fun c => held_rides_congr c (V4_eq m c).symm)
    (reg2 m) (fun c => held_rides_congr c (V4_eq m c)) (fun c => held_rides_congr c (V5_eq m c).symm)
    (reg3 m) (fun c => held_rides_congr c (V6_eq m c)) (fun c => held_rides_congr c (V7_eq m c).symm)
    (reg4 m) (fun c => held_rides_congr c (V7_eq m c)) (fun c => held_rides_congr c (V8_eq m c).symm)
    (reg5 m) (fun c => held_rides_congr c (V9_eq m c)) (fun c => held_rides_congr c (V10_eq m c).symm)
    (reg6 m) (fun c => held_rides_congr c (V10_eq m c)) (fun c => held_rides_congr c (V11_eq m c).symm)
  exact (θ_run defs _ _).mono (fun _ h' c => ⟨((h' c).1).trans (congrFun (V11_eq m c) _), (h' c).2⟩) h

/-- THE FRAME: the run, with only the argument arrays read. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run m ρ)

end Cert.Kernel.Hand

end
-- ==== Proof.KI.Lin0.lean ====
/- Region 0 of @main (custom_call 0, the dense transform of the first layer): the frame half.
   The body reads two whole staging buffers (the row block and the weight), multiplies them, and
   overwrites the whole output staging buffer with the product; nothing is carried from one grid
   point to the next.  Everything here is stated at an arbitrary valuation `V` of the core's
   buffers at the moment the region is entered, and at an arbitrary float family. -/
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`, read off the array as the region finds it. -/
def lin0Blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two access rectangles: each is the whole buffer, offset zero -/

theorem lin0_zeros : (![0, 0] : Fin 2 → Nat) = fun _ => 0 := funext fun a => by fin_cases a <;> rfl

/-- the whole buffer of the row block -/
abbrev lin0RectIn : Rect S10000x128 := Rect.unit (s := S10000x128) ![0, 0] S10000x128.size inb_S10000x128_S10000x128_0_0

/-- the whole buffer of the weight -/
abbrev lin0RectW : Rect S128x64 := Rect.unit (s := S128x64) ![0, 0] S128x64.size inb_S128x64_S128x64_0_0

/-- the whole buffer of the product -/
abbrev lin0RectOut : Rect S10000x64 := Rect.unit (s := S10000x64) ![0, 0] S10000x64.size inb_S10000x64_S10000x64_0_0

/-- a load through the whole row-block buffer reads it -/
theorem lin0_ldIn (x0 : Vec F S10000x128 .f32) : View.ld x0 lin0RectIn = x0 :=
  View.ld_unit_zero (S := S10000x128) lin0_zeros inb_S10000x128_S10000x128_0_0 x0

/-- a load through the whole weight buffer reads it -/
theorem lin0_ldW (x1 : Vec F S128x64 .f32) : View.ld x1 lin0RectW = x1 :=
  View.ld_unit_zero (S := S128x64) lin0_zeros inb_S128x64_S128x64_0_0 x1

/-! ## What the body leaves in the output buffer -/

/-- The output staging buffer after the body, as a function of what the two input buffers read:
    one store over the whole buffer, whose payload is the product of the two whole-buffer loads. -/
def lin0Out (x0 : Vec F S10000x128 .f32) (x1 : Vec F S128x64 .f32) : Vec F S10000x64 .f32 :=
  View.canon [⟨lin0RectOut, k0_pay1 (View.ld x0 lin0RectIn) (View.ld x1 lin0RectW)⟩]

/-- A whole-buffer load reads the buffer, and a single whole-buffer store leaves its payload:
    the output buffer holds exactly the payload of the two input buffers. -/
theorem lin0Out_eq (x0 : Vec F S10000x128 .f32) (x1 : Vec F S128x64 .f32) : lin0Out x0 x1 = k0_pay1 x0 x1 := by
  unfold lin0Out
  rw [View.canon_unit_zero (S := S10000x64) lin0_zeros inb_S10000x64_S10000x64_0_0, lin0_ldIn, lin0_ldW]

/-- The single store reaches every index of the output buffer. -/
theorem lin0_cover (p : Vec F S10000x64 .f32) (y : S10000x64.Idx) :
    ∃ pc ∈ ([⟨lin0RectOut, p⟩] : List (View.Piece (Elt F) S10000x64 .f32)), y ∈ pc.1.set :=
  ⟨_, List.mem_singleton_self _, View.mem_set_unit_zero (S := S10000x64) lin0_zeros inb_S10000x64_S10000x64_0_0 y⟩

/-! ## The body on three whole staging buffers -/

set_option maxHeartbeats 1000000 in
/-- Run on whole buffers, the two inputs reading `x0` and `x1` and the output holding anything, the body ends with
    the inputs untouched and the output reading `lin0Out x0 x1`. -/
theorem lin0_kernel (c : Dev nD) (E : Set ℕ) (i : grid0.Coords)
    (a0 : Memref sig .tc .vmem S10000x128 .f32) (h0 : a0.IsWhole)
    (a1 : Memref sig .tc .vmem S128x64 .f32) (h1 : a1.IsWhole)
    (a2 : Memref sig .tc .vmem S10000x64 .f32) (h2 : a2.IsWhole)
    (x0 : Vec F S10000x128 .f32) (x1 : Vec F S128x64 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (lin0Out x0 x1)) -∗ K ⟨⟩))
      ⊢ wp frame (wpE (defs₀ (F := F)) Variants.none c none) E (cc0__matmul_kernel i a0 h0 a1 h1 a2 h2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (lin0_cover _)

/-! ## The proof data of the pipeline -/

/-- Arrays as the region finds them; after the body at point `t` the inputs' buffers still hold their blocks and
    the output's holds `lin0Out` of those blocks; the invariant is the one of a body that touches nothing but its
    windows; full shares; nothing owed. -/
def lin0Dat (c : Dev nD) : Dat τ (Elt F) Unit ℕ (UR sig nD τ) ℕ cfg0 c where
  A w := V c (Pipeline.arrRef spec0 w)
  after w t := match w with
    | ⟨0, _⟩ => lin0Blk V c 0 t
    | ⟨1, _⟩ => lin0Blk V c 1 t
    | ⟨2, _⟩ => lin0Out (lin0Blk V c 0 t) (lin0Blk V c 1 t)
  Φ _ := Pipeline.ΦA spec0 c
  q _ := fullShare
  owed _ := 0

theorem lin0Dat_A (c : Dev nD) (w : Fin cfg0.W) : (lin0Dat V c).A w = V c (Pipeline.arrRef spec0 w) := by
  dsimp only [lin0Dat]

theorem lin0Dat_after0 (c : Dev nD) (t : Fin cfg0.N) : (lin0Dat V c).after 0 t = lin0Blk V c 0 t := by dsimp only [lin0Dat]
theorem lin0Dat_after1 (c : Dev nD) (t : Fin cfg0.N) : (lin0Dat V c).after 1 t = lin0Blk V c 1 t := by dsimp only [lin0Dat]
theorem lin0Dat_after2 (c : Dev nD) (t : Fin cfg0.N) :
    (lin0Dat V c).after 2 t = lin0Out (lin0Blk V c 0 t) (lin0Blk V c 1 t) := by dsimp only [lin0Dat]

/-! ## What the body finds in the input buffers -/

/-- The row block's current staging buffer holds that block (it is fetched at every point; the general lemma covers it). -/
theorem lin0_before0 (c : Dev nD) (t : Fin cfg0.N) (d) : (lin0Dat V c).before 0 t d = lin0Blk V c 0 t :=
  ((lin0Dat V c).before_in_eq_fetched 0 rfl (fun _ => rfl) (fun _ _ _ => rfl)
      (fun t => by rw [lin0Dat_after0]; unfold Dat.blockOf lin0Blk; rw [lin0Dat_A]; try rfl) t d).trans
    (by unfold Dat.fetched Dat.blockOf lin0Blk; rw [lin0Dat_A]; try rfl)

/-- The weight is fetched at the first point only; its block index never moves, so its buffer holds the block at
    every point all the same. -/
theorem lin0_before1 (c : Dev nD) (t : Fin cfg0.N) (d) : (lin0Dat V c).before 1 t d = lin0Blk V c 1 t :=
  ((lin0Dat V c).before_in_eq_fetched 1 rfl (fun _ => rfl) (fun _ _ _ => rfl)
      (fun t => by rw [lin0Dat_after1]; unfold Dat.blockOf lin0Blk; rw [lin0Dat_A]; try rfl) t d).trans
    (by unfold Dat.fetched Dat.blockOf lin0Blk; rw [lin0Dat_A]; try rfl)

/-! ## The body obligation -/

/-- what the pipeline hands the body at point `t`, window by window -/
def lin0Pre (c : Dev nD) (t : Fin cfg0.N) : sProp 𝕄 :=
  iprop((lin0Dat V c).Φ t.castSucc ∗ (lin0Dat V c).owesAt () t.castSucc
    ∗ (∃ d, owns (c : Thread nD τ) (st0_0 t) fullShare ((lin0Dat V c).before 0 t d))
    ∗ (∃ d, owns (c : Thread nD τ) (st0_1 t) fullShare ((lin0Dat V c).before 1 t d))
    ∗ (∃ d, owns (c : Thread nD τ) (st0_2 t) fullShare ((lin0Dat V c).before 2 t d)))

/-- what the body hands back -/
def lin0Post (c : Dev nD) (t : Fin cfg0.N) : sProp 𝕄 :=
  iprop((lin0Dat V c).Φ t.succ ∗ (lin0Dat V c).owesAt () t.succ
    ∗ owns (c : Thread nD τ) (st0_0 t) fullShare ((lin0Dat V c).after 0 t)
    ∗ owns (c : Thread nD τ) (st0_1 t) fullShare ((lin0Dat V c).after 1 t)
    ∗ owns (c : Thread nD τ) (st0_2 t) fullShare ((lin0Dat V c).after 2 t))

/-- The body at any point: the invariant and the debt pass through untouched, the three windows go through
    `lin0_kernel`. -/
theorem lin0_sound (c : Dev nD) (t : Fin cfg0.N) :
    lin0Pre V c t ⊢ wp frame (wpE (defs₀ (F := F)) Variants.none c none) Set.univ (bodyAt0 t) (fun _ => lin0Post V c t) := by
  unfold lin0Pre lin0Post bodyAt0
  simp only [lin0_before0, lin0_before1]
  rw [show (lin0Dat V c).Φ t.succ = (lin0Dat V c).Φ t.castSucc from rfl,
    show (lin0Dat V c).owesAt () t.succ = (lin0Dat V c).owesAt () t.castSucc from rfl,
    lin0Dat_after0, lin0Dat_after1, lin0Dat_after2]
  iintro ⟨HΦ, Ho, ⟨%d0, H0⟩, ⟨%d1, H1⟩, ⟨%d2, H2⟩⟩
  iapply (lin0_kernel c Set.univ _ _ _ _ _ _ _ (lin0Blk V c 0 t) (lin0Blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation at every point. -/
theorem lin0_body (c : Dev nD) : BodyObligation (lin0Dat (F := F) V c) (defs₀ (F := F)) Variants.none () Set.univ := fun t => by
  rw [bigSep_W0, bigSep_W0]
  exact lin0_sound V c t

end Cert.KernelIdeal.Hand

end
-- ==== Proof.KI.Comb1.lean ====
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The first combine layer (custom_call 1) as a pipeline: what every window's staging buffer holds

The body of this call reads four whole staging buffers — the aggregated rows, the linear rows, the
self-normalisation column and the bias row — and overwrites a fifth with
`max (agg + lin * sn + bias, 0)`.  Nothing is carried from one grid point to the next, so the
pipeline's proof data are read straight off the arrays as the call finds them: an input buffer
holds its array's block of the point, the output buffer holds the payload of those four blocks.
Everything is stated at an arbitrary float model `F` and at arbitrary entry contents `V`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-! ## Blocks and the output's contents -/

/-- The block of window `w` that grid point `t` works on, cut out of the window's array at its entry contents. -/
def comb1Blk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- What the body writes: the layer's payload `max (x0 + x1 * x2 + x3, 0)` of the four input blocks
    (`x2` a column, `x3` a row, both broadcast). -/
def comb1Out (x0 x1 : Vec F S10000x64 .f32) (x2 : Vec F S10000x1 .f32) (x3 : Vec F S1x64 .f32) :
    Vec F S10000x64 .f32 :=
  k1_pay1 x0 x1 x2 x3

theorem comb1Out_eq (x0 x1 : Vec F S10000x64 .f32) (x2 : Vec F S10000x1 .f32) (x3 : Vec F S1x64 .f32) :
    comb1Out x0 x1 x2 x3 = k1_pay1 x0 x1 x2 x3 := rfl

/-! ## The body on whole staging buffers -/

/-- The zero offsets, as the function the whole-buffer lemmas ask for. -/
theorem comb1_off0 : (![0, 0] : Fin 2 → Nat) = fun _ => 0 := funext fun a => by fin_cases a <;> rfl

set_option maxHeartbeats 1000000 in
/-- Run on five whole buffers, the four inputs at `x0 … x3` and the output at anything, the body returns the
    inputs untouched and the output at `comb1Out x0 x1 x2 x3`: four whole-buffer loads, a fifth of the output
    whose value is not used, and one store that covers the output buffer. -/
theorem comb1_triple (c : Dev nD) (E : Set ℕ) (i : grid1.Coords)
    (a0 : Memref sig .tc .vmem S10000x64 .f32) (h0 : a0.IsWhole)
    (a1 : Memref sig .tc .vmem S10000x64 .f32) (h1 : a1.IsWhole)
    (a2 : Memref sig .tc .vmem S10000x1 .f32) (h2 : a2.IsWhole)
    (a3 : Memref sig .tc .vmem S1x64 .f32) (h3 : a3.IsWhole)
    (a4 : Memref sig .tc .vmem S10000x64 .f32) (h4 : a4.IsWhole)
    (x0 x1 : Vec F S10000x64 .f32) (x2 : Vec F S10000x1 .f32) (x3 : Vec F S1x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (comb1Out x0 x1 x2 x3)) -∗ K ⟨⟩))
      ⊢ wp frame (wpE (defs₀ (F := F)) Variants.none c none) E
          (cc1__combine_kernel i a0 h0 a1 h1 a2 h2 a3 h3 a4 h4) K := by
  simp only [cc1__combine_kernel_eq_skeleton]; unfold cc1__combine_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the single store covers the buffer, so the buffer reads back as the stored payload;
  -- each whole-buffer load reads its buffer's contents
  rw [View.read_writes_eq_canon _ _ _
        (fun y => ⟨_, List.mem_singleton_self _, View.mem_set_unit_zero comb1_off0 inb_S10000x64_S10000x64_0_0 y⟩),
      View.canon_unit_zero comb1_off0]
  simp only [View.readAt_eq_ld, View.ld_unit_zero (S := S10000x64) comb1_off0,
    View.ld_unit_zero (S := S10000x1) comb1_off0, View.ld_unit_zero (S := S1x64) comb1_off0]
  unfold comb1Out
  rfl

/-! ## The pipeline's proof data -/

/-- The proof data on core `c`.  The windows' arrays are at their entry contents.  After the body at point
    `t` an input's buffer still holds its block and the output's holds the payload of the four input blocks.
    The body needs nothing but its five buffers: the invariant is the untouched rest, shares are full,
    nothing is owed. -/
def comb1Dat (c : Dev nD) : Dat τ (Elt F) Unit ℕ (UR sig nD τ) ℕ cfg1 c where
  A w := V c (Pipeline.arrRef spec1 w)
  after w t := match w with
    | ⟨0, _⟩ => comb1Blk V c 0 t
    | ⟨1, _⟩ => comb1Blk V c 1 t
    | ⟨2, _⟩ => comb1Blk V c 2 t
    | ⟨3, _⟩ => comb1Blk V c 3 t
    | ⟨4, _⟩ => comb1Out (comb1Blk V c 0 t) (comb1Blk V c 1 t) (comb1Blk V c 2 t) (comb1Blk V c 3 t)
  Φ _ := Pipeline.ΦA spec1 c
  q _ := fullShare
  owed _ := 0

theorem comb1Dat_A (c : Dev nD) (w : Fin cfg1.W) : (comb1Dat V c).A w = V c (Pipeline.arrRef spec1 w) := by
  dsimp only [comb1Dat]

theorem comb1Dat_after0 (c : Dev nD) (t : Fin cfg1.N) : (comb1Dat V c).after 0 t = comb1Blk V c 0 t := by
  dsimp only [comb1Dat]
theorem comb1Dat_after1 (c : Dev nD) (t : Fin cfg1.N) : (comb1Dat V c).after 1 t = comb1Blk V c 1 t := by
  dsimp only [comb1Dat]
theorem comb1Dat_after2 (c : Dev nD) (t : Fin cfg1.N) : (comb1Dat V c).after 2 t = comb1Blk V c 2 t := by
  dsimp only [comb1Dat]
theorem comb1Dat_after3 (c : Dev nD) (t : Fin cfg1.N) : (comb1Dat V c).after 3 t = comb1Blk V c 3 t := by
  dsimp only [comb1Dat]
theorem comb1Dat_after4 (c : Dev nD) (t : Fin cfg1.N) :
    (comb1Dat V c).after 4 t
      = comb1Out (comb1Blk V c 0 t) (comb1Blk V c 1 t) (comb1Blk V c 2 t) (comb1Blk V c 3 t) := by
  dsimp only [comb1Dat]

/-! ## What the body finds in the input buffers

An input's current buffer holds the block of the point whether or not the pipeline fetched it there: where it
did not, the block index has not moved since the last fetch and the body left the block in place.  This is what
covers the bias row, fetched at the first point only. -/

theorem comb1_finds0 (c : Dev nD) (t : Fin cfg1.N) (d) : (comb1Dat V c).before 0 t d = comb1Blk V c 0 t := by
  refine ((comb1Dat V c).before_in_eq_fetched 0 rfl (fun _ => rfl) (fun _ _ _ => rfl) (fun t => ?_) t d).trans ?_
  · rw [comb1Dat_after0]; unfold Dat.blockOf comb1Blk; rw [comb1Dat_A]; try rfl
  · unfold Dat.fetched Dat.blockOf comb1Blk; rw [comb1Dat_A]; try rfl

theorem comb1_finds1 (c : Dev nD) (t : Fin cfg1.N) (d) : (comb1Dat V c).before 1 t d = comb1Blk V c 1 t := by
  refine ((comb1Dat V c).before_in_eq_fetched 1 rfl (fun _ => rfl) (fun _ _ _ => rfl) (fun t => ?_) t d).trans ?_
  · rw [comb1Dat_after1]; unfold Dat.blockOf comb1Blk; rw [comb1Dat_A]; try rfl
  · unfold Dat.fetched Dat.blockOf comb1Blk; rw [comb1Dat_A]; try rfl

theorem comb1_finds2 (c : Dev nD) (t : Fin cfg1.N) (d) : (comb1Dat V c).before 2 t d = comb1Blk V c 2 t := by
  refine ((comb1Dat V c).before_in_eq_fetched 2 rfl (fun _ => rfl) (fun _ _ _ => rfl) (fun t => ?_) t d).trans ?_
  · rw [comb1Dat_after2]; unfold Dat.blockOf comb1Blk; rw [comb1Dat_A]; try rfl
  · unfold Dat.fetched Dat.blockOf comb1Blk; rw [comb1Dat_A]; try rfl

theorem comb1_finds3 (c : Dev nD) (t : Fin cfg1.N) (d) : (comb1Dat V c).before 3 t d = comb1Blk V c 3 t := by
  refine ((comb1Dat V c).before_in_eq_fetched 3 rfl (fun _ => rfl) (fun _ _ _ => rfl) (fun t => ?_) t d).trans ?_
  · rw [comb1Dat_after3]; unfold Dat.blockOf comb1Blk; rw [comb1Dat_A]; try rfl
  · unfold Dat.fetched Dat.blockOf comb1Blk; rw [comb1Dat_A]; try rfl

/-! ## The body obligation -/

/-- At any grid point: the four input buffers hold their blocks, so the triple applies with the output buffer at
    whatever it held; the invariant and the core's debts pass through unread. -/
theorem comb1_at (c : Dev nD) (t : Fin cfg1.N) :
    iprop((comb1Dat V c).Φ t.castSucc ∗ (comb1Dat V c).owesAt () t.castSucc
        ∗ (∃ d, owns (c : Thread nD τ) (st1_0 t) fullShare ((comb1Dat V c).before 0 t d))
        ∗ (∃ d, owns (c : Thread nD τ) (st1_1 t) fullShare ((comb1Dat V c).before 1 t d))
        ∗ (∃ d, owns (c : Thread nD τ) (st1_2 t) fullShare ((comb1Dat V c).before 2 t d))
        ∗ (∃ d, owns (c : Thread nD τ) (st1_3 t) fullShare ((comb1Dat V c).before 3 t d))
        ∗ (∃ d, owns (c : Thread nD τ) (st1_4 t) fullShare ((comb1Dat V c).before 4 t d)))
      ⊢ wp frame (wpE (defs₀ (F := F)) Variants.none c none) Set.univ (bodyAt1 t) (fun _ =>
          iprop((comb1Dat V c).Φ t.succ ∗ (comb1Dat V c).owesAt () t.succ
            ∗ owns (c : Thread nD τ) (st1_0 t) fullShare ((comb1Dat V c).after 0 t)
            ∗ owns (c : Thread nD τ) (st1_1 t) fullShare ((comb1Dat V c).after 1 t)
            ∗ owns (c : Thread nD τ) (st1_2 t) fullShare ((comb1Dat V c).after 2 t)
            ∗ owns (c : Thread nD τ) (st1_3 t) fullShare ((comb1Dat V c).after 3 t)
            ∗ owns (c : Thread nD τ) (st1_4 t) fullShare ((comb1Dat V c).after 4 t))) := by
  unfold bodyAt1
  simp only [comb1_finds0, comb1_finds1, comb1_finds2, comb1_finds3]
  rw [show (comb1Dat V c).Φ t.succ = (comb1Dat V c).Φ t.castSucc from rfl,
    show (comb1Dat V c).owesAt () t.succ = (comb1Dat V c).owesAt () t.castSucc from rfl,
    comb1Dat_after0, comb1Dat_after1, comb1Dat_after2, comb1Dat_after3, comb1Dat_after4]
  iintro ⟨HΦ, Ho, ⟨%d0, H0⟩, ⟨%d1, H1⟩, ⟨%d2, H2⟩, ⟨%d3, H3⟩, ⟨%d4, H4⟩⟩
  iapply (comb1_triple c Set.univ _ _ _ _ _ _ _ _ _ _ _
    (comb1Blk V c 0 t) (comb1Blk V c 1 t) (comb1Blk V c 2 t) (comb1Blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem comb1_body (c : Dev nD) :
    BodyObligation (comb1Dat (F := F) V c) (defs₀ (F := F)) Variants.none () Set.univ := fun t => by
  rw [bigSep_W1, bigSep_W1]
  exact comb1_at V c t

end Cert.KernelIdeal.Hand
-- ==== Proof.KI.Lin2.lean ====
/- Region 2 of @main (custom_call 2, the dense transform of the second layer): the frame half.
   The body reads two whole staging buffers (the row block and the weight), multiplies them, and
   overwrites the whole output staging buffer with the product; nothing is carried from one grid
   point to the next.  Everything here is stated at an arbitrary valuation `V` of the core's
   buffers at the moment the region is entered, and at an arbitrary float family. -/
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`, read off the array as the region finds it. -/
def lin2Blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two access rectangles: each is the whole buffer, offset zero -/

theorem lin2_zeros : (![0, 0] : Fin 2 → Nat) = fun _ => 0 := funext fun a => by fin_cases a <;> rfl

/-- the whole buffer of the row block -/
abbrev lin2RectIn : Rect S10000x64 := Rect.unit (s := S10000x64) ![0, 0] S10000x64.size inb_S10000x64_S10000x64_0_0

/-- the whole buffer of the weight -/
abbrev lin2RectW : Rect S64x64 := Rect.unit (s := S64x64) ![0, 0] S64x64.size inb_S64x64_S64x64_0_0

/-- the whole buffer of the product -/
abbrev lin2RectOut : Rect S10000x64 := Rect.unit (s := S10000x64) ![0, 0] S10000x64.size inb_S10000x64_S10000x64_0_0

/-- a load through the whole row-block buffer reads it -/
theorem lin2_ldIn (x0 : Vec F S10000x64 .f32) : View.ld x0 lin2RectIn = x0 :=
  View.ld_unit_zero (S := S10000x64) lin2_zeros inb_S10000x64_S10000x64_0_0 x0

/-- a load through the whole weight buffer reads it -/
theorem lin2_ldW (x1 : Vec F S64x64 .f32) : View.ld x1 lin2RectW = x1 :=
  View.ld_unit_zero (S := S64x64) lin2_zeros inb_S64x64_S64x64_0_0 x1

/-! ## What the body leaves in the output buffer -/

/-- The output staging buffer after the body, as a function of what the two input buffers read:
    one store over the whole buffer, whose payload is the product of the two whole-buffer loads. -/
def lin2Out (x0 : Vec F S10000x64 .f32) (x1 : Vec F S64x64 .f32) : Vec F S10000x64 .f32 :=
  View.canon [⟨lin2RectOut, k2_pay1 (View.ld x0 lin2RectIn) (View.ld x1 lin2RectW)⟩]

/-- A whole-buffer load reads the buffer, and a single whole-buffer store leaves its payload:
    the output buffer holds exactly the payload of the two input buffers. -/
theorem lin2Out_eq (x0 : Vec F S10000x64 .f32) (x1 : Vec F S64x64 .f32) : lin2Out x0 x1 = k2_pay1 x0 x1 := by
  unfold lin2Out
  rw [View.canon_unit_zero (S := S10000x64) lin2_zeros inb_S10000x64_S10000x64_0_0, lin2_ldIn, lin2_ldW]

/-- The single store reaches every index of the output buffer. -/
theorem lin2_cover (p : Vec F S10000x64 .f32) (y : S10000x64.Idx) :
    ∃ pc ∈ ([⟨lin2RectOut, p⟩] : List (View.Piece (Elt F) S10000x64 .f32)), y ∈ pc.1.set :=
  ⟨_, List.mem_singleton_self _, View.mem_set_unit_zero (S := S10000x64) lin2_zeros inb_S10000x64_S10000x64_0_0 y⟩

/-! ## The body on three whole staging buffers -/

set_option maxHeartbeats 1000000 in
/-- Run on whole buffers, the two inputs reading `x0` and `x1` and the output holding anything, the body ends with
    the inputs untouched and the output reading `lin2Out x0 x1`. -/
theorem lin2_kernel (c : Dev nD) (E : Set ℕ) (i : grid2.Coords)
    (a0 : Memref sig .tc .vmem S10000x64 .f32) (h0 : a0.IsWhole)
    (a1 : Memref sig .tc .vmem S64x64 .f32) (h1 : a1.IsWhole)
    (a2 : Memref sig .tc .vmem S10000x64 .f32) (h2 : a2.IsWhole)
    (x0 : Vec F S10000x64 .f32) (x1 : Vec F S64x64 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (lin2Out x0 x1)) -∗ K ⟨⟩))
      ⊢ wp frame (wpE (defs₀ (F := F)) Variants.none c none) E (cc2__matmul_kernel i a0 h0 a1 h1 a2 h2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (lin2_cover _)

/-! ## The proof data of the pipeline -/

/-- Arrays as the region finds them; after the body at point `t` the inputs' buffers still hold their blocks and
    the output's holds `lin2Out` of those blocks; the invariant is the one of a body that touches nothing but its
    windows; full shares; nothing owed. -/
def lin2Dat (c : Dev nD) : Dat τ (Elt F) Unit ℕ (UR sig nD τ) ℕ cfg2 c where
  A w := V c (Pipeline.arrRef spec2 w)
  after w t := match w with
    | ⟨0, _⟩ => lin2Blk V c 0 t
    | ⟨1, _⟩ => lin2Blk V c 1 t
    | ⟨2, _⟩ => lin2Out (lin2Blk V c 0 t) (lin2Blk V c 1 t)
  Φ _ := Pipeline.ΦA spec2 c
  q _ := fullShare
  owed _ := 0

theorem lin2Dat_A (c : Dev nD) (w : Fin cfg2.W) : (lin2Dat V c).A w = V c (Pipeline.arrRef spec2 w) := by
  dsimp only [lin2Dat]

theorem lin2Dat_after0 (c : Dev nD) (t : Fin cfg2.N) : (lin2Dat V c).after 0 t = lin2Blk V c 0 t := by dsimp only [lin2Dat]
theorem lin2Dat_after1 (c : Dev nD) (t : Fin cfg2.N) : (lin2Dat V c).after 1 t = lin2Blk V c 1 t := by dsimp only [lin2Dat]
theorem lin2Dat_after2 (c : Dev nD) (t : Fin cfg2.N) :
    (lin2Dat V c).after 2 t = lin2Out (lin2Blk V c 0 t) (lin2Blk V c 1 t) := by dsimp only [lin2Dat]

/-! ## What the body finds in the input buffers -/

/-- The row block's current staging buffer holds that block (it is fetched at every point; the general lemma covers it). -/
theorem lin2_before0 (c : Dev nD) (t : Fin cfg2.N) (d) : (lin2Dat V c).before 0 t d = lin2Blk V c 0 t :=
  ((lin2Dat V c).before_in_eq_fetched 0 rfl (fun _ => rfl) (fun _ _ _ => rfl)
      (fun t => by rw [lin2Dat_after0]; unfold Dat.blockOf lin2Blk; rw [lin2Dat_A]; try rfl) t d).trans
    (by unfold Dat.fetched Dat.blockOf lin2Blk; rw [lin2Dat_A]; try rfl)

/-- The weight is fetched at the first point only; its block index never moves, so its buffer holds the block at
    every point all the same. -/
theorem lin2_before1 (c : Dev nD) (t : Fin cfg2.N) (d) : (lin2Dat V c).before 1 t d = lin2Blk V c 1 t :=
  ((lin2Dat V c).before_in_eq_fetched 1 rfl (fun _ => rfl) (fun _ _ _ => rfl)
      (fun t => by rw [lin2Dat_after1]; unfold Dat.blockOf lin2Blk; rw [lin2Dat_A]; try rfl) t d).trans
    (by unfold Dat.fetched Dat.blockOf lin2Blk; rw [lin2Dat_A]; try rfl)

/-! ## The body obligation -/

/-- what the pipeline hands the body at point `t`, window by window -/
def lin2Pre (c : Dev nD) (t : Fin cfg2.N) : sProp 𝕄 :=
  iprop((lin2Dat V c).Φ t.castSucc ∗ (lin2Dat V c).owesAt () t.castSucc
    ∗ (∃ d, owns (c : Thread nD τ) (st2_0 t) fullShare ((lin2Dat V c).before 0 t d))
    ∗ (∃ d, owns (c : Thread nD τ) (st2_1 t) fullShare ((lin2Dat V c).before 1 t d))
    ∗ (∃ d, owns (c : Thread nD τ) (st2_2 t) fullShare ((lin2Dat V c).before 2 t d)))

/-- what the body hands back -/
def lin2Post (c : Dev nD) (t : Fin cfg2.N) : sProp 𝕄 :=
  iprop((lin2Dat V c).Φ t.succ ∗ (lin2Dat V c).owesAt () t.succ
    ∗ owns (c : Thread nD τ) (st2_0 t) fullShare ((lin2Dat V c).after 0 t)
    ∗ owns (c : Thread nD τ) (st2_1 t) fullShare ((lin2Dat V c).after 1 t)
    ∗ owns (c : Thread nD τ) (st2_2 t) fullShare ((lin2Dat V c).after 2 t))

/-- The body at any point: the invariant and the debt pass through untouched, the three windows go through
    `lin2_kernel`. -/
theorem lin2_sound (c : Dev nD) (t : Fin cfg2.N) :
    lin2Pre V c t ⊢ wp frame (wpE (defs₀ (F := F)) Variants.none c none) Set.univ (bodyAt2 t) (fun _ => lin2Post V c t) := by
  unfold lin2Pre lin2Post bodyAt2
  simp only [lin2_before0, lin2_before1]
  rw [show (lin2Dat V c).Φ t.succ = (lin2Dat V c).Φ t.castSucc from rfl,
    show (lin2Dat V c).owesAt () t.succ = (lin2Dat V c).owesAt () t.castSucc from rfl,
    lin2Dat_after0, lin2Dat_after1, lin2Dat_after2]
  iintro ⟨HΦ, Ho, ⟨%d0, H0⟩, ⟨%d1, H1⟩, ⟨%d2, H2⟩⟩
  iapply (lin2_kernel c Set.univ _ _ _ _ _ _ _ (lin2Blk V c 0 t) (lin2Blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation at every point. -/
theorem lin2_body (c : Dev nD) : BodyObligation (lin2Dat (F := F) V c) (defs₀ (F := F)) Variants.none () Set.univ := fun t => by
  rw [bigSep_W2, bigSep_W2]
  exact lin2_sound V c t

end Cert.KernelIdeal.Hand

end
-- ==== Proof.KI.Comb3.lean ====
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The second combine layer (custom_call 3) as a pipeline: what every window's staging buffer holds

The body of this call reads four whole staging buffers — the aggregated rows, the linear rows, the
self-normalisation column and the bias row — and overwrites a fifth with
`max (agg + lin * sn + bias, 0)`.  Nothing is carried from one grid point to the next, so the
pipeline's proof data are read straight off the arrays as the call finds them: an input buffer
holds its array's block of the point, the output buffer holds the payload of those four blocks.
Everything is stated at an arbitrary float model `F` and at arbitrary entry contents `V`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-! ## Blocks and the output's contents -/

/-- The block of window `w` that grid point `t` works on, cut out of the window's array at its entry contents. -/
def comb3Blk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- What the body writes: the layer's payload `max (x0 + x1 * x2 + x3, 0)` of the four input blocks
    (`x2` a column, `x3` a row, both broadcast). -/
def comb3Out (x0 x1 : Vec F S10000x64 .f32) (x2 : Vec F S10000x1 .f32) (x3 : Vec F S1x64 .f32) :
    Vec F S10000x64 .f32 :=
  k3_pay1 x0 x1 x2 x3

theorem comb3Out_eq (x0 x1 : Vec F S10000x64 .f32) (x2 : Vec F S10000x1 .f32) (x3 : Vec F S1x64 .f32) :
    comb3Out x0 x1 x2 x3 = k3_pay1 x0 x1 x2 x3 := rfl

/-! ## The body on whole staging buffers -/

/-- The zero offsets, as the function the whole-buffer lemmas ask for. -/
theorem comb3_off0 : (![0, 0] : Fin 2 → Nat) = fun _ => 0 := funext fun a => by fin_cases a <;> rfl

set_option maxHeartbeats 1000000 in
/-- Run on five whole buffers, the four inputs at `x0 … x3` and the output at anything, the body returns the
    inputs untouched and the output at `comb3Out x0 x1 x2 x3`: four whole-buffer loads, a fifth of the output
    whose value is not used, and one store that covers the output buffer. -/
theorem comb3_triple (c : Dev nD) (E : Set ℕ) (i : grid3.Coords)
    (a0 : Memref sig .tc .vmem S10000x64 .f32) (h0 : a0.IsWhole)
    (a1 : Memref sig .tc .vmem S10000x64 .f32) (h1 : a1.IsWhole)
    (a2 : Memref sig .tc .vmem S10000x1 .f32) (h2 : a2.IsWhole)
    (a3 : Memref sig .tc .vmem S1x64 .f32) (h3 : a3.IsWhole)
    (a4 : Memref sig .tc .vmem S10000x64 .f32) (h4 : a4.IsWhole)
    (x0 x1 : Vec F S10000x64 .f32) (x2 : Vec F S10000x1 .f32) (x3 : Vec F S1x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (comb3Out x0 x1 x2 x3)) -∗ K ⟨⟩))
      ⊢ wp frame (wpE (defs₀ (F := F)) Variants.none c none) E
          (cc3__combine_kernel i a0 h0 a1 h1 a2 h2 a3 h3 a4 h4) K := by
  simp only [cc3__combine_kernel_eq_skeleton]; unfold cc3__combine_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the single store covers the buffer, so the buffer reads back as the stored payload;
  -- each whole-buffer load reads its buffer's contents
  rw [View.read_writes_eq_canon _ _ _
        (fun y => ⟨_, List.mem_singleton_self _, View.mem_set_unit_zero comb3_off0 inb_S10000x64_S10000x64_0_0 y⟩),
      View.canon_unit_zero comb3_off0]
  simp only [View.readAt_eq_ld, View.ld_unit_zero (S := S10000x64) comb3_off0,
    View.ld_unit_zero (S := S10000x1) comb3_off0, View.ld_unit_zero (S := S1x64) comb3_off0]
  unfold comb3Out
  rfl

/-! ## The pipeline's proof data -/

/-- The proof data on core `c`.  The windows' arrays are at their entry contents.  After the body at point
    `t` an input's buffer still holds its block and the output's holds the payload of the four input blocks.
    The body needs nothing but its five buffers: the invariant is the untouched rest, shares are full,
    nothing is owed. -/
def comb3Dat (c : Dev nD) : Dat τ (Elt F) Unit ℕ (UR sig nD τ) ℕ cfg3 c where
  A w := V c (Pipeline.arrRef spec3 w)
  after w t := match w with
    | ⟨0, _⟩ => comb3Blk V c 0 t
    | ⟨1, _⟩ => comb3Blk V c 1 t
    | ⟨2, _⟩ => comb3Blk V c 2 t
    | ⟨3, _⟩ => comb3Blk V c 3 t
    | ⟨4, _⟩ => comb3Out (comb3Blk V c 0 t) (comb3Blk V c 1 t) (comb3Blk V c 2 t) (comb3Blk V c 3 t)
  Φ _ := Pipeline.ΦA spec3 c
  q _ := fullShare
  owed _ := 0

theorem comb3Dat_A (c : Dev nD) (w : Fin cfg3.W) : (comb3Dat V c).A w = V c (Pipeline.arrRef spec3 w) := by
  dsimp only [comb3Dat]

theorem comb3Dat_after0 (c : Dev nD) (t : Fin cfg3.N) : (comb3Dat V c).after 0 t = comb3Blk V c 0 t := by
  dsimp only [comb3Dat]
theorem comb3Dat_after1 (c : Dev nD) (t : Fin cfg3.N) : (comb3Dat V c).after 1 t = comb3Blk V c 1 t := by
  dsimp only [comb3Dat]
theorem comb3Dat_after2 (c : Dev nD) (t : Fin cfg3.N) : (comb3Dat V c).after 2 t = comb3Blk V c 2 t := by
  dsimp only [comb3Dat]
theorem comb3Dat_after3 (c : Dev nD) (t : Fin cfg3.N) : (comb3Dat V c).after 3 t = comb3Blk V c 3 t := by
  dsimp only [comb3Dat]
theorem comb3Dat_after4 (c : Dev nD) (t : Fin cfg3.N) :
    (comb3Dat V c).after 4 t
      = comb3Out (comb3Blk V c 0 t) (comb3Blk V c 1 t) (comb3Blk V c 2 t) (comb3Blk V c 3 t) := by
  dsimp only [comb3Dat]

/-! ## What the body finds in the input buffers

An input's current buffer holds the block of the point whether or not the pipeline fetched it there: where it
did not, the block index has not moved since the last fetch and the body left the block in place.  This is what
covers the bias row, fetched at the first point only. -/

theorem comb3_finds0 (c : Dev nD) (t : Fin cfg3.N) (d) : (comb3Dat V c).before 0 t d = comb3Blk V c 0 t := by
  refine ((comb3Dat V c).before_in_eq_fetched 0 rfl (fun _ => rfl) (fun _ _ _ => rfl) (fun t => ?_) t d).trans ?_
  · rw [comb3Dat_after0]; unfold Dat.blockOf comb3Blk; rw [comb3Dat_A]; try rfl
  · unfold Dat.fetched Dat.blockOf comb3Blk; rw [comb3Dat_A]; try rfl

theorem comb3_finds1 (c : Dev nD) (t : Fin cfg3.N) (d) : (comb3Dat V c).before 1 t d = comb3Blk V c 1 t := by
  refine ((comb3Dat V c).before_in_eq_fetched 1 rfl (fun _ => rfl) (fun _ _ _ => rfl) (fun t => ?_) t d).trans ?_
  · rw [comb3Dat_after1]; unfold Dat.blockOf comb3Blk; rw [comb3Dat_A]; try rfl
  · unfold Dat.fetched Dat.blockOf comb3Blk; rw [comb3Dat_A]; try rfl

theorem comb3_finds2 (c : Dev nD) (t : Fin cfg3.N) (d) : (comb3Dat V c).before 2 t d = comb3Blk V c 2 t := by
  refine ((comb3Dat V c).before_in_eq_fetched 2 rfl (fun _ => rfl) (fun _ _ _ => rfl) (fun t => ?_) t d).trans ?_
  · rw [comb3Dat_after2]; unfold Dat.blockOf comb3Blk; rw [comb3Dat_A]; try rfl
  · unfold Dat.fetched Dat.blockOf comb3Blk; rw [comb3Dat_A]; try rfl

theorem comb3_finds3 (c : Dev nD) (t : Fin cfg3.N) (d) : (comb3Dat V c).before 3 t d = comb3Blk V c 3 t := by
  refine ((comb3Dat V c).before_in_eq_fetched 3 rfl (fun _ => rfl) (fun _ _ _ => rfl) (fun t => ?_) t d).trans ?_
  · rw [comb3Dat_after3]; unfold Dat.blockOf comb3Blk; rw [comb3Dat_A]; try rfl
  · unfold Dat.fetched Dat.blockOf comb3Blk; rw [comb3Dat_A]; try rfl

/-! ## The body obligation -/

/-- At any grid point: the four input buffers hold their blocks, so the triple applies with the output buffer at
    whatever it held; the invariant and the core's debts pass through unread. -/
theorem comb3_at (c : Dev nD) (t : Fin cfg3.N) :
    iprop((comb3Dat V c).Φ t.castSucc ∗ (comb3Dat V c).owesAt () t.castSucc
        ∗ (∃ d, owns (c : Thread nD τ) (st3_0 t) fullShare ((comb3Dat V c).before 0 t d))
        ∗ (∃ d, owns (c : Thread nD τ) (st3_1 t) fullShare ((comb3Dat V c).before 1 t d))
        ∗ (∃ d, owns (c : Thread nD τ) (st3_2 t) fullShare ((comb3Dat V c).before 2 t d))
        ∗ (∃ d, owns (c : Thread nD τ) (st3_3 t) fullShare ((comb3Dat V c).before 3 t d))
        ∗ (∃ d, owns (c : Thread nD τ) (st3_4 t) fullShare ((comb3Dat V c).before 4 t d)))
      ⊢ wp frame (wpE (defs₀ (F := F)) Variants.none c none) Set.univ (bodyAt3 t) (fun _ =>
          iprop((comb3Dat V c).Φ t.succ ∗ (comb3Dat V c).owesAt () t.succ
            ∗ owns (c : Thread nD τ) (st3_0 t) fullShare ((comb3Dat V c).after 0 t)
            ∗ owns (c : Thread nD τ) (st3_1 t) fullShare ((comb3Dat V c).after 1 t)
            ∗ owns (c : Thread nD τ) (st3_2 t) fullShare ((comb3Dat V c).after 2 t)
            ∗ owns (c : Thread nD τ) (st3_3 t) fullShare ((comb3Dat V c).after 3 t)
            ∗ owns (c : Thread nD τ) (st3_4 t) fullShare ((comb3Dat V c).after 4 t))) := by
  unfold bodyAt3
  simp only [comb3_finds0, comb3_finds1, comb3_finds2, comb3_finds3]
  rw [show (comb3Dat V c).Φ t.succ = (comb3Dat V c).Φ t.castSucc from rfl,
    show (comb3Dat V c).owesAt () t.succ = (comb3Dat V c).owesAt () t.castSucc from rfl,
    comb3Dat_after0, comb3Dat_after1, comb3Dat_after2, comb3Dat_after3, comb3Dat_after4]
  iintro ⟨HΦ, Ho, ⟨%d0, H0⟩, ⟨%d1, H1⟩, ⟨%d2, H2⟩, ⟨%d3, H3⟩, ⟨%d4, H4⟩⟩
  iapply (comb3_triple c Set.univ _ _ _ _ _ _ _ _ _ _ _
    (comb3Blk V c 0 t) (comb3Blk V c 1 t) (comb3Blk V c 2 t) (comb3Blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem comb3_body (c : Dev nD) :
    BodyObligation (comb3Dat (F := F) V c) (defs₀ (F := F)) Variants.none () Set.univ := fun t => by
  rw [bigSep_W3, bigSep_W3]
  exact comb3_at V c t

end Cert.KernelIdeal.Hand
-- ==== Proof.KI.Lin4.lean ====
/- Region 4 of @main (custom_call 4, the dense transform of the third layer): the frame half.
   The body reads two whole staging buffers (the row block and the weight), multiplies them, and
   overwrites the whole output staging buffer with the product; nothing is carried from one grid
   point to the next.  Everything here is stated at an arbitrary valuation `V` of the core's
   buffers at the moment the region is entered, and at an arbitrary float family. -/
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`, read off the array as the region finds it. -/
def lin4Blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The two access rectangles: each is the whole buffer, offset zero -/

theorem lin4_zeros : (![0, 0] : Fin 2 → Nat) = fun _ => 0 := funext fun a => by fin_cases a <;> rfl

/-- the whole buffer of the row block -/
abbrev lin4RectIn : Rect S10000x64 := Rect.unit (s := S10000x64) ![0, 0] S10000x64.size inb_S10000x64_S10000x64_0_0

/-- the whole buffer of the weight -/
abbrev lin4RectW : Rect S64x64 := Rect.unit (s := S64x64) ![0, 0] S64x64.size inb_S64x64_S64x64_0_0

/-- the whole buffer of the product -/
abbrev lin4RectOut : Rect S10000x64 := Rect.unit (s := S10000x64) ![0, 0] S10000x64.size inb_S10000x64_S10000x64_0_0

/-- a load through the whole row-block buffer reads it -/
theorem lin4_ldIn (x0 : Vec F S10000x64 .f32) : View.ld x0 lin4RectIn = x0 :=
  View.ld_unit_zero (S := S10000x64) lin4_zeros inb_S10000x64_S10000x64_0_0 x0

/-- a load through the whole weight buffer reads it -/
theorem lin4_ldW (x1 : Vec F S64x64 .f32) : View.ld x1 lin4RectW = x1 :=
  View.ld_unit_zero (S := S64x64) lin4_zeros inb_S64x64_S64x64_0_0 x1

/-! ## What the body leaves in the output buffer -/

/-- The output staging buffer after the body, as a function of what the two input buffers read:
    one store over the whole buffer, whose payload is the product of the two whole-buffer loads. -/
def lin4Out (x0 : Vec F S10000x64 .f32) (x1 : Vec F S64x64 .f32) : Vec F S10000x64 .f32 :=
  View.canon [⟨lin4RectOut, k4_pay1 (View.ld x0 lin4RectIn) (View.ld x1 lin4RectW)⟩]

/-- A whole-buffer load reads the buffer, and a single whole-buffer store leaves its payload:
    the output buffer holds exactly the payload of the two input buffers. -/
theorem lin4Out_eq (x0 : Vec F S10000x64 .f32) (x1 : Vec F S64x64 .f32) : lin4Out x0 x1 = k4_pay1 x0 x1 := by
  unfold lin4Out
  rw [View.canon_unit_zero (S := S10000x64) lin4_zeros inb_S10000x64_S10000x64_0_0, lin4_ldIn, lin4_ldW]

/-- The single store reaches every index of the output buffer. -/
theorem lin4_cover (p : Vec F S10000x64 .f32) (y : S10000x64.Idx) :
    ∃ pc ∈ ([⟨lin4RectOut, p⟩] : List (View.Piece (Elt F) S10000x64 .f32)), y ∈ pc.1.set :=
  ⟨_, List.mem_singleton_self _, View.mem_set_unit_zero (S := S10000x64) lin4_zeros inb_S10000x64_S10000x64_0_0 y⟩

/-! ## The body on three whole staging buffers -/

set_option maxHeartbeats 1000000 in
/-- Run on whole buffers, the two inputs reading `x0` and `x1` and the output holding anything, the body ends with
    the inputs untouched and the output reading `lin4Out x0 x1`. -/
theorem lin4_kernel (c : Dev nD) (E : Set ℕ) (i : grid4.Coords)
    (a0 : Memref sig .tc .vmem S10000x64 .f32) (h0 : a0.IsWhole)
    (a1 : Memref sig .tc .vmem S64x64 .f32) (h1 : a1.IsWhole)
    (a2 : Memref sig .tc .vmem S10000x64 .f32) (h2 : a2.IsWhole)
    (x0 : Vec F S10000x64 .f32) (x1 : Vec F S64x64 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (lin4Out x0 x1)) -∗ K ⟨⟩))
      ⊢ wp frame (wpE (defs₀ (F := F)) Variants.none c none) E (cc4__matmul_kernel i a0 h0 a1 h1 a2 h2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (lin4_cover _)

/-! ## The proof data of the pipeline -/

/-- Arrays as the region finds them; after the body at point `t` the inputs' buffers still hold their blocks and
    the output's holds `lin4Out` of those blocks; the invariant is the one of a body that touches nothing but its
    windows; full shares; nothing owed. -/
def lin4Dat (c : Dev nD) : Dat τ (Elt F) Unit ℕ (UR sig nD τ) ℕ cfg4 c where
  A w := V c (Pipeline.arrRef spec4 w)
  after w t := match w with
    | ⟨0, _⟩ => lin4Blk V c 0 t
    | ⟨1, _⟩ => lin4Blk V c 1 t
    | ⟨2, _⟩ => lin4Out (lin4Blk V c 0 t) (lin4Blk V c 1 t)
  Φ _ := Pipeline.ΦA spec4 c
  q _ := fullShare
  owed _ := 0

theorem lin4Dat_A (c : Dev nD) (w : Fin cfg4.W) : (lin4Dat V c).A w = V c (Pipeline.arrRef spec4 w) := by
  dsimp only [lin4Dat]

theorem lin4Dat_after0 (c : Dev nD) (t : Fin cfg4.N) : (lin4Dat V c).after 0 t = lin4Blk V c 0 t := by dsimp only [lin4Dat]
theorem lin4Dat_after1 (c : Dev nD) (t : Fin cfg4.N) : (lin4Dat V c).after 1 t = lin4Blk V c 1 t := by dsimp only [lin4Dat]
theorem lin4Dat_after2 (c : Dev nD) (t : Fin cfg4.N) :
    (lin4Dat V c).after 2 t = lin4Out (lin4Blk V c 0 t) (lin4Blk V c 1 t) := by dsimp only [lin4Dat]

/-! ## What the body finds in the input buffers -/

/-- The row block's current staging buffer holds that block (it is fetched at every point; the general lemma covers it). -/
theorem lin4_before0 (c : Dev nD) (t : Fin cfg4.N) (d) : (lin4Dat V c).before 0 t d = lin4Blk V c 0 t :=
  ((lin4Dat V c).before_in_eq_fetched 0 rfl (fun _ => rfl) (fun _ _ _ => rfl)
      (fun t => by rw [lin4Dat_after0]; unfold Dat.blockOf lin4Blk; rw [lin4Dat_A]; try rfl) t d).trans
    (by unfold Dat.fetched Dat.blockOf lin4Blk; rw [lin4Dat_A]; try rfl)

/-- The weight is fetched at the first point only; its block index never moves, so its buffer holds the block at
    every point all the same. -/
theorem lin4_before1 (c : Dev nD) (t : Fin cfg4.N) (d) : (lin4Dat V c).before 1 t d = lin4Blk V c 1 t :=
  ((lin4Dat V c).before_in_eq_fetched 1 rfl (fun _ => rfl) (fun _ _ _ => rfl)
      (fun t => by rw [lin4Dat_after1]; unfold Dat.blockOf lin4Blk; rw [lin4Dat_A]; try rfl) t d).trans
    (by unfold Dat.fetched Dat.blockOf lin4Blk; rw [lin4Dat_A]; try rfl)

/-! ## The body obligation -/

/-- what the pipeline hands the body at point `t`, window by window -/
def lin4Pre (c : Dev nD) (t : Fin cfg4.N) : sProp 𝕄 :=
  iprop((lin4Dat V c).Φ t.castSucc ∗ (lin4Dat V c).owesAt () t.castSucc
    ∗ (∃ d, owns (c : Thread nD τ) (st4_0 t) fullShare ((lin4Dat V c).before 0 t d))
    ∗ (∃ d, owns (c : Thread nD τ) (st4_1 t) fullShare ((lin4Dat V c).before 1 t d))
    ∗ (∃ d, owns (c : Thread nD τ) (st4_2 t) fullShare ((lin4Dat V c).before 2 t d)))

/-- what the body hands back -/
def lin4Post (c : Dev nD) (t : Fin cfg4.N) : sProp 𝕄 :=
  iprop((lin4Dat V c).Φ t.succ ∗ (lin4Dat V c).owesAt () t.succ
    ∗ owns (c : Thread nD τ) (st4_0 t) fullShare ((lin4Dat V c).after 0 t)
    ∗ owns (c : Thread nD τ) (st4_1 t) fullShare ((lin4Dat V c).after 1 t)
    ∗ owns (c : Thread nD τ) (st4_2 t) fullShare ((lin4Dat V c).after 2 t))

/-- The body at any point: the invariant and the debt pass through untouched, the three windows go through
    `lin4_kernel`. -/
theorem lin4_sound (c : Dev nD) (t : Fin cfg4.N) :
    lin4Pre V c t ⊢ wp frame (wpE (defs₀ (F := F)) Variants.none c none) Set.univ (bodyAt4 t) (fun _ => lin4Post V c t) := by
  unfold lin4Pre lin4Post bodyAt4
  simp only [lin4_before0, lin4_before1]
  rw [show (lin4Dat V c).Φ t.succ = (lin4Dat V c).Φ t.castSucc from rfl,
    show (lin4Dat V c).owesAt () t.succ = (lin4Dat V c).owesAt () t.castSucc from rfl,
    lin4Dat_after0, lin4Dat_after1, lin4Dat_after2]
  iintro ⟨HΦ, Ho, ⟨%d0, H0⟩, ⟨%d1, H1⟩, ⟨%d2, H2⟩⟩
  iapply (lin4_kernel c Set.univ _ _ _ _ _ _ _ (lin4Blk V c 0 t) (lin4Blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation at every point. -/
theorem lin4_body (c : Dev nD) : BodyObligation (lin4Dat (F := F) V c) (defs₀ (F := F)) Variants.none () Set.univ := fun t => by
  rw [bigSep_W4, bigSep_W4]
  exact lin4_sound V c t

end Cert.KernelIdeal.Hand

end
-- ==== Proof.KI.Comb5.lean ====
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The third combine layer (custom_call 5) as a pipeline: what every window's staging buffer holds

The body of this call reads four whole staging buffers — the aggregated rows, the linear rows, the
self-normalisation column and the bias row — and overwrites a fifth with
`agg + lin * sn + bias`.  Nothing is carried from one grid point to the next, so the
pipeline's proof data are read straight off the arrays as the call finds them: an input buffer
holds its array's block of the point, the output buffer holds the payload of those four blocks.
Everything is stated at an arbitrary float model `F` and at arbitrary entry contents `V`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the call is entered
variable (V : (c : Dev nD) → (b : Ref sig .tc) → Buf (Elt F) ((c : Thread nD τ).loc b))

/-! ## Blocks and the output's contents -/

/-- The block of window `w` that grid point `t` works on, cut out of the window's array at its entry contents. -/
def comb5Blk (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- What the body writes: the layer's payload `x0 + x1 * x2 + x3` of the four input blocks
    (`x2` a column, `x3` a row, both broadcast). -/
def comb5Out (x0 x1 : Vec F S10000x64 .f32) (x2 : Vec F S10000x1 .f32) (x3 : Vec F S1x64 .f32) :
    Vec F S10000x64 .f32 :=
  k5_pay1 x0 x1 x2 x3

theorem comb5Out_eq (x0 x1 : Vec F S10000x64 .f32) (x2 : Vec F S10000x1 .f32) (x3 : Vec F S1x64 .f32) :
    comb5Out x0 x1 x2 x3 = k5_pay1 x0 x1 x2 x3 := rfl

/-! ## The body on whole staging buffers -/

/-- The zero offsets, as the function the whole-buffer lemmas ask for. -/
theorem comb5_off0 : (![0, 0] : Fin 2 → Nat) = fun _ => 0 := funext fun a => by fin_cases a <;> rfl

set_option maxHeartbeats 1000000 in
/-- Run on five whole buffers, the four inputs at `x0 … x3` and the output at anything, the body returns the
    inputs untouched and the output at `comb5Out x0 x1 x2 x3`: four whole-buffer loads, a fifth of the output
    whose value is not used, and one store that covers the output buffer. -/
theorem comb5_triple (c : Dev nD) (E : Set ℕ) (i : grid5.Coords)
    (a0 : Memref sig .tc .vmem S10000x64 .f32) (h0 : a0.IsWhole)
    (a1 : Memref sig .tc .vmem S10000x64 .f32) (h1 : a1.IsWhole)
    (a2 : Memref sig .tc .vmem S10000x1 .f32) (h2 : a2.IsWhole)
    (a3 : Memref sig .tc .vmem S1x64 .f32) (h3 : a3.IsWhole)
    (a4 : Memref sig .tc .vmem S10000x64 .f32) (h4 : a4.IsWhole)
    (x0 x1 : Vec F S10000x64 .f32) (x2 : Vec F S10000x1 .f32) (x3 : Vec F S1x64 .f32)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (comb5Out x0 x1 x2 x3)) -∗ K ⟨⟩))
      ⊢ wp frame (wpE (defs₀ (F := F)) Variants.none c none) E
          (cc5__combine_kernel i a0 h0 a1 h1 a2 h2 a3 h3 a4 h4) K := by
  simp only [cc5__combine_kernel_eq_skeleton]; unfold cc5__combine_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the single store covers the buffer, so the buffer reads back as the stored payload;
  -- each whole-buffer load reads its buffer's contents
  rw [View.read_writes_eq_canon _ _ _
        (fun y => ⟨_, List.mem_singleton_self _, View.mem_set_unit_zero comb5_off0 inb_S10000x64_S10000x64_0_0 y⟩),
      View.canon_unit_zero comb5_off0]
  simp only [View.readAt_eq_ld, View.ld_unit_zero (S := S10000x64) comb5_off0,
    View.ld_unit_zero (S := S10000x1) comb5_off0, View.ld_unit_zero (S := S1x64) comb5_off0]
  unfold comb5Out
  rfl

/-! ## The pipeline's proof data -/

/-- The proof data on core `c`.  The windows' arrays are at their entry contents.  After the body at point
    `t` an input's buffer still holds its block and the output's holds the payload of the four input blocks.
    The body needs nothing but its five buffers: the invariant is the untouched rest, shares are full,
    nothing is owed. -/
def comb5Dat (c : Dev nD) : Dat τ (Elt F) Unit ℕ (UR sig nD τ) ℕ cfg5 c where
  A w := V c (Pipeline.arrRef spec5 w)
  after w t := match w with
    | ⟨0, _⟩ => comb5Blk V c 0 t
    | ⟨1, _⟩ => comb5Blk V c 1 t
    | ⟨2, _⟩ => comb5Blk V c 2 t
    | ⟨3, _⟩ => comb5Blk V c 3 t
    | ⟨4, _⟩ => comb5Out (comb5Blk V c 0 t) (comb5Blk V c 1 t) (comb5Blk V c 2 t) (comb5Blk V c 3 t)
  Φ _ := Pipeline.ΦA spec5 c
  q _ := fullShare
  owed _ := 0

theorem comb5Dat_A (c : Dev nD) (w : Fin cfg5.W) : (comb5Dat V c).A w = V c (Pipeline.arrRef spec5 w) := by
  dsimp only [comb5Dat]

theorem comb5Dat_after0 (c : Dev nD) (t : Fin cfg5.N) : (comb5Dat V c).after 0 t = comb5Blk V c 0 t := by
  dsimp only [comb5Dat]
theorem comb5Dat_after1 (c : Dev nD) (t : Fin cfg5.N) : (comb5Dat V c).after 1 t = comb5Blk V c 1 t := by
  dsimp only [comb5Dat]
theorem comb5Dat_after2 (c : Dev nD) (t : Fin cfg5.N) : (comb5Dat V c).after 2 t = comb5Blk V c 2 t := by
  dsimp only [comb5Dat]
theorem comb5Dat_after3 (c : Dev nD) (t : Fin cfg5.N) : (comb5Dat V c).after 3 t = comb5Blk V c 3 t := by
  dsimp only [comb5Dat]
theorem comb5Dat_after4 (c : Dev nD) (t : Fin cfg5.N) :
    (comb5Dat V c).after 4 t
      = comb5Out (comb5Blk V c 0 t) (comb5Blk V c 1 t) (comb5Blk V c 2 t) (comb5Blk V c 3 t) := by
  dsimp only [comb5Dat]

/-! ## What the body finds in the input buffers

An input's current buffer holds the block of the point whether or not the pipeline fetched it there: where it
did not, the block index has not moved since the last fetch and the body left the block in place.  This is what
covers the bias row, fetched at the first point only. -/

theorem comb5_finds0 (c : Dev nD) (t : Fin cfg5.N) (d) : (comb5Dat V c).before 0 t d = comb5Blk V c 0 t := by
  refine ((comb5Dat V c).before_in_eq_fetched 0 rfl (fun _ => rfl) (fun _ _ _ => rfl) (fun t => ?_) t d).trans ?_
  · rw [comb5Dat_after0]; unfold Dat.blockOf comb5Blk; rw [comb5Dat_A]; try rfl
  · unfold Dat.fetched Dat.blockOf comb5Blk; rw [comb5Dat_A]; try rfl

theorem comb5_finds1 (c : Dev nD) (t : Fin cfg5.N) (d) : (comb5Dat V c).before 1 t d = comb5Blk V c 1 t := by
  refine ((comb5Dat V c).before_in_eq_fetched 1 rfl (fun _ => rfl) (fun _ _ _ => rfl) (fun t => ?_) t d).trans ?_
  · rw [comb5Dat_after1]; unfold Dat.blockOf comb5Blk; rw [comb5Dat_A]; try rfl
  · unfold Dat.fetched Dat.blockOf comb5Blk; rw [comb5Dat_A]; try rfl

theorem comb5_finds2 (c : Dev nD) (t : Fin cfg5.N) (d) : (comb5Dat V c).before 2 t d = comb5Blk V c 2 t := by
  refine ((comb5Dat V c).before_in_eq_fetched 2 rfl (fun _ => rfl) (fun _ _ _ => rfl) (fun t => ?_) t d).trans ?_
  · rw [comb5Dat_after2]; unfold Dat.blockOf comb5Blk; rw [comb5Dat_A]; try rfl
  · unfold Dat.fetched Dat.blockOf comb5Blk; rw [comb5Dat_A]; try rfl

theorem comb5_finds3 (c : Dev nD) (t : Fin cfg5.N) (d) : (comb5Dat V c).before 3 t d = comb5Blk V c 3 t := by
  refine ((comb5Dat V c).before_in_eq_fetched 3 rfl (fun _ => rfl) (fun _ _ _ => rfl) (fun t => ?_) t d).trans ?_
  · rw [comb5Dat_after3]; unfold Dat.blockOf comb5Blk; rw [comb5Dat_A]; try rfl
  · unfold Dat.fetched Dat.blockOf comb5Blk; rw [comb5Dat_A]; try rfl

/-! ## The body obligation -/

/-- At any grid point: the four input buffers hold their blocks, so the triple applies with the output buffer at
    whatever it held; the invariant and the core's debts pass through unread. -/
theorem comb5_at (c : Dev nD) (t : Fin cfg5.N) :
    iprop((comb5Dat V c).Φ t.castSucc ∗ (comb5Dat V c).owesAt () t.castSucc
        ∗ (∃ d, owns (c : Thread nD τ) (st5_0 t) fullShare ((comb5Dat V c).before 0 t d))
        ∗ (∃ d, owns (c : Thread nD τ) (st5_1 t) fullShare ((comb5Dat V c).before 1 t d))
        ∗ (∃ d, owns (c : Thread nD τ) (st5_2 t) fullShare ((comb5Dat V c).before 2 t d))
        ∗ (∃ d, owns (c : Thread nD τ) (st5_3 t) fullShare ((comb5Dat V c).before 3 t d))
        ∗ (∃ d, owns (c : Thread nD τ) (st5_4 t) fullShare ((comb5Dat V c).before 4 t d)))
      ⊢ wp frame (wpE (defs₀ (F := F)) Variants.none c none) Set.univ (bodyAt5 t) (fun _ =>
          iprop((comb5Dat V c).Φ t.succ ∗ (comb5Dat V c).owesAt () t.succ
            ∗ owns (c : Thread nD τ) (st5_0 t) fullShare ((comb5Dat V c).after 0 t)
            ∗ owns (c : Thread nD τ) (st5_1 t) fullShare ((comb5Dat V c).after 1 t)
            ∗ owns (c : Thread nD τ) (st5_2 t) fullShare ((comb5Dat V c).after 2 t)
            ∗ owns (c : Thread nD τ) (st5_3 t) fullShare ((comb5Dat V c).after 3 t)
            ∗ owns (c : Thread nD τ) (st5_4 t) fullShare ((comb5Dat V c).after 4 t))) := by
  unfold bodyAt5
  simp only [comb5_finds0, comb5_finds1, comb5_finds2, comb5_finds3]
  rw [show (comb5Dat V c).Φ t.succ = (comb5Dat V c).Φ t.castSucc from rfl,
    show (comb5Dat V c).owesAt () t.succ = (comb5Dat V c).owesAt () t.castSucc from rfl,
    comb5Dat_after0, comb5Dat_after1, comb5Dat_after2, comb5Dat_after3, comb5Dat_after4]
  iintro ⟨HΦ, Ho, ⟨%d0, H0⟩, ⟨%d1, H1⟩, ⟨%d2, H2⟩, ⟨%d3, H3⟩, ⟨%d4, H4⟩⟩
  iapply (comb5_triple c Set.univ _ _ _ _ _ _ _ _ _ _ _
    (comb5Blk V c 0 t) (comb5Blk V c 1 t) (comb5Blk V c 2 t) (comb5Blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem comb5_body (c : Dev nD) :
    BodyObligation (comb5Dat (F := F) V c) (defs₀ (F := F)) Variants.none () Set.univ := fun t => by
  rw [bigSep_W5, bigSep_W5]
  exact comb5_at V c t

end Cert.KernelIdeal.Hand
-- ==== Proof.KI.Pool6.lean ====
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call (custom_call 6): mean over graphs, then the final linear layer

The grid walks the 20 row blocks of the node features. A 512x64 accumulator lives in a scratch buffer that
is carried from one grid point to the next: it is cleared at the first point, every point adds
(one-hot of the batch ids)^T . (feature block) to it, and the last point divides by the node counts, multiplies by
the weight and adds the bias into the output block, which no other point touches. -/

section Conds

/-- "This is the first grid point", as the body computes it from the grid coordinate. -/
abbrev isFirst6 (i : grid6.Coords) : Prop :=
  Scalar.cmpi .ne (Scalar.extui (Scalar.cmpi .eq (BitVec.ofNat 32 (i 0).val) 0#32)) 0#32 = 1#1

/-- "This is the last grid point", as the body computes it. -/
abbrev isLast6 (i : grid6.Coords) : Prop := k6_cond2 i = 1#1

theorem isFirst6_iff : ∀ t : Fin cfg6.N, isFirst6 (grid6.coords t) ↔ t.val % 20 = 0 :=
  (by decide +kernel : ∀ t : Fin grid6.N, isFirst6 (grid6.coords t) ↔ t.val % 20 = 0)

theorem isLast6_iff : ∀ t : Fin cfg6.N, isLast6 (grid6.coords t) ↔ t.val % 20 = 19 :=
  (by decide +kernel : ∀ t : Fin grid6.N, isLast6 (grid6.coords t) ↔ t.val % 20 = 19)

end Conds

section Triples

/-- A two-axis offset written ![0, 0] is the zero offset. -/
theorem off2_zero : (![0, 0] : Fin 2 → Nat) = fun _ => 0 := by
  funext a; fin_cases a <;> rfl

/-- A load through the rectangle that spans a whole buffer reads the buffer's contents. -/
theorem readAt_span {S : Shape} {e : EltTy} {κ : Kind} {sp : Space} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After any stores, the last of which spans the whole buffer, the buffer reads as that last store's value. -/
theorem read_after_span {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- FIRST POINT. The accumulator, whatever it held, is cleared and then receives this block's contribution;
    the two streamed inputs are only read; nothing else is touched. -/
theorem pool6_first (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S512x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S512x10 .f32) (harg6 : arg6.IsWhole)
    (arg7 : Memref sig .tc .vmem S512x64 .f32) (harg7 : arg7.IsWhole)
    (h1 : isFirst6 i) (h2 : ¬ isLast6 i)
    (xh : Vec F S5000x64 .f32) (xb : Vec F S5000x1 .i32) (K : PUnit → sProp 𝕄) :
    iprop(owns (c : Thread nD τ) arg1 fullShare xh ∗ owns (c : Thread nD τ) arg2 fullShare xb
        ∗ (∃ s, owns (c : Thread nD τ) arg7 fullShare s)
        ∗ (iprop(owns (c : Thread nD τ) arg1 fullShare xh ∗ owns (c : Thread nD τ) arg2 fullShare xb
            ∗ owns (c : Thread nD τ) arg7 fullShare (k6_pay2 xb xh (k6_pay1 (F := F)))) -∗ K ⟨⟩))
      ⊢ wp frame (wpE (defs₀ (F := F)) Variants.none c none) E
          (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f1, %hf1, H1⟩, ⟨%f2, %hf2, H2⟩, ⟨%s, %fs, -, HS⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  refine (read_after_span _ _ off2_zero _ _ _).trans ?_
  rw [View.readCov_unit_zero _ off2_zero, readAt_span _ _ off2_zero, readAt_span _ _ off2_zero]

set_option maxHeartbeats 1000000 in
/-- A MIDDLE POINT. The accumulator at `s` receives this block's contribution; nothing else is touched. -/
theorem pool6_mid (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S512x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S512x10 .f32) (harg6 : arg6.IsWhole)
    (arg7 : Memref sig .tc .vmem S512x64 .f32) (harg7 : arg7.IsWhole)
    (h1 : ¬ isFirst6 i) (h2 : ¬ isLast6 i)
    (xh : Vec F S5000x64 .f32) (xb : Vec F S5000x1 .i32) (s : Vec F S512x64 .f32) (K : PUnit → sProp 𝕄) :
    iprop(owns (c : Thread nD τ) arg1 fullShare xh ∗ owns (c : Thread nD τ) arg2 fullShare xb
        ∗ owns (c : Thread nD τ) arg7 fullShare s
        ∗ (iprop(owns (c : Thread nD τ) arg1 fullShare xh ∗ owns (c : Thread nD τ) arg2 fullShare xb
            ∗ owns (c : Thread nD τ) arg7 fullShare (k6_pay2 xb xh s)) -∗ K ⟨⟩))
      ⊢ wp frame (wpE (defs₀ (F := F)) Variants.none c none) E
          (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f1, %hf1, H1⟩, ⟨%f2, %hf2, H2⟩, ⟨%fs, %hfs, HS⟩, Hk⟩
  subst hf1; subst hf2; subst hfs
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  refine (read_after_span _ _ off2_zero _ _ _).trans ?_
  rw [readAt_span _ _ off2_zero, readAt_span _ _ off2_zero, readAt_span _ _ off2_zero]

set_option maxHeartbeats 1000000 in
/-- LAST POINT. The accumulator at `s` receives this block's contribution, giving `s'`; the output block, whatever
    it held, is then overwritten with (s' / counts) . weight + bias. The three resident inputs are only read. -/
theorem pool6_last (c : Dev nD) (E : Set ℕ) (i : grid6.Coords)
    (arg1 : Memref sig .tc .vmem S5000x64 .f32) (harg1 : arg1.IsWhole) (arg2 : Memref sig .tc .vmem S5000x1 .i32) (harg2 : arg2.IsWhole)
    (arg3 : Memref sig .tc .vmem S512x1 .f32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S512x10 .f32) (harg6 : arg6.IsWhole)
    (arg7 : Memref sig .tc .vmem S512x64 .f32) (harg7 : arg7.IsWhole)
    (h1 : ¬ isFirst6 i) (h2 : isLast6 i)
    (xh : Vec F S5000x64 .f32) (xb : Vec F S5000x1 .i32) (xc : Vec F S512x1 .f32) (xw : Vec F S64x10 .f32) (xo : Vec F S1x10 .f32)
    (s : Vec F S512x64 .f32) (K : PUnit → sProp 𝕄) :
    iprop(owns (c : Thread nD τ) arg1 fullShare xh ∗ owns (c : Thread nD τ) arg2 fullShare xb
        ∗ owns (c : Thread nD τ) arg3 fullShare xc ∗ owns (c : Thread nD τ) arg4 fullShare xw
        ∗ owns (c : Thread nD τ) arg5 fullShare xo ∗ (∃ d, owns (c : Thread nD τ) arg6 fullShare d)
        ∗ owns (c : Thread nD τ) arg7 fullShare s
        ∗ (iprop(owns (c : Thread nD τ) arg1 fullShare xh ∗ owns (c : Thread nD τ) arg2 fullShare xb
            ∗ owns (c : Thread nD τ) arg3 fullShare xc ∗ owns (c : Thread nD τ) arg4 fullShare xw
            ∗ owns (c : Thread nD τ) arg5 fullShare xo
            ∗ owns (c : Thread nD τ) arg6 fullShare (k6_pay3 (k6_pay2 xb xh s) xc xw xo)
            ∗ owns (c : Thread nD τ) arg7 fullShare (k6_pay2 xb xh s)) -∗ K ⟨⟩))
      ⊢ wp frame (wpE (defs₀ (F := F)) Variants.none c none) E
          (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf1; subst hf2; subst hf3; subst hf4; subst hf5; subst hfs
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    refine (read_after_span _ _ off2_zero _ _ _).trans ?_
    rw [View.readCov_unit_zero _ off2_zero, readAt_span _ _ off2_zero, readAt_span _ _ off2_zero, readAt_span _ _ off2_zero,
      readAt_span _ _ off2_zero, readAt_span _ _ off2_zero, readAt_span _ _ off2_zero]
  iexists _; isplitr
  swap; · iexact HS
  ipureintro
  sl_unfold_run_names
  refine (read_after_span _ _ off2_zero _ _ _).trans ?_
  rw [readAt_span _ _ off2_zero, readAt_span _ _ off2_zero, readAt_span _ _ off2_zero]

end Triples

section Region

-- the TensorCore's buffer contents when the pooling call is entered
variable (V : (c : Dev nD) → (b : Ref sig .tc) → Buf (Elt F) ((c : Thread nD τ).loc b))

/-! ## The blocks the call reads, the accumulator, the output -/

/-- Block `t` of window `w`, read off the window's array as the call finds it. -/
def pool6Blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The accumulator after the body at point `n`: the first point starts from the cleared value, each later point
    from what the point before left; every point adds its block's contribution. -/
def poolAcc (c : Dev nD) : (n : ℕ) → n < cfg6.N → Vec F S512x64 .f32
  | 0, h => k6_pay2 (pool6Blk V c 1 ⟨0, h⟩) (pool6Blk V c 0 ⟨0, h⟩) (k6_pay1 (F := F))
  | n + 1, h => k6_pay2 (pool6Blk V c 1 ⟨n + 1, h⟩) (pool6Blk V c 0 ⟨n + 1, h⟩) (poolAcc c n (Nat.lt_of_succ_lt h))

theorem poolAcc_zero (c : Dev nD) (h : 0 < cfg6.N) :
    poolAcc V c 0 h = k6_pay2 (pool6Blk V c 1 ⟨0, h⟩) (pool6Blk V c 0 ⟨0, h⟩) (k6_pay1 (F := F)) := by
  rw [poolAcc]

theorem poolAcc_succ (c : Dev nD) (n : ℕ) (h : n + 1 < cfg6.N) :
    poolAcc V c (n + 1) h
      = k6_pay2 (pool6Blk V c 1 ⟨n + 1, h⟩) (pool6Blk V c 0 ⟨n + 1, h⟩) (poolAcc V c n (Nat.lt_of_succ_lt h)) := by
  rw [poolAcc]

/-- The accumulator after the first point, stated at the point. -/
theorem poolAcc_at_first (c : Dev nD) (t : Fin cfg6.N) (h : t.val = 0) :
    poolAcc V c t.val t.isLt = k6_pay2 (pool6Blk V c 1 t) (pool6Blk V c 0 t) (k6_pay1 (F := F)) := by
  obtain ⟨n, hn⟩ := t
  cases n with
  | zero => exact poolAcc_zero V c hn
  | succ n => exact absurd h (Nat.succ_ne_zero n)

/-- The accumulator after a later point, stated at the point, over what the point before left. -/
theorem poolAcc_at_later (c : Dev nD) (t : Fin cfg6.N) (h : t.val ≠ 0) :
    poolAcc V c t.val t.isLt
      = k6_pay2 (pool6Blk V c 1 t) (pool6Blk V c 0 t)
          (poolAcc V c (t.val - 1) (Nat.lt_of_le_of_lt (Nat.sub_le _ _) t.isLt)) := by
  obtain ⟨n, hn⟩ := t
  cases n with
  | zero => exact absurd rfl h
  | succ n => exact poolAcc_succ V c n hn

/-- What the last point stores into the output block: the mean (accumulator over counts) through the final layer. -/
def pool6Out (c : Dev nD) (t : Fin cfg6.N) : Vec F S512x10 .f32 :=
  k6_pay3 (poolAcc V c t.val t.isLt) (pool6Blk V c 2 t) (pool6Blk V c 3 t) (pool6Blk V c 4 t)

/-! ## The invariant between grid points -/

/-- Before the first point: the call's scoped buffers at anything, and the generator register. After point `n`: the
    accumulator at `poolAcc … n`, every other scoped buffer at anything, and the generator register. -/
def pool6Phi (c : Dev nD) : (n : ℕ) → n ≤ cfg6.N → sProp 𝕄
  | 0, _ => Pipeline.ΦA spec6 c
  | n + 1, hn =>
    iprop(owns (c : Thread nD τ) (Memref.whole cc6_scratch0) fullShare (poolAcc V c n hn)
      ∗ Pipeline.scopedRestBut (Ix := Unit) (Name := ℕ) (U := UR sig nD τ) (Lvl := ℕ) (Val := Elt F) spec6 c [cc6_scratch0]
      ∗ (∃ r, prngReg c r))

theorem pool6Phi_zero (c : Dev nD) (n : ℕ) (h : n ≤ cfg6.N) (hz : n = 0) : pool6Phi V c n h = Pipeline.ΦA spec6 c := by
  subst hz; rfl

theorem pool6Phi_succ (c : Dev nD) (n : ℕ) (hn : n < cfg6.N) :
    pool6Phi V c (n + 1) hn
      = iprop(owns (c : Thread nD τ) (Memref.whole cc6_scratch0) fullShare (poolAcc V c n hn)
          ∗ Pipeline.scopedRestBut (Ix := Unit) (Name := ℕ) (U := UR sig nD τ) (Lvl := ℕ) (Val := Elt F) spec6 c [cc6_scratch0]
          ∗ (∃ r, prngReg c r)) := rfl

theorem pool6Phi_pos (c : Dev nD) (n : ℕ) (h : n ≤ cfg6.N) (hz : n ≠ 0) :
    pool6Phi V c n h
      = iprop(owns (c : Thread nD τ) (Memref.whole cc6_scratch0) fullShare (poolAcc V c (n - 1) (by omega))
          ∗ Pipeline.scopedRestBut (Ix := Unit) (Name := ℕ) (U := UR sig nD τ) (Lvl := ℕ) (Val := Elt F) spec6 c [cc6_scratch0]
          ∗ (∃ r, prngReg c r)) := by
  cases n with
  | zero => exact absurd rfl hz
  | succ n => rfl

/-- The entry invariant with the accumulator's buffer taken out of the scoped rest. -/
theorem PhiA6_open (c : Dev nD) :
    (Pipeline.ΦA spec6 c : sProp 𝕄)
      = iprop(iprop((∃ s, owns (c : Thread nD τ) (Memref.whole cc6_scratch0) fullShare s)
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [owns_whole]

/-! ## The proof data -/

/-- The call's proof data on core `c`: the arrays as the call finds them; after the body at point `t` every input's
    buffer at its block and the output's at `pool6Out` (consulted at the last point only: elsewhere the window is idle);
    the invariant `pool6Phi`; full shares; nothing owed. -/
def pool6Dat (c : Dev nD) : Dat τ (Elt F) Unit ℕ (UR sig nD τ) ℕ cfg6 c where
  A w := V c (Pipeline.arrRef spec6 w)
  after w t := match w with
    | ⟨0, _⟩ => pool6Blk V c 0 t
    | ⟨1, _⟩ => pool6Blk V c 1 t
    | ⟨2, _⟩ => pool6Blk V c 2 t
    | ⟨3, _⟩ => pool6Blk V c 3 t
    | ⟨4, _⟩ => pool6Blk V c 4 t
    | ⟨5, _⟩ => pool6Out V c t
  Φ t := pool6Phi V c t.val (Nat.le_of_lt_succ t.isLt)
  q _ := fullShare
  owed _ := 0

theorem pool6Dat_A (c : Dev nD) (w : Fin cfg6.W) : (pool6Dat V c).A w = V c (Pipeline.arrRef spec6 w) := by
  dsimp only [pool6Dat]

theorem pool6Dat_after0 (c : Dev nD) (t : Fin cfg6.N) : (pool6Dat V c).after 0 t = pool6Blk V c 0 t := by dsimp only [pool6Dat]
theorem pool6Dat_after1 (c : Dev nD) (t : Fin cfg6.N) : (pool6Dat V c).after 1 t = pool6Blk V c 1 t := by dsimp only [pool6Dat]
theorem pool6Dat_after2 (c : Dev nD) (t : Fin cfg6.N) : (pool6Dat V c).after 2 t = pool6Blk V c 2 t := by dsimp only [pool6Dat]
theorem pool6Dat_after3 (c : Dev nD) (t : Fin cfg6.N) : (pool6Dat V c).after 3 t = pool6Blk V c 3 t := by dsimp only [pool6Dat]
theorem pool6Dat_after4 (c : Dev nD) (t : Fin cfg6.N) : (pool6Dat V c).after 4 t = pool6Blk V c 4 t := by dsimp only [pool6Dat]
theorem pool6Dat_after5 (c : Dev nD) (t : Fin cfg6.N) : (pool6Dat V c).after 5 t = pool6Out V c t := by dsimp only [pool6Dat]

theorem pool6Dat_Phi_start (c : Dev nD) (t : Fin cfg6.N) :
    (pool6Dat V c).Φ t.castSucc = pool6Phi V c t.val (Nat.le_of_lt t.isLt) := by
  dsimp only [pool6Dat]; simp only [Fin.coe_castSucc]

/-! ## What each input's staging buffer holds when the body runs

An input that the body leaves in place holds its block at every point, whether the pipeline fetched it there or not
(unfetched, the block index has not moved): this covers the three resident inputs fetched at the first point only. -/

theorem pool6_before0 (c : Dev nD) (t : Fin cfg6.N) (d) : (pool6Dat V c).before 0 t d = pool6Blk V c 0 t :=
  ((pool6Dat V c).before_in_eq_fetched 0 rfl (fun _ => rfl) (fun _ _ _ => rfl)
    (fun t => by rw [pool6Dat_after0]; unfold Dat.blockOf pool6Blk; rw [pool6Dat_A]; try rfl) t d).trans
    (by unfold Dat.fetched Dat.blockOf pool6Blk; rw [pool6Dat_A]; try rfl)

theorem pool6_before1 (c : Dev nD) (t : Fin cfg6.N) (d) : (pool6Dat V c).before 1 t d = pool6Blk V c 1 t :=
  ((pool6Dat V c).before_in_eq_fetched 1 rfl (fun _ => rfl) (fun _ _ _ => rfl)
    (fun t => by rw [pool6Dat_after1]; unfold Dat.blockOf pool6Blk; rw [pool6Dat_A]; try rfl) t d).trans
    (by unfold Dat.fetched Dat.blockOf pool6Blk; rw [pool6Dat_A]; try rfl)

theorem pool6_before2 (c : Dev nD) (t : Fin cfg6.N) (d) : (pool6Dat V c).before 2 t d = pool6Blk V c 2 t :=
  ((pool6Dat V c).before_in_eq_fetched 2 rfl (fun _ => rfl) (fun _ _ _ => rfl)
    (fun t => by rw [pool6Dat_after2]; unfold Dat.blockOf pool6Blk; rw [pool6Dat_A]; try rfl) t d).trans
    (by unfold Dat.fetched Dat.blockOf pool6Blk; rw [pool6Dat_A]; try rfl)

theorem pool6_before3 (c : Dev nD) (t : Fin cfg6.N) (d) : (pool6Dat V c).before 3 t d = pool6Blk V c 3 t :=
  ((pool6Dat V c).before_in_eq_fetched 3 rfl (fun _ => rfl) (fun _ _ _ => rfl)
    (fun t => by rw [pool6Dat_after3]; unfold Dat.blockOf pool6Blk; rw [pool6Dat_A]; try rfl) t d).trans
    (by unfold Dat.fetched Dat.blockOf pool6Blk; rw [pool6Dat_A]; try rfl)

theorem pool6_before4 (c : Dev nD) (t : Fin cfg6.N) (d) : (pool6Dat V c).before 4 t d = pool6Blk V c 4 t :=
  ((pool6Dat V c).before_in_eq_fetched 4 rfl (fun _ => rfl) (fun _ _ _ => rfl)
    (fun t => by rw [pool6Dat_after4]; unfold Dat.blockOf pool6Blk; rw [pool6Dat_A]; try rfl) t d).trans
    (by unfold Dat.fetched Dat.blockOf pool6Blk; rw [pool6Dat_A]; try rfl)

/-! ## Where the output window is idle -/

/-- Away from the last point the configuration calls the output idle, -/
theorem pool6_idle5 : ∀ t : Fin cfg6.N, ¬ isLast6 (grid6.coords t) → cfg6.idle 5 (grid6.coords t) = true := by decide +kernel
/-- and at the last point live. -/
theorem pool6_live5 : ∀ t : Fin cfg6.N, isLast6 (grid6.coords t) → cfg6.idle 5 (grid6.coords t) = false := by decide +kernel

/-- A window live at a point is handed back at what the body leaves. -/
theorem pool6_leaves_live (c : Dev nD) (w : Fin cfg6.W) (t : Fin cfg6.N) (h : cfg6.idle w (cfg6.grid.coords t) = false) :
    (pool6Dat V c).leavesExact w t
      = owns (c : Thread nD τ) ((cfg6.win w).stage (cfg6.slots t w)) fullShare ((pool6Dat V c).after w t) := by
  unfold Dat.leavesExact; rw [h]

/-! ## The body obligation -/

/-- What the body is called with at point `t`, window by window, -/
def pool6Pre (c : Dev nD) (t : Fin cfg6.N) : sProp 𝕄 :=
  iprop((pool6Dat V c).Φ t.castSucc ∗ (pool6Dat V c).owesAt () t.castSucc
    ∗ (∃ d, owns (c : Thread nD τ) (st6_0 t) fullShare ((pool6Dat V c).before 0 t d))
    ∗ (∃ d, owns (c : Thread nD τ) (st6_1 t) fullShare ((pool6Dat V c).before 1 t d))
    ∗ (∃ d, owns (c : Thread nD τ) (st6_2 t) fullShare ((pool6Dat V c).before 2 t d))
    ∗ (∃ d, owns (c : Thread nD τ) (st6_3 t) fullShare ((pool6Dat V c).before 3 t d))
    ∗ (∃ d, owns (c : Thread nD τ) (st6_4 t) fullShare ((pool6Dat V c).before 4 t d))
    ∗ (∃ d, owns (c : Thread nD τ) (st6_5 t) fullShare ((pool6Dat V c).before 5 t d)))

/-- and what it hands back. -/
def pool6Post (c : Dev nD) (t : Fin cfg6.N) : sProp 𝕄 :=
  iprop((pool6Dat V c).Φ t.succ ∗ (pool6Dat V c).owesAt () t.succ
    ∗ (pool6Dat V c).leavesExact 0 t
    ∗ (pool6Dat V c).leavesExact 1 t
    ∗ (pool6Dat V c).leavesExact 2 t
    ∗ (pool6Dat V c).leavesExact 3 t
    ∗ (pool6Dat V c).leavesExact 4 t
    ∗ (pool6Dat V c).leavesExact 5 t)

/-- Away from the last point the pipeline does not write the output block back. -/
theorem pool6_noflush5 (t : Fin cfg6.N) (h : ¬ isLast6 (grid6.coords t)) : (cfg6.win 5).flush t = false :=
  Bool.eq_false_iff.mpr fun hf => h ((isLast6_iff t).mpr ((flush6_5 t).mp hf))

set_option maxHeartbeats 4000000 in
/-- The body at any point. The inputs' buffers hold their blocks; the point's position decides which of the three
    runs applies; the invariant hands the body the accumulator (at anything before the first point, afterwards at what
    the point before left) and takes it back at this point's value; the output's buffer passes through untouched
    except at the last point, where it is overwritten; what the core owes passes through. -/
theorem pool6_sound (c : Dev nD) (t : Fin cfg6.N) :
    pool6Pre V c t ⊢ wp frame (wpE (defs₀ (F := F)) Variants.none c none) Set.univ (bodyAt6 t) (fun _ => pool6Post V c t) := by
  unfold pool6Pre pool6Post bodyAt6
  simp only [pool6_before0, pool6_before1, pool6_before2, pool6_before3, pool6_before4]
  rw [show (pool6Dat V c).owesAt () t.succ = (pool6Dat V c).owesAt () t.castSucc from rfl]
  rw [show (pool6Dat V c).Φ t.succ = pool6Phi V c (t.val + 1) t.isLt from rfl, pool6Phi_succ]
  rw [pool6_leaves_live V c 0 t rfl, pool6_leaves_live V c 1 t rfl, pool6_leaves_live V c 2 t rfl,
    pool6_leaves_live V c 3 t rfl, pool6_leaves_live V c 4 t rfl,
    pool6Dat_after0, pool6Dat_after1, pool6Dat_after2, pool6Dat_after3, pool6Dat_after4]
  have hN : t.val < 20 := lt_of_lt_of_eq t.isLt (show cfg6.N = 20 from N_6)
  by_cases hz : t.val = 0
  · -- the first point
    have hf : isFirst6 (grid6.coords t) := (isFirst6_iff t).mpr (by omega)
    have hl : ¬ isLast6 (grid6.coords t) := fun h => by have := (isLast6_iff t).mp h; omega
    rw [Dat.leavesExact_idle (pool6Dat V c) 5 t (pool6_idle5 t hl) (pool6_noflush5 t hl)]
    rw [poolAcc_at_first V c t hz]
    rw [pool6Dat_Phi_start V c t, pool6Phi_zero V c _ _ hz, PhiA6_open]
    iintro ⟨⟨⟨HS, HR⟩, Hg⟩, Ho, ⟨%d0, H0⟩, ⟨%d1, H1⟩, ⟨%d2, H2⟩, ⟨%d3, H3⟩, ⟨%d4, H4⟩, H5⟩
    iapply (pool6_first c Set.univ (grid6.coords t) _ _ _ _ _ _ _ _ _ _ _ _ _ _ hf hl (pool6Blk V c 0 t) (pool6Blk V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h19 : t.val = 19
    · -- the last point
      have hf : ¬ isFirst6 (grid6.coords t) := fun h => by have := (isFirst6_iff t).mp h; omega
      have hl : isLast6 (grid6.coords t) := (isLast6_iff t).mpr (by omega)
      rw [pool6_leaves_live V c 5 t (pool6_live5 t hl), pool6Dat_after5]
      unfold pool6Out
      rw [poolAcc_at_later V c t hz]
      rw [pool6Dat_Phi_start V c t, pool6Phi_pos V c _ _ hz]
      iintro ⟨⟨HS, HR, Hg⟩, Ho, ⟨%d0, H0⟩, ⟨%d1, H1⟩, ⟨%d2, H2⟩, ⟨%d3, H3⟩, ⟨%d4, H4⟩, ⟨%d5, H5⟩⟩
      iapply (pool6_last c Set.univ (grid6.coords t) _ _ _ _ _ _ _ _ _ _ _ _ _ _ hf hl (pool6Blk V c 0 t) (pool6Blk V c 1 t)
        (pool6Blk V c 2 t) (pool6Blk V c 3 t) (pool6Blk V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      have hf : ¬ isFirst6 (grid6.coords t) := fun h => by have := (isFirst6_iff t).mp h; omega
      have hl : ¬ isLast6 (grid6.coords t) := fun h => by have := (isLast6_iff t).mp h; omega
      rw [Dat.leavesExact_idle (pool6Dat V c) 5 t (pool6_idle5 t hl) (pool6_noflush5 t hl)]
      rw [poolAcc_at_later V c t hz]
      rw [pool6Dat_Phi_start V c t, pool6Phi_pos V c _ _ hz]
      iintro ⟨⟨HS, HR, Hg⟩, Ho, ⟨%d0, H0⟩, ⟨%d1, H1⟩, ⟨%d2, H2⟩, ⟨%d3, H3⟩, ⟨%d4, H4⟩, H5⟩
      iapply (pool6_mid c Set.univ (grid6.coords t) _ _ _ _ _ _ _ _ _ _ _ _ _ _ hf hl (pool6Blk V c 0 t) (pool6Blk V c 1 t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation for the pooling call, at every point. -/
theorem pool6_body (c : Dev nD) : BodyObligation (pool6Dat (F := F) V c) (defs₀ (F := F)) Variants.none () Set.univ := fun t => by
  rw [bigSep_W6, bigSep_W6]
  exact pool6_sound V c t

/-! ## Entering and leaving the call -/

theorem pool6_hin (c : Dev nD) : Pipeline.ΦA spec6 c ⊢ (pool6Dat V c).Φ 0 := by
  rw [show (pool6Dat V c).Φ 0 = pool6Phi V c 0 (Nat.zero_le _) from rfl, pool6Phi_zero V c 0 _ rfl]

theorem pool6_hout (c : Dev nD) : (pool6Dat V c).Φ (Fin.last cfg6.N) ⊢ Pipeline.ΦA spec6 c := by
  have hlast : (Fin.last cfg6.N).val ≠ 0 := by rw [Fin.val_last]; have : cfg6.N = 20 := N_6; omega
  rw [show (pool6Dat V c).Φ (Fin.last cfg6.N) = pool6Phi V c (Fin.last cfg6.N).val (Nat.le_of_lt_succ (Fin.last cfg6.N).isLt) from rfl,
    pool6Phi_pos V c _ _ hlast, PhiA6_open]
  iintro ⟨HS, HR, Hg⟩
  isplitl [HS HR]
  · isplitl [HS]
    · iexists _; iexact HS
    iexact HR
  iexact Hg

end Region

end Cert.KernelIdeal.Hand

end
-- ==== Proof.KI.Chain.lean ====
/- The contents of a core's unscoped buffers between the items of @main, each step named.
   The launch contents, carried through the first host stretch, are `U1`.  A kernel region replaces the one array
   its output window writes by what the write-backs of all its grid points leave there (the region's proof data,
   taken at the contents the region is entered with, read at the end of the grid); a host stretch replaces the
   arrays its operations write.  `outs` collects what the regions leave, in the form the conditional frame's
   valuations are written over, and `VJ_eq` identifies those valuations, at `outs`, with the named steps. -/
import proofs.«422502_j47175920779584_2_alg».proof.Proof.Gen.KernelIdeal.Regions
import proofs.«422502_j47175920779584_2_alg».proof.Proof.KI.Lin0
import proofs.«422502_j47175920779584_2_alg».proof.Proof.KI.Comb1
import proofs.«422502_j47175920779584_2_alg».proof.Proof.KI.Lin2
import proofs.«422502_j47175920779584_2_alg».proof.Proof.KI.Comb3
import proofs.«422502_j47175920779584_2_alg».proof.Proof.KI.Lin4
import proofs.«422502_j47175920779584_2_alg».proof.Proof.KI.Comb5
import proofs.«422502_j47175920779584_2_alg».proof.Proof.KI.Pool6

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-! ## The steps -/

/-- after the first host stretch -/
def U1 (c : Dev nD) : Valuation τ sig (Elt F) := Gen.V1 m c

/-- after region 0 (the first dense transform): `main_v40` holds what the write-backs of every grid point leave -/
def U2 (c : Dev nD) : Valuation τ sig (Elt F) :=
  Function.update (U1 m c) main_v40 ((lin0Dat (fun c b => U1 m c b) c).arrAt 2 cfg0.N)

/-- after the host stretch `hostOps1` -/
def U3 (c : Dev nD) : Valuation τ sig (Elt F) := StableHlo.after hostOps1 (U2 m c)

/-- after region 1 (the first combine): `main_v54` holds what the write-backs of every grid point leave -/
def U4 (c : Dev nD) : Valuation τ sig (Elt F) :=
  Function.update (U3 m c) main_v54 ((comb1Dat (fun c b => U3 m c b) c).arrAt 4 cfg1.N)

/-- after region 2 (the second dense transform): `main_v55` holds what the write-backs of every grid point leave -/
def U5 (c : Dev nD) : Valuation τ sig (Elt F) :=
  Function.update (U4 m c) main_v55 ((lin2Dat (fun c b => U4 m c b) c).arrAt 2 cfg2.N)

/-- after the host stretch `hostOps3` -/
def U6 (c : Dev nD) : Valuation τ sig (Elt F) := StableHlo.after hostOps3 (U5 m c)

/-- after region 3 (the second combine): `main_v69` holds what the write-backs of every grid point leave -/
def U7 (c : Dev nD) : Valuation τ sig (Elt F) :=
  Function.update (U6 m c) main_v69 ((comb3Dat (fun c b => U6 m c b) c).arrAt 4 cfg3.N)

/-- after region 4 (the third dense transform): `main_v70` holds what the write-backs of every grid point leave -/
def U8 (c : Dev nD) : Valuation τ sig (Elt F) :=
  Function.update (U7 m c) main_v70 ((lin4Dat (fun c b => U7 m c b) c).arrAt 2 cfg4.N)

/-- after the host stretch `hostOps5` -/
def U9 (c : Dev nD) : Valuation τ sig (Elt F) := StableHlo.after hostOps5 (U8 m c)

/-- after region 5 (the third combine): `main_v84` holds what the write-backs of every grid point leave -/
def U10 (c : Dev nD) : Valuation τ sig (Elt F) :=
  Function.update (U9 m c) main_v84 ((comb5Dat (fun c b => U9 m c b) c).arrAt 4 cfg5.N)

/-- after region 6 (pooling and the final layer): `main_v85` holds what the write-backs of every grid point leave -/
def U11 (c : Dev nD) : Valuation τ sig (Elt F) :=
  Function.update (U10 m c) main_v85 ((pool6Dat (fun c b => U10 m c b) c).arrAt 5 cfg6.N)

/-! ## What a region's array holds after the region -/

theorem U2_self (c : Dev nD) : U2 m c main_v40 = (lin0Dat (fun c b => U1 m c b) c).arrAt 2 cfg0.N := by
  unfold U2; exact Function.update_self _ _ _

theorem U4_self (c : Dev nD) : U4 m c main_v54 = (comb1Dat (fun c b => U3 m c b) c).arrAt 4 cfg1.N := by
  unfold U4; exact Function.update_self _ _ _

theorem U5_self (c : Dev nD) : U5 m c main_v55 = (lin2Dat (fun c b => U4 m c b) c).arrAt 2 cfg2.N := by
  unfold U5; exact Function.update_self _ _ _

theorem U7_self (c : Dev nD) : U7 m c main_v69 = (comb3Dat (fun c b => U6 m c b) c).arrAt 4 cfg3.N := by
  unfold U7; exact Function.update_self _ _ _

theorem U8_self (c : Dev nD) : U8 m c main_v70 = (lin4Dat (fun c b => U7 m c b) c).arrAt 2 cfg4.N := by
  unfold U8; exact Function.update_self _ _ _

theorem U10_self (c : Dev nD) : U10 m c main_v84 = (comb5Dat (fun c b => U9 m c b) c).arrAt 4 cfg5.N := by
  unfold U10; exact Function.update_self _ _ _

theorem U11_self (c : Dev nD) : U11 m c main_v85 = (pool6Dat (fun c b => U10 m c b) c).arrAt 5 cfg6.N := by
  unfold U11; exact Function.update_self _ _ _

/-! ## What a step leaves alone -/

theorem U2_of (c : Dev nD) (r : Ref sig .tc) (h : r ≠ main_v40) : U2 m c r = U1 m c r := by
  unfold U2; exact Function.update_of_ne (StableHlo.devRef_ne_of_ne h) _ _

theorem U3_of (c : Dev nD) (r : Ref sig .tc) (h : r ∉ hostOps1_W) : U3 m c r = U2 m c r := by
  unfold U3; exact StableHlo.after_of_writes_sub hostOps1 _ hostOps1_writes h

theorem U4_of (c : Dev nD) (r : Ref sig .tc) (h : r ≠ main_v54) : U4 m c r = U3 m c r := by
  unfold U4; exact Function.update_of_ne (StableHlo.devRef_ne_of_ne h) _ _

theorem U5_of (c : Dev nD) (r : Ref sig .tc) (h : r ≠ main_v55) : U5 m c r = U4 m c r := by
  unfold U5; exact Function.update_of_ne (StableHlo.devRef_ne_of_ne h) _ _

theorem U6_of (c : Dev nD) (r : Ref sig .tc) (h : r ∉ hostOps3_W) : U6 m c r = U5 m c r := by
  unfold U6; exact StableHlo.after_of_writes_sub hostOps3 _ hostOps3_writes h

theorem U7_of (c : Dev nD) (r : Ref sig .tc) (h : r ≠ main_v69) : U7 m c r = U6 m c r := by
  unfold U7; exact Function.update_of_ne (StableHlo.devRef_ne_of_ne h) _ _

theorem U8_of (c : Dev nD) (r : Ref sig .tc) (h : r ≠ main_v70) : U8 m c r = U7 m c r := by
  unfold U8; exact Function.update_of_ne (StableHlo.devRef_ne_of_ne h) _ _

theorem U9_of (c : Dev nD) (r : Ref sig .tc) (h : r ∉ hostOps5_W) : U9 m c r = U8 m c r := by
  unfold U9; exact StableHlo.after_of_writes_sub hostOps5 _ hostOps5_writes h

theorem U10_of (c : Dev nD) (r : Ref sig .tc) (h : r ≠ main_v84) : U10 m c r = U9 m c r := by
  unfold U10; exact Function.update_of_ne (StableHlo.devRef_ne_of_ne h) _ _

theorem U11_of (c : Dev nD) (r : Ref sig .tc) (h : r ≠ main_v85) : U11 m c r = U10 m c r := by
  unfold U11; exact Function.update_of_ne (StableHlo.devRef_ne_of_ne h) _ _

/-! ## What is kept since the first host stretch

`wrJ` lists every array written by an item between the first host stretch and step `J`; an array outside the
list still holds at step `J` what it held after the first stretch. -/

abbrev wr2 : List (Ref sig .tc) := [main_v40]
abbrev wr3 : List (Ref sig .tc) := wr2 ++ hostOps1_W
abbrev wr4 : List (Ref sig .tc) := wr3 ++ [main_v54]
abbrev wr5 : List (Ref sig .tc) := wr4 ++ [main_v55]
abbrev wr6 : List (Ref sig .tc) := wr5 ++ hostOps3_W
abbrev wr7 : List (Ref sig .tc) := wr6 ++ [main_v69]
abbrev wr8 : List (Ref sig .tc) := wr7 ++ [main_v70]
abbrev wr9 : List (Ref sig .tc) := wr8 ++ hostOps5_W
abbrev wr10 : List (Ref sig .tc) := wr9 ++ [main_v84]
abbrev wr11 : List (Ref sig .tc) := wr10 ++ [main_v85]

theorem keep2 (c : Dev nD) (r : Ref sig .tc) (h : r ∉ wr2) : U2 m c r = U1 m c r :=
  U2_of m c r (fun e => h (List.mem_singleton.mpr e))

theorem keep3 (c : Dev nD) (r : Ref sig .tc) (h : r ∉ wr3) : U3 m c r = U1 m c r :=
  (U3_of m c r (fun h' => h (List.mem_append_right _ h'))).trans
    (keep2 m c r (fun h' => h (List.mem_append_left _ h')))

theorem keep4 (c : Dev nD) (r : Ref sig .tc) (h : r ∉ wr4) : U4 m c r = U1 m c r :=
  (U4_of m c r (fun e => h (List.mem_append_right _ (List.mem_singleton.mpr e)))).trans
    (keep3 m c r (fun h' => h (List.mem_append_left _ h')))

theorem keep5 (c : Dev nD) (r : Ref sig .tc) (h : r ∉ wr5) : U5 m c r = U1 m c r :=
  (U5_of m c r (fun e => h (List.mem_append_right _ (List.mem_singleton.mpr e)))).trans
    (keep4 m c r (fun h' => h (List.mem_append_left _ h')))

theorem keep6 (c : Dev nD) (r : Ref sig .tc) (h : r ∉ wr6) : U6 m c r = U1 m c r :=
  (U6_of m c r (fun h' => h (List.mem_append_right _ h'))).trans
    (keep5 m c r (fun h' => h (List.mem_append_left _ h')))

theorem keep7 (c : Dev nD) (r : Ref sig .tc) (h : r ∉ wr7) : U7 m c r = U1 m c r :=
  (U7_of m c r (fun e => h (List.mem_append_right _ (List.mem_singleton.mpr e)))).trans
    (keep6 m c r (fun h' => h (List.mem_append_left _ h')))

theorem keep8 (c : Dev nD) (r : Ref sig .tc) (h : r ∉ wr8) : U8 m c r = U1 m c r :=
  (U8_of m c r (fun e => h (List.mem_append_right _ (List.mem_singleton.mpr e)))).trans
    (keep7 m c r (fun h' => h (List.mem_append_left _ h')))

theorem keep9 (c : Dev nD) (r : Ref sig .tc) (h : r ∉ wr9) : U9 m c r = U1 m c r :=
  (U9_of m c r (fun h' => h (List.mem_append_right _ h'))).trans
    (keep8 m c r (fun h' => h (List.mem_append_left _ h')))

theorem keep10 (c : Dev nD) (r : Ref sig .tc) (h : r ∉ wr10) : U10 m c r = U1 m c r :=
  (U10_of m c r (fun e => h (List.mem_append_right _ (List.mem_singleton.mpr e)))).trans
    (keep9 m c r (fun h' => h (List.mem_append_left _ h')))

theorem keep11 (c : Dev nD) (r : Ref sig .tc) (h : r ∉ wr11) : U11 m c r = U1 m c r :=
  (U11_of m c r (fun e => h (List.mem_append_right _ (List.mem_singleton.mpr e)))).trans
    (keep10 m c r (fun h' => h (List.mem_append_left _ h')))

/-! ## The regions' results, as the conditional frame wants them -/

/-- What each region leaves, indexed by the item after which it is read (only the region's own array is ever read
    at its index; elsewhere any contents of the right type do). -/
def outs : Gen.Outs (F := F) := fun J r c =>
  match J with
  | 2 => U2 m c r
  | 4 => U4 m c r
  | 5 => U5 m c r
  | 7 => U7 m c r
  | 8 => U8 m c r
  | 10 => U10 m c r
  | 11 => U11 m c r
  | _ => U1 m c r

theorem outs_2 (c : Dev nD) : outs m 2 main_v40 c = (lin0Dat (fun c b => U1 m c b) c).arrAt 2 cfg0.N := by
  show U2 m c main_v40 = _
  exact U2_self m c

theorem outs_4 (c : Dev nD) : outs m 4 main_v54 c = (comb1Dat (fun c b => U3 m c b) c).arrAt 4 cfg1.N := by
  show U4 m c main_v54 = _
  exact U4_self m c

theorem outs_5 (c : Dev nD) : outs m 5 main_v55 c = (lin2Dat (fun c b => U4 m c b) c).arrAt 2 cfg2.N := by
  show U5 m c main_v55 = _
  exact U5_self m c

theorem outs_7 (c : Dev nD) : outs m 7 main_v69 c = (comb3Dat (fun c b => U6 m c b) c).arrAt 4 cfg3.N := by
  show U7 m c main_v69 = _
  exact U7_self m c

theorem outs_8 (c : Dev nD) : outs m 8 main_v70 c = (lin4Dat (fun c b => U7 m c b) c).arrAt 2 cfg4.N := by
  show U8 m c main_v70 = _
  exact U8_self m c

theorem outs_10 (c : Dev nD) : outs m 10 main_v84 c = (comb5Dat (fun c b => U9 m c b) c).arrAt 4 cfg5.N := by
  show U10 m c main_v84 = _
  exact U10_self m c

theorem outs_11 (c : Dev nD) : outs m 11 main_v85 c = (pool6Dat (fun c b => U10 m c b) c).arrAt 5 cfg6.N := by
  show U11 m c main_v85 = _
  exact U11_self m c

/-! ## The conditional frame's valuations at `outs` are the named steps -/

theorem V1_eq (c : Dev nD) : Gen.V1 m c = U1 m c := rfl

theorem V2_eq (c : Dev nD) : Gen.V2 m (outs m) c = U2 m c := by
  unfold Gen.V2 U2
  rw [outs_2 m c, V1_eq m c]

theorem V3_eq (c : Dev nD) : Gen.V3 m (outs m) c = U3 m c := by
  unfold Gen.V3 U3
  rw [V2_eq m c]

theorem V4_eq (c : Dev nD) : Gen.V4 m (outs m) c = U4 m c := by
  unfold Gen.V4 U4
  rw [outs_4 m c, V3_eq m c]

theorem V5_eq (c : Dev nD) : Gen.V5 m (outs m) c = U5 m c := by
  unfold Gen.V5 U5
  rw [outs_5 m c, V4_eq m c]

theorem V6_eq (c : Dev nD) : Gen.V6 m (outs m) c = U6 m c := by
  unfold Gen.V6 U6
  rw [V5_eq m c]

theorem V7_eq (c : Dev nD) : Gen.V7 m (outs m) c = U7 m c := by
  unfold Gen.V7 U7
  rw [outs_7 m c, V6_eq m c]

theorem V8_eq (c : Dev nD) : Gen.V8 m (outs m) c = U8 m c := by
  unfold Gen.V8 U8
  rw [outs_8 m c, V7_eq m c]

theorem V9_eq (c : Dev nD) : Gen.V9 m (outs m) c = U9 m c := by
  unfold Gen.V9 U9
  rw [V8_eq m c]

theorem V10_eq (c : Dev nD) : Gen.V10 m (outs m) c = U10 m c := by
  unfold Gen.V10 U10
  rw [outs_10 m c, V9_eq m c]

theorem V11_eq (c : Dev nD) : Gen.V11 m (outs m) c = U11 m c := by
  unfold Gen.V11 U11
  rw [outs_11 m c, V10_eq m c]

end Cert.KernelIdeal.Hand

end
-- ==== Proof.KI.Run.lean ====
/- The run of the program of seven kernel regions: each region as a segment between two values of the contents
   chain, the launch data, and the two statements of the whole run — termination with the result array at the
   chain's last value and every argument array as launched (`run`), and the same with only the arguments (`frame`). -/
import proofs.«422502_j47175920779584_2_alg».proof.Proof.KI.Chain
import proofs.«422502_j47175920779584_2_alg».proof.Proof.KI.RunCond
import Idealize.ShloMosaic.Lib.Pipeline.Frame
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

/-! # The run of the seven-region program

The contents chain `U1 … U11` names what a core holds in its unscoped buffers between two items of the program:
the launch contents, each host stretch applied, each region's result array replaced by what that region's
write-backs leave.  Here every kernel region becomes a segment record, entered from the chain's value before it and
left at the value after it, with the generator register and the statement "nothing owed" travelling alongside; the
conditional run then gives termination, the result array at the chain's last value and the eleven argument arrays at
their launch contents. -/

variable (m : (ℓ : Loc nD τ sig) → Buf (Elt F) ℓ)

/-! ## The proof data of the seven pipelines, each at its region's entry contents -/

/-- A literal table, so that the data of pipeline `p` at a numeral reduces to that region's own record. -/
def pdats : (p : Fin 7) → (c : Dev nD) → Dat τ (Elt F) Unit ℕ (UR sig nD τ) ℕ (cfgs p) c
  | ⟨0, _⟩ => fun c => lin0Dat (fun c b => U1 m c b) c
  | ⟨1, _⟩ => fun c => comb1Dat (fun c b => U3 m c b) c
  | ⟨2, _⟩ => fun c => lin2Dat (fun c b => U4 m c b) c
  | ⟨3, _⟩ => fun c => comb3Dat (fun c b => U6 m c b) c
  | ⟨4, _⟩ => fun c => lin4Dat (fun c b => U7 m c b) c
  | ⟨5, _⟩ => fun c => comb5Dat (fun c b => U9 m c b) c
  | ⟨6, _⟩ => fun c => pool6Dat (fun c b => U10 m c b) c

/-- No core waits for another: no pair of a semaphore and an index carries a level. -/
abbrev noPairs : GSem nD τ sig → Finset Unit := fun _ => ∅
abbrev noLevel : GSem nD τ sig → Unit → ℕ := fun _ _ => 0

/-- What travels beside the buffers through every item: the core's generator register at some state and the
    statement that the core owes nothing. -/
abbrev rides (c : Dev nD) : sProp 𝕄 :=
  iprop((∃ r, prngReg c r) ∗ ∃ W, owes (c : Thread nD τ) (0 : CellTallies nD τ sig Unit) W)

-- the chain's values are compared by name only: nothing below opens one
attribute [local irreducible] U1 U2 U3 U4 U5 U6 U7 U8 U9 U10 U11
/-! ## The steps every region shares

A region of this program has no semaphore of its own and prefetches no table.  It is entered from "every unscoped
buffer at `Vin`, the generator register, nothing owed" and left at "every unscoped buffer at `Vout`, the generator
register, nothing owed", where `Vout` has the region's arrays at what the pipeline leaves in them and agrees with
`Vin` elsewhere. -/

section Shared

variable (p : Fin 7) (c : Dev nD) (Vin Vout : Valuation τ sig (Elt F))

set_option backward.isDefEq.respectTransparency.types false in
/-- Entry: the arrays are split out of the unscoped buffers, the register goes to the invariant, the rest bypasses. -/
theorem region_entry
    (hw : Pipeline.WinFacts (Pipeline.pin (pcfgs (F := F)) adm p).spec)
    (harr : ∀ w, ((Pipeline.pin (pcfgs (F := F)) adm p).spec w).arr.IsWhole)
    (hq : ∀ w, (pdats m p c).q w = fullShare)
    (hA : ∀ w, (pdats m p c).A w = Vin (Pipeline.arrRef (Pipeline.pin (pcfgs (F := F)) adm p).spec w))
    (ho : (pdats m p c).owed 0 = 0) (hr : (pdats m p c).recorded 0 = Set.univ) :
    iprop(iprop(StableHlo.held (c : Thread nD τ) (Pipeline.ucRefs τ sig) Vin ∗ rides c)
        ∗ Pipeline.ownSems0 (fun k : PEmpty => k.elim) c ∗ levAts noPairs noLevel)
      ⊢ |={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ) (Pipeline.pin (pcfgs (F := F)) adm p).spec c (fun b => Vin b)) := by
  have hsplit := Pipeline.arrays_of_unscopedBufs (p := p) (pcfgs (F := F)) adm (pdats m) hw harr c
    ((pdats m p c).share_full hq) (fun b => Vin b) hA
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin (pcfgs (F := F) p).pre.K)) = ∅ from rfl, BI.bigSep_empty]; iempintro
  isplitl [HO]
  · unfold Pipeline.Dat.owesAt Pipeline.owesWithin Pipeline.Dat.bound
    rw [ho, hr]
    icases HO with ⟨%W, HO⟩; iexists W; isplitr; · ipureintro; exact fun _ _ => Or.inl trivial
    iexact HO
  isplitl [Hp]; · iexact Hp
  iexact Hrest

set_option backward.isDefEq.respectTransparency.types false in
/-- Exit: the arrays at their final contents and the bypassing rest are the unscoped buffers at `Vout`. -/
theorem region_exit
    (hw : Pipeline.WinFacts (Pipeline.pin (pcfgs (F := F)) adm p).spec)
    (harr : ∀ w, ((Pipeline.pin (pcfgs (F := F)) adm p).spec w).arr.IsWhole)
    (hq : ∀ w, (pdats m p c).q w = fullShare)
    (ho : (pdats m p c).owed (Fin.last _) = 0)
    (hF : ∀ w, (pdats m p c).arrAt w (Pipeline.pin (pcfgs (F := F)) adm p).N
      = (fun b : Ref sig .tc => Vout b) (Pipeline.arrRef (Pipeline.pin (pcfgs (F := F)) adm p).spec w))
    (hrest : ∀ b : Ref sig .tc, b ∉ Finset.univ.image (Pipeline.arrRef (Pipeline.pin (pcfgs (F := F)) adm p).spec) → Vout b = Vin b) :
    iprop((pdats m p c).arrays ((pdats m p c).arrAt · (Pipeline.pin (pcfgs (F := F)) adm p).N)
        ∗ (pdats m p c).owesAt () (Fin.last (Pipeline.pin (pcfgs (F := F)) adm p).N) ∗ (∃ r, prngReg c r)
        ∗ Pipeline.unscopedRest (Ix := Unit) (Name := ℕ) (U := UR sig nD τ) (Lvl := ℕ) (Pipeline.pin (pcfgs (F := F)) adm p).spec c (fun b => Vin b))
      ⊢ |={Set.univ}=> iprop(StableHlo.held (c : Thread nD τ) (Pipeline.ucRefs τ sig) Vout ∗ rides c) := by
  have hjoin := Pipeline.unscopedBufs_of_arrays (p := p) (pcfgs (F := F)) adm (Ix := Unit) (Name := ℕ) (U := UR sig nD τ) (Lvl := ℕ)
    hw harr c (pdats m) ((pdats m p c).share_full hq)
    (fun b => Vin b) (fun b => Vout b) ((pdats m p c).arrAt · (Pipeline.pin (pcfgs (F := F)) adm p).N) hF hrest
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  rw [ho]
  icases HO with ⟨%W, -, HO⟩; iexists W; iexact HO

end Shared

/-- The generator register and the kernel's scratch make the invariant of a body that touches only its windows. -/
theorem plain_in {gr W : Nat} (win : Fin W → Pipeline.WinSpec sig gr) (T : sProp 𝕄) (c : Dev nD) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

/-- and that invariant gives both back. -/
theorem plain_out {gr W : Nat} (win : Fin W → Pipeline.WinSpec sig gr) (c : Dev nD) :
    (Pipeline.ΦA win c : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) win c) := by
  rw [Pipeline.ownSems0_none]; unfold Pipeline.ΦA
  iintro ⟨Hr, Hp⟩
  isplitl [Hp]; · iexact Hp
  isplitr; · iempintro
  iexact Hr

section Record

variable (p : Fin 7) (Vin Vout : Dev nD → Valuation τ sig (Elt F))

/-- What the exit value must hold at the region's arrays: the one result window `o` is the value's own entry,
    every other window is an input, never written back, and the value keeps it. -/
theorem exit_arrays (c : Dev nD)
    (hw : Pipeline.WinFacts (cfgs p).spec) (o : Fin (cfgs p).W)
    (hin : ∀ w, w ≠ o → ((cfgs p).win w).isOut = false)
    (hA : ∀ w, (pdats m p c).A w = Vin c (Pipeline.arrRef (cfgs p).spec w))
    (hkeep : ∀ r : Ref sig .tc, r ≠ Pipeline.arrRef (cfgs p).spec o → Vout c r = Vin c r)
    (hself : Vout c (Pipeline.arrRef (cfgs p).spec o) = (pdats m p c).arrAt o (cfgs p).N)
    (w : Fin (cfgs p).W) :
    (pdats m p c).arrAt w (cfgs p).N = (fun b : Ref sig .tc => Vout c b) (Pipeline.arrRef (cfgs p).spec w) := by
  by_cases h : w = o
  · subst h; exact hself.symm
  · exact ((pdats m p c).arrAt_in w (hin w h) _).trans ((hA w).trans (hkeep _ fun e => h (hw.arr_inj e)).symm)

/-- Off the region's arrays the exit value is the entry value. -/
theorem exit_rest (c : Dev nD) (o : Fin (cfgs p).W)
    (hkeep : ∀ r : Ref sig .tc, r ≠ Pipeline.arrRef (cfgs p).spec o → Vout c r = Vin c r)
    (b : Ref sig .tc) (hb : b ∉ Finset.univ.image (Pipeline.arrRef (cfgs p).spec)) : Vout c b = Vin c b :=
  hkeep b fun e => hb (by subst e; exact Finset.mem_image.mpr ⟨o, Finset.mem_univ _, rfl⟩)

set_option backward.isDefEq.respectTransparency.types false in
/-- A region of this program as a segment, from what is its own: the launch facts of its pipeline, its body
    obligation, its invariant opening from and closing to the plain one, its result window `o`, and the two facts
    relating the exit value `Vout` to the entry value `Vin` (kept off the result array, the pipeline's write-backs
    at it).  Entered from every unscoped buffer at `Vin` beside `rides`, left at `Vout` beside `rides`. -/
def regionOf
    (kit : Pipeline.LaunchFacts (nD := nD) (τ := τ) cfgs p)
    (hbody : ∀ c, BodyObligation (pdats m p c) (defs₀ (F := F)) Variants.none () Set.univ)
    (hq : ∀ c w, (pdats m p c).q w = fullShare)
    (hA : ∀ c w, (pdats m p c).A w = Vin c (Pipeline.arrRef (cfgs p).spec w))
    (ho : ∀ c t, (pdats m p c).owed t = 0)
    (hr : ∀ c, (pdats m p c).recorded 0 = Set.univ)
    (hΦin : ∀ c, (Pipeline.ΦA (cfgs p).spec c : sProp 𝕄) ⊢ (pdats m p c).Φ 0)
    (hΦout : ∀ c, (pdats m p c).Φ (Fin.last (cfgs p).N) ⊢ (Pipeline.ΦA (cfgs p).spec c : sProp 𝕄))
    (o : Fin (cfgs p).W)
    (hin : ∀ w, w ≠ o → ((cfgs p).win w).isOut = false)
    (hkeep : ∀ c (r : Ref sig .tc), r ≠ Pipeline.arrRef (cfgs p).spec o → Vout c r = Vin c r)
    (hself : ∀ c, Vout c (Pipeline.arrRef (cfgs p).spec o) = (pdats m p c).arrAt o (cfgs p).N) :
    RegionSeg (pcfgs (F := F)) adm (pdats m) () defs₀ Variants.none noPairs noLevel p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ noPairs noLevel p ho
  pre c := iprop(StableHlo.held (c : Thread nD τ) (Pipeline.ucRefs τ sig) (Vin c) ∗ rides c)
  post c := iprop(StableHlo.held (c : Thread nD τ) (Pipeline.ucRefs τ sig) (Vout c) ∗ rides c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := region_entry m p c (Vin c) kit.win kit.arr_whole (hq c) (hA c) (ho c 0) (hr c)
  hin c := (plain_in (cfgs p).spec _ c).trans (hΦin c)
  hout c := (hΦout c).trans (plain_out (cfgs p).spec c)
  hexit c := region_exit m p c (Vin c) (Vout c) kit.win kit.arr_whole (hq c) (ho c (Fin.last _))
    (exit_arrays m p Vin Vout c kit.win o hin (hA c) (hkeep c) (hself c)) (exit_rest p Vin Vout c o (hkeep c))

end Record

/-! ## The seven regions -/

/-- Region 0, the first dense transform `main_arg0 · main_arg3 → main_v40`: from `U1` to `U2`. -/
def reg0 : RegionSeg (pcfgs (F := F)) adm (pdats m) () defs₀ Variants.none noPairs noLevel 0 :=
  regionOf m 0 (U1 m) (U2 m) launch0 (lin0_body (fun c b => U1 m c b)) (fun _ _ => rfl)
    (lin0Dat_A (fun c b => U1 m c b)) (fun _ _ => rfl) (fun _ => rfl)
    (fun _ => .rfl) (fun _ => .rfl)
    2 (by decide) (U2_of m) (U2_self m)

/-- Region 1, the first combine `max (main_v53 + main_v40 · main_v27 + main_v28) 0 → main_v54`: from `U3` to `U4`. -/
def reg1 : RegionSeg (pcfgs (F := F)) adm (pdats m) () defs₀ Variants.none noPairs noLevel 1 :=
  regionOf m 1 (U3 m) (U4 m) launch1 (comb1_body (fun c b => U3 m c b)) (fun _ _ => rfl)
    (comb1Dat_A (fun c b => U3 m c b)) (fun _ _ => rfl) (fun _ => rfl)
    (fun _ => .rfl) (fun _ => .rfl)
    4 (by decide) (U4_of m) (U4_self m)

/-- Region 2, the second dense transform `main_v54 · main_arg5 → main_v55`: from `U4` to `U5`. -/
def reg2 : RegionSeg (pcfgs (F := F)) adm (pdats m) () defs₀ Variants.none noPairs noLevel 2 :=
  regionOf m 2 (U4 m) (U5 m) launch2 (lin2_body (fun c b => U4 m c b)) (fun _ _ => rfl)
    (lin2Dat_A (fun c b => U4 m c b)) (fun _ _ => rfl) (fun _ => rfl)
    (fun _ => .rfl) (fun _ => .rfl)
    2 (by decide) (U5_of m) (U5_self m)

/-- Region 3, the second combine `max (main_v68 + main_v55 · main_v27 + main_v29) 0 → main_v69`: from `U6` to `U7`. -/
def reg3 : RegionSeg (pcfgs (F := F)) adm (pdats m) () defs₀ Variants.none noPairs noLevel 3 :=
  regionOf m 3 (U6 m) (U7 m) launch3 (comb3_body (fun c b => U6 m c b)) (fun _ _ => rfl)
    (comb3Dat_A (fun c b => U6 m c b)) (fun _ _ => rfl) (fun _ => rfl)
    (fun _ => .rfl) (fun _ => .rfl)
    4 (by decide) (U7_of m) (U7_self m)

/-- Region 4, the third dense transform `main_v69 · main_arg7 → main_v70`: from `U7` to `U8`. -/
def reg4 : RegionSeg (pcfgs (F := F)) adm (pdats m) () defs₀ Variants.none noPairs noLevel 4 :=
  regionOf m 4 (U7 m) (U8 m) launch4 (lin4_body (fun c b => U7 m c b)) (fun _ _ => rfl)
    (lin4Dat_A (fun c b => U7 m c b)) (fun _ _ => rfl) (fun _ => rfl)
    (fun _ => .rfl) (fun _ => .rfl)
    2 (by decide) (U8_of m) (U8_self m)

/-- Region 5, the third combine, without the clamp, `main_v83 + main_v70 · main_v27 + main_v30 → main_v84`: from `U9` to `U10`. -/
def reg5 : RegionSeg (pcfgs (F := F)) adm (pdats m) () defs₀ Variants.none noPairs noLevel 5 :=
  regionOf m 5 (U9 m) (U10 m) launch5 (comb5_body (fun c b => U9 m c b)) (fun _ _ => rfl)
    (comb5Dat_A (fun c b => U9 m c b)) (fun _ _ => rfl) (fun _ => rfl)
    (fun _ => .rfl) (fun _ => .rfl)
    4 (by decide) (U10_of m) (U10_self m)

/-- Region 6, mean pooling and the final layer, whose invariant tracks the accumulator carried between grid points: from `U10` to `U11`. -/
def reg6 : RegionSeg (pcfgs (F := F)) adm (pdats m) () defs₀ Variants.none noPairs noLevel 6 :=
  regionOf m 6 (U10 m) (U11 m) launch6 (pool6_body (fun c b => U10 m c b)) (fun _ _ => rfl)
    (pool6Dat_A (fun c b => U10 m c b)) (fun _ _ => rfl) (fun _ => rfl)
    (pool6_hin (fun c b => U10 m c b)) (pool6_hout (fun c b => U10 m c b))
    5 (by decide) (U11_of m) (U11_self m)

/-! ## The launch -/

/-- Two names of one valuation give the same thread state. -/
theorem held_rides_congr (c : Dev nD) {W W' : Valuation τ sig (Elt F)} (h : W = W') :
    iprop(StableHlo.held (c : Thread nD τ) (Pipeline.ucRefs τ sig) W ∗ rides c)
      ⊢ (iprop(StableHlo.held (c : Thread nD τ) (Pipeline.ucRefs τ sig) W' ∗ rides c) : sProp 𝕄) := by
  subst h; exact .rfl

/-- The launch's ghost element is the pipelines' own; no further ghost resource is dealt to the cores. -/
theorem launch_ghost :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE RUN.  From any memory with zero counters every weakly fair execution of the program terminates, and in every
    final memory the result array holds the chain's last value at it and each argument array its launch contents. -/
theorem run (ρ : Dev nD → PrngReg) :
    θ_run defs (onTc (τ := τ) (main (F := F))) ⟨m, fun _ => 0, ρ⟩ (fun r => ∀ c : Dev nD,
      r.2.mem ((c.tc : Thread nD τ).loc main_v85) = U11 m c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have h := run_cond m (Ix := Unit) (U := UR sig nD τ) (Lvl := ℕ) emb₁ () Variants.none noPairs noLevel (fun _ _ => rfl) ρ (outs m) (pdats m)
    0 (fun _ => (BI.emp : sProp 𝕄)) (initOf (Pipeline.cells cfgs cellOf_inj) (Pipeline.launchToks cfgs cellOf_inj)) launch_ghost
    (fun _ => rides)
    (Pipeline.initEach noPairs noLevel fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => held_rides_congr c (V1_eq m c)) (fun c => held_rides_congr c (V2_eq m c).symm)
    (reg1 m) (fun c => held_rides_congr c (V3_eq m c)) (fun c => held_rides_congr c (V4_eq m c).symm)
    (reg2 m) (fun c => held_rides_congr c (V4_eq m c)) (fun c => held_rides_congr c (V5_eq m c).symm)
    (reg3 m) (fun c => held_rides_congr c (V6_eq m c)) (fun c => held_rides_congr c (V7_eq m c).symm)
    (reg4 m) (fun c => held_rides_congr c (V7_eq m c)) (fun c => held_rides_congr c (V8_eq m c).symm)
    (reg5 m) (fun c => held_rides_congr c (V9_eq m c)) (fun c => held_rides_congr c (V10_eq m c).symm)
    (reg6 m) (fun c => held_rides_congr c (V10_eq m c)) (fun c => held_rides_congr c (V11_eq m c).symm)
  exact (θ_run defs _ _).mono (fun _ h' c => ⟨((h' c).1).trans (congrFun (V11_eq m c) _), (h' c).2⟩) h

/-- THE FRAME: the run, with only the argument arrays read. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run m ρ)

end Cert.KernelIdeal.Hand

end
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.Val.Host0.lean ====
import proofs.«422502_j47175920779584_2_alg».proof.Proof.Gen.KernelIdeal.Regions
import proofs.«422502_j47175920779584_2_alg».proof.Proof.Gen.ReferenceIdeal.Read
import Idealize.ShloMosaic.Lib.StableHlo.Run
import proofs.«422502_j47175920779584_2_alg».proof.Proof.LibCastBcast

set_option maxRecDepth 16384

noncomputable section

namespace Cert.KernelIdeal.HandVal

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-! The first host stretch computes, from the edge list and the batch ids alone, the quantities every layer
    shares: the source and destination node of each edge, the per-edge and per-node normalisations built
    from the inverse square roots of the degrees, the bias rows, the batch-id column and the graph sizes.
    Each is the same function of the arguments as the corresponding stage of the reference; where this
    program reshapes a vector into a column or a row and the reference broadcasts it along the new axis,
    the two arrays agree entry by entry. -/

set_option maxHeartbeats 4000000 in
/-- the edges' source nodes -/
theorem host0_src (c : Dev nD) : Gen.V1 m c main_v1 = Cert.ReferenceIdeal.Read.val_main_v1 (F := F) (m ((c.tc : Thread nD τ).loc main_arg1)) := by
  dsimp only [Gen.V1, Gen.V0, hostOps0]
  after_results_simp
  rfl

set_option maxHeartbeats 4000000 in
/-- the edges' destination nodes -/
theorem host0_dst (c : Dev nD) : Gen.V1 m c main_v3 = Cert.ReferenceIdeal.Read.val_main_v3 (F := F) (m ((c.tc : Thread nD τ).loc main_arg1)) := by
  dsimp only [Gen.V1, Gen.V0, hostOps0]
  after_results_simp
  rfl

set_option maxHeartbeats 4000000 in
/-- the per-edge normalisation: the product of the two endpoints' inverse square-root degrees -/
theorem host0_edgeNorm (c : Dev nD) : Gen.V1 m c main_v25 = Cert.ReferenceIdeal.Read.val_main_v29 (F := F) (m ((c.tc : Thread nD τ).loc main_arg1)) := by
  dsimp only [Gen.V1, Gen.V0, hostOps0]
  after_results_simp
  rfl

set_option maxHeartbeats 4000000 in
/-- the per-node normalisation (the squared inverse square-root degree) as a column -/
theorem host0_selfNormCol (c : Dev nD) : Gen.V1 m c main_v27 = Cert.ReferenceIdeal.Read.val_main_v45 (F := F) (m ((c.tc : Thread nD τ).loc main_arg1)) := by
  dsimp only [Gen.V1, Gen.V0, hostOps0]
  after_results_simp
  exact (Cert.LibCastBcast.column_cast_eq_bcast _ _ Cert.ReferenceIdeal.Gen.bcast_S100000_S100000x1_0).trans rfl

set_option maxHeartbeats 4000000 in
/-- the first layer's bias as a row -/
theorem host0_biasRow1 (c : Dev nD) : Gen.V1 m c main_v28 = Cert.ReferenceIdeal.Read.val_main_v49 (F := F) (m ((c.tc : Thread nD τ).loc main_arg4)) := by
  dsimp only [Gen.V1, Gen.V0, hostOps0]
  after_results_simp
  exact (Cert.LibCastBcast.row_cast_eq_bcast _ _ Cert.ReferenceIdeal.Gen.bcast_S64_S1x64_1).trans rfl

set_option maxHeartbeats 4000000 in
/-- the second layer's bias as a row -/
theorem host0_biasRow2 (c : Dev nD) : Gen.V1 m c main_v29 = Cert.ReferenceIdeal.Read.val_main_v71 (F := F) (m ((c.tc : Thread nD τ).loc main_arg6)) := by
  dsimp only [Gen.V1, Gen.V0, hostOps0]
  after_results_simp
  exact (Cert.LibCastBcast.row_cast_eq_bcast _ _ Cert.ReferenceIdeal.Gen.bcast_S64_S1x64_1).trans rfl

set_option maxHeartbeats 4000000 in
/-- the third layer's bias as a row -/
theorem host0_biasRow3 (c : Dev nD) : Gen.V1 m c main_v30 = Cert.ReferenceIdeal.Read.val_main_v93 (F := F) (m ((c.tc : Thread nD τ).loc main_arg8)) := by
  dsimp only [Gen.V1, Gen.V0, hostOps0]
  after_results_simp
  exact (Cert.LibCastBcast.row_cast_eq_bcast _ _ Cert.ReferenceIdeal.Gen.bcast_S64_S1x64_1).trans rfl

set_option maxHeartbeats 4000000 in
/-- the classifier's bias as a row -/
theorem host0_fcBiasRow (c : Dev nD) : Gen.V1 m c main_v31 = Cert.ReferenceIdeal.Read.val_main_v109 (F := F) (m ((c.tc : Thread nD τ).loc main_arg10)) := by
  dsimp only [Gen.V1, Gen.V0, hostOps0]
  after_results_simp
  exact (Cert.LibCastBcast.row_cast_eq_bcast _ _ Cert.ReferenceIdeal.Gen.bcast_S10_S1x10_1).trans rfl

set_option maxHeartbeats 4000000 in
/-- the batch ids as a column -/
theorem host0_batchCol (c : Dev nD) : Gen.V1 m c main_v32 = Cert.ReferenceIdeal.Read.val_main_v97 (F := F) (m ((c.tc : Thread nD τ).loc main_arg2)) := by
  dsimp only [Gen.V1, Gen.V0, hostOps0]
  after_results_simp
  exact (Cert.LibCastBcast.column_cast_eq_bcast _ _ Cert.ReferenceIdeal.Gen.bcast_S100000_S100000x1_0).trans rfl

set_option maxHeartbeats 4000000 in
/-- the graph sizes, at least one, as a column -/
theorem host0_countCol (c : Dev nD) : Gen.V1 m c main_v39 = Cert.ReferenceIdeal.Read.val_main_v105 (F := F) (m ((c.tc : Thread nD τ).loc main_arg2)) := by
  dsimp only [Gen.V1, Gen.V0, hostOps0]
  after_results_simp
  exact (Cert.LibCastBcast.column_cast_eq_bcast _ _ Cert.ReferenceIdeal.Gen.bcast_S512_S512x1_0).trans rfl

/-- the first host stretch leaves argument 0 as launched -/
theorem host0_arg0 (c : Dev nD) : Gen.V1 m c main_arg0 = m ((c.tc : Thread nD τ).loc main_arg0) :=
  (V1_of m c main_arg0 (by decide)).trans rfl

/-- the first host stretch leaves argument 3 as launched -/
theorem host0_arg3 (c : Dev nD) : Gen.V1 m c main_arg3 = m ((c.tc : Thread nD τ).loc main_arg3) :=
  (V1_of m c main_arg3 (by decide)).trans rfl

/-- the first host stretch leaves argument 5 as launched -/
theorem host0_arg5 (c : Dev nD) : Gen.V1 m c main_arg5 = m ((c.tc : Thread nD τ).loc main_arg5) :=
  (V1_of m c main_arg5 (by decide)).trans rfl

/-- the first host stretch leaves argument 7 as launched -/
theorem host0_arg7 (c : Dev nD) : Gen.V1 m c main_arg7 = m ((c.tc : Thread nD τ).loc main_arg7) :=
  (V1_of m c main_arg7 (by decide)).trans rfl

/-- the first host stretch leaves argument 9 as launched -/
theorem host0_arg9 (c : Dev nD) : Gen.V1 m c main_arg9 = m ((c.tc : Thread nD τ).loc main_arg9) :=
  (V1_of m c main_arg9 (by decide)).trans rfl

end Cert.KernelIdeal.HandVal
end
-- ==== Proof.Val.AggVal.lean ====
/-
  The three aggregation stretches of the program, read against the reference's stages.
  Each stretch wraps negative source ids, gathers the rows of the layer's dense transform at the sources,
  scales each gathered row by the per-edge normalisation (broadcast along the row) and scatter-adds the
  scaled rows into zeros at the destinations.  The reference does the same operations, one for one, on its
  own dense transform; so whenever the buffers a stretch reads hold the reference's corresponding stages,
  the stretch's result buffer holds the reference's aggregated stage.
-/
import proofs.«422502_j47175920779584_2_alg».proof.Proof.Gen.KernelIdeal.Regions
import proofs.«422502_j47175920779584_2_alg».proof.Proof.Gen.ReferenceIdeal.Read
import Idealize.ShloMosaic.Lib.StableHlo.Run

set_option maxRecDepth 16384

noncomputable section

namespace Cert.KernelIdeal.HandVal

open Cert.KernelIdeal Cert.KernelIdeal.Gen
open Idealize.ShloMosaic Idealize.ShloMosaic.TcCoe Idealize.ShloMosaic.StableHlo Idealize.SL.Sem

variable {F : FTy → Type} [FloatOps F]

set_option maxHeartbeats 4000000 in
/-- The first layer's aggregation: from the first dense transform, the source and destination ids and the edge
    normalisation, the stretch leaves the reference's first aggregated stage. -/
theorem agg1_of (X : Valuation τ sig (Elt F)) (x0 : (⟨S100000x128, .f32⟩ : BufTy).Contents (Elt F))
    (x1 : (⟨S2x3200000, .i32⟩ : BufTy).Contents (Elt F)) (x3 : (⟨S128x64, .f32⟩ : BufTy).Contents (Elt F))
    (hl : X main_v40 = Cert.ReferenceIdeal.Read.val_main_v31 (F := F) x0 x3)
    (hs : X main_v1 = Cert.ReferenceIdeal.Read.val_main_v1 (F := F) x1)
    (hd : X main_v3 = Cert.ReferenceIdeal.Read.val_main_v3 (F := F) x1)
    (he : X main_v25 = Cert.ReferenceIdeal.Read.val_main_v29 (F := F) x1) :
    StableHlo.after hostOps1 X main_v53 = Cert.ReferenceIdeal.Read.val_main_v44 (F := F) x0 x1 x3 := by
  dsimp only [hostOps1]
  after_results_simp
  rw [hl, hs, hd, he]
  rfl

set_option maxHeartbeats 4000000 in
/-- The second layer's aggregation: from the second dense transform, the same ids and normalisation, the stretch
    leaves the reference's second aggregated stage. -/
theorem agg2_of (X : Valuation τ sig (Elt F)) (x0 : (⟨S100000x128, .f32⟩ : BufTy).Contents (Elt F))
    (x1 : (⟨S2x3200000, .i32⟩ : BufTy).Contents (Elt F)) (x3 : (⟨S128x64, .f32⟩ : BufTy).Contents (Elt F))
    (x4 : (⟨S64, .f32⟩ : BufTy).Contents (Elt F)) (x5 : (⟨S64x64, .f32⟩ : BufTy).Contents (Elt F))
    (hl : X main_v55 = Cert.ReferenceIdeal.Read.val_main_v53 (F := F) x0 x1 x3 x4 x5)
    (hs : X main_v1 = Cert.ReferenceIdeal.Read.val_main_v1 (F := F) x1)
    (hd : X main_v3 = Cert.ReferenceIdeal.Read.val_main_v3 (F := F) x1)
    (he : X main_v25 = Cert.ReferenceIdeal.Read.val_main_v29 (F := F) x1) :
    StableHlo.after hostOps3 X main_v68 = Cert.ReferenceIdeal.Read.val_main_v66 (F := F) x0 x1 x3 x4 x5 := by
  dsimp only [hostOps3]
  after_results_simp
  rw [hl, hs, hd, he]
  rfl

set_option maxHeartbeats 4000000 in
/-- The third layer's aggregation: from the third dense transform, the same ids and normalisation, the stretch
    leaves the reference's third aggregated stage. -/
theorem agg3_of (X : Valuation τ sig (Elt F)) (x0 : (⟨S100000x128, .f32⟩ : BufTy).Contents (Elt F))
    (x1 : (⟨S2x3200000, .i32⟩ : BufTy).Contents (Elt F)) (x3 : (⟨S128x64, .f32⟩ : BufTy).Contents (Elt F))
    (x4 : (⟨S64, .f32⟩ : BufTy).Contents (Elt F)) (x5 : (⟨S64x64, .f32⟩ : BufTy).Contents (Elt F))
    (x6 : (⟨S64, .f32⟩ : BufTy).Contents (Elt F)) (x7 : (⟨S64x64, .f32⟩ : BufTy).Contents (Elt F))
    (hl : X main_v70 = Cert.ReferenceIdeal.Read.val_main_v75 (F := F) x0 x1 x3 x4 x5 x6 x7)
    (hs : X main_v1 = Cert.ReferenceIdeal.Read.val_main_v1 (F := F) x1)
    (hd : X main_v3 = Cert.ReferenceIdeal.Read.val_main_v3 (F := F) x1)
    (he : X main_v25 = Cert.ReferenceIdeal.Read.val_main_v29 (F := F) x1) :
    StableHlo.after hostOps5 X main_v83 = Cert.ReferenceIdeal.Read.val_main_v88 (F := F) x0 x1 x3 x4 x5 x6 x7 := by
  dsimp only [hostOps5]
  after_results_simp
  rw [hl, hs, hd, he]
  rfl

end Cert.KernelIdeal.HandVal

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Val.LinVal0.lean ====
/-
  The dense transform of the first layer (region 0), read as a value over the extended reals.
  The kernel multiplies one block of 10000 rows by the whole 128 x 64 weight at every grid point
  and writes the product back as the same block of rows of the result; the ten blocks tile the
  100000 rows.  So after the region the result array is the plain matrix product of the two
  input arrays, which is what the host's dot_general of the same two arrays is.
-/
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import proofs.«422502_j47175920779584_2_alg».proof.Proof.Gen.ReferenceIdeal
import proofs.«422502_j47175920779584_2_alg».proof.Proof.LibDot
import proofs.«422502_j47175920779584_2_alg».proof.Proof.KI.Lin0
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.ValueIdx Idealize.ShloMosaic.TcCoe

/-! ## The product at an entry -/

/-- The body's payload at entry (p, q): the narrowing to bf16 is the identity over the extended reals,
    and the product into the zero accumulator is the sum over the shared axis. -/
theorem lin0_pay_at (x : Vec Ideal S10000x128 .f32) (w : Vec Ideal S128x64 .f32) (p : Fin 10000) (q : Fin 64) :
    k0_pay1 (F := Ideal) x w (ix2 p q) = ∑ k : Fin 128, x (ix2 p k) * w (ix2 k q) := by
  unfold k0_pay1
  exact Cert.LibDot.matmul_zero_at dot_S10000x128_S128x64_S10000x64_1_0_0_1_n_n rfl rfl rfl rfl rfl rfl none
    (truncf .bf16 x bitsLt_bf16_f32) (truncf .bf16 w bitsLt_bf16_f32) p q

/-- The host's product of the two whole arrays at entry (i, q). -/
theorem lin0_ref_at (X : FVec Ideal S100000x128 .f32) (W : FVec Ideal S128x64 .f32) (i : Fin 100000) (q : Fin 64) :
    (Host.dotGeneral (F := Ideal) Cert.ReferenceIdeal.dot_S100000x128_S128x64_S100000x64_1_0_0_1_n_n none X W) (ix2 i q)
      = ∑ k : Fin 128, X (ix2 i k) * W (ix2 k q) := by
  exact Cert.LibDot.dotGeneral_at Cert.ReferenceIdeal.dot_S100000x128_S128x64_S100000x64_1_0_0_1_n_n rfl rfl rfl rfl rfl rfl none _ X W i q

/-! ## The blocks: where a block's entry sits in its array -/

variable (V : (c : Dev nD) → (b : Ref sig .tc) → Buf (Elt Ideal) ((c : Thread nD τ).loc b))

/-- The index maps over the ten grid points: the row-block windows (input rows and result rows) are at block row
    t and block column 0, and the weight window stays at block (0, 0). -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lin0_pt_lt (t : Fin cfg0.N) : t.val < 10 := lt_of_lt_of_eq t.isLt N_0

/-- Entry (p, k) of the row block at point t is entry (10000 t + p, k) of the input array. -/
theorem lin0_rows_at (c : Dev nD) (t : Fin cfg0.N) (p : Fin 10000) (k : Fin 128) (h : t.val * 10000 + p.val < 100000) :
    lin0Blk V c 0 t (ix2 p k) = V c main_arg0 (ix2 (⟨t.val * 10000 + p.val, h⟩ : Fin 100000) k) := by
  obtain ⟨e0, e1, -, -, -, -⟩ := lin0_idx t
  show V c main_arg0 (((cfg0.win 0).blk t).view.emb (ix2 p k)) = _
  refine congrArg (V c main_arg0) ?_
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weight block at any point is the weight array. -/
theorem lin0_weight_at (c : Dev nD) (t : Fin cfg0.N) (k : Fin 128) (q : Fin 64) :
    lin0Blk V c 1 t (ix2 k q) = V c main_arg3 (ix2 k q) := by
  obtain ⟨-, -, e2, e3, -, -⟩ := lin0_idx t
  show V c main_arg3 (((cfg0.win 1).blk t).view.emb (ix2 k q)) = _
  refine congrArg (V c main_arg3) ?_
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- Entry (p, q) of the result block at point t is entry (10000 t + p, q) of the result array. -/
theorem lin0_out_at (t : Fin cfg0.N) (p : Fin 10000) (q : Fin 64) (h : t.val * 10000 + p.val < 100000) :
    ((cfg0.win 2).blk t).view.emb (ix2 p q) = ix2 (⟨t.val * 10000 + p.val, h⟩ : Fin 100000) q := by
  obtain ⟨-, -, -, -, e4, e5⟩ := lin0_idx t
  funext a; apply Fin.ext
  match a with
  | ⟨0, _⟩ => show win0_2.index t (0 : Fin 2) * 10000 + 1 * p.val = t.val * 10000 + p.val; omega
  | ⟨1, _⟩ => show win0_2.index t (1 : Fin 2) * 64 + 1 * q.val = q.val; omega

/-! ## What a point writes back -/

/-- What point t writes back is block t of the product of the two input arrays as the region finds them. -/
theorem lin0_flushed (c : Dev nD) (t : Fin cfg0.N) :
    (lin0Dat (F := Ideal) V c).flushed 2 t
      = ((cfg0.win 2).blk t).view.read (Elt Ideal)
          (Host.dotGeneral (F := Ideal) (φ₁ := .f32) (φ₂ := .f32) Cert.ReferenceIdeal.dot_S100000x128_S128x64_S100000x64_1_0_0_1_n_n none
            (V c main_arg0) (V c main_arg3) : FVec Ideal S100000x64 .f32) := by
  show (cfg0.win 2).cut (grid0.coords t) ((lin0Dat (F := Ideal) V c).after 2 t) = _
  rw [lin0Dat_after2, lin0Out_eq]
  funext j
  obtain ⟨p, q, rfl⟩ : ∃ (p : Fin 10000) (q : Fin 64), j = ix2 p q := ⟨j 0, j 1, eq_ix2 j⟩
  have hlt : t.val * 10000 + p.val < 100000 := by have := lin0_pt_lt t; have := p.isLt; omega
  show k0_pay1 (F := Ideal) (lin0Blk V c 0 t) (lin0Blk V c 1 t) (ix2 p q)
    = (Host.dotGeneral (F := Ideal) (φ₁ := .f32) (φ₂ := .f32) Cert.ReferenceIdeal.dot_S100000x128_S128x64_S100000x64_1_0_0_1_n_n none
        (V c main_arg0) (V c main_arg3) : FVec Ideal S100000x64 .f32) (((cfg0.win 2).blk t).view.emb (ix2 p q))
  rw [lin0_out_at t p q hlt]
  refine (lin0_pay_at _ _ p q).trans ((Finset.sum_congr rfl fun k _ => ?_).trans (lin0_ref_at _ _ _ q).symm)
  rw [lin0_rows_at V c t p k hlt, lin0_weight_at V c t k q]

/-! ## The ten blocks tile the rows -/

/-- An index of the result array is in point t's block iff each coordinate is in the block's range on its axis. -/
theorem lin0_mem (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v40).slice (win0_2.rect t)).set ↔ _
  rw [View.set_slice_whole, Rect.mem_set_unit]
  exact Iff.rfl

/-- Row r lies in the block of point r / 10000, and every point writes its block back. -/
theorem lin0_tiles (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := lin0_idx t
  refine ⟨t, flush0_2 t, ?_⟩
  rw [lin0_mem]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-! ## The result array after the region -/

/-- After the region the result array is the host's product of the two input arrays as the region found them. -/
theorem lin0_arr (c : Dev nD) :
    (lin0Dat (F := Ideal) V c).arrAt 2 cfg0.N
      = (Host.dotGeneral (F := Ideal) (φ₁ := .f32) (φ₂ := .f32) Cert.ReferenceIdeal.dot_S100000x128_S128x64_S100000x64_1_0_0_1_n_n none
          (V c main_arg0) (V c main_arg3) : FVec Ideal S100000x64 .f32) :=
  (lin0Dat (F := Ideal) V c).arrAt_eq_of_cover 2 _ (fun t _ => lin0_flushed V c t) (fun i => lin0_tiles i)

end Cert.KernelIdeal.HandVal

end
-- ==== Proof.Val.LinVal2.lean ====
/-
  The dense transform of the second layer (region 2), read as a value over the extended reals.
  The kernel multiplies one block of 10000 rows by the whole 64 x 64 weight at every grid point
  and writes the product back as the same block of rows of the result; the ten blocks tile the
  100000 rows.  So after the region the result array is the plain matrix product of the two
  input arrays, which is what the host's dot_general of the same two arrays is.
-/
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import proofs.«422502_j47175920779584_2_alg».proof.Proof.Gen.ReferenceIdeal
import proofs.«422502_j47175920779584_2_alg».proof.Proof.LibDot
import proofs.«422502_j47175920779584_2_alg».proof.Proof.KI.Lin2
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.ValueIdx Idealize.ShloMosaic.TcCoe

/-! ## The product at an entry -/

/-- The body's payload at entry (p, q): the narrowing to bf16 is the identity over the extended reals, the cast to
    the same shape is the identity, and the product into the zero accumulator is the sum over the shared axis. -/
theorem lin2_pay_at (x : Vec Ideal S10000x64 .f32) (w : Vec Ideal S64x64 .f32) (p : Fin 10000) (q : Fin 64) :
    k2_pay1 (F := Ideal) x w (ix2 p q) = ∑ k : Fin 64, x (ix2 p k) * w (ix2 k q) := by
  unfold k2_pay1
  rw [shapeCast_self]
  exact Cert.LibDot.matmul_zero_at dot_S10000x64_S64x64_S10000x64_1_0_0_1_n_n rfl rfl rfl rfl rfl rfl none
    (truncf .bf16 x bitsLt_bf16_f32) (truncf .bf16 w bitsLt_bf16_f32) p q

/-- The host's product of the two whole arrays at entry (i, q). -/
theorem lin2_ref_at (X : FVec Ideal S100000x64 .f32) (W : FVec Ideal S64x64 .f32) (i : Fin 100000) (q : Fin 64) :
    (Host.dotGeneral (F := Ideal) Cert.ReferenceIdeal.dot_S100000x64_S64x64_S100000x64_1_0_0_1_n_n none X W) (ix2 i q)
      = ∑ k : Fin 64, X (ix2 i k) * W (ix2 k q) := by
  exact Cert.LibDot.dotGeneral_at Cert.ReferenceIdeal.dot_S100000x64_S64x64_S100000x64_1_0_0_1_n_n rfl rfl rfl rfl rfl rfl none _ X W i q

/-! ## The blocks: where a block's entry sits in its array -/

variable (V : (c : Dev nD) → (b : Ref sig .tc) → Buf (Elt Ideal) ((c : Thread nD τ).loc b))

/-- The index maps over the ten grid points: the row-block windows (input rows and result rows) are at block row
    t and block column 0, and the weight window stays at block (0, 0). -/
theorem lin2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lin2_pt_lt (t : Fin cfg2.N) : t.val < 10 := lt_of_lt_of_eq t.isLt N_2

/-- Entry (p, k) of the row block at point t is entry (10000 t + p, k) of the input array. -/
theorem lin2_rows_at (c : Dev nD) (t : Fin cfg2.N) (p : Fin 10000) (k : Fin 64) (h : t.val * 10000 + p.val < 100000) :
    lin2Blk V c 0 t (ix2 p k) = V c main_v54 (ix2 (⟨t.val * 10000 + p.val, h⟩ : Fin 100000) k) := by
  obtain ⟨e0, e1, -, -, -, -⟩ := lin2_idx t
  show V c main_v54 (((cfg2.win 0).blk t).view.emb (ix2 p k)) = _
  refine congrArg (V c main_v54) ?_
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

/-- The weight block at any point is the weight array. -/
theorem lin2_weight_at (c : Dev nD) (t : Fin cfg2.N) (k q : Fin 64) :
    lin2Blk V c 1 t (ix2 k q) = V c main_arg5 (ix2 k q) := by
  obtain ⟨-, -, e2, e3, -, -⟩ := lin2_idx t
  show V c main_arg5 (((cfg2.win 1).blk t).view.emb (ix2 k q)) = _
  refine congrArg (V c main_arg5) ?_
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- Entry (p, q) of the result block at point t is entry (10000 t + p, q) of the result array. -/
theorem lin2_out_at (t : Fin cfg2.N) (p : Fin 10000) (q : Fin 64) (h : t.val * 10000 + p.val < 100000) :
    ((cfg2.win 2).blk t).view.emb (ix2 p q) = ix2 (⟨t.val * 10000 + p.val, h⟩ : Fin 100000) q := by
  obtain ⟨-, -, -, -, e4, e5⟩ := lin2_idx t
  funext a; apply Fin.ext
  match a with
  | ⟨0, _⟩ => show win2_2.index t (0 : Fin 2) * 10000 + 1 * p.val = t.val * 10000 + p.val; omega
  | ⟨1, _⟩ => show win2_2.index t (1 : Fin 2) * 64 + 1 * q.val = q.val; omega

/-! ## What a point writes back -/

/-- What point t writes back is block t of the product of the two input arrays as the region finds them. -/
theorem lin2_flushed (c : Dev nD) (t : Fin cfg2.N) :
    (lin2Dat (F := Ideal) V c).flushed 2 t
      = ((cfg2.win 2).blk t).view.read (Elt Ideal)
          (Host.dotGeneral (F := Ideal) (φ₁ := .f32) (φ₂ := .f32) Cert.ReferenceIdeal.dot_S100000x64_S64x64_S100000x64_1_0_0_1_n_n none
            (V c main_v54) (V c main_arg5) : FVec Ideal S100000x64 .f32) := by
  show (cfg2.win 2).cut (grid2.coords t) ((lin2Dat (F := Ideal) V c).after 2 t) = _
  rw [lin2Dat_after2, lin2Out_eq]
  funext j
  obtain ⟨p, q, rfl⟩ : ∃ (p : Fin 10000) (q : Fin 64), j = ix2 p q := ⟨j 0, j 1, eq_ix2 j⟩
  have hlt : t.val * 10000 + p.val < 100000 := by have := lin2_pt_lt t; have := p.isLt; omega
  show k2_pay1 (F := Ideal) (lin2Blk V c 0 t) (lin2Blk V c 1 t) (ix2 p q)
    = (Host.dotGeneral (F := Ideal) (φ₁ := .f32) (φ₂ := .f32) Cert.ReferenceIdeal.dot_S100000x64_S64x64_S100000x64_1_0_0_1_n_n none
        (V c main_v54) (V c main_arg5) : FVec Ideal S100000x64 .f32) (((cfg2.win 2).blk t).view.emb (ix2 p q))
  rw [lin2_out_at t p q hlt]
  refine (lin2_pay_at _ _ p q).trans ((Finset.sum_congr rfl fun k _ => ?_).trans (lin2_ref_at _ _ _ q).symm)
  rw [lin2_rows_at V c t p k hlt, lin2_weight_at V c t k q]

/-! ## The ten blocks tile the rows -/

/-- An index of the result array is in point t's block iff each coordinate is in the block's range on its axis. -/
theorem lin2_mem (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v55).slice (win2_2.rect t)).set ↔ _
  rw [View.set_slice_whole, Rect.mem_set_unit]
  exact Iff.rfl

/-- Row r lies in the block of point r / 10000, and every point writes its block back. -/
theorem lin2_tiles (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := lin2_idx t
  refine ⟨t, flush2_2 t, ?_⟩
  rw [lin2_mem]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-! ## The result array after the region -/

/-- After the region the result array is the host's product of the two input arrays as the region found them. -/
theorem lin2_arr (c : Dev nD) :
    (lin2Dat (F := Ideal) V c).arrAt 2 cfg2.N
      = (Host.dotGeneral (F := Ideal) (φ₁ := .f32) (φ₂ := .f32) Cert.ReferenceIdeal.dot_S100000x64_S64x64_S100000x64_1_0_0_1_n_n none
          (V c main_v54) (V c main_arg5) : FVec Ideal S100000x64 .f32) :=
  (lin2Dat (F := Ideal) V c).arrAt_eq_of_cover 2 _ (fun t _ => lin2_flushed V c t) (fun i => lin2_tiles i)

end Cert.KernelIdeal.HandVal

end
-- ==== Proof.Val.LinVal4.lean ====
/-
  The dense transform of the third layer (region 4), read as a value over the extended reals.
  The kernel multiplies one block of 10000 rows by the whole 64 x 64 weight at every grid point
  and writes the product back as the same block of rows of the result; the ten blocks tile the
  100000 rows.  So after the region the result array is the plain matrix product of the two
  input arrays, which is what the host's dot_general of the same two arrays is.
-/
import proofs.«422502_j47175920779584_2_alg».proof.Proof.Gen.KernelIdeal.Launch
import proofs.«422502_j47175920779584_2_alg».proof.Proof.Gen.KernelIdeal.Skeleton
import proofs.«422502_j47175920779584_2_alg».proof.Proof.Gen.KernelIdeal.Points
import proofs.«422502_j47175920779584_2_alg».proof.Proof.Gen.ReferenceIdeal
import proofs.«422502_j47175920779584_2_alg».proof.Proof.LibDot
import proofs.«422502_j47175920779584_2_alg».proof.Proof.KI.Lin4
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open scoped BigOperators

namespace Cert.KernelIdeal.HandVal

open Cert.KernelIdeal Cert.KernelIdeal.Gen Cert.KernelIdeal.Hand
open Idealize.ShloMosaic Idealize.ShloMosaic.ValueIdx Idealize.ShloMosaic.TcCoe

/-! ## The product at an entry -/

/-- The body's payload at entry (p, q): the narrowing to bf16 is the identity over the extended reals, the cast to
    the same shape is the identity, and the product into the zero accumulator is the sum over the shared axis. -/
theorem lin4_pay_at (x : Vec Ideal S10000x64 .f32) (w : Vec Ideal S64x64 .f32) (p : Fin 10000) (q : Fin 64) :
    k4_pay1 (F := Ideal) x w (ix2 p q) = ∑ k : Fin 64, x (ix2 p k) * w (ix2 k q) := by
  unfold k4_pay1
  rw [shapeCast_self]
  exact Cert.LibDot.matmul_zero_at dot_S10000x64_S64x64_S10000x64_1_0_0_1_n_n rfl rfl rfl rfl rfl rfl none
    (truncf .bf16 x bitsLt_bf16_f32) (truncf .bf16 w bitsLt_bf16_f32) p q

/-- The host's product of the two whole arrays at entry (i, q). -/
theorem lin4_ref_at (X : FVec Ideal S100000x64 .f32) (W : FVec Ideal S64x64 .f32) (i : Fin 100000) (q : Fin 64) :
    (Host.dotGeneral (F := Ideal) Cert.ReferenceIdeal.dot_S100000x64_S64x64_S100000x64_1_0_0_1_n_n none X W) (ix2 i q)
      = ∑ k : Fin 64, X (ix2 i k) * W (ix2 k q) := by
  exact Cert.LibDot.dotGeneral_at Cert.ReferenceIdeal.dot_S100000x64_S64x64_S100000x64_1_0_0_1_n_n rfl rfl rfl rfl rfl rfl none _ X W i q

/-! ## The blocks: where a block's entry sits in its array -/

variable (V : (c : Dev nD) → (b : Ref sig .tc) → Buf (Elt Ideal) ((c : Thread nD τ).loc b))

/-- The index maps over the ten grid points: the row-block windows (input rows and result rows) are at block row
    t and block column 0, and the weight window stays at block (0, 0). -/
theorem lin4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lin4_pt_lt (t : Fin cfg4.N) : t.val < 10 := lt_of_lt_of_eq t.isLt N_4

/-- Entry (p, k) of the row block at point t is entry (10000 t + p, k) of the input array. -/
theorem lin4_rows_at (c : Dev nD) (t : Fin cfg4.N) (p : Fin 10000) (k : Fin 64) (h : t.val * 10000 + p.val < 100000) :
    lin4Blk V c 0 t (ix2 p k) = V c main_v69 (ix2 (⟨t.val * 10000 + p.val, h⟩ : Fin 100000) k) := by
  obtain ⟨e0, e1, -, -, -, -⟩ := lin4_idx t
  show V c main_v69 (((cfg4.win 0).blk t).view.emb (ix2 p k)) = _
  refine congrArg (V c main_v69) ?_
  funext a; apply Fin.ext
  match a with
  | ⟨0, _⟩ => show win4_0.index t (0 : Fin 2) * 10000 + 1 * p.val = t.val * 10000 + p.val; omega
  | ⟨1, _⟩ => show win4_0.index t (1 : Fin 2) * 64 + 1 * k.val = k.val; omega

/-- The weight block at any point is the weight array. -/
theorem lin4_weight_at (c : Dev nD) (t : Fin cfg4.N) (k q : Fin 64) :
    lin4Blk V c 1 t (ix2 k q) = V c main_arg7 (ix2 k q) := by
  obtain ⟨-, -, e2, e3, -, -⟩ := lin4_idx t
  show V c main_arg7 (((cfg4.win 1).blk t).view.emb (ix2 k q)) = _
  refine congrArg (V c main_arg7) ?_
  funext a; apply Fin.ext
  match a with
  | ⟨0, _⟩ => show win4_1.index t (0 : Fin 2) * 64 + 1 * k.val = k.val; omega
  | ⟨1, _⟩ => show win4_1.index t (1 : Fin 2) * 64 + 1 * q.val = q.val; omega

/-- Entry (p, q) of the result block at point t is entry (10000 t + p, q) of the result array. -/
theorem lin4_out_at (t : Fin cfg4.N) (p : Fin 10000) (q : Fin 64) (h : t.val * 10000 + p.val < 100000) :
    ((cfg4.win 2).blk t).view.emb (ix2 p q) = ix2 (⟨t.val * 10000 + p.val, h⟩ : Fin 100000) q := by
  obtain ⟨-, -, -, -, e4, e5⟩ := lin4_idx t
  funext a; apply Fin.ext
  match a with
  | ⟨0, _⟩ => show win4_2.index t (0 : Fin 2) * 10000 + 1 * p.val = t.val * 10000 + p.val; omega
  | ⟨1, _⟩ => show win4_2.index t (1 : Fin 2) * 64 + 1 * q.val = q.val; omega

/-! ## What a point writes back -/

/-- What point t writes back is block t of the product of the two input arrays as the region finds them. -/
theorem lin4_flushed (c : Dev nD) (t : Fin cfg4.N) :
    (lin4Dat (F := Ideal) V c).flushed 2 t
      = ((cfg4.win 2).blk t).view.read (Elt Ideal)
          (Host.dotGeneral (F := Ideal) (φ₁ := .f32) (φ₂ := .f32) Cert.ReferenceIdeal.dot_S100000x64_S64x64_S100000x64_1_0_0_1_n_n none
            (V c main_v69) (V c main_arg7) : FVec Ideal S100000x64 .f32) := by
  show (cfg4.win 2).cut (grid4.coords t) ((lin4Dat (F := Ideal) V c).after 2 t) = _
  rw [lin4Dat_after2, lin4Out_eq]
  funext j
  obtain ⟨p, q, rfl⟩ : ∃ (p : Fin 10000) (q : Fin 64), j = ix2 p q := ⟨j 0, j 1, eq_ix2 j⟩
  have hlt : t.val * 10000 + p.val < 100000 := by have := lin4_pt_lt t; have := p.isLt; omega
  show k4_pay1 (F := Ideal) (lin4Blk V c 0 t) (lin4Blk V c 1 t) (ix2 p q)
    = (Host.dotGeneral (F := Ideal) (φ₁ := .f32) (φ₂ := .f32) Cert.ReferenceIdeal.dot_S100000x64_S64x64_S100000x64_1_0_0_1_n_n none
        (V c main_v69) (V c main_arg7) : FVec Ideal S100000x64 .f32) (((cfg4.win 2).blk t).view.emb (ix2 p q))
  rw [lin4_out_at t p q hlt]
  refine (lin4_pay_at _ _ p q).trans ((Finset.sum_congr rfl fun k _ => ?_).trans (lin4_ref_at _ _ _ q).symm)
  rw [lin4_rows_at V c t p k hlt, lin4_weight_at V c t k q]

/-! ## The ten blocks tile the rows -/

/-- An index of the result array is in point t's block iff each coordinate is in the block's range on its axis. -/
theorem lin4_mem (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v70).slice (win4_2.rect t)).set ↔ _
  rw [View.set_slice_whole, Rect.mem_set_unit]
  exact Iff.rfl

/-- Row r lies in the block of point r / 10000, and every point writes its block back. -/
theorem lin4_tiles (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, e4, e5⟩ := lin4_idx t
  refine ⟨t, flush4_2 t, ?_⟩
  rw [lin4_mem]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-! ## The result array after the region -/

/-- After the region the result array is the host's product of the two input arrays as the region found them. -/
theorem lin4_arr (c : Dev nD) :
    (lin4Dat (F := Ideal) V c).arrAt 2 cfg4.N
      = (Host.dotGeneral (F := Ideal) (φ₁ := .f32) (φ₂ := .f32) Cert.ReferenceIdeal.dot_S100000x64_S64x64_S100000x64_1_0_0_1_n_n none
          (V c main_v69) (V c main_arg7) : FVec Ideal S100000x64 .f32) :=
  (lin4Dat (F := Ideal) V c).arrAt_eq_of_cover 2 _ (fun t _ => lin4_flushed V c t) (fun i => lin4_tiles i)

end Cert.KernelIdeal.HandVal

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.Val.CombVal1.lean ====
/-
  The first combine layer's value on the extended reals.

  The body of the call sees, at a grid point, a block of 10000 rows of the aggregated array, the same rows of
  the linear array, the same rows of the one-column array of self-loop weights, and the one bias row.  It writes
  back, for row p and column q of the block,
      max (agg (p, q) + lin (p, q) * w (p, 0) + bias (0, q), 0).
  Block t holds rows 10000 * t … 10000 * t + 9999 of the arrays, and the ten blocks tile the 100000 rows: so the
  result array, index by index, is the same expression of the whole arrays — the host's multiply of the linear
  array by the weight column spread along the rows, two adds (the second with the bias row spread down the
  columns) and the maximum with the zero array.
-/
import proofs.«422502_j47175920779584_2_alg».proof.Proof.KI.Comb1
import proofs.«422502_j47175920779584_2_alg».proof.ReferenceIdeal
import proofs.«422502_j47175920779584_2_alg».proof.Proof.LibKeepdims
import proofs.«422502_j47175920779584_2_alg».proof.Proof.LibRowRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Cert.KernelIdeal.Hand Idealize.ShloMosaic Idealize.ShloMosaic.ValueIdx

/-! ## One entry of the layer -/

/-- What the layer leaves at one entry, from the four numbers it depends on. -/
def comb1Entry (a l w b : EReal) : EReal := max (a + l * w + b) (Ideal.ofBits .f32 0x00000000#32)

/-- The body's payload at row `p`, column `q` of a block: the entry's expression of the two blocks at `(p, q)`,
    the weight column at row `p` and the bias row at column `q`. -/
theorem comb1Pay_at (x0 x1 : Vec Ideal S10000x64 .f32) (x2 : Vec Ideal S10000x1 .f32) (x3 : Vec Ideal S1x64 .f32)
    (p : Fin 10000) (q : Fin 64) :
    (k1_pay1 (F := Ideal) x0 x1 x2 x3 : FVec Ideal S10000x64 .f32) (ix2 p q)
      = comb1Entry (x0 (ix2 p q)) (x1 (ix2 p q)) (x2 (ix2 p (0 : Fin 1))) (x3 (ix2 (0 : Fin 1) q)) := by
  unfold k1_pay1 comb1Entry
  have e2 : broadcastTo S10000x64 (shapeCast S10000x1 x2 shapeCasts_S10000x1_S10000x1) broadcasts_S10000x1_S10000x64 (ix2 p q)
      = x2 (ix2 p (0 : Fin 1)) := by
    rw [shapeCast_self]; exact broadcastTo_a1_ab_apply x2 _ p q
  have e3 : broadcastTo S10000x64 (shapeCast S1x64 x3 shapeCasts_S1x64_S1x64) broadcasts_S1x64_S10000x64 (ix2 p q)
      = x3 (ix2 (0 : Fin 1) q) := by
    rw [shapeCast_self]; exact broadcastTo_1b_ab_apply x3 _ p q
  show max (shapeCast S10000x64 x0 shapeCasts_S10000x64_S10000x64 (ix2 p q)
        + shapeCast S10000x64 x1 shapeCasts_S10000x64_S10000x64 (ix2 p q)
          * broadcastTo S10000x64 (shapeCast S10000x1 x2 shapeCasts_S10000x1_S10000x1) broadcasts_S10000x1_S10000x64 (ix2 p q)
        + broadcastTo S10000x64 (shapeCast S1x64 x3 shapeCasts_S1x64_S1x64) broadcasts_S1x64_S10000x64 (ix2 p q))
      (Ideal.ofBits .f32 0x00000000#32) = _
  rw [e2, e3, shapeCast_self, shapeCast_self]

/-! ## The host's expression of the whole arrays -/

/-- The host's spelling of the layer on whole arrays: the linear array times the weight column spread along the rows,
    added to the aggregated array, plus the bias row spread down the columns, and the maximum with the zero array. -/
def comb1Host (hcol : S100000x1.BroadcastsInDim S100000x64 ![0, 1]) (hrow : S1x64.BroadcastsInDim S100000x64 ![0, 1])
    (hnil : S_.BroadcastsInDim S100000x64 ![])
    (A L : FVec Ideal S100000x64 .f32) (W : FVec Ideal S100000x1 .f32) (B : FVec Ideal S1x64 .f32) :
    FVec Ideal S100000x64 .f32 :=
  maximumf (addf (addf A (mulf L (broadcastInDim S100000x64 ![0, 1] hcol W))) (broadcastInDim S100000x64 ![0, 1] hrow B))
    (broadcastInDim S100000x64 ![] hnil (constant (F := Ideal) S_ .f32 0x00000000#32))

/-- A one-row array spread down the columns reads, at `(r, q)`, the row's entry `q`. -/
theorem comb1_rowSpread_at {α : Type} {R C : Nat} (h : (⟨2, ![1, C]⟩ : Shape).BroadcastsInDim (⟨2, ![R, C]⟩ : Shape) ![0, 1])
    (b : (⟨2, ![1, C]⟩ : Shape).Idx → α) (r : Fin R) (q : Fin C) :
    broadcastInDim (⟨2, ![R, C]⟩ : Shape) ![0, 1] h b (ix2 r q) = b (ix2 (0 : Fin 1) q) := by
  refine broadcastInDim_apply _ h b _ (ix2 (0 : Fin 1) q) fun a => ?_
  match a with
  | ⟨0, _⟩ => rfl
  | ⟨1, _⟩ =>
    show q.val = if C = 1 then 0 else q.val
    split
    · have := q.isLt; omega
    · rfl

/-- A scalar spread over a whole array reads the scalar everywhere. -/
theorem comb1_scalarSpread_at {α : Type} {s : Shape} (h : S_.BroadcastsInDim s ![]) (z : S_.Idx → α) (i : s.Idx) :
    broadcastInDim s ![] h z i = z (fun a => a.elim0) :=
  broadcastInDim_apply _ h z i (fun a => a.elim0) fun a => a.elim0

/-- The host's expression at row `i`, column `q`: the entry's expression of the arrays at `(i, q)`, the weight column at
    row `i` and the bias row at column `q`. -/
theorem comb1Host_at (hcol : S100000x1.BroadcastsInDim S100000x64 ![0, 1]) (hrow : S1x64.BroadcastsInDim S100000x64 ![0, 1])
    (hnil : S_.BroadcastsInDim S100000x64 ![])
    (A L : FVec Ideal S100000x64 .f32) (W : FVec Ideal S100000x1 .f32) (B : FVec Ideal S1x64 .f32)
    (i : Fin 100000) (q : Fin 64) :
    comb1Host hcol hrow hnil A L W B (ix2 i q)
      = comb1Entry (A (ix2 i q)) (L (ix2 i q)) (W (ix2 i (0 : Fin 1))) (B (ix2 (0 : Fin 1) q)) := by
  unfold comb1Host comb1Entry
  have ec : broadcastInDim S100000x64 ![0, 1] hcol W (ix2 i q) = W (ix2 i (0 : Fin 1)) :=
    Cert.LibRowRead.bcast_alongRows_apply hcol W i q
  have er : broadcastInDim S100000x64 ![0, 1] hrow B (ix2 i q) = B (ix2 (0 : Fin 1) q) := comb1_rowSpread_at hrow B i q
  have ez : broadcastInDim S100000x64 ![] hnil (constant (F := Ideal) S_ .f32 0x00000000#32) (ix2 i q)
      = Ideal.ofBits .f32 0x00000000#32 := comb1_scalarSpread_at hnil _ _
  show max (A (ix2 i q) + L (ix2 i q) * broadcastInDim S100000x64 ![0, 1] hcol W (ix2 i q)
        + broadcastInDim S100000x64 ![0, 1] hrow B (ix2 i q))
      (broadcastInDim S100000x64 ![] hnil (constant (F := Ideal) S_ .f32 0x00000000#32) (ix2 i q)) = _
  rw [ec, er, ez]

/-! ## A block's entry against the arrays' -/

/-- If, at an index `y` of a block and an index `i` of the arrays with the same column, the two big blocks read what the
    arrays read at `i`, the weight block at `y`'s row reads the weight column at `i`'s row, and the bias block is the
    bias row, then the payload at `y` is the host's expression at `i`. -/
theorem comb1_point (hcol : S100000x1.BroadcastsInDim S100000x64 ![0, 1]) (hrow : S1x64.BroadcastsInDim S100000x64 ![0, 1])
    (hnil : S_.BroadcastsInDim S100000x64 ![])
    (A L : FVec Ideal S100000x64 .f32) (W : FVec Ideal S100000x1 .f32) (B : FVec Ideal S1x64 .f32)
    (x0 x1 : Vec Ideal S10000x64 .f32) (x2 : Vec Ideal S10000x1 .f32) (x3 : Vec Ideal S1x64 .f32)
    (y : S10000x64.Idx) (i : S100000x64.Idx) (hq : (y 1).val = (i 1).val)
    (h0 : x0 y = A i) (h1 : x1 y = L i)
    (h2 : x2 (ix2 (⟨(y 0).val, (y 0).isLt⟩ : Fin 10000) (0 : Fin 1)) = W (ix2 (⟨(i 0).val, (i 0).isLt⟩ : Fin 100000) (0 : Fin 1)))
    (h3 : ∀ q : Fin 64, x3 (ix2 (0 : Fin 1) q) = B (ix2 (0 : Fin 1) q)) :
    (k1_pay1 (F := Ideal) x0 x1 x2 x3 : FVec Ideal S10000x64 .f32) y = comb1Host hcol hrow hnil A L W B i := by
  obtain ⟨p, q, rfl⟩ : ∃ (p : Fin 10000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q = q' := Fin.ext hq
  rw [comb1Pay_at, comb1Host_at, h0, h1, h3 q]
  exact congrArg (fun w => comb1Entry _ _ w _) h2

/-! ## From blocks to the array -/

open Idealize.ShloMosaic.Pipeline (Dat)
open Idealize.ShloMosaic.TcCoe

-- what the TensorCore's buffers hold when the call is entered
variable (V : (c : Dev nD) → (b : Ref sig .tc) → Buf (Elt Ideal) ((c : Thread nD τ).loc b))

/-- The printed index maps over the ten grid points: the three row-blocked inputs move with the output along the rows,
    the output's row block is the point's number, and every column index (and the bias row's row index) is 0. -/
theorem comb1_idx : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- What grid point `t` writes back is block `t` of the host's expression of the four arrays as the call finds them. -/
theorem comb1_flushed (hcol : S100000x1.BroadcastsInDim S100000x64 ![0, 1]) (hrow : S1x64.BroadcastsInDim S100000x64 ![0, 1])
    (hnil : S_.BroadcastsInDim S100000x64 ![]) (c : Dev nD) (t : Fin cfg1.N) :
    (comb1Dat (F := Ideal) V c).flushed 4 t
      = ((cfg1.win 4).blk t).view.read (Elt Ideal)
          (comb1Host hcol hrow hnil (V c main_v53) (V c main_v40) (V c main_v27) (V c main_v28)) := by
  show (cfg1.win 4).cut (grid1.coords t) ((comb1Dat (F := Ideal) V c).after 4 t) = _
  rw [comb1Dat_after4, comb1Out_eq]
  obtain ⟨e40, e41, e00, e01, e10, e11, e20, e21, e30, e31⟩ := comb1_idx t
  funext j
  have hj0 : (j 0).val < 10000 := (j 0).isLt
  have hj1 : (j 1).val < 64 := (j 1).isLt
  show (k1_pay1 (F := Ideal) (comb1Blk V c 0 t) (comb1Blk V c 1 t) (comb1Blk V c 2 t) (comb1Blk V c 3 t) : FVec Ideal S10000x64 .f32) j
      = comb1Host hcol hrow hnil (V c main_v53) (V c main_v40) (V c main_v27) (V c main_v28) (((cfg1.win 4).blk t).view.emb j)
  refine comb1_point hcol hrow hnil (V c main_v53) (V c main_v40) (V c main_v27) (V c main_v28)
    (comb1Blk V c 0 t) (comb1Blk V c 1 t) (comb1Blk V c 2 t) (comb1Blk V c 3 t) j (((cfg1.win 4).blk t).view.emb j) ?_ ?_ ?_ ?_ ?_
  · show (j 1).val = win1_4.index t (1 : Fin 2) * 64 + 1 * (j 1).val
    omega
  · show V c main_v53 (((cfg1.win 0).blk t).view.emb j) = V c main_v53 (((cfg1.win 4).blk t).view.emb j)
    refine congrArg (V c main_v53) (funext fun a => Fin.ext ?_)
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * (j 1).val = win1_4.index t (1 : Fin 2) * 64 + 1 * (j 1).val; omega
  · show V c main_v40 (((cfg1.win 1).blk t).view.emb j) = V c main_v40 (((cfg1.win 4).blk t).view.emb j)
    refine congrArg (V c main_v40) (funext fun a => Fin.ext ?_)
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 64 + 1 * (j 1).val = win1_4.index t (1 : Fin 2) * 64 + 1 * (j 1).val; omega
  · show V c main_v27 (((cfg1.win 2).blk t).view.emb (ix2 (⟨(j 0).val, hj0⟩ : Fin 10000) (0 : Fin 1)))
        = V c main_v27 (ix2 (⟨win1_4.index t (0 : Fin 2) * 10000 + 1 * (j 0).val, _⟩ : Fin 100000) (0 : Fin 1))
    refine congrArg (V c main_v27) (funext fun a => Fin.ext ?_)
    match a with
    | ⟨0, _⟩ => show win1_2.index t (0 : Fin 2) * 10000 + 1 * (j 0).val = win1_4.index t (0 : Fin 2) * 10000 + 1 * (j 0).val; omega
    | ⟨1, _⟩ => show win1_2.index t (1 : Fin 2) * 1 + 1 * 0 = 0; omega
  · intro q
    show V c main_v28 (((cfg1.win 3).blk t).view.emb (ix2 (0 : Fin 1) q)) = V c main_v28 (ix2 (0 : Fin 1) q)
    refine congrArg (V c main_v28) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- An index of the result array is in point `t`'s block iff each coordinate is in the block's range on its axis. -/
theorem comb1_mem (t : Fin cfg1.N) (i : S100000x64.Idx) :
    i ∈ ((cfg1.win 4).blk t).view.set
      ↔ ∀ a : Fin 2, win1_4.index t a * S10000x64.size a ≤ (i a).val
          ∧ (i a).val < win1_4.index t a * S10000x64.size a + S10000x64.size a := by
  show i ∈ ((View.whole main_v54).slice (win1_4.rect t)).set ↔ _
  rw [View.set_slice_whole, Rect.mem_set_unit]
  exact Iff.rfl

/-- Every index of the result array lies in the block of the point numbered by its row divided by 10000. -/
theorem comb1_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e40, e41, -⟩ := comb1_idx t
  have e40' : win1_4.index t (0 : Fin 2) = (i 0).val / 10000 := e40
  refine ⟨t, flush1_4 t, ?_⟩
  rw [comb1_mem]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- After the call the result array holds the host's expression of the four arrays as the call finds them. -/
theorem comb1_arr_of (hcol : S100000x1.BroadcastsInDim S100000x64 ![0, 1]) (hrow : S1x64.BroadcastsInDim S100000x64 ![0, 1])
    (hnil : S_.BroadcastsInDim S100000x64 ![]) (c : Dev nD) :
    (comb1Dat (F := Ideal) V c).arrAt 4 cfg1.N
      = (maximumf (addf (addf (V c main_v53) (mulf (V c main_v40) (broadcastInDim S100000x64 ![0, 1] hcol (V c main_v27))))
            (broadcastInDim S100000x64 ![0, 1] hrow (V c main_v28)))
          (broadcastInDim S100000x64 ![] hnil (constant (F := Ideal) S_ .f32 0x00000000#32)) : FVec Ideal S100000x64 .f32) :=
  (comb1Dat (F := Ideal) V c).arrAt_eq_of_cover 4
    (comb1Host hcol hrow hnil (V c main_v53) (V c main_v40) (V c main_v27) (V c main_v28))
    (fun t _ => comb1_flushed V hcol hrow hnil c t) comb1_cover

/-- The same, with the three spreading facts taken from the reference program's own table of facts: the right-hand
    side is then, operation for operation, the reference's multiply, two adds and maximum. -/
theorem comb1_arr [Cert.ReferenceIdeal.Facts₀] (c : Dev nD) :
    (comb1Dat (F := Ideal) V c).arrAt 4 cfg1.N
      = (maximumf (addf (addf (V c main_v53) (mulf (V c main_v40)
              (broadcastInDim S100000x64 ![0, 1] Cert.ReferenceIdeal.Facts₀.bcast_S100000x1_S100000x64_0_1 (V c main_v27))))
            (broadcastInDim S100000x64 ![0, 1] Cert.ReferenceIdeal.Facts₀.bcast_S1x64_S100000x64_0_1 (V c main_v28)))
          (broadcastInDim S100000x64 ![] Cert.ReferenceIdeal.Facts₀.bcast_S_S100000x64
            (constant (F := Ideal) S_ .f32 0x00000000#32)) : FVec Ideal S100000x64 .f32) :=
  comb1_arr_of V Cert.ReferenceIdeal.Facts₀.bcast_S100000x1_S100000x64_0_1
    Cert.ReferenceIdeal.Facts₀.bcast_S1x64_S100000x64_0_1 Cert.ReferenceIdeal.Facts₀.bcast_S_S100000x64 c

end Cert.KernelIdeal.HandVal

end
-- ==== Proof.Val.CombVal3.lean ====
/-
  The second combine layer's value on the extended reals.

  The body of the call sees, at a grid point, a block of 10000 rows of the aggregated array, the same rows of
  the linear array, the same rows of the one-column array of self-loop weights, and the one bias row.  It writes
  back, for row p and column q of the block,
      max (agg (p, q) + lin (p, q) * w (p, 0) + bias (0, q), 0).
  Block t holds rows 10000 * t … 10000 * t + 9999 of the arrays, and the ten blocks tile the 100000 rows: so the
  result array, index by index, is the same expression of the whole arrays — the host's multiply of the linear
  array by the weight column spread along the rows, two adds (the second with the bias row spread down the
  columns) and the maximum with the zero array.
-/
import proofs.«422502_j47175920779584_2_alg».proof.Proof.KI.Comb3
import proofs.«422502_j47175920779584_2_alg».proof.ReferenceIdeal
import proofs.«422502_j47175920779584_2_alg».proof.Proof.LibKeepdims
import proofs.«422502_j47175920779584_2_alg».proof.Proof.LibRowRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Cert.KernelIdeal.Hand Idealize.ShloMosaic Idealize.ShloMosaic.ValueIdx

/-! ## One entry of the layer -/

/-- What the layer leaves at one entry, from the four numbers it depends on. -/
def comb3Entry (a l w b : EReal) : EReal := max (a + l * w + b) (Ideal.ofBits .f32 0x00000000#32)

/-- The body's payload at row `p`, column `q` of a block: the entry's expression of the two blocks at `(p, q)`,
    the weight column at row `p` and the bias row at column `q`. -/
theorem comb3Pay_at (x0 x1 : Vec Ideal S10000x64 .f32) (x2 : Vec Ideal S10000x1 .f32) (x3 : Vec Ideal S1x64 .f32)
    (p : Fin 10000) (q : Fin 64) :
    (k3_pay1 (F := Ideal) x0 x1 x2 x3 : FVec Ideal S10000x64 .f32) (ix2 p q)
      = comb3Entry (x0 (ix2 p q)) (x1 (ix2 p q)) (x2 (ix2 p (0 : Fin 1))) (x3 (ix2 (0 : Fin 1) q)) := by
  unfold k3_pay1 comb3Entry
  have e2 : broadcastTo S10000x64 (shapeCast S10000x1 x2 shapeCasts_S10000x1_S10000x1) broadcasts_S10000x1_S10000x64 (ix2 p q)
      = x2 (ix2 p (0 : Fin 1)) := by
    rw [shapeCast_self]; exact broadcastTo_a1_ab_apply x2 _ p q
  have e3 : broadcastTo S10000x64 (shapeCast S1x64 x3 shapeCasts_S1x64_S1x64) broadcasts_S1x64_S10000x64 (ix2 p q)
      = x3 (ix2 (0 : Fin 1) q) := by
    rw [shapeCast_self]; exact broadcastTo_1b_ab_apply x3 _ p q
  show max (shapeCast S10000x64 x0 shapeCasts_S10000x64_S10000x64 (ix2 p q)
        + shapeCast S10000x64 x1 shapeCasts_S10000x64_S10000x64 (ix2 p q)
          * broadcastTo S10000x64 (shapeCast S10000x1 x2 shapeCasts_S10000x1_S10000x1) broadcasts_S10000x1_S10000x64 (ix2 p q)
        + broadcastTo S10000x64 (shapeCast S1x64 x3 shapeCasts_S1x64_S1x64) broadcasts_S1x64_S10000x64 (ix2 p q))
      (Ideal.ofBits .f32 0x00000000#32) = _
  rw [e2, e3, shapeCast_self, shapeCast_self]

/-! ## The host's expression of the whole arrays -/

/-- The host's spelling of the layer on whole arrays: the linear array times the weight column spread along the rows,
    added to the aggregated array, plus the bias row spread down the columns, and the maximum with the zero array. -/
def comb3Host (hcol : S100000x1.BroadcastsInDim S100000x64 ![0, 1]) (hrow : S1x64.BroadcastsInDim S100000x64 ![0, 1])
    (hnil : S_.BroadcastsInDim S100000x64 ![])
    (A L : FVec Ideal S100000x64 .f32) (W : FVec Ideal S100000x1 .f32) (B : FVec Ideal S1x64 .f32) :
    FVec Ideal S100000x64 .f32 :=
  maximumf (addf (addf A (mulf L (broadcastInDim S100000x64 ![0, 1] hcol W))) (broadcastInDim S100000x64 ![0, 1] hrow B))
    (broadcastInDim S100000x64 ![] hnil (constant (F := Ideal) S_ .f32 0x00000000#32))

/-- A one-row array spread down the columns reads, at `(r, q)`, the row's entry `q`. -/
theorem comb3_rowSpread_at {α : Type} {R C : Nat} (h : (⟨2, ![1, C]⟩ : Shape).BroadcastsInDim (⟨2, ![R, C]⟩ : Shape) ![0, 1])
    (b : (⟨2, ![1, C]⟩ : Shape).Idx → α) (r : Fin R) (q : Fin C) :
    broadcastInDim (⟨2, ![R, C]⟩ : Shape) ![0, 1] h b (ix2 r q) = b (ix2 (0 : Fin 1) q) := by
  refine broadcastInDim_apply _ h b _ (ix2 (0 : Fin 1) q) fun a => ?_
  match a with
  | ⟨0, _⟩ => rfl
  | ⟨1, _⟩ =>
    show q.val = if C = 1 then 0 else q.val
    split
    · have := q.isLt; omega
    · rfl

/-- A scalar spread over a whole array reads the scalar everywhere. -/
theorem comb3_scalarSpread_at {α : Type} {s : Shape} (h : S_.BroadcastsInDim s ![]) (z : S_.Idx → α) (i : s.Idx) :
    broadcastInDim s ![] h z i = z (fun a => a.elim0) :=
  broadcastInDim_apply _ h z i (fun a => a.elim0) fun a => a.elim0

/-- The host's expression at row `i`, column `q`: the entry's expression of the arrays at `(i, q)`, the weight column at
    row `i` and the bias row at column `q`. -/
theorem comb3Host_at (hcol : S100000x1.BroadcastsInDim S100000x64 ![0, 1]) (hrow : S1x64.BroadcastsInDim S100000x64 ![0, 1])
    (hnil : S_.BroadcastsInDim S100000x64 ![])
    (A L : FVec Ideal S100000x64 .f32) (W : FVec Ideal S100000x1 .f32) (B : FVec Ideal S1x64 .f32)
    (i : Fin 100000) (q : Fin 64) :
    comb3Host hcol hrow hnil A L W B (ix2 i q)
      = comb3Entry (A (ix2 i q)) (L (ix2 i q)) (W (ix2 i (0 : Fin 1))) (B (ix2 (0 : Fin 1) q)) := by
  unfold comb3Host comb3Entry
  have ec : broadcastInDim S100000x64 ![0, 1] hcol W (ix2 i q) = W (ix2 i (0 : Fin 1)) :=
    Cert.LibRowRead.bcast_alongRows_apply hcol W i q
  have er : broadcastInDim S100000x64 ![0, 1] hrow B (ix2 i q) = B (ix2 (0 : Fin 1) q) := comb3_rowSpread_at hrow B i q
  have ez : broadcastInDim S100000x64 ![] hnil (constant (F := Ideal) S_ .f32 0x00000000#32) (ix2 i q)
      = Ideal.ofBits .f32 0x00000000#32 := comb3_scalarSpread_at hnil _ _
  show max (A (ix2 i q) + L (ix2 i q) * broadcastInDim S100000x64 ![0, 1] hcol W (ix2 i q)
        + broadcastInDim S100000x64 ![0, 1] hrow B (ix2 i q))
      (broadcastInDim S100000x64 ![] hnil (constant (F := Ideal) S_ .f32 0x00000000#32) (ix2 i q)) = _
  rw [ec, er, ez]

/-! ## A block's entry against the arrays' -/

/-- If, at an index `y` of a block and an index `i` of the arrays with the same column, the two big blocks read what the
    arrays read at `i`, the weight block at `y`'s row reads the weight column at `i`'s row, and the bias block is the
    bias row, then the payload at `y` is the host's expression at `i`. -/
theorem comb3_point (hcol : S100000x1.BroadcastsInDim S100000x64 ![0, 1]) (hrow : S1x64.BroadcastsInDim S100000x64 ![0, 1])
    (hnil : S_.BroadcastsInDim S100000x64 ![])
    (A L : FVec Ideal S100000x64 .f32) (W : FVec Ideal S100000x1 .f32) (B : FVec Ideal S1x64 .f32)
    (x0 x1 : Vec Ideal S10000x64 .f32) (x2 : Vec Ideal S10000x1 .f32) (x3 : Vec Ideal S1x64 .f32)
    (y : S10000x64.Idx) (i : S100000x64.Idx) (hq : (y 1).val = (i 1).val)
    (h0 : x0 y = A i) (h1 : x1 y = L i)
    (h2 : x2 (ix2 (⟨(y 0).val, (y 0).isLt⟩ : Fin 10000) (0 : Fin 1)) = W (ix2 (⟨(i 0).val, (i 0).isLt⟩ : Fin 100000) (0 : Fin 1)))
    (h3 : ∀ q : Fin 64, x3 (ix2 (0 : Fin 1) q) = B (ix2 (0 : Fin 1) q)) :
    (k3_pay1 (F := Ideal) x0 x1 x2 x3 : FVec Ideal S10000x64 .f32) y = comb3Host hcol hrow hnil A L W B i := by
  obtain ⟨p, q, rfl⟩ : ∃ (p : Fin 10000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q = q' := Fin.ext hq
  rw [comb3Pay_at, comb3Host_at, h0, h1, h3 q]
  exact congrArg (fun w => comb3Entry _ _ w _) h2

/-! ## From blocks to the array -/

open Idealize.ShloMosaic.Pipeline (Dat)
open Idealize.ShloMosaic.TcCoe

-- what the TensorCore's buffers hold when the call is entered
variable (V : (c : Dev nD) → (b : Ref sig .tc) → Buf (Elt Ideal) ((c : Thread nD τ).loc b))

/-- The printed index maps over the ten grid points: the three row-blocked inputs move with the output along the rows,
    the output's row block is the point's number, and every column index (and the bias row's row index) is 0. -/
theorem comb3_idx : ∀ t : Fin cfg3.N,
    win3_4.index t (0 : Fin 2) = t.val ∧ win3_4.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

/-- What grid point `t` writes back is block `t` of the host's expression of the four arrays as the call finds them. -/
theorem comb3_flushed (hcol : S100000x1.BroadcastsInDim S100000x64 ![0, 1]) (hrow : S1x64.BroadcastsInDim S100000x64 ![0, 1])
    (hnil : S_.BroadcastsInDim S100000x64 ![]) (c : Dev nD) (t : Fin cfg3.N) :
    (comb3Dat (F := Ideal) V c).flushed 4 t
      = ((cfg3.win 4).blk t).view.read (Elt Ideal)
          (comb3Host hcol hrow hnil (V c main_v68) (V c main_v55) (V c main_v27) (V c main_v29)) := by
  show (cfg3.win 4).cut (grid3.coords t) ((comb3Dat (F := Ideal) V c).after 4 t) = _
  rw [comb3Dat_after4, comb3Out_eq]
  obtain ⟨e40, e41, e00, e01, e10, e11, e20, e21, e30, e31⟩ := comb3_idx t
  funext j
  have hj0 : (j 0).val < 10000 := (j 0).isLt
  have hj1 : (j 1).val < 64 := (j 1).isLt
  show (k3_pay1 (F := Ideal) (comb3Blk V c 0 t) (comb3Blk V c 1 t) (comb3Blk V c 2 t) (comb3Blk V c 3 t) : FVec Ideal S10000x64 .f32) j
      = comb3Host hcol hrow hnil (V c main_v68) (V c main_v55) (V c main_v27) (V c main_v29) (((cfg3.win 4).blk t).view.emb j)
  refine comb3_point hcol hrow hnil (V c main_v68) (V c main_v55) (V c main_v27) (V c main_v29)
    (comb3Blk V c 0 t) (comb3Blk V c 1 t) (comb3Blk V c 2 t) (comb3Blk V c 3 t) j (((cfg3.win 4).blk t).view.emb j) ?_ ?_ ?_ ?_ ?_
  · show (j 1).val = win3_4.index t (1 : Fin 2) * 64 + 1 * (j 1).val
    omega
  · show V c main_v68 (((cfg3.win 0).blk t).view.emb j) = V c main_v68 (((cfg3.win 4).blk t).view.emb j)
    refine congrArg (V c main_v68) (funext fun a => Fin.ext ?_)
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 64 + 1 * (j 1).val = win3_4.index t (1 : Fin 2) * 64 + 1 * (j 1).val; omega
  · show V c main_v55 (((cfg3.win 1).blk t).view.emb j) = V c main_v55 (((cfg3.win 4).blk t).view.emb j)
    refine congrArg (V c main_v55) (funext fun a => Fin.ext ?_)
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 64 + 1 * (j 1).val = win3_4.index t (1 : Fin 2) * 64 + 1 * (j 1).val; omega
  · show V c main_v27 (((cfg3.win 2).blk t).view.emb (ix2 (⟨(j 0).val, hj0⟩ : Fin 10000) (0 : Fin 1)))
        = V c main_v27 (ix2 (⟨win3_4.index t (0 : Fin 2) * 10000 + 1 * (j 0).val, _⟩ : Fin 100000) (0 : Fin 1))
    refine congrArg (V c main_v27) (funext fun a => Fin.ext ?_)
    match a with
    | ⟨0, _⟩ => show win3_2.index t (0 : Fin 2) * 10000 + 1 * (j 0).val = win3_4.index t (0 : Fin 2) * 10000 + 1 * (j 0).val; omega
    | ⟨1, _⟩ => show win3_2.index t (1 : Fin 2) * 1 + 1 * 0 = 0; omega
  · intro q
    show V c main_v29 (((cfg3.win 3).blk t).view.emb (ix2 (0 : Fin 1) q)) = V c main_v29 (ix2 (0 : Fin 1) q)
    refine congrArg (V c main_v29) (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega

/-- An index of the result array is in point `t`'s block iff each coordinate is in the block's range on its axis. -/
theorem comb3_mem (t : Fin cfg3.N) (i : S100000x64.Idx) :
    i ∈ ((cfg3.win 4).blk t).view.set
      ↔ ∀ a : Fin 2, win3_4.index t a * S10000x64.size a ≤ (i a).val
          ∧ (i a).val < win3_4.index t a * S10000x64.size a + S10000x64.size a := by
  show i ∈ ((View.whole main_v69).slice (win3_4.rect t)).set ↔ _
  rw [View.set_slice_whole, Rect.mem_set_unit]
  exact Iff.rfl

/-- Every index of the result array lies in the block of the point numbered by its row divided by 10000. -/
theorem comb3_cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e40, e41, -⟩ := comb3_idx t
  have e40' : win3_4.index t (0 : Fin 2) = (i 0).val / 10000 := e40
  refine ⟨t, flush3_4 t, ?_⟩
  rw [comb3_mem]
  intro a
  match a with
  | ⟨0, _⟩ =>
    show win3_4.index t (0 : Fin 2) * 10000 ≤ (i 0).val ∧ (i 0).val < win3_4.index t (0 : Fin 2) * 10000 + 10000
    omega
  | ⟨1, _⟩ =>
    show win3_4.index t (1 : Fin 2) * 64 ≤ (i 1).val ∧ (i 1).val < win3_4.index t (1 : Fin 2) * 64 + 64
    omega

/-- After the call the result array holds the host's expression of the four arrays as the call finds them. -/
theorem comb3_arr_of (hcol : S100000x1.BroadcastsInDim S100000x64 ![0, 1]) (hrow : S1x64.BroadcastsInDim S100000x64 ![0, 1])
    (hnil : S_.BroadcastsInDim S100000x64 ![]) (c : Dev nD) :
    (comb3Dat (F := Ideal) V c).arrAt 4 cfg3.N
      = (maximumf (addf (addf (V c main_v68) (mulf (V c main_v55) (broadcastInDim S100000x64 ![0, 1] hcol (V c main_v27))))
            (broadcastInDim S100000x64 ![0, 1] hrow (V c main_v29)))
          (broadcastInDim S100000x64 ![] hnil (constant (F := Ideal) S_ .f32 0x00000000#32)) : FVec Ideal S100000x64 .f32) :=
  (comb3Dat (F := Ideal) V c).arrAt_eq_of_cover 4
    (comb3Host hcol hrow hnil (V c main_v68) (V c main_v55) (V c main_v27) (V c main_v29))
    (fun t _ => comb3_flushed V hcol hrow hnil c t) comb3_cover

/-- The same, with the three spreading facts taken from the reference program's own table of facts: the right-hand
    side is then, operation for operation, the reference's multiply, two adds and maximum. -/
theorem comb3_arr [Cert.ReferenceIdeal.Facts₀] (c : Dev nD) :
    (comb3Dat (F := Ideal) V c).arrAt 4 cfg3.N
      = (maximumf (addf (addf (V c main_v68) (mulf (V c main_v55)
              (broadcastInDim S100000x64 ![0, 1] Cert.ReferenceIdeal.Facts₀.bcast_S100000x1_S100000x64_0_1 (V c main_v27))))
            (broadcastInDim S100000x64 ![0, 1] Cert.ReferenceIdeal.Facts₀.bcast_S1x64_S100000x64_0_1 (V c main_v29)))
          (broadcastInDim S100000x64 ![] Cert.ReferenceIdeal.Facts₀.bcast_S_S100000x64
            (constant (F := Ideal) S_ .f32 0x00000000#32)) : FVec Ideal S100000x64 .f32) :=
  comb3_arr_of V Cert.ReferenceIdeal.Facts₀.bcast_S100000x1_S100000x64_0_1
    Cert.ReferenceIdeal.Facts₀.bcast_S1x64_S100000x64_0_1 Cert.ReferenceIdeal.Facts₀.bcast_S_S100000x64 c

end Cert.KernelIdeal.HandVal

end
-- ==== Proof.Val.CombVal5.lean ====
/-
  The third combine layer's value on the extended reals (this layer takes no maximum with zero).

  The body of the call sees, at a grid point, a block of 10000 rows of the aggregated array, the same rows of
  the linear array, the same rows of the one-column array of self-loop weights, and the one bias row.  It writes
  back, for row p and column q of the block,
      agg (p, q) + lin (p, q) * w (p, 0) + bias (0, q).
  Block t holds rows 10000 * t … 10000 * t + 9999 of the arrays, and the ten blocks tile the 100000 rows: so the
  result array, index by index, is the same expression of the whole arrays — the host's multiply of the linear
  array by the weight column spread along the rows and two adds (the second with the bias row spread down the
  columns).
-/
import proofs.«422502_j47175920779584_2_alg».proof.Proof.KI.Comb5
import proofs.«422502_j47175920779584_2_alg».proof.ReferenceIdeal
import proofs.«422502_j47175920779584_2_alg».proof.Proof.LibKeepdims
import proofs.«422502_j47175920779584_2_alg».proof.Proof.LibRowRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Cert.KernelIdeal.Hand Idealize.ShloMosaic Idealize.ShloMosaic.ValueIdx

/-! ## One entry of the layer -/

/-- What the layer leaves at one entry, from the four numbers it depends on. -/
def comb5Entry (a l w b : EReal) : EReal := a + l * w + b

/-- The body's payload at row `p`, column `q` of a block: the entry's expression of the two blocks at `(p, q)`,
    the weight column at row `p` and the bias row at column `q`. -/
theorem comb5Pay_at (x0 x1 : Vec Ideal S10000x64 .f32) (x2 : Vec Ideal S10000x1 .f32) (x3 : Vec Ideal S1x64 .f32)
    (p : Fin 10000) (q : Fin 64) :
    (k5_pay1 (F := Ideal) x0 x1 x2 x3 : FVec Ideal S10000x64 .f32) (ix2 p q)
      = comb5Entry (x0 (ix2 p q)) (x1 (ix2 p q)) (x2 (ix2 p (0 : Fin 1))) (x3 (ix2 (0 : Fin 1) q)) := by
  unfold k5_pay1 comb5Entry
  have e2 : broadcastTo S10000x64 (shapeCast S10000x1 x2 shapeCasts_S10000x1_S10000x1) broadcasts_S10000x1_S10000x64 (ix2 p q)
      = x2 (ix2 p (0 : Fin 1)) := by
    rw [shapeCast_self]; exact broadcastTo_a1_ab_apply x2 _ p q
  have e3 : broadcastTo S10000x64 (shapeCast S1x64 x3 shapeCasts_S1x64_S1x64) broadcasts_S1x64_S10000x64 (ix2 p q)
      = x3 (ix2 (0 : Fin 1) q) := by
    rw [shapeCast_self]; exact broadcastTo_1b_ab_apply x3 _ p q
  show shapeCast S10000x64 x0 shapeCasts_S10000x64_S10000x64 (ix2 p q)
        + shapeCast S10000x64 x1 shapeCasts_S10000x64_S10000x64 (ix2 p q)
          * broadcastTo S10000x64 (shapeCast S10000x1 x2 shapeCasts_S10000x1_S10000x1) broadcasts_S10000x1_S10000x64 (ix2 p q)
        + broadcastTo S10000x64 (shapeCast S1x64 x3 shapeCasts_S1x64_S1x64) broadcasts_S1x64_S10000x64 (ix2 p q) = _
  rw [e2, e3, shapeCast_self, shapeCast_self]

/-! ## The host's expression of the whole arrays -/

/-- The host's spelling of the layer on whole arrays: the linear array times the weight column spread along the rows,
    added to the aggregated array, plus the bias row spread down the columns. -/
def comb5Host (hcol : S100000x1.BroadcastsInDim S100000x64 ![0, 1]) (hrow : S1x64.BroadcastsInDim S100000x64 ![0, 1])
    (A L : FVec Ideal S100000x64 .f32) (W : FVec Ideal S100000x1 .f32) (B : FVec Ideal S1x64 .f32) :
    FVec Ideal S100000x64 .f32 :=
  addf (addf A (mulf L (broadcastInDim S100000x64 ![0, 1] hcol W))) (broadcastInDim S100000x64 ![0, 1] hrow B)

/-- A one-row array spread down the columns reads, at `(r, q)`, the row's entry `q`. -/
theorem comb5_rowSpread_at {α : Type} {R C : Nat} (h : (⟨2, ![1, C]⟩ : Shape).BroadcastsInDim (⟨2, ![R, C]⟩ : Shape) ![0, 1])
    (b : (⟨2, ![1, C]⟩ : Shape).Idx → α) (r : Fin R) (q : Fin C) :
    broadcastInDim (⟨2, ![R, C]⟩ : Shape) ![0, 1] h b (ix2 r q) = b (ix2 (0 : Fin 1) q) := by
  refine broadcastInDim_apply _ h b _ (ix2 (0 : Fin 1) q) fun a => ?_
  match a with
  | ⟨0, _⟩ => rfl
  | ⟨1, _⟩ =>
    show q.val = if C = 1 then 0 else q.val
    split
    · have := q.isLt; omega
    · rfl

/-- The host's expression at row `i`, column `q`: the entry's expression of the arrays at `(i, q)`, the weight column at
    row `i` and the bias row at column `q`. -/
theorem comb5Host_at (hcol : S100000x1.BroadcastsInDim S100000x64 ![0, 1]) (hrow : S1x64.BroadcastsInDim S100000x64 ![0, 1])
    (A L : FVec Ideal S100000x64 .f32) (W : FVec Ideal S100000x1 .f32) (B : FVec Ideal S1x64 .f32)
    (i : Fin 100000) (q : Fin 64) :
    comb5Host hcol hrow A L W B (ix2 i q)
      = comb5Entry (A (ix2 i q)) (L (ix2 i q)) (W (ix2 i (0 : Fin 1))) (B (ix2 (0 : Fin 1) q)) := by
  unfold comb5Host comb5Entry
  have ec : broadcastInDim S100000x64 ![0, 1] hcol W (ix2 i q) = W (ix2 i (0 : Fin 1)) :=
    Cert.LibRowRead.bcast_alongRows_apply hcol W i q
  have er : broadcastInDim S100000x64 ![0, 1] hrow B (ix2 i q) = B (ix2 (0 : Fin 1) q) := comb5_rowSpread_at hrow B i q
  show A (ix2 i q) + L (ix2 i q) * broadcastInDim S100000x64 ![0, 1] hcol W (ix2 i q)
        + broadcastInDim S100000x64 ![0, 1] hrow B (ix2 i q) = _
  rw [ec, er]

/-! ## A block's entry against the arrays' -/

/-- If, at an index `y` of a block and an index `i` of the arrays with the same column, the two big blocks read what the
    arrays read at `i`, the weight block at `y`'s row reads the weight column at `i`'s row, and the bias block is the
    bias row, then the payload at `y` is the host's expression at `i`. -/
theorem comb5_point (hcol : S100000x1.BroadcastsInDim S100000x64 ![0, 1]) (hrow : S1x64.BroadcastsInDim S100000x64 ![0, 1])
    (A L : FVec Ideal S100000x64 .f32) (W : FVec Ideal S100000x1 .f32) (B : FVec Ideal S1x64 .f32)
    (x0 x1 : Vec Ideal S10000x64 .f32) (x2 : Vec Ideal S10000x1 .f32) (x3 : Vec Ideal S1x64 .f32)
    (y : S10000x64.Idx) (i : S100000x64.Idx) (hq : (y 1).val = (i 1).val)
    (h0 : x0 y = A i) (h1 : x1 y = L i)
    (h2 : x2 (ix2 (⟨(y 0).val, (y 0).isLt⟩ : Fin 10000) (0 : Fin 1)) = W (ix2 (⟨(i 0).val, (i 0).isLt⟩ : Fin 100000) (0 : Fin 1)))
    (h3 : ∀ q : Fin 64, x3 (ix2 (0 : Fin 1) q) = B (ix2 (0 : Fin 1) q)) :
    (k5_pay1 (F := Ideal) x0 x1 x2 x3 : FVec Ideal S10000x64 .f32) y = comb5Host hcol hrow A L W B i := by
  obtain ⟨p, q, rfl⟩ : ∃ (p : Fin 10000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q = q' := Fin.ext hq
  rw [comb5Pay_at, comb5Host_at, h0, h1, h3 q]
  exact congrArg (fun w => comb5Entry _ _ w _) h2

/-! ## From blocks to the array -/

open Idealize.ShloMosaic.Pipeline (Dat)
open Idealize.ShloMosaic.TcCoe

-- what the TensorCore's buffers hold when the call is entered
variable (V : (c : Dev nD) → (b : Ref sig .tc) → Buf (Elt Ideal) ((c : Thread nD τ).loc b))

/-- The printed index maps over the ten grid points: the three row-blocked inputs move with the output along the rows,
    the output's row block is the point's number, and every column index (and the bias row's row index) is 0. -/
theorem comb5_idx : ∀ t : Fin cfg5.N,
    win5_4.index t (0 : Fin 2) = t.val ∧ win5_4.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0 :=
  (by decide +kernel : ∀ t : Fin grid5.N, _)

/-- What grid point `t` writes back is block `t` of the host's expression of the four arrays as the call finds them. -/
theorem comb5_flushed (hcol : S100000x1.BroadcastsInDim S100000x64 ![0, 1]) (hrow : S1x64.BroadcastsInDim S100000x64 ![0, 1])
    (c : Dev nD) (t : Fin cfg5.N) :
    (comb5Dat (F := Ideal) V c).flushed 4 t
      = ((cfg5.win 4).blk t).view.read (Elt Ideal)
          (comb5Host hcol hrow (V c main_v83) (V c main_v70) (V c main_v27) (V c main_v30)) := by
  show (cfg5.win 4).cut (grid5.coords t) ((comb5Dat (F := Ideal) V c).after 4 t) = _
  rw [comb5Dat_after4, comb5Out_eq]
  obtain ⟨e40, e41, e00, e01, e10, e11, e20, e21, e30, e31⟩ := comb5_idx t
  funext j
  have hj0 : (j 0).val < 10000 := (j 0).isLt
  have hj1 : (j 1).val < 64 := (j 1).isLt
  show (k5_pay1 (F := Ideal) (comb5Blk V c 0 t) (comb5Blk V c 1 t) (comb5Blk V c 2 t) (comb5Blk V c 3 t) : FVec Ideal S10000x64 .f32) j
      = comb5Host hcol hrow (V c main_v83) (V c main_v70) (V c main_v27) (V c main_v30) (((cfg5.win 4).blk t).view.emb j)
  refine comb5_point hcol hrow (V c main_v83) (V c main_v70) (V c main_v27) (V c main_v30)
    (comb5Blk V c 0 t) (comb5Blk V c 1 t) (comb5Blk V c 2 t) (comb5Blk V c 3 t) j (((cfg5.win 4).blk t).view.emb j) ?_ ?_ ?_ ?_ ?_
  · show (j 1).val = win5_4.index t (1 : Fin 2) * 64 + 1 * (j 1).val
    omega
  · show V c main_v83 (((cfg5.win 0).blk t).view.emb j) = V c main_v83 (((cfg5.win 4).blk t).view.emb j)
    refine congrArg (V c main_v83) (funext fun a => Fin.ext ?_)
    match a with
    | ⟨0, _⟩ => show win5_0.index t (0 : Fin 2) * 10000 + 1 * (j 0).val = win5_4.index t (0 : Fin 2) * 10000 + 1 * (j 0).val; omega
    | ⟨1, _⟩ => show win5_0.index t (1 : Fin 2) * 64 + 1 * (j 1).val = win5_4.index t (1 : Fin 2) * 64 + 1 * (j 1).val; omega
  · show V c main_v70 (((cfg5.win 1).blk t).view.emb j) = V c main_v70 (((cfg5.win 4).blk t).view.emb j)
    refine congrArg (V c main_v70) (funext fun a => Fin.ext ?_)
    match a with
    | ⟨0, _⟩ => show win5_1.index t (0 : Fin 2) * 10000 + 1 * (j 0).val = win5_4.index t (0 : Fin 2) * 10000 + 1 * (j 0).val; omega
    | ⟨1, _⟩ => show win5_1.index t (1 : Fin 2) * 64 + 1 * (j 1).val = win5_4.index t (1 : Fin 2) * 64 + 1 * (j 1).val; omega
  · show V c main_v27 (((cfg5.win 2).blk t).view.emb (ix2 (⟨(j 0).val, hj0⟩ : Fin 10000) (0 : Fin 1)))
        = V c main_v27 (ix2 (⟨win5_4.index t (0 : Fin 2) * 10000 + 1 * (j 0).val, _⟩ : Fin 100000) (0 : Fin 1))
    refine congrArg (V c main_v27) (funext fun a => Fin.ext ?_)
    match a with
    | ⟨0, _⟩ => show win5_2.index t (0 : Fin 2) * 10000 + 1 * (j 0).val = win5_4.index t (0 : Fin 2) * 10000 + 1 * (j 0).val; omega
    | ⟨1, _⟩ => show win5_2.index t (1 : Fin 2) * 1 + 1 * 0 = 0; omega
  · intro q
    show V c main_v30 (((cfg5.win 3).blk t).view.emb (ix2 (0 : Fin 1) q)) = V c main_v30 (ix2 (0 : Fin 1) q)
    refine congrArg (V c main_v30) (funext fun a => Fin.ext ?_)
    match a with
    | ⟨0, _⟩ => show win5_3.index t (0 : Fin 2) * 1 + 1 * 0 = 0; omega
    | ⟨1, _⟩ => show win5_3.index t (1 : Fin 2) * 64 + 1 * q.val = q.val; omega

/-- An index of the result array is in point `t`'s block iff each coordinate is in the block's range on its axis. -/
theorem comb5_mem (t : Fin cfg5.N) (i : S100000x64.Idx) :
    i ∈ ((cfg5.win 4).blk t).view.set
      ↔ ∀ a : Fin 2, win5_4.index t a * S10000x64.size a ≤ (i a).val
          ∧ (i a).val < win5_4.index t a * S10000x64.size a + S10000x64.size a := by
  show i ∈ ((View.whole main_v84).slice (win5_4.rect t)).set ↔ _
  rw [View.set_slice_whole, Rect.mem_set_unit]
  exact Iff.rfl

/-- Every index of the result array lies in the block of the point numbered by its row divided by 10000. -/
theorem comb5_cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  obtain ⟨e40, e41, -⟩ := comb5_idx t
  have e40' : win5_4.index t (0 : Fin 2) = (i 0).val / 10000 := e40
  refine ⟨t, flush5_4 t, ?_⟩
  rw [comb5_mem]
  intro a
  match a with
  | ⟨0, _⟩ =>
    show win5_4.index t (0 : Fin 2) * 10000 ≤ (i 0).val ∧ (i 0).val < win5_4.index t (0 : Fin 2) * 10000 + 10000
    omega
  | ⟨1, _⟩ =>
    show win5_4.index t (1 : Fin 2) * 64 ≤ (i 1).val ∧ (i 1).val < win5_4.index t (1 : Fin 2) * 64 + 64
    omega

/-- After the call the result array holds the host's expression of the four arrays as the call finds them. -/
theorem comb5_arr_of (hcol : S100000x1.BroadcastsInDim S100000x64 ![0, 1]) (hrow : S1x64.BroadcastsInDim S100000x64 ![0, 1])
    (c : Dev nD) :
    (comb5Dat (F := Ideal) V c).arrAt 4 cfg5.N
      = (addf (addf (V c main_v83) (mulf (V c main_v70) (broadcastInDim S100000x64 ![0, 1] hcol (V c main_v27))))
            (broadcastInDim S100000x64 ![0, 1] hrow (V c main_v30)) : FVec Ideal S100000x64 .f32) :=
  (comb5Dat (F := Ideal) V c).arrAt_eq_of_cover 4
    (comb5Host hcol hrow (V c main_v83) (V c main_v70) (V c main_v27) (V c main_v30))
    (fun t _ => comb5_flushed V hcol hrow c t) comb5_cover

/-- The same, with the two spreading facts taken from the reference program's own table of facts: the right-hand
    side is then, operation for operation, the reference's multiply and two adds. -/
theorem comb5_arr [Cert.ReferenceIdeal.Facts₀] (c : Dev nD) :
    (comb5Dat (F := Ideal) V c).arrAt 4 cfg5.N
      = (addf (addf (V c main_v83) (mulf (V c main_v70)
              (broadcastInDim S100000x64 ![0, 1] Cert.ReferenceIdeal.Facts₀.bcast_S100000x1_S100000x64_0_1 (V c main_v27))))
            (broadcastInDim S100000x64 ![0, 1] Cert.ReferenceIdeal.Facts₀.bcast_S1x64_S100000x64_0_1 (V c main_v30))
          : FVec Ideal S100000x64 .f32) :=
  comb5_arr_of V Cert.ReferenceIdeal.Facts₀.bcast_S100000x1_S100000x64_0_1
    Cert.ReferenceIdeal.Facts₀.bcast_S1x64_S100000x64_0_1 c

end Cert.KernelIdeal.HandVal

end
-- ==== Proof.Val.PoolMath.lean ====
/-
  The graph-pooling sum, point-free: a product whose left factor is contracted along its ROWS, the 0/1 indicator
  of "row n belongs to group g" as an extended real, and the sum over all rows cut into equal blocks.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KernelIdeal.HandVal

open Idealize.ShloMosaic Idealize.ShloMosaic.ValueIdx

/-! ## A product contracted along the rows of both factors

  Dimension numbers "contract axis 0 of the left factor with axis 0 of the right one, no batch axis": the entry
  (r, c) of the result is the sum over k of x(k, r) · w(k, c). The four coordinates of the operand indices, each at
  its literal axis. -/

section RowContraction

variable {R K C : Nat} (d : DotDims ⟨2, ![K, R]⟩ ⟨2, ![K, C]⟩ ⟨2, ![R, C]⟩)

/-- One shared axis. -/
theorem rowc_rank (hl : d.lhsContracting = [0]) : d.contr.rank = 1 := by
  rw [d.rank_contr, hl]; rfl

/-- The shared axis has the left factor's row count. -/
theorem rowc_size (hl : d.lhsContracting = [0]) :
    d.contr.size ⟨0, by rw [rowc_rank d hl]; exact Nat.one_pos⟩ = K := by
  have h := d.size_contr 0 (by rw [hl]; exact Nat.one_pos)
  rw [h]
  have h1 : d.lhsContracting[0]'(by rw [hl]; exact Nat.one_pos) = (0 : Fin 2) := by simp [hl]
  rw [h1]; rfl

/-- The left factor's row coordinate is the shared coordinate. -/
theorem rowc_lhs0 (hl : d.lhsContracting = [0]) (j : (⟨2, ![R, C]⟩ : Shape).Idx) (k : d.contr.Idx) :
    (d.lhsIdx j k 0 : ℕ) = (k ⟨0, by rw [rowc_rank d hl]; exact Nat.one_pos⟩ : ℕ) :=
  d.lhsIdx_val_of_single hl j k

/-- The left factor's column coordinate is the entry's row. -/
theorem rowc_lhs1 (hln : d.lhsNonContracting = [1]) (hlb : d.lhsBatch = [])
    (j : (⟨2, ![R, C]⟩ : Shape).Idx) (k : d.contr.Idx) : (d.lhsIdx j k 1 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right factor's row coordinate is the shared coordinate. -/
theorem rowc_rhs0 (hl : d.lhsContracting = [0]) (hr : d.rhsContracting = [0]) (j : (⟨2, ![R, C]⟩ : Shape).Idx)
    (k : d.contr.Idx) : (d.rhsIdx j k 0 : ℕ) = (k ⟨0, by rw [rowc_rank d hl]; exact Nat.one_pos⟩ : ℕ) :=
  d.rhsIdx_val_of_single hr j k

/-- The right factor's column coordinate is the entry's column. -/
theorem rowc_rhs1 (hln : d.lhsNonContracting = [1]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end RowContraction

/-- The row-contracted product into the zero accumulator, at entry (r, c). -/
theorem matmul_rows_zero_at {R K C : Nat} {φ₁ φ₂ : FTy} (d : DotDims ⟨2, ![K, R]⟩ ⟨2, ![K, C]⟩ ⟨2, ![R, C]⟩)
    (hl : d.lhsContracting = [0]) (hr : d.rhsContracting = [0]) (hln : d.lhsNonContracting = [1])
    (hrn : d.rhsNonContracting = [1]) (hlb : d.lhsBatch = []) (hrb : d.rhsBatch = [])
    (prec : Option ContractPrecision) (x : FVec Ideal ⟨2, ![K, R]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 k r) * w (ix2 k c) := by
  rw [Ideal.matmul_constant_zero_apply]
  rw [← Equiv.sum_comp (contrEquiv1 d K (rowc_rank d hl) (rowc_size d hl)).symm]
  refine Finset.sum_congr rfl fun k _ => ?_
  have hk := contrEquiv1_symm_val d K (rowc_rank d hl) (rowc_size d hl) k
  have hx : d.lhsIdx (ix2 r c) ((contrEquiv1 d K (rowc_rank d hl) (rowc_size d hl)).symm k) = ix2 k r := by
    funext a
    match a with
    | ⟨0, _⟩ => exact Fin.ext ((rowc_lhs0 d hl _ _).trans hk)
    | ⟨1, _⟩ => exact Fin.ext (rowc_lhs1 d hln hlb _ _)
  have hw : d.rhsIdx (ix2 r c) ((contrEquiv1 d K (rowc_rank d hl) (rowc_size d hl)).symm k) = ix2 k c := by
    funext a
    match a with
    | ⟨0, _⟩ => exact Fin.ext ((rowc_rhs0 d hl hr _ _).trans hk)
    | ⟨1, _⟩ => exact Fin.ext (rowc_rhs1 d hln hrn hlb hrb _ _)
  rw [hx, hw]

/-! ## The indicator of a group as an extended real -/

/-- A 32-bit word equals the word of a number below 2³¹ exactly when, read signed, it is that number. -/
theorem word_eq_ofNat_iff (w : BitVec 32) (g : Nat) (hg : g < 2 ^ 31) : w = BitVec.ofNat 32 g ↔ w.toInt = (g : ℤ) := by
  have hto : (BitVec.ofNat 32 g).toInt = (g : ℤ) := by
    rw [BitVec.toInt_eq_toNat_of_lt (by rw [BitVec.toNat_ofNat]; omega), BitVec.toNat_ofNat]
    omega
  constructor
  · intro e; rw [e, hto]
  · intro e; exact BitVec.eq_of_toInt_eq (e.trans hto.symm)

/-- A truth value widened to a word and read as a signed integer, as an extended real: one or zero. -/
theorem sitofp_ofBool (b : Bool) :
    FloatOps.sitofp (F := Ideal) .f32 ((BitVec.ofBool b).setWidth 32) = if b then (1 : EReal) else 0 := by
  cases b
  · show (((((BitVec.ofBool false).setWidth 32).toInt : ℤ) : ℝ) : EReal) = 0
    have : ((BitVec.ofBool false).setWidth 32).toInt = 0 := by decide
    rw [this]; simp
  · show (((((BitVec.ofBool true).setWidth 32).toInt : ℤ) : ℝ) : EReal) = 1
    have : ((BitVec.ofBool true).setWidth 32).toInt = 1 := by decide
    rw [this]; simp

/-- Summing 0/1 multiples: only the terms whose indicator is one remain. -/
theorem sum_ite_one_mul {ι : Type*} [Fintype ι] (p : ι → Prop) [DecidablePred p] (f : ι → EReal) :
    (∑ n : ι, (if p n then (1 : EReal) else 0) * f n) = ∑ n : ι, if p n then f n else 0 := by
  refine Finset.sum_congr rfl fun n _ => ?_
  split_ifs
  · exact one_mul _
  · exact zero_mul _

/-! ## All rows, cut into equal blocks -/

/-- A sum over N·M rows is the sum over the N blocks of the sums over each block's M rows; row m of block t is row
    m + M·t. -/
theorem sum_rows_blocks (N M : Nat) (f : Fin (N * M) → EReal) :
    (∑ e : Fin (N * M), f e) = ∑ t : Fin N, ∑ m : Fin M, f (finProdFinEquiv (t, m)) := by
  rw [← Equiv.sum_comp finProdFinEquiv f, Fintype.sum_prod_type]

/-- A quantity that starts at the first block's term and adds each later block's term is, after block n, the sum of
    the terms of the blocks up to n. -/
theorem fold_blocks {N : Nat} (acc : (n : Nat) → n < N → EReal) (a : Fin N → EReal)
    (h0 : ∀ h : 0 < N, acc 0 h = 0 + a ⟨0, h⟩)
    (hs : ∀ (n : Nat) (h : n + 1 < N), acc (n + 1) h = acc n (Nat.lt_of_succ_lt h) + a ⟨n + 1, h⟩) :
    ∀ (n : Nat) (h : n < N), acc n h = ∑ t ∈ Finset.univ.filter (fun t : Fin N => t.val ≤ n), a t
  | 0, h => by
    have hset : Finset.univ.filter (fun t : Fin N => t.val ≤ 0) = {⟨0, h⟩} := by
      ext t; simp [Fin.ext_iff]
    rw [h0 h, hset, Finset.sum_singleton, zero_add]
  | n + 1, h => by
    have hset : Finset.univ.filter (fun t : Fin N => t.val ≤ n + 1)
        = insert ⟨n + 1, h⟩ (Finset.univ.filter (fun t : Fin N => t.val ≤ n)) := by
      ext t; simp [Fin.ext_iff]; omega
    have hnot : (⟨n + 1, h⟩ : Fin N) ∉ Finset.univ.filter (fun t : Fin N => t.val ≤ n) := by
      simp
    rw [hs n h, fold_blocks acc a h0 hs n (Nat.lt_of_succ_lt h), hset, Finset.sum_insert hnot, add_comm]

/-- After the last block it is the sum of all the blocks' terms. -/
theorem fold_blocks_last {N : Nat} (acc : (n : Nat) → n < N → EReal) (a : Fin N → EReal)
    (h0 : ∀ h : 0 < N, acc 0 h = 0 + a ⟨0, h⟩)
    (hs : ∀ (n : Nat) (h : n + 1 < N), acc (n + 1) h = acc n (Nat.lt_of_succ_lt h) + a ⟨n + 1, h⟩)
    (n : Nat) (h : n < N) (hlast : n + 1 = N) : acc n h = ∑ t : Fin N, a t := by
  rw [fold_blocks acc a h0 hs n h]
  refine Finset.sum_congr ?_ fun _ _ => rfl
  ext t; simp; have := t.isLt; omega

end Cert.KernelIdeal.HandVal

end
-- ==== Proof.Val.PoolPay.lean ====
/-
  The pooling kernel's three payloads read at an entry, over the extended reals: the zero table; one block's step
  "table + indicatorᵀ · block" at (g, k) as the table's entry plus the sum of the block's rows that belong to group
  g; and the last step "(table / counts) · W + bias row" at (g, j).
-/
import proofs.«422502_j47175920779584_2_alg».proof.Proof.Gen.KernelIdeal.Skeleton
import proofs.«422502_j47175920779584_2_alg».proof.Proof.LibDot
import proofs.«422502_j47175920779584_2_alg».proof.Proof.LibKeepdims
import proofs.«422502_j47175920779584_2_alg».proof.Proof.Val.PoolMath
import Idealize.ShloMosaic.Lib.ValueLayout

noncomputable section

open scoped BigOperators

namespace Cert.KernelIdeal.HandVal

open Cert.KernelIdeal Cert.KernelIdeal.Gen Idealize.ShloMosaic Idealize.ShloMosaic.ValueIdx

/-- The indicator factor at (n, g): one if the word of row n, read signed, is g, else zero. -/
theorem indicator_at (b : IVec S5000x1 32) (hc : S5000x1.ShapeCasts S5000x1) (hi : S1x512.Iotas .tc 32 [1])
    (hb1 : S5000x1.Broadcasts S5000x512) (hb2 : S1x512.Broadcasts S5000x512) (hlt : 1 < 32)
    (hbits : FTy.bits .bf16 < FTy.bits .f32) (n : Fin 5000) (g : Fin 512) :
    (truncf (F := Ideal) .bf16 (sitofp .f32 (extui 32 (cmpi .eq (broadcastTo S5000x512 (shapeCast S5000x1 b hc) hb1)
        (broadcastTo S5000x512 (iota .tc S1x512 32 [1] hi) hb2)) hlt)) hbits) (ix2 n g)
      = if (b (ix2 n (0 : Fin 1))).toInt = (g.val : ℤ) then (1 : EReal) else 0 := by
  rw [shapeCast_self]
  show FloatOps.sitofp (F := Ideal) .f32 ((IntOp.cmpi .eq (broadcastTo S5000x512 b hb1 (ix2 n g))
      (broadcastTo S5000x512 (iota .tc S1x512 32 [1] hi) hb2 (ix2 n g))).setWidth 32) = _
  rw [broadcastTo_a1_ab_apply b hb1 n g, broadcastTo_1b_ab_apply _ hb2 n g, iota_single_apply]
  show FloatOps.sitofp (F := Ideal) .f32 ((BitVec.ofBool (b (ix2 n (0 : Fin 1)) == BitVec.ofNat 32 g.val)).setWidth 32) = _
  rw [sitofp_ofBool]
  have hg : g.val < 2 ^ 31 := by have := g.isLt; omega
  by_cases h : (b (ix2 n (0 : Fin 1))).toInt = (g.val : ℤ)
  · rw [if_pos h, if_pos (by rw [beq_iff_eq]; exact (word_eq_ofNat_iff _ _ hg).2 h)]
  · rw [if_neg h, if_neg (by rw [beq_iff_eq]; exact fun e => h ((word_eq_ofNat_iff _ _ hg).1 e))]

/-- The zero table. -/
theorem pay1_at (g : Fin 512) (k : Fin 64) : (k6_pay1 (F := Ideal)) (ix2 g k) = 0 := by
  unfold k6_pay1
  rw [shapeCast_self]
  show Ideal.ofBits .f32 0x00000000#32 = 0
  exact Ideal.ofBits_zero_f32

/-- One block's step at (g, k): the table's entry plus the rows of the block whose word is g. -/
theorem pay2_at (b : Vec Ideal S5000x1 .i32) (h : Vec Ideal S5000x64 .f32) (s : Vec Ideal S512x64 .f32) (g : Fin 512) (k : Fin 64) :
    k6_pay2 (F := Ideal) b h s (ix2 g k)
      = s (ix2 g k) + ∑ n : Fin 5000, if (b (ix2 n (0 : Fin 1))).toInt = (g.val : ℤ) then h (ix2 n k) else 0 := by
  unfold k6_pay2
  rw [shapeCast_self]
  refine congrArg (fun x => s (ix2 g k) + x) ?_
  refine (matmul_rows_zero_at dot_S5000x512_S5000x64_S512x64_0_0_1_1_n_n rfl rfl rfl rfl rfl rfl none _ _ g k).trans ?_
  rw [← sum_ite_one_mul]
  refine Finset.sum_congr rfl fun n _ => ?_
  rw [indicator_at, shapeCast_self]
  rfl

/-- The last step at (g, j): the table's row g over the count of g, times W's column j, plus the bias at j. -/
theorem pay3_at (s : Vec Ideal S512x64 .f32) (cnts : Vec Ideal S512x1 .f32) (wfc : Vec Ideal S64x10 .f32)
    (bfc : Vec Ideal S1x10 .f32) (g : Fin 512) (j : Fin 10) :
    k6_pay3 (F := Ideal) s cnts wfc bfc (ix2 g j)
      = (∑ k : Fin 64, Ideal.div (s (ix2 g k)) (cnts (ix2 g (0 : Fin 1))) * wfc (ix2 k j)) + bfc (ix2 (0 : Fin 1) j) := by
  unfold k6_pay3
  show FloatOps.matmul dot_S512x64_S64x10_S512x10_1_0_0_1_n_n none _ _ (constant S512x10 .f32 0x00000000#32) (ix2 g j)
      + broadcastTo S512x10 _ _ (ix2 g j) = _
  rw [Cert.LibDot.matmul_zero_at dot_S512x64_S64x10_S512x10_1_0_0_1_n_n rfl rfl rfl rfl rfl rfl none _ _ g j,
    broadcastTo_1b_ab_apply, shapeCast_self, shapeCast_self]
  refine congrArg (fun x => x + bfc (ix2 (0 : Fin 1) j)) ?_
  refine Finset.sum_congr rfl fun k _ => ?_
  show Ideal.div (s (ix2 g k)) (broadcastTo S512x64 cnts _ (ix2 g k)) * wfc (ix2 k j) = _
  rw [broadcastTo_a1_ab_apply]

end Cert.KernelIdeal.HandVal

end
-- ==== Proof.LibScatter.lean ====
/-
  A host scatter-add read at one element, at the exact (extended-real) instance, for the two layouts of a
  segment sum: one number per edge added into a vector at the edge's index word, and one row per edge added into
  a table at the row its index word names. An index word outside the operand (read signed, not clipped) drops
  its update. And a host maximum over the rows of a table, read at a column, as the supremum over the rows.
-/
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.Pipeline.Value

noncomputable section

open scoped BigOperators

namespace Cert.LibScatter

open Idealize.ShloMosaic Idealize.ShloMosaic.ValueIdx

/-- An update lands on element `i` exactly when, on every operand axis, its window start plus its window
    coordinate is that axis's coordinate of `i`. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := Option.some.inj e
      have e2 := congrArg (fun f : s.Idx => (f a).val) e'
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-! ## The vector layout: one number per edge -/

/-- On the vector's one axis an update's window starts at its edge's index word, read signed. -/
private theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ix2 (j 0) (0 : Fin 1))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
private theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- The vector scatter-add at element `c`: the operand's element plus the updates of the edges whose index
    word, read signed, is `c`. -/
theorem scatterAdd_vec_read {C n : Nat} {φ : FTy} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → EReal) (idx : IVec ⟨2, ![n, 1]⟩ 32) (upd : (⟨1, ![n]⟩ : Shape).Idx → EReal) (c : Fin C) :
    Host.scatterAdd (F := Ideal) (φ := φ) d x idx upd (ix1 c)
      = x (ix1 c) + ∑ e ∈ Finset.univ.filter (fun e : Fin n => (idx (ix2 e (0 : Fin 1))).toInt = (c.val : ℤ)),
          upd (ix1 e) := by
  have key : ∀ j : (⟨1, ![n]⟩ : Shape).Idx,
      d.resultIdx? j idx = some (ix1 c) ↔ (idx (ix2 (j 0) (0 : Fin 1))).toInt = (c.val : ℤ) := by
    intro j
    rw [resultIdx?_eq_some_iff]
    constructor
    · intro e
      have e0 : d.start j idx 0 + (d.window j 0 : ℤ) = (c.val : ℤ) := e 0
      rw [vec_start d h1 h2 h3 h4, vec_window d h1 h2 h3 h4] at e0
      simpa using e0
    · intro e a
      have ea : d.start j idx a + (d.window j a : ℤ) = (c.val : ℤ) := by
        rw [vec_start d h1 h2 h3 h4, vec_window d h1 h2 h3 h4]
        simpa using e
      match a with
      | ⟨0, _⟩ => exact ea
  show Ideal.hostScatterAdd d x idx upd (ix1 c) = _
  unfold Ideal.hostScatterAdd
  congr 1
  refine Finset.sum_nbij' (fun j : (⟨1, ![n]⟩ : Shape).Idx => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _; exact (eq_ix1 j).symm
  · intro e _; rfl
  · intro j _; exact congrArg upd (eq_ix1 j)

/-! ## The table layout: one row per edge -/

/-- On the table's row axis an update's window starts at its edge's index word, read signed. -/
private theorem rows_start0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_singleton.2 rfl) ha

/-- The table's column axis is not a scattered one: the window starts at zero there. -/
private theorem rows_start1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 1 = 0 := by
  obtain ⟨uw, iw, sd, iv, wf⟩ := d
  dsimp only at h1 h2 h3 h4
  subst h1 h2 h3 h4
  unfold ScatterDims.start
  split_ifs with ha
  · exact absurd (congrArg Fin.val (List.mem_singleton.1 ha)) Nat.one_ne_zero
  · rfl

/-- The table's row axis is an inserted one: the window coordinate there is zero. -/
private theorem rows_window0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 0 = 0 := by
  obtain ⟨uw, iw, sd, iv, wf⟩ := d
  dsimp only at h1 h2 h3 h4
  subst h1 h2 h3 h4
  unfold ScatterDims.window
  split_ifs with ha
  · exact absurd (show (0 : Fin 2) ∈ ([1] : List (Fin 2)) from ha) (by decide)
  · rfl

/-- On the table's column axis the window coordinate is the update's column. -/
private theorem rows_window1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 1 = (j 1).val := by
  obtain ⟨uw, iw, sd, iv, wf⟩ := d
  dsimp only at h1 h2 h3 h4
  subst h1 h2 h3 h4
  unfold ScatterDims.window
  split_ifs with ha
  · rfl
  · exact absurd (show (1 : Fin 2) ∈ ([1] : List (Fin 2)) from List.mem_singleton.2 rfl) ha

/-- The row scatter-add at element `(c, k)`: the operand's element plus the updates `(e, k)` of the edges `e`
    whose index word, read signed, is `c`. -/
theorem scatterAdd_rows_read {C D n : Nat} {φ : FTy} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1)
    (x : (⟨2, ![C, D]⟩ : Shape).Idx → EReal) (idx : IVec ⟨2, ![n, 1]⟩ 32) (upd : (⟨2, ![n, D]⟩ : Shape).Idx → EReal)
    (c : Fin C) (k : Fin D) :
    Host.scatterAdd (F := Ideal) (φ := φ) d x idx upd (ix2 c k)
      = x (ix2 c k) + ∑ e ∈ Finset.univ.filter (fun e : Fin n => (idx (ix2 e (0 : Fin 1))).toInt = (c.val : ℤ)),
          upd (ix2 e k) := by
  have key : ∀ j : (⟨2, ![n, D]⟩ : Shape).Idx,
      d.resultIdx? j idx = some (ix2 c k)
        ↔ ((idx (ix2 (j 0) (0 : Fin 1))).toInt = (c.val : ℤ) ∧ (j 1).val = k.val) := by
    intro j
    rw [resultIdx?_eq_some_iff]
    constructor
    · intro e
      have e0 : d.start j idx 0 + (d.window j 0 : ℤ) = (c.val : ℤ) := e 0
      have e1 : d.start j idx 1 + (d.window j 1 : ℤ) = (k.val : ℤ) := e 1
      rw [rows_start0 d h1 h2 h3 h4, rows_window0 d h1 h2 h3 h4] at e0
      rw [rows_start1 d h1 h2 h3 h4, rows_window1 d h1 h2 h3 h4] at e1
      refine ⟨by simpa using e0, ?_⟩
      omega
    · rintro ⟨e0, e1⟩ a
      match a with
      | ⟨0, _⟩ =>
        show d.start j idx 0 + (d.window j 0 : ℤ) = (c.val : ℤ)
        rw [rows_start0 d h1 h2 h3 h4, rows_window0 d h1 h2 h3 h4]
        simpa using e0
      | ⟨1, _⟩ =>
        show d.start j idx 1 + (d.window j 1 : ℤ) = (k.val : ℤ)
        rw [rows_start1 d h1 h2 h3 h4, rows_window1 d h1 h2 h3 h4]
        omega
  have back : ∀ j : (⟨2, ![n, D]⟩ : Shape).Idx, (j 1).val = k.val → ix2 (j 0 : Fin n) k = j := by
    intro j hk
    funext a
    match a with
    | ⟨0, _⟩ => rfl
    | ⟨1, _⟩ => exact Fin.ext hk.symm
  show Ideal.hostScatterAdd d x idx upd (ix2 c k) = _
  unfold Ideal.hostScatterAdd
  congr 1
  refine Finset.sum_nbij' (fun j : (⟨2, ![n, D]⟩ : Shape).Idx => (j 0 : Fin n)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    exact back j ((key j).1 (Finset.mem_filter.1 hj).2).2
  · intro e _; rfl
  · intro j hj
    exact congrArg upd (back j ((key j).1 (Finset.mem_filter.1 hj).2).2).symm

/-! ## The maximum over the rows -/

/-- The column index `c` with row `k` put back is `(k, c)`. -/
private theorem lift_rows {R C : Nat} (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The host's maximum over the rows of a table, started at −∞, read at column `c`: the supremum over the rows. -/
theorem reduce_max_rows {R C : Nat} (x : (⟨2, ![R, C]⟩ : Shape).Idx → EReal) (init : (⟨0, ![]⟩ : Shape).Idx → EReal)
    (hinit : ∀ i, init i = ⊥) (h : (⟨2, ![R, C]⟩ : Shape).ReducesTo [0] ⟨1, ![C]⟩) (hu : 0 < (⟨0, ![]⟩ : Shape).numel)
    (c : Fin C) :
    Host.reduce (FloatOps.maximumf (F := Ideal) (φ := .f32)) x init h hu (ix1 c)
      = Finset.univ.sup fun r : Fin R => x (ix2 r c) := by
  -- the rank-one result has an axis, so the reduction is one the single-axis fold law covers
  have hr : (⟨2, ![R, C]⟩ : Shape).Reduces [0] ⟨1, ![C]⟩ := ⟨h.1, Nat.one_pos, h.2⟩
  rw [Host.reduce_eq_fold_single (FloatOps.maximumf (F := Ideal) (φ := .f32)) x init h hr hu, hinit]
  have hf : (x ∘ hr.lift (ix1 c)) = fun r : Fin R => x (ix2 r c) := funext fun k => congrArg x (lift_rows hr c k)
  rw [hf]
  -- a supremum over a finite set is by definition the fold of the binary supremum from the bottom element
  rfl

end Cert.LibScatter

end
-- ==== Proof.Val.PoolRef.lean ====
/-
  The reference's pooled classifier read at an entry, over the extended reals: the host's segment sum of the rows by
  group, divided by the count column spread along the rows, times W, plus the bias row spread down the columns; at
  (g, j) it is the sum over k of ((0 + the rows of group g at k) / count g) · W(k, j), plus the bias at j.
-/
import proofs.«422502_j47175920779584_2_alg».proof.ReferenceIdeal
import proofs.«422502_j47175920779584_2_alg».proof.Proof.LibDot
import proofs.«422502_j47175920779584_2_alg».proof.Proof.LibScatter
import proofs.«422502_j47175920779584_2_alg».proof.Proof.LibRowRead

noncomputable section

open scoped BigOperators

namespace Cert.KernelIdeal.HandVal

open Idealize.ShloMosaic Idealize.ShloMosaic.ValueIdx

variable [Cert.ReferenceIdeal.Facts₀]

/-- A one-row array spread down the columns reads, at (r, c), the row's entry c. -/
theorem bcast_downCols_apply {α : Type} {R C : Nat}
    (h2 : (⟨2, ![1, C]⟩ : Shape).BroadcastsInDim (⟨2, ![R, C]⟩ : Shape) ![0, 1])
    (w : (⟨2, ![1, C]⟩ : Shape).Idx → α) (r : Fin R) (c : Fin C) :
    broadcastInDim (⟨2, ![R, C]⟩ : Shape) ![0, 1] h2 w (ix2 r c) = w (ix2 (0 : Fin 1) c) := by
  refine broadcastInDim_apply _ h2 w _ (ix2 (0 : Fin 1) c) fun a => ?_
  match a with
  | ⟨0, _⟩ => rfl
  | ⟨1, _⟩ =>
    show c.val = if C = 1 then 0 else c.val
    split
    · have := c.isLt; omega
    · rfl

/-- The zero scalar spread over a table reads zero everywhere. -/
theorem bcast_zero_apply {R C : Nat} (h0 : (⟨0, ![]⟩ : Shape).BroadcastsInDim (⟨2, ![R, C]⟩ : Shape) ![])
    (i : (⟨2, ![R, C]⟩ : Shape).Idx) :
    broadcastInDim (⟨2, ![R, C]⟩ : Shape) ![] h0 (constant (F := Ideal) (⟨0, ![]⟩ : Shape) .f32 0x00000000#32) i = (0 : EReal) := by
  refine (broadcastInDim_apply _ h0 _ i (fun a => a.elim0) fun a => a.elim0).trans ?_
  show Ideal.ofBits .f32 0x00000000#32 = 0
  exact Ideal.ofBits_zero_f32

/-- The reference's pooled classifier, as one function of the five arrays it reads. -/
def poolRef (hb0 : Cert.ReferenceIdeal.S_.BroadcastsInDim Cert.ReferenceIdeal.S512x64 ![])
    (hb1 : Cert.ReferenceIdeal.S512x1.BroadcastsInDim Cert.ReferenceIdeal.S512x64 ![0, 1])
    (hb2 : Cert.ReferenceIdeal.S1x10.BroadcastsInDim Cert.ReferenceIdeal.S512x10 ![0, 1])
    (idx : IVec Cert.ReferenceIdeal.S100000x1 32) (h : FVec Ideal Cert.ReferenceIdeal.S100000x64 .f32)
    (cnts : FVec Ideal Cert.ReferenceIdeal.S512x1 .f32) (wfc : FVec Ideal Cert.ReferenceIdeal.S64x10 .f32)
    (bias : FVec Ideal Cert.ReferenceIdeal.S1x10 .f32) : FVec Ideal Cert.ReferenceIdeal.S512x10 .f32 :=
  addf (Host.dotGeneral (F := Ideal) Cert.ReferenceIdeal.dot_S512x64_S64x10_S512x10_1_0_0_1_n_n none
      (Host.divf (F := Ideal)
        (Host.scatterAdd (F := Ideal) Cert.ReferenceIdeal.scatter_S512x64_S100000x1_S100000x64_1_0_0_1
          (broadcastInDim Cert.ReferenceIdeal.S512x64 ![] hb0 (constant (F := Ideal) Cert.ReferenceIdeal.S_ .f32 0x00000000#32)) idx h)
        (broadcastInDim Cert.ReferenceIdeal.S512x64 ![0, 1] hb1 cnts))
      wfc)
    (broadcastInDim Cert.ReferenceIdeal.S512x10 ![0, 1] hb2 bias)

/-- The reference's pooled classifier at (g, j). -/
theorem poolRef_at (hb0 : Cert.ReferenceIdeal.S_.BroadcastsInDim Cert.ReferenceIdeal.S512x64 ![])
    (hb1 : Cert.ReferenceIdeal.S512x1.BroadcastsInDim Cert.ReferenceIdeal.S512x64 ![0, 1])
    (hb2 : Cert.ReferenceIdeal.S1x10.BroadcastsInDim Cert.ReferenceIdeal.S512x10 ![0, 1])
    (idx : IVec Cert.ReferenceIdeal.S100000x1 32) (h : FVec Ideal Cert.ReferenceIdeal.S100000x64 .f32)
    (cnts : FVec Ideal Cert.ReferenceIdeal.S512x1 .f32) (wfc : FVec Ideal Cert.ReferenceIdeal.S64x10 .f32)
    (bias : FVec Ideal Cert.ReferenceIdeal.S1x10 .f32) (g : Fin 512) (j : Fin 10) :
    poolRef hb0 hb1 hb2 idx h cnts wfc bias (ix2 g j)
      = (∑ k : Fin 64, Ideal.div
            (0 + ∑ e ∈ Finset.univ.filter (fun e : Fin 100000 => (idx (ix2 e (0 : Fin 1))).toInt = (g.val : ℤ)), h (ix2 e k))
            (cnts (ix2 g (0 : Fin 1))) * wfc (ix2 k j))
        + bias (ix2 (0 : Fin 1) j) := by
  unfold poolRef
  show FloatOps.dotGeneral Cert.ReferenceIdeal.dot_S512x64_S64x10_S512x10_1_0_0_1_n_n none .single _ _ (ix2 g j)
      + broadcastInDim Cert.ReferenceIdeal.S512x10 ![0, 1] hb2 bias (ix2 g j) = _
  rw [Cert.LibDot.dotGeneral_at Cert.ReferenceIdeal.dot_S512x64_S64x10_S512x10_1_0_0_1_n_n rfl rfl rfl rfl rfl rfl none .single _ _ g j,
    bcast_downCols_apply hb2 bias g j]
  refine congrArg (fun x => x + bias (ix2 (0 : Fin 1) j)) ?_
  refine Finset.sum_congr rfl fun k _ => ?_
  refine congrArg (fun x => x * wfc (ix2 k j)) ?_
  show Ideal.div (Host.scatterAdd (F := Ideal) Cert.ReferenceIdeal.scatter_S512x64_S100000x1_S100000x64_1_0_0_1 _ idx h (ix2 g k))
      (broadcastInDim Cert.ReferenceIdeal.S512x64 ![0, 1] hb1 cnts (ix2 g k)) = _
  rw [Cert.LibRowRead.bcast_alongRows_apply hb1 cnts g k,
    Cert.LibScatter.scatterAdd_rows_read Cert.ReferenceIdeal.scatter_S512x64_S100000x1_S100000x64_1_0_0_1 rfl rfl rfl rfl _ idx h g k,
    bcast_zero_apply]

end Cert.KernelIdeal.HandVal

end
-- ==== Proof.Val.PoolVal.lean ====
/-
  The pooling call's output array after the call, over the extended reals: the reference's pooled classifier
  (segment sum of the node rows by graph, over the counts, through the final layer) of the arrays the call finds.
  The accumulator after the last of the twenty points is the segment sum, block by block; the last point's block is
  the whole output array.
-/
import proofs.«422502_j47175920779584_2_alg».proof.Proof.KI.Pool6
import proofs.«422502_j47175920779584_2_alg».proof.Proof.Val.PoolPay
import proofs.«422502_j47175920779584_2_alg».proof.Proof.Val.PoolRef

noncomputable section

open scoped BigOperators

namespace Cert.KernelIdeal.HandVal

open Cert.KernelIdeal Cert.KernelIdeal.Gen Cert.KernelIdeal.Hand Idealize.ShloMosaic Idealize.ShloMosaic.ValueIdx
open Idealize.ShloMosaic.TcCoe

/-! ## All rows, cut into equal blocks, with the row of a block written out -/

/-- A sum over T = N·M rows is the sum over the N blocks of the sums over each block's M rows; row m of block t is
    row M·t + m. -/
theorem sum_rows_cut (N M T : Nat) (hT : N * M = T) (f : Fin T → EReal) :
    (∑ e : Fin T, f e) = ∑ t : Fin N, ∑ m : Fin M, f ⟨M * t.val + m.val, by
      subst hT
      calc M * t.val + m.val < M * t.val + M := Nat.add_lt_add_left m.isLt _
        _ = M * (t.val + 1) := (Nat.mul_succ _ _).symm
        _ ≤ M * N := Nat.mul_le_mul_left _ t.isLt
        _ = N * M := Nat.mul_comm _ _⟩ := by
  subst hT
  rw [sum_rows_blocks N M f]
  refine Finset.sum_congr rfl fun t _ => Finset.sum_congr rfl fun m _ => congrArg f (Fin.ext ?_)
  show m.val + M * t.val = M * t.val + m.val
  exact Nat.add_comm _ _

variable [Cert.ReferenceIdeal.Facts₀]
variable (V : (c : Dev nD) → (b : Ref sig .tc) → Buf (Elt Ideal) ((c : Thread nD τ).loc b))

/-! ## The grid: twenty points, block index t for the two streamed windows, block index zero for the others -/

theorem pool_N : cfg6.N = 20 := N_6

theorem pool_idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Row n of block t is row 5000·t + n of the node arrays. -/
def rowOf (t : Fin cfg6.N) (n : Fin 5000) : Fin 100000 :=
  ⟨5000 * t.val + n.val, by have := t.isLt; have h : cfg6.N = 20 := N_6; have := n.isLt; omega⟩

/-- The graph-id column and the node-feature table the call finds, at their vector types. -/
abbrev aIds (c : Dev nD) : IVec S100000x1 32 := V c main_v32
abbrev aFeat (c : Dev nD) : FVec Ideal S100000x64 .f32 := V c main_v84

/-! ## The blocks, read off the arrays -/

theorem blk0_at (c : Dev nD) (t : Fin cfg6.N) (n : Fin 5000) (k : Fin 64) :
    (pool6Blk V c 0 t : Vec Ideal S5000x64 .f32) (ix2 n k) = aFeat V c (ix2 (rowOf t n) k) := by
  obtain ⟨e0, e1, -⟩ := pool_idx t
  show V c main_v84 (((cfg6.win 0).blk t).view.emb (ix2 n k)) = V c main_v84 (ix2 (rowOf t n) k)
  refine congrArg (V c main_v84) (funext fun a => Fin.ext ?_)
  match a with
  | ⟨0, _⟩ => show win6_0.index t (0 : Fin 2) * 5000 + 1 * n.val = 5000 * t.val + n.val; omega
  | ⟨1, _⟩ => show win6_0.index t (1 : Fin 2) * 64 + 1 * k.val = k.val; omega

theorem blk1_at (c : Dev nD) (t : Fin cfg6.N) (n : Fin 5000) (z : Fin 1) :
    (pool6Blk V c 1 t : Vec Ideal S5000x1 .i32) (ix2 n z) = aIds V c (ix2 (rowOf t n) z) := by
  obtain ⟨-, -, e0, e1, -⟩ := pool_idx t
  show V c main_v32 (((cfg6.win 1).blk t).view.emb (ix2 n z)) = V c main_v32 (ix2 (rowOf t n) z)
  refine congrArg (V c main_v32) (funext fun a => Fin.ext ?_)
  match a with
  | ⟨0, _⟩ => show win6_1.index t (0 : Fin 2) * 5000 + 1 * n.val = 5000 * t.val + n.val; omega
  | ⟨1, _⟩ => show win6_1.index t (1 : Fin 2) * 1 + 1 * z.val = z.val; omega

theorem blk2_at (c : Dev nD) (t : Fin cfg6.N) (g : Fin 512) (z : Fin 1) :
    (pool6Blk V c 2 t : Vec Ideal S512x1 .f32) (ix2 g z) = (V c main_v39 : Vec Ideal S512x1 .f32) (ix2 g z) := by
  obtain ⟨-, -, -, -, e0, e1, -⟩ := pool_idx t
  show V c main_v39 (((cfg6.win 2).blk t).view.emb (ix2 g z)) = V c main_v39 (ix2 g z)
  refine congrArg (V c main_v39) (funext fun a => Fin.ext ?_)
  match a with
  | ⟨0, _⟩ => show win6_2.index t (0 : Fin 2) * 512 + 1 * g.val = g.val; omega
  | ⟨1, _⟩ => show win6_2.index t (1 : Fin 2) * 1 + 1 * z.val = z.val; omega

theorem blk3_at (c : Dev nD) (t : Fin cfg6.N) (k : Fin 64) (q : Fin 10) :
    (pool6Blk V c 3 t : Vec Ideal S64x10 .f32) (ix2 k q) = (V c main_arg9 : Vec Ideal S64x10 .f32) (ix2 k q) := by
  obtain ⟨-, -, -, -, -, -, e0, e1, -⟩ := pool_idx t
  show V c main_arg9 (((cfg6.win 3).blk t).view.emb (ix2 k q)) = V c main_arg9 (ix2 k q)
  refine congrArg (V c main_arg9) (funext fun a => Fin.ext ?_)
  match a with
  | ⟨0, _⟩ => show win6_3.index t (0 : Fin 2) * 64 + 1 * k.val = k.val; omega
  | ⟨1, _⟩ => show win6_3.index t (1 : Fin 2) * 10 + 1 * q.val = q.val; omega

theorem blk4_at (c : Dev nD) (t : Fin cfg6.N) (z : Fin 1) (q : Fin 10) :
    (pool6Blk V c 4 t : Vec Ideal S1x10 .f32) (ix2 z q) = (V c main_v31 : Vec Ideal S1x10 .f32) (ix2 z q) := by
  obtain ⟨-, -, -, -, -, -, -, -, e0, e1, -⟩ := pool_idx t
  show V c main_v31 (((cfg6.win 4).blk t).view.emb (ix2 z q)) = V c main_v31 (ix2 z q)
  refine congrArg (V c main_v31) (funext fun a => Fin.ext ?_)
  match a with
  | ⟨0, _⟩ => show win6_4.index t (0 : Fin 2) * 1 + 1 * z.val = z.val; omega
  | ⟨1, _⟩ => show win6_4.index t (1 : Fin 2) * 10 + 1 * q.val = q.val; omega

/-! ## The accumulator after the last point: the segment sum -/

/-- The rows of block t that belong to group g, at column k. -/
def blockTerm (c : Dev nD) (g : Fin 512) (k : Fin 64) (t : Fin cfg6.N) : EReal :=
  ∑ n : Fin 5000, if (aIds V c (ix2 (rowOf t n) (0 : Fin 1))).toInt = (g.val : ℤ)
    then aFeat V c (ix2 (rowOf t n) k) else 0

/-- After the last point the accumulator's entry (g, k) is the sum of the twenty blocks' terms. -/
theorem poolAcc_at (c : Dev nD) (g : Fin 512) (k : Fin 64) (n : Nat) (h : n < cfg6.N) (hlast : n + 1 = cfg6.N) :
    (poolAcc (F := Ideal) V c n h) (ix2 g k) = ∑ t : Fin cfg6.N, blockTerm V c g k t := by
  refine fold_blocks_last (fun n h => (poolAcc (F := Ideal) V c n h) (ix2 g k)) (blockTerm V c g k) ?_ ?_ n h hlast
  · intro h0
    show (poolAcc (F := Ideal) V c 0 h0) (ix2 g k) = 0 + blockTerm V c g k ⟨0, h0⟩
    rw [poolAcc_zero]
    refine (pay2_at _ _ _ g k).trans ?_
    rw [pay1_at]
    refine congrArg (fun x => (0 : EReal) + x) (Finset.sum_congr rfl fun m _ => ?_)
    rw [blk1_at, blk0_at]
  · intro n h
    show (poolAcc (F := Ideal) V c (n + 1) h) (ix2 g k)
        = (poolAcc (F := Ideal) V c n (Nat.lt_of_succ_lt h)) (ix2 g k) + blockTerm V c g k ⟨n + 1, h⟩
    rw [poolAcc_succ]
    refine (pay2_at _ _ _ g k).trans ?_
    refine congrArg (fun x => (poolAcc (F := Ideal) V c n (Nat.lt_of_succ_lt h)) (ix2 g k) + x)
      (Finset.sum_congr rfl fun m _ => ?_)
    rw [blk1_at, blk0_at]

/-- The twenty blocks' terms add up to the sum over all rows of group g. -/
theorem sum_blockTerm (c : Dev nD) (g : Fin 512) (k : Fin 64) :
    (∑ t : Fin cfg6.N, blockTerm V c g k t)
      = ∑ e ∈ Finset.univ.filter (fun e : Fin 100000 => (aIds V c (ix2 e (0 : Fin 1))).toInt = (g.val : ℤ)),
          aFeat V c (ix2 e k) := by
  rw [Finset.sum_filter, sum_rows_cut cfg6.N 5000 100000 (by rw [pool_N])]
  rfl

/-! ## What the last point stores, and the array after the call -/

variable (hb0 : Cert.ReferenceIdeal.S_.BroadcastsInDim Cert.ReferenceIdeal.S512x64 ![])
  (hb1 : Cert.ReferenceIdeal.S512x1.BroadcastsInDim Cert.ReferenceIdeal.S512x64 ![0, 1])
  (hb2 : Cert.ReferenceIdeal.S1x10.BroadcastsInDim Cert.ReferenceIdeal.S512x10 ![0, 1])

/-- The last point's output block is the reference's pooled classifier of the arrays the call finds. -/
theorem pool6Out_at (c : Dev nD) (t : Fin cfg6.N) (hlast : t.val + 1 = cfg6.N) (g : Fin 512) (q : Fin 10) :
    (pool6Out (F := Ideal) V c t) (ix2 g q)
      = poolRef hb0 hb1 hb2 (V c main_v32) (V c main_v84) (V c main_v39) (V c main_arg9) (V c main_v31) (ix2 g q) := by
  unfold pool6Out
  refine (pay3_at _ _ _ _ g q).trans ?_
  rw [poolRef_at, blk4_at]
  refine congrArg (fun x => x + (V c main_v31 : Vec Ideal S1x10 .f32) (ix2 (0 : Fin 1) q)) ?_
  refine Finset.sum_congr rfl fun k _ => ?_
  rw [poolAcc_at V c g k t.val t.isLt hlast, sum_blockTerm, blk2_at, blk3_at, zero_add]

/-- What the one flushing point writes back is its block of the reference's pooled classifier. -/
theorem flushed5_eq (c : Dev nD) (t : Fin cfg6.N) (hf : (cfg6.win 5).flush t = true) :
    (pool6Dat (F := Ideal) V c).flushed 5 t
      = ((cfg6.win 5).blk t).view.read (Elt Ideal)
          (poolRef hb0 hb1 hb2 (V c main_v32) (V c main_v84) (V c main_v39) (V c main_arg9) (V c main_v31)) := by
  have ht : t.val % 20 = 19 := (flush6_5 t).1 hf
  have hlast : t.val + 1 = cfg6.N := by have := t.isLt; have h : cfg6.N = 20 := N_6; omega
  obtain ⟨-, -, -, -, -, -, -, -, -, -, e0, e1⟩ := pool_idx t
  show (cfg6.win 5).cut (grid6.coords t) ((pool6Dat (F := Ideal) V c).after 5 t) = _
  rw [pool6Dat_after5]
  funext j
  obtain ⟨g, q, rfl⟩ : ∃ (g : Fin 512) (q : Fin 10), j = ix2 g q := ⟨j 0, j 1, eq_ix2 j⟩
  show (pool6Out (F := Ideal) V c t) (ix2 g q)
      = poolRef hb0 hb1 hb2 (V c main_v32) (V c main_v84) (V c main_v39) (V c main_arg9) (V c main_v31)
          (((cfg6.win 5).blk t).view.emb (ix2 g q))
  have hemb : ((cfg6.win 5).blk t).view.emb (ix2 g q) = ix2 g q := by
    funext a; apply Fin.ext
    match a with
    | ⟨0, _⟩ => show win6_5.index t (0 : Fin 2) * 512 + 1 * g.val = g.val; omega
    | ⟨1, _⟩ => show win6_5.index t (1 : Fin 2) * 10 + 1 * q.val = q.val; omega
  rw [hemb]
  exact pool6Out_at V hb0 hb1 hb2 c t hlast g q

/-- An index of the output array is in point t's block iff each coordinate is in the block's range on its axis. -/
theorem mem_blk5 (t : Fin cfg6.N) (i : S512x10.Idx) :
    i ∈ ((cfg6.win 5).blk t).view.set
      ↔ ∀ a : Fin 2, win6_5.index t a * S512x10.size a ≤ (i a).val ∧ (i a).val < win6_5.index t a * S512x10.size a + S512x10.size a := by
  show i ∈ ((View.whole main_v85).slice (win6_5.rect t)).set ↔ _
  rw [View.set_slice_whole, Rect.mem_set_unit]
  exact Iff.rfl

/-- The last point's block is the whole output array. -/
theorem cover5 (i : S512x10.Idx) : ∃ t : Fin cfg6.N, (cfg6.win 5).flush t = true ∧ i ∈ ((cfg6.win 5).blk t).view.set := by
  have h19 : 19 < cfg6.N := by rw [pool_N]; decide
  refine ⟨⟨19, h19⟩, (flush6_5 _).2 rfl, ?_⟩
  obtain ⟨-, -, -, -, -, -, -, -, -, -, e0, e1⟩ := pool_idx ⟨19, h19⟩
  rw [mem_blk5]
  intro a
  match a with
  | ⟨0, _⟩ =>
    show win6_5.index ⟨19, h19⟩ (0 : Fin 2) * 512 ≤ (i 0).val ∧ (i 0).val < win6_5.index ⟨19, h19⟩ (0 : Fin 2) * 512 + 512
    have := (i 0).isLt
    have h : (i 0).val < 512 := this
    omega
  | ⟨1, _⟩ =>
    show win6_5.index ⟨19, h19⟩ (1 : Fin 2) * 10 ≤ (i 1).val ∧ (i 1).val < win6_5.index ⟨19, h19⟩ (1 : Fin 2) * 10 + 10
    have := (i 1).isLt
    have h : (i 1).val < 10 := this
    omega

/-- THE OUTPUT ARRAY after the pooling call: the reference's pooled classifier of the arrays the call finds. -/
theorem pool6_arr_ref (c : Dev nD) :
    (pool6Dat (F := Ideal) V c).arrAt 5 cfg6.N
      = poolRef hb0 hb1 hb2 (V c main_v32) (V c main_v84) (V c main_v39) (V c main_arg9) (V c main_v31) :=
  (pool6Dat (F := Ideal) V c).arrAt_eq_of_cover 5 _ (fun t hf => flushed5_eq V hb0 hb1 hb2 c t hf) cover5

/-- The same with the reference's host operations written out. -/
theorem pool6_arr (c : Dev nD) :
    (pool6Dat (F := Ideal) V c).arrAt 5 cfg6.N
      = (addf (Host.dotGeneral (F := Ideal) (φ₁ := .f32) (φ₂ := .f32) Cert.ReferenceIdeal.dot_S512x64_S64x10_S512x10_1_0_0_1_n_n none
            (Host.divf (F := Ideal) (φ := .f32)
              (Host.scatterAdd (F := Ideal) (φ := .f32) (w := 32) Cert.ReferenceIdeal.scatter_S512x64_S100000x1_S100000x64_1_0_0_1
                (broadcastInDim Cert.ReferenceIdeal.S512x64 ![] hb0 (constant (F := Ideal) Cert.ReferenceIdeal.S_ .f32 0x00000000#32))
                (V c main_v32) (V c main_v84))
              (broadcastInDim Cert.ReferenceIdeal.S512x64 ![0, 1] hb1 (V c main_v39)))
            (V c main_arg9))
          (broadcastInDim Cert.ReferenceIdeal.S512x10 ![0, 1] hb2 (V c main_v31)) : FVec Ideal S512x10 .f32) :=
  pool6_arr_ref V hb0 hb1 hb2 c

end Cert.KernelIdeal.HandVal

end
-- ==== Proof.Val.Bridge.lean ====
/-
  The kernel program's buffers, item by item, hold the reference's stages.

  Both programs compute, from the same arguments, three graph-convolution layers followed by a mean over
  the nodes of each graph and a dense classifier.  The quantities that depend on the edge list alone, and
  the three gather / scale / scatter-add aggregations, are the same host operations in both.  Where the
  reference multiplies by a weight matrix on the host this program runs a tiled matrix product; where the
  reference adds the self-loop term and the bias and clamps at zero this program runs a tiled pointwise
  kernel; where the reference sums the node features of each graph by a scatter-add, divides by the
  graph's size and applies the classifier, this program accumulates indicator-weighted sums tile by tile
  and finishes at the last tile.  Over the extended reals each of these pairs is one function, so the
  result buffer after the last item is the reference's last stage.
-/
import proofs.«422502_j47175920779584_2_alg».proof.Proof.KI.Chain
import proofs.«422502_j47175920779584_2_alg».proof.Proof.Val.Host0
import proofs.«422502_j47175920779584_2_alg».proof.Proof.Val.AggVal
import proofs.«422502_j47175920779584_2_alg».proof.Proof.Val.LinVal0
import proofs.«422502_j47175920779584_2_alg».proof.Proof.Val.LinVal2
import proofs.«422502_j47175920779584_2_alg».proof.Proof.Val.LinVal4
import proofs.«422502_j47175920779584_2_alg».proof.Proof.Val.CombVal1
import proofs.«422502_j47175920779584_2_alg».proof.Proof.Val.CombVal3
import proofs.«422502_j47175920779584_2_alg».proof.Proof.Val.CombVal5
import proofs.«422502_j47175920779584_2_alg».proof.Proof.Val.PoolVal
import proofs.«422502_j47175920779584_2_alg».proof.Proof.Gen.ReferenceIdeal.Read

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

/-! ## Layer 1 -/

/-- the first dense transform: the node features times the first weight matrix -/
theorem lin1_eq : U2 m c main_v40 = Cert.ReferenceIdeal.Read.val_main_v31 (F := Ideal) (m ((c.tc : Thread nD τ).loc main_arg0)) (m ((c.tc : Thread nD τ).loc main_arg3)) := by
  rw [U2_self, lin0_arr]
  try dsimp only
  rw [show U1 m c main_arg0 = (m ((c.tc : Thread nD τ).loc main_arg0)) from host0_arg0 m c, show U1 m c main_arg3 = (m ((c.tc : Thread nD τ).loc main_arg3)) from host0_arg3 m c]
  rfl

/-- the first aggregation over the edges -/
theorem agg1_eq : U3 m c main_v53 = Cert.ReferenceIdeal.Read.val_main_v44 (F := Ideal) (m ((c.tc : Thread nD τ).loc main_arg0)) (m ((c.tc : Thread nD τ).loc main_arg1)) (m ((c.tc : Thread nD τ).loc main_arg3)) :=
  agg1_of (U2 m c) _ _ _ (lin1_eq m c)
    ((keep2 m c main_v1 (by decide)).trans (host0_src m c))
    ((keep2 m c main_v3 (by decide)).trans (host0_dst m c))
    ((keep2 m c main_v25 (by decide)).trans (host0_edgeNorm m c))

/-- the first layer's output: aggregation plus self-loop term plus bias, clamped at zero -/
theorem h1_eq : U4 m c main_v54 = Cert.ReferenceIdeal.Read.val_main_v52 (F := Ideal) (m ((c.tc : Thread nD τ).loc main_arg0)) (m ((c.tc : Thread nD τ).loc main_arg1)) (m ((c.tc : Thread nD τ).loc main_arg3)) (m ((c.tc : Thread nD τ).loc main_arg4)) := by
  rw [U4_self, comb1_arr]
  try dsimp only
  rw [agg1_eq m c,
    show U3 m c main_v40 = _ from (U3_of m c main_v40 (by decide)).trans (lin1_eq m c),
    show U3 m c main_v27 = _ from (keep3 m c main_v27 (by decide)).trans (host0_selfNormCol m c),
    show U3 m c main_v28 = _ from (keep3 m c main_v28 (by decide)).trans (host0_biasRow1 m c)]
  rfl

/-! ## Layer 2 -/

theorem lin2_eq : U5 m c main_v55 = Cert.ReferenceIdeal.Read.val_main_v53 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  rw [U5_self, lin2_arr]
  try dsimp only
  rw [h1_eq m c, show U4 m c main_arg5 = (m ((c.tc : Thread nD τ).loc main_arg5)) from (keep4 m c main_arg5 (by decide)).trans (host0_arg5 m c)]
  rfl

theorem agg2_eq : U6 m c main_v68 = Cert.ReferenceIdeal.Read.val_main_v66 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  agg2_of (U5 m c) _ _ _ _ _ (lin2_eq m c)
    ((keep5 m c main_v1 (by decide)).trans (host0_src m c))
    ((keep5 m c main_v3 (by decide)).trans (host0_dst m c))
    ((keep5 m c main_v25 (by decide)).trans (host0_edgeNorm m c))

theorem h2_eq : U7 m c main_v69 = Cert.ReferenceIdeal.Read.val_main_v74 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [U7_self, comb3_arr]
  try dsimp only
  rw [agg2_eq m c,
    show U6 m c main_v55 = _ from (U6_of m c main_v55 (by decide)).trans (lin2_eq m c),
    show U6 m c main_v27 = _ from (keep6 m c main_v27 (by decide)).trans (host0_selfNormCol m c),
    show U6 m c main_v29 = _ from (keep6 m c main_v29 (by decide)).trans (host0_biasRow2 m c)]
  rfl

/-! ## Layer 3 -/

theorem lin3_eq : U8 m c main_v70 = Cert.ReferenceIdeal.Read.val_main_v75 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [U8_self, lin4_arr]
  try dsimp only
  rw [h2_eq m c, show U7 m c main_arg7 = (m ((c.tc : Thread nD τ).loc main_arg7)) from (keep7 m c main_arg7 (by decide)).trans (host0_arg7 m c)]
  rfl

theorem agg3_eq : U9 m c main_v83 = Cert.ReferenceIdeal.Read.val_main_v88 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  agg3_of (U8 m c) _ _ _ _ _ _ _ (lin3_eq m c)
    ((keep8 m c main_v1 (by decide)).trans (host0_src m c))
    ((keep8 m c main_v3 (by decide)).trans (host0_dst m c))
    ((keep8 m c main_v25 (by decide)).trans (host0_edgeNorm m c))

theorem h3_eq : U10 m c main_v84 = Cert.ReferenceIdeal.Read.val_main_v95 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [U10_self, comb5_arr]
  try dsimp only
  rw [agg3_eq m c,
    show U9 m c main_v70 = _ from (U9_of m c main_v70 (by decide)).trans (lin3_eq m c),
    show U9 m c main_v27 = _ from (keep9 m c main_v27 (by decide)).trans (host0_selfNormCol m c),
    show U9 m c main_v30 = _ from (keep9 m c main_v30 (by decide)).trans (host0_biasRow3 m c)]
  rfl

/-! ## The mean over each graph and the classifier -/

set_option maxHeartbeats 8000000 in
/-- the result buffer after the last item is the reference's last stage -/
theorem result_eq : U11 m c main_v85 = Cert.ReferenceIdeal.Read.val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [U11_self, pool6_arr _ Cert.ReferenceIdeal.Gen.bcast_S_S512x64 Cert.ReferenceIdeal.Gen.bcast_S512x1_S512x64_0_1 Cert.ReferenceIdeal.Gen.bcast_S1x10_S512x10_0_1]
  try dsimp only
  rw [h3_eq m c,
    show U10 m c main_v32 = _ from (keep10 m c main_v32 (by decide)).trans (host0_batchCol m c),
    show U10 m c main_v39 = _ from (keep10 m c main_v39 (by decide)).trans (host0_countCol m c),
    show U10 m c main_arg9 = (m ((c.tc : Thread nD τ).loc main_arg9)) from (keep10 m c main_arg9 (by decide)).trans (host0_arg9 m c),
    show U10 m c main_v31 = _ from (keep10 m c main_v31 (by decide)).trans (host0_fcBiasRow m c)]
  rfl

end Cert.KernelIdeal.HandVal

end
-- ==== Proof.lean ====
/-
  The certificate of a three-layer graph convolution with a mean over each graph and a dense classifier.

  The kernel program alternates host stretches (degree normalisation, and per layer a gather / scale /
  scatter-add aggregation over the edges) with seven tiled kernels: per layer a matrix product with the
  layer's weight and a pointwise combination (aggregation + self-loop term + bias, clamped at zero except in
  the last layer), and at the end an accumulation of each graph's node features through an indicator
  matrix, divided by the graph's size and passed through the classifier.  The reference computes the same
  quantities with host operations only.

  Frames: each program runs to its end without a fault and leaves its arguments unchanged — for the two
  kernel programs through the run of the seven regions (each region's body obligation, the buffers'
  contents named between the items), for the reference through the run of its host operations.
  The idealization rewrote nothing, so it preserves the program as it stands.
  Value: over the extended reals the result buffer of the idealized kernel program is, item by item, the
  reference's stage (a product of matrices is the same sum whatever the tiling; the pointwise combination is
  the same expression entry by entry; the indicator-weighted sum over all tiles is the scatter-add over the
  batch ids, since one times an entry is the entry, zero times an entry is zero, and the sum over the nodes
  may be taken tile by tile), hence the two results are equal.
-/
import proofs.«422502_j47175920779584_2_alg».proof.Defs
import proofs.«422502_j47175920779584_2_alg».proof.Proof.Gen.Kernel
import proofs.«422502_j47175920779584_2_alg».proof.Proof.Gen.KernelIdeal
import proofs.«422502_j47175920779584_2_alg».proof.Proof.Gen.ReferenceIdeal
import proofs.«422502_j47175920779584_2_alg».proof.Proof.Gen.Pre_finite_inputs
import proofs.«422502_j47175920779584_2_alg».proof.Proof.Gen.ReferenceIdeal.Run
import proofs.«422502_j47175920779584_2_alg».proof.Proof.Gen.ReferenceIdeal.Read
import proofs.«422502_j47175920779584_2_alg».proof.Proof.KB.Run
import proofs.«422502_j47175920779584_2_alg».proof.Proof.KI.Run
import proofs.«422502_j47175920779584_2_alg».proof.Proof.Val.Bridge
import Idealize.ShloMosaic.Adequacy
import Idealize.ShloMosaic.Init

noncomputable section

namespace Cert.Proof

open Idealize.ShloMosaic Idealize.ShloMosaic.TcCoe Idealize.SL.Sem

/-- the word-level kernel program runs to its end, faults nowhere and leaves its arguments unchanged -/
theorem frame_kernel : Cert.frame_Kernel := fun m ρ _ => Cert.Kernel.Hand.frame (F := Bits) m ρ

/-- the same for the kernel program read over the extended reals -/
theorem frame_kernelIdeal : Cert.frame_KernelIdeal := fun m ρ _ => Cert.KernelIdeal.Hand.frame (F := Ideal) m ρ

/-- the reference is a line of host operations: its run, with the result dropped -/
theorem frame_referenceIdeal : Cert.frame_ReferenceIdeal := fun m ρ _ =>
  (θ_run Cert.ReferenceIdeal.defs _ _).mono (fun _ h c => (h c).2) (Cert.ReferenceIdeal.Value.run (F := Ideal) m ρ)

/-- the idealization rewrote no operation -/
theorem preserves : Cert.preserves_Kernel_KernelIdeal := trivial

/-- run from memories that agree on the arguments, the two idealized programs end with the same result -/
theorem algebraic : Cert.algebraic_KernelIdeal_ReferenceIdeal := by
  intro m ρ m' ρ' _ hagree
  refine ⟨fun c => Cert.KernelIdeal.Hand.U11 m c Cert.KernelIdeal.main_v85, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v111_eq, e0, e1, e2, e3, e4, e5, e6, e7, e8, e9, e10]
  exact (Cert.KernelIdeal.HandVal.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
